-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S384x128 : Shape := ⟨2, ![384, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x1 .f32) (main_arg12 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S3x128 .f32) (main_arg7 : FVec F S384x128 .f32) (main_arg8 : FVec F S128 .f32) (main_arg9 : FVec F S128x128 .f32) (main_arg10 : FVec F S128 .f32) (main_arg11 : FVec F S128x1 .f32) (main_arg12 : FVec F S1 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S384x128 .f32 := Host.absf main_arg7
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S3x128x128 .f32) (main_arg4 : FVec F S3x128 .f32) (main_arg5 : FVec F S3x128x128 .f32) (main_arg6 : FVec F S3x128 .f32) (main_arg7 : FVec F S384x128 .f32) (main_arg8 : FVec F S128 .f32) (main_arg9 : FVec F S128x128 .f32) (main_arg10 : FVec F S128 .f32) (main_arg11 : FVec F S128x1 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S384x128 : Shape := ⟨2, ![384, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S100000x1 : Shape := ⟨2, ![100000, 1]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S512x128 : Shape := ⟨2, ![512, 128]⟩
abbrev S2000x128 : Shape := ⟨2, ![2000, 128]⟩
abbrev S2000x1 : Shape := ⟨2, ![2000, 1]⟩
abbrev S2000x512 : Shape := ⟨2, ![2000, 512]⟩
abbrev S512x384 : Shape := ⟨2, ![512, 384]⟩
abbrev S1x1 : Shape := ⟨2, ![1, 1]⟩
abbrev S512x1 : Shape := ⟨2, ![512, 1]⟩

abbrev nBuf : Space → Nat
  | .hbm => 98
  | .vmem => 47
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S3x128, .f32⟩
  | .hbm, ⟨7, _⟩ => ⟨S384x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S100000x1, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S1x128x128, .f32⟩
  | .hbm, ⟨32, _⟩ => ⟨S128x128, .f32⟩
  | .hbm, ⟨33, _⟩ => ⟨S1x128, .f32⟩
  | .hbm, ⟨34, _⟩ => ⟨S128, .f32⟩
  | .hbm, ⟨35, _⟩ => ⟨S1x128, .f32⟩
  | .hbm, ⟨36, _⟩ => ⟨S1x128x128, .f32⟩
  | .hbm, ⟨37, _⟩ => ⟨S128x128, .f32⟩
  | .hbm, ⟨38, _⟩ => ⟨S1x128, .f32⟩
  | .hbm, ⟨39, _⟩ => ⟨S128, .f32⟩
  | .hbm, ⟨40, _⟩ => ⟨S1x128, .f32⟩
  | .hbm, ⟨41, _⟩ => ⟨S100000x128, .f32⟩
  | .hbm, ⟨42, _⟩ => ⟨S512x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S1x128x128, .f32⟩
  | .hbm, ⟨57, _⟩ => ⟨S128x128, .f32⟩
  | .hbm, ⟨58, _⟩ => ⟨S1x128, .f32⟩
  | .hbm, ⟨59, _⟩ => ⟨S128, .f32⟩
  | .hbm, ⟨60, _⟩ => ⟨S1x128, .f32⟩
  | .hbm, ⟨61, _⟩ => ⟨S1x128x128, .f32⟩
  | .hbm, ⟨62, _⟩ => ⟨S128x128, .f32⟩
  | .hbm, ⟨63, _⟩ => ⟨S1x128, .f32⟩
  | .hbm, ⟨64, _⟩ => ⟨S128, .f32⟩
  | .hbm, ⟨65, _⟩ => ⟨S1x128, .f32⟩
  | .hbm, ⟨66, _⟩ => ⟨S100000x128, .f32⟩
  | .hbm, ⟨67, _⟩ => ⟨S512x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S1x128x128, .f32⟩
  | .hbm, ⟨82, _⟩ => ⟨S128x128, .f32⟩
  | .hbm, ⟨83, _⟩ => ⟨S1x128, .f32⟩
  | .hbm, ⟨84, _⟩ => ⟨S128, .f32⟩
  | .hbm, ⟨85, _⟩ => ⟨S1x128, .f32⟩
  | .hbm, ⟨86, _⟩ => ⟨S1x128x128, .f32⟩
  | .hbm, ⟨87, _⟩ => ⟨S128x128, .f32⟩
  | .hbm, ⟨88, _⟩ => ⟨S1x128, .f32⟩
  | .hbm, ⟨89, _⟩ => ⟨S128, .f32⟩
  | .hbm, ⟨90, _⟩ => ⟨S1x128, .f32⟩
  | .hbm, ⟨91, _⟩ => ⟨S100000x128, .f32⟩
  | .hbm, ⟨92, _⟩ => ⟨S512x128, .f32⟩
  | .hbm, ⟨93, _⟩ => ⟨S512x384, .f32⟩
  | .hbm, ⟨94, _⟩ => ⟨S1x128, .f32⟩
  | .hbm, ⟨95, _⟩ => ⟨S1x128, .f32⟩
  | .hbm, ⟨96, _⟩ => ⟨S1x1, .f32⟩
  | .hbm, ⟨97, _⟩ => ⟨S512x1, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .i32⟩
  | .local _ .vmem, ⟨5, _⟩ => ⟨S2000x1, .i32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S512x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x1, .i32⟩
  | .local _ .vmem, ⟨18, _⟩ => ⟨S2000x1, .i32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S2000x128, .f32⟩
  | .local _ .vmem, ⟨24, _⟩ => ⟨S2000x128, .f32⟩
  | .local _ .vmem, ⟨25, _⟩ => ⟨S512x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x1, .i32⟩
  | .local _ .vmem, ⟨31, _⟩ => ⟨S2000x1, .i32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S512x128, .f32⟩
  | .local _ .vmem, ⟨39, _⟩ => ⟨S512x384, .f32⟩
  | .local _ .vmem, ⟨40, _⟩ => ⟨S384x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S128x1, .f32⟩
  | .local _ .vmem, ⟨45, _⟩ => ⟨S1x1, .f32⟩
  | .local _ .vmem, ⟨46, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev main_c_1 : Ref sig .tc := ⟨.hbm, 43, rfl⟩
abbrev main_v26 : Ref sig .tc := ⟨.hbm, 44, rfl⟩
abbrev main_v27 : Ref sig .tc := ⟨.hbm, 45, rfl⟩
abbrev main_c_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46_0 : Ref sig .tc := ⟨.hbm, 66, rfl⟩
abbrev main_v46_1 : Ref sig .tc := ⟨.hbm, 67, rfl⟩
abbrev main_c_4 : Ref sig .tc := ⟨.hbm, 68, rfl⟩
abbrev main_v47 : Ref sig .tc := ⟨.hbm, 69, rfl⟩
abbrev main_v48 : Ref sig .tc := ⟨.hbm, 70, rfl⟩
abbrev main_c_5 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_6 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67_0 : Ref sig .tc := ⟨.hbm, 91, rfl⟩
abbrev main_v67_1 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg7_1 : Ref sig .tc := ⟨.vmem, 37, rfl⟩
abbrev cc2_stg8_0 : Ref sig .tc := ⟨.vmem, 38, rfl⟩
abbrev cc3_stg0_0 : Ref sig .tc := ⟨.vmem, 39, rfl⟩
abbrev cc3_stg1_0 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24
abbrev cc1_sem8_0 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem7_1 : DmaSem sig := 37
abbrev cc2_sem8_0 : DmaSem sig := 38
abbrev cc3_sem0_0 : DmaSem sig := 39
abbrev cc3_sem1_0 : DmaSem sig := 40
abbrev cc3_sem2_0 : DmaSem sig := 41
abbrev cc3_sem3_0 : DmaSem sig := 42
abbrev cc3_sem4_0 : DmaSem sig := 43
abbrev cc3_sem5_0 : DmaSem sig := 44
abbrev cc3_sem6_0 : DmaSem sig := 45
abbrev cc3_sem7_0 : DmaSem sig := 46

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S512x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S512x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x384 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S384x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S512x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  shapeCasts_S512x128_S512x128 : S512x128.ShapeCasts S512x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S512x128_S512x128_S512x128_S512x384_d1 : Shape.Concatenates [S512x128, S512x128, S512x128] S512x384 1
  shapeCasts_S1_S1x1 : S1.ShapeCasts S1x1
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S384x128_S384x128_0_0 : ∀ a, (![0, 0] : Fin 2 → Nat) a + S384x128.size a ≤ S384x128.size a
  h_S384x128 : 0 < S384x128.numel
  broadcasts_S1x128_S512x128 : S1x128.Broadcasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x512_S2000x128_S512x128_0_0_1_1_n_n_wf : DotDims.WF S2000x512 S2000x128 S512x128 [0] [0] [1] [1] [] []
  dot_S512x384_S384x128_S512x128_1_0_0_1_n_n_wf : DotDims.WF S512x384 S384x128 S512x128 [1] [0] [0] [1] [] []
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .i32 = 32 ∨ (Rect.block (s := S100000x1) S2000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x128.size a ≤ S512x128.size a
  hwx0_8 : ∀ i : grid0.Coords, EltTy.bits .f32 = 32 ∨ (Rect.block (s := S512x128) S512x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .i32 = 32 ∨ (Rect.block (s := S100000x1) S2000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S100000x128.size a
  hwx1_7 : ∀ i : grid1.Coords, EltTy.bits .f32 = 32 ∨ (Rect.block (s := S100000x128) S2000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512x128.size a ≤ S512x128.size a
  hwx1_8 : ∀ i : grid1.Coords, EltTy.bits .f32 = 32 ∨ (Rect.block (s := S512x128) S512x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .i32 = 32 ∨ (Rect.block (s := S100000x1) S2000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S100000x128.size a
  hwx2_7 : ∀ i : grid2.Coords, EltTy.bits .f32 = 32 ∨ (Rect.block (s := S100000x128) S2000x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S512x128.size a ≤ S512x128.size a
  hwx2_8 : ∀ i : grid2.Coords, EltTy.bits .f32 = 32 ∨ (Rect.block (s := S512x128) S512x128.size (cc2_transform_8 i) (hinb2_8 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x384.size a ≤ S512x384.size a
  hwx3_0 : ∀ i : grid3.Coords, EltTy.bits .f32 = 32 ∨ (Rect.block (s := S512x384) S512x384.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S384x128.size a ≤ S384x128.size a
  hwx3_1 : ∀ i : grid3.Coords, EltTy.bits .f32 = 32 ∨ (Rect.block (s := S384x128) S384x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .f32 = 32 ∨ (Rect.block (s := S128x1) S128x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S512x1.size a ≤ S512x1.size a
  hwx3_7 : ∀ i : grid3.Coords, EltTy.bits .f32 = 32 ∨ (Rect.block (s := S512x1) S512x1.size (cc3_transform_7 i) (hinb3_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S512x384_S384x128_S512x128_1_0_0_1_n_n : DotDims S512x384 S384x128 S512x128 where
  lhsContracting := [1]
  rhsContracting := [0]
  lhsNonContracting := [0]
  rhsNonContracting := [1]
  lhsBatch := []
  rhsBatch := []
  wf := dot_S512x384_S384x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25_0) S2000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v25_1) S512x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v25_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46_0) S2000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v46_1) S512x128.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v46_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v58) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v67_0) S2000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v67_1) S512x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v68) S512x384.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S384x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg11) S128x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v71) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v72) S512x1.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S384x128 : Shape := ⟨2, ![384, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S512x128 : Shape := ⟨2, ![512, 128]⟩
abbrev S100000x1 : Shape := ⟨2, ![100000, 1]⟩
abbrev S512x384 : Shape := ⟨2, ![512, 384]⟩
abbrev S512x1 : Shape := ⟨2, ![512, 1]⟩
abbrev S1x1 : Shape := ⟨2, ![1, 1]⟩

abbrev nBuf : Space → Nat
  | .hbm => 156
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128x128, .f32⟩
  | 6 => ⟨S3x128, .f32⟩
  | 7 => ⟨S384x128, .f32⟩
  | 8 => ⟨S128, .f32⟩
  | 9 => ⟨S128x128, .f32⟩
  | 10 => ⟨S128, .f32⟩
  | 11 => ⟨S128x1, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S100000x128, .f32⟩
  | 31 => ⟨S1x128x128, .f32⟩
  | 32 => ⟨S128x128, .f32⟩
  | 33 => ⟨S100000x128, .f32⟩
  | 34 => ⟨S1x128, .f32⟩
  | 35 => ⟨S128, .f32⟩
  | 36 => ⟨S1x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S1x128x128, .f32⟩
  | 43 => ⟨S128x128, .f32⟩
  | 44 => ⟨S100000x128, .f32⟩
  | 45 => ⟨S1x128, .f32⟩
  | 46 => ⟨S128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S_, .f32⟩
  | 54 => ⟨S512x128, .f32⟩
  | 55 => ⟨S100000x1, .i32⟩
  | 56 => ⟨S512x128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S100000x128, .f32⟩
  | 71 => ⟨S1x128x128, .f32⟩
  | 72 => ⟨S128x128, .f32⟩
  | 73 => ⟨S100000x128, .f32⟩
  | 74 => ⟨S1x128, .f32⟩
  | 75 => ⟨S128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S1x128x128, .f32⟩
  | 83 => ⟨S128x128, .f32⟩
  | 84 => ⟨S100000x128, .f32⟩
  | 85 => ⟨S1x128, .f32⟩
  | 86 => ⟨S128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S_, .f32⟩
  | 94 => ⟨S512x128, .f32⟩
  | 95 => ⟨S100000x1, .i32⟩
  | 96 => ⟨S512x128, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x128, .f32⟩
  | 106 => ⟨S_, .f32⟩
  | 107 => ⟨S100000x128, .f32⟩
  | 108 => ⟨S1600000x1, .i32⟩
  | 109 => ⟨S100000x128, .f32⟩
  | 110 => ⟨S100000x128, .f32⟩
  | 111 => ⟨S1x128x128, .f32⟩
  | 112 => ⟨S128x128, .f32⟩
  | 113 => ⟨S100000x128, .f32⟩
  | 114 => ⟨S1x128, .f32⟩
  | 115 => ⟨S128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S1x128x128, .f32⟩
  | 123 => ⟨S128x128, .f32⟩
  | 124 => ⟨S100000x128, .f32⟩
  | 125 => ⟨S1x128, .f32⟩
  | 126 => ⟨S128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S_, .f32⟩
  | 6 => ⟨S512x128, .f32⟩
  | 7 => ⟨S100000x1, .i32⟩
  | 8 => ⟨S512x128, .f32⟩
  | 9 => ⟨S512x384, .f32⟩
  | 10 => ⟨S512x128, .f32⟩
  | 11 => ⟨S1x128, .f32⟩
  | 12 => ⟨S512x128, .f32⟩
  | 13 => ⟨S512x128, .f32⟩
  | 14 => ⟨S_, .f32⟩
  | 15 => ⟨S512x128, .f32⟩
  | 16 => ⟨S512x128, .f32⟩
  | 17 => ⟨S512x128, .f32⟩
  | 18 => ⟨S1x128, .f32⟩
  | 19 => ⟨S512x128, .f32⟩
  | 20 => ⟨S512x128, .f32⟩
  | 21 => ⟨S_, .f32⟩
  | 22 => ⟨S512x128, .f32⟩
  | 23 => ⟨S512x128, .f32⟩
  | 24 => ⟨S512x1, .f32⟩
  | 25 => ⟨S1x1, .f32⟩
  | 26 => ⟨S512x1, .f32⟩
  | 27 => ⟨S512x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_cst : Ref sig .tc := ⟨.hbm, 39, rfl⟩
abbrev main_call0_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call1_cst : Ref sig .tc := ⟨.hbm, 50, rfl⟩
abbrev main_call1_v0 : Ref sig .tc := ⟨.hbm, 51, rfl⟩
abbrev main_v32 : Ref sig .tc := ⟨.hbm, 52, rfl⟩
abbrev main_cst_1 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_2 : Ref sig .tc := ⟨.hbm, 57, rfl⟩
abbrev main_v36 : Ref sig .tc := ⟨.hbm, 58, rfl⟩
abbrev main_v37 : Ref sig .tc := ⟨.hbm, 59, rfl⟩
abbrev main_c_3 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_4 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call2_cst : Ref sig .tc := ⟨.hbm, 79, rfl⟩
abbrev main_call2_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call3_cst : Ref sig .tc := ⟨.hbm, 90, rfl⟩
abbrev main_call3_v0 : Ref sig .tc := ⟨.hbm, 91, rfl⟩
abbrev main_v64 : Ref sig .tc := ⟨.hbm, 92, rfl⟩
abbrev main_cst_5 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_6 : Ref sig .tc := ⟨.hbm, 97, rfl⟩
abbrev main_v68 : Ref sig .tc := ⟨.hbm, 98, rfl⟩
abbrev main_v69 : Ref sig .tc := ⟨.hbm, 99, rfl⟩
abbrev main_c_7 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_8 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_call4_cst : Ref sig .tc := ⟨.hbm, 119, rfl⟩
abbrev main_call4_v0 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_call5_cst : Ref sig .tc := ⟨.hbm, 130, rfl⟩
abbrev main_call5_v0 : Ref sig .tc := ⟨.hbm, 131, rfl⟩
abbrev main_v96 : Ref sig .tc := ⟨.hbm, 132, rfl⟩
abbrev main_cst_9 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_call6_cst : Ref sig .tc := ⟨.hbm, 142, rfl⟩
abbrev main_call6_v0 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_call7_cst : Ref sig .tc := ⟨.hbm, 149, rfl⟩
abbrev main_call7_v0 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S512x128_S512x128_S512x128_S512x384_d1 : Shape.Concatenates [S512x128, S512x128, S512x128] S512x384 1
  bcast_S1x128_S512x128_0_1 : S1x128.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  dot_S512x384_S384x128_S512x128_1_0_0_1_n_n_wf : DotDims.WF S512x384 S384x128 S512x128 [1] [0] [0] [1] [] []
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x384_S384x128_S512x128_1_0_0_1_n_n : DotDims S512x384 S384x128 S512x128 where
  lhsContracting := [1]
  rhsContracting := [0]
  lhsNonContracting := [0]
  rhsNonContracting := [1]
  lhsBatch := []
  rhsBatch := []
  wf := dot_S512x384_S384x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KB.L0Runs.lean ====
/-
  Layer region 0 (a node-update call): what its two control cases share.
  A block of a window at a grid point is the window's array read through that point's rectangle; an input
  window's staging buffer holds its block at every point, whether the pipeline fetched it there or kept it
  (the four weight and bias windows are fetched once, their block index never moves).
  The body branches on "first grid point": there it zeroes the pooled accumulator before adding.
-/
import proofs.«419285_j30786325577782_1_alg».proof.Proof.Gen.Kernel.Launch
import proofs.«419285_j30786325577782_1_alg».proof.Proof.Gen.Kernel.Skeleton
import proofs.«419285_j30786325577782_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.L0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: its array, as the region finds it, read through the point's rectangle. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in5 {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_in6 {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The body's one branch condition, from the grid coordinate: "this is grid point 0". -/
abbrev cond (i : grid0.Coords) : Prop := (Scalar.cmpi .ne (Scalar.extui (Scalar.cmpi .eq (BitVec.ofNat 32 (i 0).val) 0#32)) 0#32) = 1#1
/-- It holds at the first of the fifty points only. -/
theorem hcond : ∀ t : Fin cfg0.N, cond (grid0.coords t) ↔ t.val = 0 :=
  (by decide +kernel : ∀ t : Fin grid0.N, cond (grid0.coords t) ↔ t.val = 0)

/-- One staging buffer of each output window, through which its contents are stated. -/
abbrev VO7 : View sig .tc .vmem S2000x128 .f32 := (Memref.whole cc0_stg7_0 : Memref sig .tc .vmem S2000x128 .f32).view
abbrev VO8 : View sig .tc .vmem S512x128 .f32 := (Memref.whole cc0_stg8_0 : Memref sig .tc .vmem S512x128 .f32).view
/-- Each window's current staging memref at point `t`, as the pipeline passes it to the body. -/
abbrev ms0 (t : Fin cfg0.N) : Memref sig .tc .vmem S2000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2000x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2000x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x128 .f32 := win0_8.stage (cfg0.slots t 8)
abbrev hs8 (t : Fin cfg0.N) : (ms8 t).IsWhole := hstage0_8 ((cfg0.slots t 8).cast nbuf0_8)

end Cert.Kernel.L0

end
-- ==== Proof.KB.L0RunA.lean ====
/-
  Layer region 0, the first grid point: the body zeroes the pooled accumulator, stores the new node features,
  then adds this tile's pooled contribution to the (zeroed) accumulator. The lists of stored pieces each
  output buffer ends with are found by running the body.
-/
import proofs.«419285_j30786325577782_1_alg».proof.Proof.KB.L0Runs

set_option maxRecDepth 16384

noncomputable section

namespace Cert.Kernel.L0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first grid point, on whole staging memrefs: the seven inputs at their contents, the two outputs
    at anything; it ends with the inputs as they were and each output holding its stored pieces. -/
noncomputable def kernelRun_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i)
    (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) :
    { L : List (View.Piece (Elt F) S2000x128 .f32) × List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2)) -∗ K ⟨⟩))
          ⊢ wp frame (wpE (defs₀ (F := F)) Variants.none c none) E (cc0__gin_layer_kernel i arg1 harg1 arg2 harg2 arg3 harg3 arg4 harg4 arg5 harg5 arg6 harg6 arg7 harg7 arg8 harg8 arg9 harg9) K } := by
  refine ⟨⟨?_, ?_⟩, fun E K => ?run⟩
  case run =>
    simp only [cc0__gin_layer_kernel_eq_skeleton]; unfold cc0__gin_layer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    iexists _; iexact H8

end Cert.Kernel.L0

end
-- ==== Proof.KB.L0RunB.lean ====
/-
  Layer region 0, every grid point after the first: the body stores the new node features and adds this tile's
  pooled contribution to what the accumulator already holds (the sum over the earlier tiles).
-/
import proofs.«419285_j30786325577782_1_alg».proof.Proof.KB.L0RunA

set_option maxRecDepth 16384

noncomputable section

namespace Cert.Kernel.L0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a later grid point, on whole staging memrefs: the seven inputs at their contents, the pooled
    accumulator at its running contents `xo8`, the node-feature output at anything. -/
noncomputable def kernelRun_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i)
    (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) :
    { L : List (View.Piece (Elt F) S2000x128 .f32) × List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2)) -∗ K ⟨⟩))
          ⊢ wp frame (wpE (defs₀ (F := F)) Variants.none c none) E (cc0__gin_layer_kernel i arg1 harg1 arg2 harg2 arg3 harg3 arg4 harg4 arg5 harg5 arg6 harg6 arg7 harg7 arg8 harg8 arg9 harg9) K } := by
  refine ⟨⟨?_, ?_⟩, fun E K => ?run⟩
  case run =>
    simp only [cc0__gin_layer_kernel_eq_skeleton]; unfold cc0__gin_layer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    iexists _; iexact H8

end Cert.Kernel.L0

end
-- ==== Proof.KB.L0Dat.lean ====
/-
  Layer region 0: what its two output buffers hold after each grid point, and the pipeline's proof data.
  The node-feature output's block at a point is what that point stored. The pooled output is one resident block:
  point 0 leaves the first tile's contribution over zero, every later point leaves the previous contents plus its
  tile's contribution; it is written back once, after the last point.
-/
import proofs.«419285_j30786325577782_1_alg».proof.Proof.KB.L0RunB

set_option maxRecDepth 16384

noncomputable section

namespace Cert.Kernel.L0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point's stores tile each output buffer, so they cover it. -/
theorem cover_A_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (y : S2000x128.Idx) :
    ∃ pc ∈ (kernelRun_A c i arg1 harg1 arg2 harg2 arg3 harg3 arg4 harg4 arg5 harg5 arg6 harg6 arg7 harg7 arg8 harg8 arg9 harg9 hc x0 x1 x2 x3 x4 x5 x6).1.1, y ∈ pc.1.set :=
  View.cover_of_tiledL (kernelRun_A c i arg1 harg1 arg2 harg2 arg3 harg3 arg4 harg4 arg5 harg5 arg6 harg6 arg7 harg7 arg8 harg8 arg9 harg9 hc x0 x1 x2 x3 x4 x5 x6).1.1 S2000x128.size (by sl_kernel_rfl) y
theorem cover_A_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (y : S512x128.Idx) :
    ∃ pc ∈ (kernelRun_A c i arg1 harg1 arg2 harg2 arg3 harg3 arg4 harg4 arg5 harg5 arg6 harg6 arg7 harg7 arg8 harg8 arg9 harg9 hc x0 x1 x2 x3 x4 x5 x6).1.2, y ∈ pc.1.set :=
  View.cover_of_tiledL (kernelRun_A c i arg1 harg1 arg2 harg2 arg3 harg3 arg4 harg4 arg5 harg5 arg6 harg6 arg7 harg7 arg8 harg8 arg9 harg9 hc x0 x1 x2 x3 x4 x5 x6).1.2 S512x128.size (by sl_kernel_rfl) y
/-- What the first point leaves in each output's staging buffer: its stored pieces read back. -/
def out_A_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) : Vec F S2000x128 .f32 :=
  VO7.read (Elt F) (VO7.writes (Elt F) VO7.junk (kernelRun_A c i arg1 harg1 arg2 harg2 arg3 harg3 arg4 harg4 arg5 harg5 arg6 harg6 arg7 harg7 arg8 harg8 arg9 harg9 hc x0 x1 x2 x3 x4 x5 x6).1.1)
def out_A_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) : Vec F S512x128 .f32 :=
  VO8.read (Elt F) (VO8.writes (Elt F) VO8.junk (kernelRun_A c i arg1 harg1 arg2 harg2 arg3 harg3 arg4 harg4 arg5 harg5 arg6 harg6 arg7 harg7 arg8 harg8 arg9 harg9 hc x0 x1 x2 x3 x4 x5 x6).1.2)

/-- A later point's stores tile each output buffer too. -/
theorem cover_B_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) (y : S2000x128.Idx) :
    ∃ pc ∈ (kernelRun_B c i arg1 harg1 arg2 harg2 arg3 harg3 arg4 harg4 arg5 harg5 arg6 harg6 arg7 harg7 arg8 harg8 arg9 harg9 hc x0 x1 x2 x3 x4 x5 x6 xo8).1.1, y ∈ pc.1.set :=
  View.cover_of_tiledL (kernelRun_B c i arg1 harg1 arg2 harg2 arg3 harg3 arg4 harg4 arg5 harg5 arg6 harg6 arg7 harg7 arg8 harg8 arg9 harg9 hc x0 x1 x2 x3 x4 x5 x6 xo8).1.1 S2000x128.size (by sl_kernel_rfl) y
theorem cover_B_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) (y : S512x128.Idx) :
    ∃ pc ∈ (kernelRun_B c i arg1 harg1 arg2 harg2 arg3 harg3 arg4 harg4 arg5 harg5 arg6 harg6 arg7 harg7 arg8 harg8 arg9 harg9 hc x0 x1 x2 x3 x4 x5 x6 xo8).1.2, y ∈ pc.1.set :=
  View.cover_of_tiledL (kernelRun_B c i arg1 harg1 arg2 harg2 arg3 harg3 arg4 harg4 arg5 harg5 arg6 harg6 arg7 harg7 arg8 harg8 arg9 harg9 hc x0 x1 x2 x3 x4 x5 x6 xo8).1.2 S512x128.size (by sl_kernel_rfl) y
def out_B_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) : Vec F S2000x128 .f32 :=
  VO7.read (Elt F) (VO7.writes (Elt F) VO7.junk (kernelRun_B c i arg1 harg1 arg2 harg2 arg3 harg3 arg4 harg4 arg5 harg5 arg6 harg6 arg7 harg7 arg8 harg8 arg9 harg9 hc x0 x1 x2 x3 x4 x5 x6 xo8).1.1)
def out_B_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) : Vec F S512x128 .f32 :=
  VO8.read (Elt F) (VO8.writes (Elt F) VO8.junk (kernelRun_B c i arg1 harg1 arg2 harg2 arg3 harg3 arg4 harg4 arg5 harg5 arg6 harg6 arg7 harg7 arg8 harg8 arg9 harg9 hc x0 x1 x2 x3 x4 x5 x6 xo8).1.2)

variable (V : (c : Dev nD) → (b : Ref sig .tc) → Buf (Elt F) ((c : Thread nD τ).loc b))

/-- What the two output buffers hold after the body at position `n` (node features, pooled accumulator): the first
    point's contents at 0; afterwards the later-point contents over the accumulator the point before left. -/
def outsAt (c : Dev nD) : (n : ℕ) → n < cfg0.N → Vec F S2000x128 .f32 × Vec F S512x128 .f32
  | 0, hn =>
    (out_A_7 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) ((hcond ⟨0, hn⟩).mpr rfl) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩),
     out_A_8 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) ((hcond ⟨0, hn⟩).mpr rfl) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩))
  | n + 1, hn =>
    (out_B_7 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (fun h => Nat.succ_ne_zero n ((hcond ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt c n (Nat.lt_of_succ_lt hn)).2,
     out_B_8 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (fun h => Nat.succ_ne_zero n ((hcond ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt c n (Nat.lt_of_succ_lt hn)).2)

theorem outsAt_A (c : Dev nD) (t : Fin cfg0.N) (h0 : t.val = 0) :
    outsAt V c t.val t.isLt =
      (out_A_7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hcond t).mpr h0) (iblk V c 0 t) (iblk V c 1 t) (iblk V c 2 t) (iblk V c 3 t) (iblk V c 4 t) (iblk V c 5 t) (iblk V c 6 t),
       out_A_8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hcond t).mpr h0) (iblk V c 0 t) (iblk V c 1 t) (iblk V c 2 t) (iblk V c 3 t) (iblk V c 4 t) (iblk V c 5 t) (iblk V c 6 t)) := by
  obtain ⟨n, hn⟩ := t
  cases n with
  | zero => exact rfl
  | succ n => exact absurd h0 (Nat.succ_ne_zero n)

theorem outsAt_B (c : Dev nD) (t : Fin cfg0.N) (h0 : ¬t.val = 0) :
    outsAt V c t.val t.isLt =
      (out_B_7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h => h0 ((hcond t).mp h)) (iblk V c 0 t) (iblk V c 1 t) (iblk V c 2 t) (iblk V c 3 t) (iblk V c 4 t) (iblk V c 5 t) (iblk V c 6 t) (outsAt V c (t.val - 1) (Nat.lt_of_le_of_lt (Nat.sub_le _ _) t.isLt)).2,
       out_B_8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h => h0 ((hcond t).mp h)) (iblk V c 0 t) (iblk V c 1 t) (iblk V c 2 t) (iblk V c 3 t) (iblk V c 4 t) (iblk V c 5 t) (iblk V c 6 t) (outsAt V c (t.val - 1) (Nat.lt_of_le_of_lt (Nat.sub_le _ _) t.isLt)).2) := by
  obtain ⟨n, hn⟩ := t
  cases n with
  | zero => exact absurd rfl h0
  | succ n => exact rfl

/-- The pipeline's proof data on core `c`: the arrays as the region finds them; after the body each input's buffer at its
    block and the outputs' at `outsAt`; the scoped rest and the generator register untouched; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt V c t.val t.isLt).1
    | ⟨8, _⟩ => (outsAt V c t.val t.isLt).2
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = iblk V c 6 t := by dsimp only [dat]
theorem after7 (c : Dev nD) (t : Fin cfg0.N) : (dat V c).after 7 t = (outsAt V c t.val t.isLt).1 := by dsimp only [dat]
theorem after8 (c : Dev nD) (t : Fin cfg0.N) : (dat V c).after 8 t = (outsAt V c t.val t.isLt).2 := by dsimp only [dat]

theorem before0 (c : Dev nD) (t : Fin cfg0.N) (d) : (dat V c).before 0 t d = iblk V c 0 t :=
  before_in0 V (dat V c) (A_eq V c 0) (after0 V c) t d
theorem before1 (c : Dev nD) (t : Fin cfg0.N) (d) : (dat V c).before 1 t d = iblk V c 1 t :=
  before_in1 V (dat V c) (A_eq V c 1) (after1 V c) t d
theorem before2 (c : Dev nD) (t : Fin cfg0.N) (d) : (dat V c).before 2 t d = iblk V c 2 t :=
  before_in2 V (dat V c) (A_eq V c 2) (after2 V c) t d
theorem before3 (c : Dev nD) (t : Fin cfg0.N) (d) : (dat V c).before 3 t d = iblk V c 3 t :=
  before_in3 V (dat V c) (A_eq V c 3) (after3 V c) t d
theorem before4 (c : Dev nD) (t : Fin cfg0.N) (d) : (dat V c).before 4 t d = iblk V c 4 t :=
  before_in4 V (dat V c) (A_eq V c 4) (after4 V c) t d
theorem before5 (c : Dev nD) (t : Fin cfg0.N) (d) : (dat V c).before 5 t d = iblk V c 5 t :=
  before_in5 V (dat V c) (A_eq V c 5) (after5 V c) t d
theorem before6 (c : Dev nD) (t : Fin cfg0.N) (d) : (dat V c).before 6 t d = iblk V c 6 t :=
  before_in6 V (dat V c) (A_eq V c 6) (after6 V c) t d
/-- After the first point the pooled accumulator's buffer holds what the point before left: it is written back only after
    the last point, and the window is live and uncut. -/
theorem before8_B (c : Dev nD) (t : Fin cfg0.N) (h0 : ¬t.val = 0) (d) :
    (dat V c).before 8 t d = (outsAt V c (t.val - 1) (Nat.lt_of_le_of_lt (Nat.sub_le _ _) t.isLt)).2 := by
  have hN : t.val < 50 := lt_of_lt_of_eq t.isLt (show cfg0.N = 50 from N_0)
  rw [Dat.before_out_kept _ 8 rfl t h0 (Bool.eq_false_iff.mpr fun h => by have := (flush0_8 _).mp h; dsimp only at this; omega)
    (fun _ => rfl) (fun _ _ => rfl)]
  dsimp only [dat]

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t))

set_option maxHeartbeats 4000000 in
/-- The body at any point: the inputs' buffers hold their blocks; at point 0 the first-point run applies, later the
    later-point run over the accumulator the point before left; the invariant and the core's dues pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6]
  rw [show (dat V c).Φ t.succ = (dat V c).Φ t.castSucc from rfl,
    show (dat V c).owesAt () t.succ = (dat V c).owesAt () t.castSucc from rfl,
    after0, after1, after2, after3, after4, after5, after6, after7, after8]
  by_cases h0 : t.val = 0
  · rw [outsAt_A V c t h0]
    dsimp only
    unfold out_A_7 out_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun_A c (grid0.coords t) _ _ _ _ _ _ _ _ _ _ _ _ _ _ _ _ _ _ ((hcond t).mpr h0) (iblk V c 0 t) (iblk V c 1 t) (iblk V c 2 t) (iblk V c 3 t) (iblk V c 4 t) (iblk V c 5 t) (iblk V c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover_A_7 c _ _ _ _ _ _ _ _ _ _ _ _ _ _ _ _ _ _ _ _ _ _ _ _ _ _ _)
    unfold owns; iexists _; isplitr
    swap; · iexact H8
    ipureintro; exact View.read_writes_of_cover _ _ _ _ _ (cover_A_8 c _ _ _ _ _ _ _ _ _ _ _ _ _ _ _ _ _ _ _ _ _ _ _ _ _ _ _)
  · rw [outsAt_B V c t h0]
    dsimp only
    simp only [before8_B V c t h0]
    unfold out_B_7 out_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun_B c (grid0.coords t) _ _ _ _ _ _ _ _ _ _ _ _ _ _ _ _ _ _ (fun h => h0 ((hcond t).mp h)) (iblk V c 0 t) (iblk V c 1 t) (iblk V c 2 t) (iblk V c 3 t) (iblk V c 4 t) (iblk V c 5 t) (iblk V c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover_B_7 c _ _ _ _ _ _ _ _ _ _ _ _ _ _ _ _ _ _ _ _ _ _ _ _ _ _ _ _)
    unfold owns; iexists _; isplitr
    swap; · iexact H8
    ipureintro; exact View.read_writes_of_cover _ _ _ _ _ (cover_B_8 c _ _ _ _ _ _ _ _ _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.L0

end
-- ==== Proof.KB.L1Runs.lean ====
/-
  Layer region 1 (a node-update call): what its two control cases share.
  A block of a window at a grid point is the window's array read through that point's rectangle; an input
  window's staging buffer holds its block at every point, whether the pipeline fetched it there or kept it
  (the four weight and bias windows are fetched once, their block index never moves).
  The body branches on "first grid point": there it zeroes the pooled accumulator before adding.
-/
import proofs.«419285_j30786325577782_1_alg».proof.Proof.Gen.Kernel.Launch
import proofs.«419285_j30786325577782_1_alg».proof.Proof.Gen.Kernel.Skeleton
import proofs.«419285_j30786325577782_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.L1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: its array, as the region finds it, read through the point's rectangle. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_in0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_in6 {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The body's one branch condition, from the grid coordinate: "this is grid point 0". -/
abbrev cond (i : grid1.Coords) : Prop := (Scalar.cmpi .ne (Scalar.extui (Scalar.cmpi .eq (BitVec.ofNat 32 (i 0).val) 0#32)) 0#32) = 1#1
/-- It holds at the first of the fifty points only. -/
theorem hcond : ∀ t : Fin cfg1.N, cond (grid1.coords t) ↔ t.val = 0 :=
  (by decide +kernel : ∀ t : Fin grid1.N, cond (grid1.coords t) ↔ t.val = 0)

/-- One staging buffer of each output window, through which its contents are stated. -/
abbrev VO7 : View sig .tc .vmem S2000x128 .f32 := (Memref.whole cc1_stg7_0 : Memref sig .tc .vmem S2000x128 .f32).view
abbrev VO8 : View sig .tc .vmem S512x128 .f32 := (Memref.whole cc1_stg8_0 : Memref sig .tc .vmem S512x128 .f32).view
/-- Each window's current staging memref at point `t`, as the pipeline passes it to the body. -/
abbrev ms0 (t : Fin cfg1.N) : Memref sig .tc .vmem S2000x128 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S2000x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S2000x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S128x128 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x128 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S128x128 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1x128 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S2000x128 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S512x128 .f32 := win1_8.stage (cfg1.slots t 8)
abbrev hs8 (t : Fin cfg1.N) : (ms8 t).IsWhole := hstage1_8 ((cfg1.slots t 8).cast nbuf1_8)

end Cert.Kernel.L1

end
-- ==== Proof.KB.L1RunA.lean ====
/-
  Layer region 1, the first grid point: the body zeroes the pooled accumulator, stores the new node features,
  then adds this tile's pooled contribution to the (zeroed) accumulator. The lists of stored pieces each
  output buffer ends with are found by running the body.
-/
import proofs.«419285_j30786325577782_1_alg».proof.Proof.KB.L1Runs

set_option maxRecDepth 16384

noncomputable section

namespace Cert.Kernel.L1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first grid point, on whole staging memrefs: the seven inputs at their contents, the two outputs
    at anything; it ends with the inputs as they were and each output holding its stored pieces. -/
noncomputable def kernelRun_A (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i)
    (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) :
    { L : List (View.Piece (Elt F) S2000x128 .f32) × List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2)) -∗ K ⟨⟩))
          ⊢ wp frame (wpE (defs₀ (F := F)) Variants.none c none) E (cc1__gin_layer_kernel i arg1 harg1 arg2 harg2 arg3 harg3 arg4 harg4 arg5 harg5 arg6 harg6 arg7 harg7 arg8 harg8 arg9 harg9) K } := by
  refine ⟨⟨?_, ?_⟩, fun E K => ?run⟩
  case run =>
    simp only [cc1__gin_layer_kernel_eq_skeleton]; unfold cc1__gin_layer_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    iexists _; iexact H8

end Cert.Kernel.L1

end
-- ==== Proof.KB.L1RunB.lean ====
/-
  Layer region 1, every grid point after the first: the body stores the new node features and adds this tile's
  pooled contribution to what the accumulator already holds (the sum over the earlier tiles).
-/
import proofs.«419285_j30786325577782_1_alg».proof.Proof.KB.L1RunA

set_option maxRecDepth 16384

noncomputable section

namespace Cert.Kernel.L1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a later grid point, on whole staging memrefs: the seven inputs at their contents, the pooled
    accumulator at its running contents `xo8`, the node-feature output at anything. -/
noncomputable def kernelRun_B (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i)
    (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) :
    { L : List (View.Piece (Elt F) S2000x128 .f32) × List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2)) -∗ K ⟨⟩))
          ⊢ wp frame (wpE (defs₀ (F := F)) Variants.none c none) E (cc1__gin_layer_kernel i arg1 harg1 arg2 harg2 arg3 harg3 arg4 harg4 arg5 harg5 arg6 harg6 arg7 harg7 arg8 harg8 arg9 harg9) K } := by
  refine ⟨⟨?_, ?_⟩, fun E K => ?run⟩
  case run =>
    simp only [cc1__gin_layer_kernel_eq_skeleton]; unfold cc1__gin_layer_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    iexists _; iexact H8

end Cert.Kernel.L1

end
-- ==== Proof.KB.L1Dat.lean ====
/-
  Layer region 1: what its two output buffers hold after each grid point, and the pipeline's proof data.
  The node-feature output's block at a point is what that point stored. The pooled output is one resident block:
  point 0 leaves the first tile's contribution over zero, every later point leaves the previous contents plus its
  tile's contribution; it is written back once, after the last point.
-/
import proofs.«419285_j30786325577782_1_alg».proof.Proof.KB.L1RunB

set_option maxRecDepth 16384

noncomputable section

namespace Cert.Kernel.L1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point's stores tile each output buffer, so they cover it. -/
theorem cover_A_7 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (y : S2000x128.Idx) :
    ∃ pc ∈ (kernelRun_A c i arg1 harg1 arg2 harg2 arg3 harg3 arg4 harg4 arg5 harg5 arg6 harg6 arg7 harg7 arg8 harg8 arg9 harg9 hc x0 x1 x2 x3 x4 x5 x6).1.1, y ∈ pc.1.set :=
  View.cover_of_tiledL (kernelRun_A c i arg1 harg1 arg2 harg2 arg3 harg3 arg4 harg4 arg5 harg5 arg6 harg6 arg7 harg7 arg8 harg8 arg9 harg9 hc x0 x1 x2 x3 x4 x5 x6).1.1 S2000x128.size (by sl_kernel_rfl) y
theorem cover_A_8 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (y : S512x128.Idx) :
    ∃ pc ∈ (kernelRun_A c i arg1 harg1 arg2 harg2 arg3 harg3 arg4 harg4 arg5 harg5 arg6 harg6 arg7 harg7 arg8 harg8 arg9 harg9 hc x0 x1 x2 x3 x4 x5 x6).1.2, y ∈ pc.1.set :=
  View.cover_of_tiledL (kernelRun_A c i arg1 harg1 arg2 harg2 arg3 harg3 arg4 harg4 arg5 harg5 arg6 harg6 arg7 harg7 arg8 harg8 arg9 harg9 hc x0 x1 x2 x3 x4 x5 x6).1.2 S512x128.size (by sl_kernel_rfl) y
/-- What the first point leaves in each output's staging buffer: its stored pieces read back. -/
def out_A_7 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) : Vec F S2000x128 .f32 :=
  VO7.read (Elt F) (VO7.writes (Elt F) VO7.junk (kernelRun_A c i arg1 harg1 arg2 harg2 arg3 harg3 arg4 harg4 arg5 harg5 arg6 harg6 arg7 harg7 arg8 harg8 arg9 harg9 hc x0 x1 x2 x3 x4 x5 x6).1.1)
def out_A_8 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) : Vec F S512x128 .f32 :=
  VO8.read (Elt F) (VO8.writes (Elt F) VO8.junk (kernelRun_A c i arg1 harg1 arg2 harg2 arg3 harg3 arg4 harg4 arg5 harg5 arg6 harg6 arg7 harg7 arg8 harg8 arg9 harg9 hc x0 x1 x2 x3 x4 x5 x6).1.2)

/-- A later point's stores tile each output buffer too. -/
theorem cover_B_7 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) (y : S2000x128.Idx) :
    ∃ pc ∈ (kernelRun_B c i arg1 harg1 arg2 harg2 arg3 harg3 arg4 harg4 arg5 harg5 arg6 harg6 arg7 harg7 arg8 harg8 arg9 harg9 hc x0 x1 x2 x3 x4 x5 x6 xo8).1.1, y ∈ pc.1.set :=
  View.cover_of_tiledL (kernelRun_B c i arg1 harg1 arg2 harg2 arg3 harg3 arg4 harg4 arg5 harg5 arg6 harg6 arg7 harg7 arg8 harg8 arg9 harg9 hc x0 x1 x2 x3 x4 x5 x6 xo8).1.1 S2000x128.size (by sl_kernel_rfl) y
theorem cover_B_8 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) (y : S512x128.Idx) :
    ∃ pc ∈ (kernelRun_B c i arg1 harg1 arg2 harg2 arg3 harg3 arg4 harg4 arg5 harg5 arg6 harg6 arg7 harg7 arg8 harg8 arg9 harg9 hc x0 x1 x2 x3 x4 x5 x6 xo8).1.2, y ∈ pc.1.set :=
  View.cover_of_tiledL (kernelRun_B c i arg1 harg1 arg2 harg2 arg3 harg3 arg4 harg4 arg5 harg5 arg6 harg6 arg7 harg7 arg8 harg8 arg9 harg9 hc x0 x1 x2 x3 x4 x5 x6 xo8).1.2 S512x128.size (by sl_kernel_rfl) y
def out_B_7 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) : Vec F S2000x128 .f32 :=
  VO7.read (Elt F) (VO7.writes (Elt F) VO7.junk (kernelRun_B c i arg1 harg1 arg2 harg2 arg3 harg3 arg4 harg4 arg5 harg5 arg6 harg6 arg7 harg7 arg8 harg8 arg9 harg9 hc x0 x1 x2 x3 x4 x5 x6 xo8).1.1)
def out_B_8 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) : Vec F S512x128 .f32 :=
  VO8.read (Elt F) (VO8.writes (Elt F) VO8.junk (kernelRun_B c i arg1 harg1 arg2 harg2 arg3 harg3 arg4 harg4 arg5 harg5 arg6 harg6 arg7 harg7 arg8 harg8 arg9 harg9 hc x0 x1 x2 x3 x4 x5 x6 xo8).1.2)

variable (V : (c : Dev nD) → (b : Ref sig .tc) → Buf (Elt F) ((c : Thread nD τ).loc b))

/-- What the two output buffers hold after the body at position `n` (node features, pooled accumulator): the first
    point's contents at 0; afterwards the later-point contents over the accumulator the point before left. -/
def outsAt (c : Dev nD) : (n : ℕ) → n < cfg1.N → Vec F S2000x128 .f32 × Vec F S512x128 .f32
  | 0, hn =>
    (out_A_7 c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) ((hcond ⟨0, hn⟩).mpr rfl) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩),
     out_A_8 c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) ((hcond ⟨0, hn⟩).mpr rfl) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩))
  | n + 1, hn =>
    (out_B_7 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (fun h => Nat.succ_ne_zero n ((hcond ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt c n (Nat.lt_of_succ_lt hn)).2,
     out_B_8 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (fun h => Nat.succ_ne_zero n ((hcond ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt c n (Nat.lt_of_succ_lt hn)).2)

theorem outsAt_A (c : Dev nD) (t : Fin cfg1.N) (h0 : t.val = 0) :
    outsAt V c t.val t.isLt =
      (out_A_7 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hcond t).mpr h0) (iblk V c 0 t) (iblk V c 1 t) (iblk V c 2 t) (iblk V c 3 t) (iblk V c 4 t) (iblk V c 5 t) (iblk V c 6 t),
       out_A_8 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hcond t).mpr h0) (iblk V c 0 t) (iblk V c 1 t) (iblk V c 2 t) (iblk V c 3 t) (iblk V c 4 t) (iblk V c 5 t) (iblk V c 6 t)) := by
  obtain ⟨n, hn⟩ := t
  cases n with
  | zero => exact rfl
  | succ n => exact absurd h0 (Nat.succ_ne_zero n)

theorem outsAt_B (c : Dev nD) (t : Fin cfg1.N) (h0 : ¬t.val = 0) :
    outsAt V c t.val t.isLt =
      (out_B_7 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h => h0 ((hcond t).mp h)) (iblk V c 0 t) (iblk V c 1 t) (iblk V c 2 t) (iblk V c 3 t) (iblk V c 4 t) (iblk V c 5 t) (iblk V c 6 t) (outsAt V c (t.val - 1) (Nat.lt_of_le_of_lt (Nat.sub_le _ _) t.isLt)).2,
       out_B_8 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h => h0 ((hcond t).mp h)) (iblk V c 0 t) (iblk V c 1 t) (iblk V c 2 t) (iblk V c 3 t) (iblk V c 4 t) (iblk V c 5 t) (iblk V c 6 t) (outsAt V c (t.val - 1) (Nat.lt_of_le_of_lt (Nat.sub_le _ _) t.isLt)).2) := by
  obtain ⟨n, hn⟩ := t
  cases n with
  | zero => exact absurd rfl h0
  | succ n => exact rfl

/-- The pipeline's proof data on core `c`: the arrays as the region finds them; after the body each input's buffer at its
    block and the outputs' at `outsAt`; the scoped rest and the generator register untouched; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt V c t.val t.isLt).1
    | ⟨8, _⟩ => (outsAt V c t.val t.isLt).2
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = iblk V c 6 t := by dsimp only [dat]
theorem after7 (c : Dev nD) (t : Fin cfg1.N) : (dat V c).after 7 t = (outsAt V c t.val t.isLt).1 := by dsimp only [dat]
theorem after8 (c : Dev nD) (t : Fin cfg1.N) : (dat V c).after 8 t = (outsAt V c t.val t.isLt).2 := by dsimp only [dat]

theorem before0 (c : Dev nD) (t : Fin cfg1.N) (d) : (dat V c).before 0 t d = iblk V c 0 t :=
  before_in0 V (dat V c) (A_eq V c 0) (after0 V c) t d
theorem before1 (c : Dev nD) (t : Fin cfg1.N) (d) : (dat V c).before 1 t d = iblk V c 1 t :=
  before_in1 V (dat V c) (A_eq V c 1) (after1 V c) t d
theorem before2 (c : Dev nD) (t : Fin cfg1.N) (d) : (dat V c).before 2 t d = iblk V c 2 t :=
  before_in2 V (dat V c) (A_eq V c 2) (after2 V c) t d
theorem before3 (c : Dev nD) (t : Fin cfg1.N) (d) : (dat V c).before 3 t d = iblk V c 3 t :=
  before_in3 V (dat V c) (A_eq V c 3) (after3 V c) t d
theorem before4 (c : Dev nD) (t : Fin cfg1.N) (d) : (dat V c).before 4 t d = iblk V c 4 t :=
  before_in4 V (dat V c) (A_eq V c 4) (after4 V c) t d
theorem before5 (c : Dev nD) (t : Fin cfg1.N) (d) : (dat V c).before 5 t d = iblk V c 5 t :=
  before_in5 V (dat V c) (A_eq V c 5) (after5 V c) t d
theorem before6 (c : Dev nD) (t : Fin cfg1.N) (d) : (dat V c).before 6 t d = iblk V c 6 t :=
  before_in6 V (dat V c) (A_eq V c 6) (after6 V c) t d
/-- After the first point the pooled accumulator's buffer holds what the point before left: it is written back only after
    the last point, and the window is live and uncut. -/
theorem before8_B (c : Dev nD) (t : Fin cfg1.N) (h0 : ¬t.val = 0) (d) :
    (dat V c).before 8 t d = (outsAt V c (t.val - 1) (Nat.lt_of_le_of_lt (Nat.sub_le _ _) t.isLt)).2 := by
  have hN : t.val < 50 := lt_of_lt_of_eq t.isLt (show cfg1.N = 50 from N_1)
  rw [Dat.before_out_kept _ 8 rfl t h0 (Bool.eq_false_iff.mpr fun h => by have := (flush1_8 _).mp h; dsimp only at this; omega)
    (fun _ => rfl) (fun _ _ => rfl)]
  dsimp only [dat]

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t))

set_option maxHeartbeats 4000000 in
/-- The body at any point: the inputs' buffers hold their blocks; at point 0 the first-point run applies, later the
    later-point run over the accumulator the point before left; the invariant and the core's dues pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6]
  rw [show (dat V c).Φ t.succ = (dat V c).Φ t.castSucc from rfl,
    show (dat V c).owesAt () t.succ = (dat V c).owesAt () t.castSucc from rfl,
    after0, after1, after2, after3, after4, after5, after6, after7, after8]
  by_cases h0 : t.val = 0
  · rw [outsAt_A V c t h0]
    dsimp only
    unfold out_A_7 out_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun_A c (grid1.coords t) _ _ _ _ _ _ _ _ _ _ _ _ _ _ _ _ _ _ ((hcond t).mpr h0) (iblk V c 0 t) (iblk V c 1 t) (iblk V c 2 t) (iblk V c 3 t) (iblk V c 4 t) (iblk V c 5 t) (iblk V c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover_A_7 c _ _ _ _ _ _ _ _ _ _ _ _ _ _ _ _ _ _ _ _ _ _ _ _ _ _ _)
    unfold owns; iexists _; isplitr
    swap; · iexact H8
    ipureintro; exact View.read_writes_of_cover _ _ _ _ _ (cover_A_8 c _ _ _ _ _ _ _ _ _ _ _ _ _ _ _ _ _ _ _ _ _ _ _ _ _ _ _)
  · rw [outsAt_B V c t h0]
    dsimp only
    simp only [before8_B V c t h0]
    unfold out_B_7 out_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun_B c (grid1.coords t) _ _ _ _ _ _ _ _ _ _ _ _ _ _ _ _ _ _ (fun h => h0 ((hcond t).mp h)) (iblk V c 0 t) (iblk V c 1 t) (iblk V c 2 t) (iblk V c 3 t) (iblk V c 4 t) (iblk V c 5 t) (iblk V c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover_B_7 c _ _ _ _ _ _ _ _ _ _ _ _ _ _ _ _ _ _ _ _ _ _ _ _ _ _ _ _)
    unfold owns; iexists _; isplitr
    swap; · iexact H8
    ipureintro; exact View.read_writes_of_cover _ _ _ _ _ (cover_B_8 c _ _ _ _ _ _ _ _ _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.L1

end
-- ==== Proof.KB.L2Runs.lean ====
/-
  Layer region 2 (a node-update call): what its two control cases share.
  A block of a window at a grid point is the window's array read through that point's rectangle; an input
  window's staging buffer holds its block at every point, whether the pipeline fetched it there or kept it
  (the four weight and bias windows are fetched once, their block index never moves).
  The body branches on "first grid point": there it zeroes the pooled accumulator before adding.
-/
import proofs.«419285_j30786325577782_1_alg».proof.Proof.Gen.Kernel.Launch
import proofs.«419285_j30786325577782_1_alg».proof.Proof.Gen.Kernel.Skeleton
import proofs.«419285_j30786325577782_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.L2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: its array, as the region finds it, read through the point's rectangle. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_in0 {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4 {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in5 {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_in6 {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The body's one branch condition, from the grid coordinate: "this is grid point 0". -/
abbrev cond (i : grid2.Coords) : Prop := (Scalar.cmpi .ne (Scalar.extui (Scalar.cmpi .eq (BitVec.ofNat 32 (i 0).val) 0#32)) 0#32) = 1#1
/-- It holds at the first of the fifty points only. -/
theorem hcond : ∀ t : Fin cfg2.N, cond (grid2.coords t) ↔ t.val = 0 :=
  (by decide +kernel : ∀ t : Fin grid2.N, cond (grid2.coords t) ↔ t.val = 0)

/-- One staging buffer of each output window, through which its contents are stated. -/
abbrev VO7 : View sig .tc .vmem S2000x128 .f32 := (Memref.whole cc2_stg7_0 : Memref sig .tc .vmem S2000x128 .f32).view
abbrev VO8 : View sig .tc .vmem S512x128 .f32 := (Memref.whole cc2_stg8_0 : Memref sig .tc .vmem S512x128 .f32).view
/-- Each window's current staging memref at point `t`, as the pipeline passes it to the body. -/
abbrev ms0 (t : Fin cfg2.N) : Memref sig .tc .vmem S2000x128 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S2000x128 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S2000x1 .i32 := win2_2.stage (cfg2.slots t 2)
abbrev hs2 (t : Fin cfg2.N) : (ms2 t).IsWhole := hstage2_2 ((cfg2.slots t 2).cast nbuf2_2)
abbrev ms3 (t : Fin cfg2.N) : Memref sig .tc .vmem S128x128 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x128 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S128x128 .f32 := win2_5.stage (cfg2.slots t 5)
abbrev hs5 (t : Fin cfg2.N) : (ms5 t).IsWhole := hstage2_5 ((cfg2.slots t 5).cast nbuf2_5)
abbrev ms6 (t : Fin cfg2.N) : Memref sig .tc .vmem S1x128 .f32 := win2_6.stage (cfg2.slots t 6)
abbrev hs6 (t : Fin cfg2.N) : (ms6 t).IsWhole := hstage2_6 ((cfg2.slots t 6).cast nbuf2_6)
abbrev ms7 (t : Fin cfg2.N) : Memref sig .tc .vmem S2000x128 .f32 := win2_7.stage (cfg2.slots t 7)
abbrev hs7 (t : Fin cfg2.N) : (ms7 t).IsWhole := hstage2_7 ((cfg2.slots t 7).cast nbuf2_7)
abbrev ms8 (t : Fin cfg2.N) : Memref sig .tc .vmem S512x128 .f32 := win2_8.stage (cfg2.slots t 8)
abbrev hs8 (t : Fin cfg2.N) : (ms8 t).IsWhole := hstage2_8 ((cfg2.slots t 8).cast nbuf2_8)

end Cert.Kernel.L2

end
-- ==== Proof.KB.L2RunA.lean ====
/-
  Layer region 2, the first grid point: the body zeroes the pooled accumulator, stores the new node features,
  then adds this tile's pooled contribution to the (zeroed) accumulator. The lists of stored pieces each
  output buffer ends with are found by running the body.
-/
import proofs.«419285_j30786325577782_1_alg».proof.Proof.KB.L2Runs

set_option maxRecDepth 16384

noncomputable section

namespace Cert.Kernel.L2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first grid point, on whole staging memrefs: the seven inputs at their contents, the two outputs
    at anything; it ends with the inputs as they were and each output holding its stored pieces. -/
noncomputable def kernelRun_A (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i)
    (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) :
    { L : List (View.Piece (Elt F) S2000x128 .f32) × List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2)) -∗ K ⟨⟩))
          ⊢ wp frame (wpE (defs₀ (F := F)) Variants.none c none) E (cc2__gin_layer_kernel i arg1 harg1 arg2 harg2 arg3 harg3 arg4 harg4 arg5 harg5 arg6 harg6 arg7 harg7 arg8 harg8 arg9 harg9) K } := by
  refine ⟨⟨?_, ?_⟩, fun E K => ?run⟩
  case run =>
    simp only [cc2__gin_layer_kernel_eq_skeleton]; unfold cc2__gin_layer_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    iexists _; iexact H8

end Cert.Kernel.L2

end
-- ==== Proof.KB.L2RunB.lean ====
/-
  Layer region 2, every grid point after the first: the body stores the new node features and adds this tile's
  pooled contribution to what the accumulator already holds (the sum over the earlier tiles).
-/
import proofs.«419285_j30786325577782_1_alg».proof.Proof.KB.L2RunA

set_option maxRecDepth 16384

noncomputable section

namespace Cert.Kernel.L2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a later grid point, on whole staging memrefs: the seven inputs at their contents, the pooled
    accumulator at its running contents `xo8`, the node-feature output at anything. -/
noncomputable def kernelRun_B (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i)
    (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) :
    { L : List (View.Piece (Elt F) S2000x128 .f32) × List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2)) -∗ K ⟨⟩))
          ⊢ wp frame (wpE (defs₀ (F := F)) Variants.none c none) E (cc2__gin_layer_kernel i arg1 harg1 arg2 harg2 arg3 harg3 arg4 harg4 arg5 harg5 arg6 harg6 arg7 harg7 arg8 harg8 arg9 harg9) K } := by
  refine ⟨⟨?_, ?_⟩, fun E K => ?run⟩
  case run =>
    simp only [cc2__gin_layer_kernel_eq_skeleton]; unfold cc2__gin_layer_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    iexists _; iexact H8

end Cert.Kernel.L2

end
-- ==== Proof.KB.L2Dat.lean ====
/-
  Layer region 2: what its two output buffers hold after each grid point, and the pipeline's proof data.
  The node-feature output's block at a point is what that point stored. The pooled output is one resident block:
  point 0 leaves the first tile's contribution over zero, every later point leaves the previous contents plus its
  tile's contribution; it is written back once, after the last point.
-/
import proofs.«419285_j30786325577782_1_alg».proof.Proof.KB.L2RunB

set_option maxRecDepth 16384

noncomputable section

namespace Cert.Kernel.L2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point's stores tile each output buffer, so they cover it. -/
theorem cover_A_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (y : S2000x128.Idx) :
    ∃ pc ∈ (kernelRun_A c i arg1 harg1 arg2 harg2 arg3 harg3 arg4 harg4 arg5 harg5 arg6 harg6 arg7 harg7 arg8 harg8 arg9 harg9 hc x0 x1 x2 x3 x4 x5 x6).1.1, y ∈ pc.1.set :=
  View.cover_of_tiledL (kernelRun_A c i arg1 harg1 arg2 harg2 arg3 harg3 arg4 harg4 arg5 harg5 arg6 harg6 arg7 harg7 arg8 harg8 arg9 harg9 hc x0 x1 x2 x3 x4 x5 x6).1.1 S2000x128.size (by sl_kernel_rfl) y
theorem cover_A_8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (y : S512x128.Idx) :
    ∃ pc ∈ (kernelRun_A c i arg1 harg1 arg2 harg2 arg3 harg3 arg4 harg4 arg5 harg5 arg6 harg6 arg7 harg7 arg8 harg8 arg9 harg9 hc x0 x1 x2 x3 x4 x5 x6).1.2, y ∈ pc.1.set :=
  View.cover_of_tiledL (kernelRun_A c i arg1 harg1 arg2 harg2 arg3 harg3 arg4 harg4 arg5 harg5 arg6 harg6 arg7 harg7 arg8 harg8 arg9 harg9 hc x0 x1 x2 x3 x4 x5 x6).1.2 S512x128.size (by sl_kernel_rfl) y
/-- What the first point leaves in each output's staging buffer: its stored pieces read back. -/
def out_A_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) : Vec F S2000x128 .f32 :=
  VO7.read (Elt F) (VO7.writes (Elt F) VO7.junk (kernelRun_A c i arg1 harg1 arg2 harg2 arg3 harg3 arg4 harg4 arg5 harg5 arg6 harg6 arg7 harg7 arg8 harg8 arg9 harg9 hc x0 x1 x2 x3 x4 x5 x6).1.1)
def out_A_8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) : Vec F S512x128 .f32 :=
  VO8.read (Elt F) (VO8.writes (Elt F) VO8.junk (kernelRun_A c i arg1 harg1 arg2 harg2 arg3 harg3 arg4 harg4 arg5 harg5 arg6 harg6 arg7 harg7 arg8 harg8 arg9 harg9 hc x0 x1 x2 x3 x4 x5 x6).1.2)

/-- A later point's stores tile each output buffer too. -/
theorem cover_B_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) (y : S2000x128.Idx) :
    ∃ pc ∈ (kernelRun_B c i arg1 harg1 arg2 harg2 arg3 harg3 arg4 harg4 arg5 harg5 arg6 harg6 arg7 harg7 arg8 harg8 arg9 harg9 hc x0 x1 x2 x3 x4 x5 x6 xo8).1.1, y ∈ pc.1.set :=
  View.cover_of_tiledL (kernelRun_B c i arg1 harg1 arg2 harg2 arg3 harg3 arg4 harg4 arg5 harg5 arg6 harg6 arg7 harg7 arg8 harg8 arg9 harg9 hc x0 x1 x2 x3 x4 x5 x6 xo8).1.1 S2000x128.size (by sl_kernel_rfl) y
theorem cover_B_8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) (y : S512x128.Idx) :
    ∃ pc ∈ (kernelRun_B c i arg1 harg1 arg2 harg2 arg3 harg3 arg4 harg4 arg5 harg5 arg6 harg6 arg7 harg7 arg8 harg8 arg9 harg9 hc x0 x1 x2 x3 x4 x5 x6 xo8).1.2, y ∈ pc.1.set :=
  View.cover_of_tiledL (kernelRun_B c i arg1 harg1 arg2 harg2 arg3 harg3 arg4 harg4 arg5 harg5 arg6 harg6 arg7 harg7 arg8 harg8 arg9 harg9 hc x0 x1 x2 x3 x4 x5 x6 xo8).1.2 S512x128.size (by sl_kernel_rfl) y
def out_B_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) : Vec F S2000x128 .f32 :=
  VO7.read (Elt F) (VO7.writes (Elt F) VO7.junk (kernelRun_B c i arg1 harg1 arg2 harg2 arg3 harg3 arg4 harg4 arg5 harg5 arg6 harg6 arg7 harg7 arg8 harg8 arg9 harg9 hc x0 x1 x2 x3 x4 x5 x6 xo8).1.1)
def out_B_8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) : Vec F S512x128 .f32 :=
  VO8.read (Elt F) (VO8.writes (Elt F) VO8.junk (kernelRun_B c i arg1 harg1 arg2 harg2 arg3 harg3 arg4 harg4 arg5 harg5 arg6 harg6 arg7 harg7 arg8 harg8 arg9 harg9 hc x0 x1 x2 x3 x4 x5 x6 xo8).1.2)

variable (V : (c : Dev nD) → (b : Ref sig .tc) → Buf (Elt F) ((c : Thread nD τ).loc b))

/-- What the two output buffers hold after the body at position `n` (node features, pooled accumulator): the first
    point's contents at 0; afterwards the later-point contents over the accumulator the point before left. -/
def outsAt (c : Dev nD) : (n : ℕ) → n < cfg2.N → Vec F S2000x128 .f32 × Vec F S512x128 .f32
  | 0, hn =>
    (out_A_7 c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) ((hcond ⟨0, hn⟩).mpr rfl) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩),
     out_A_8 c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) ((hcond ⟨0, hn⟩).mpr rfl) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩))
  | n + 1, hn =>
    (out_B_7 c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (fun h => Nat.succ_ne_zero n ((hcond ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt c n (Nat.lt_of_succ_lt hn)).2,
     out_B_8 c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (fun h => Nat.succ_ne_zero n ((hcond ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt c n (Nat.lt_of_succ_lt hn)).2)

theorem outsAt_A (c : Dev nD) (t : Fin cfg2.N) (h0 : t.val = 0) :
    outsAt V c t.val t.isLt =
      (out_A_7 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hcond t).mpr h0) (iblk V c 0 t) (iblk V c 1 t) (iblk V c 2 t) (iblk V c 3 t) (iblk V c 4 t) (iblk V c 5 t) (iblk V c 6 t),
       out_A_8 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hcond t).mpr h0) (iblk V c 0 t) (iblk V c 1 t) (iblk V c 2 t) (iblk V c 3 t) (iblk V c 4 t) (iblk V c 5 t) (iblk V c 6 t)) := by
  obtain ⟨n, hn⟩ := t
  cases n with
  | zero => exact rfl
  | succ n => exact absurd h0 (Nat.succ_ne_zero n)

theorem outsAt_B (c : Dev nD) (t : Fin cfg2.N) (h0 : ¬t.val = 0) :
    outsAt V c t.val t.isLt =
      (out_B_7 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h => h0 ((hcond t).mp h)) (iblk V c 0 t) (iblk V c 1 t) (iblk V c 2 t) (iblk V c 3 t) (iblk V c 4 t) (iblk V c 5 t) (iblk V c 6 t) (outsAt V c (t.val - 1) (Nat.lt_of_le_of_lt (Nat.sub_le _ _) t.isLt)).2,
       out_B_8 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h => h0 ((hcond t).mp h)) (iblk V c 0 t) (iblk V c 1 t) (iblk V c 2 t) (iblk V c 3 t) (iblk V c 4 t) (iblk V c 5 t) (iblk V c 6 t) (outsAt V c (t.val - 1) (Nat.lt_of_le_of_lt (Nat.sub_le _ _) t.isLt)).2) := by
  obtain ⟨n, hn⟩ := t
  cases n with
  | zero => exact absurd rfl h0
  | succ n => exact rfl

/-- The pipeline's proof data on core `c`: the arrays as the region finds them; after the body each input's buffer at its
    block and the outputs' at `outsAt`; the scoped rest and the generator register untouched; nothing owed. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt V c t.val t.isLt).1
    | ⟨8, _⟩ => (outsAt V c t.val t.isLt).2
  Φ _ := Pipeline.ΦA spec2 c
  q _ := fullShare
  owed _ := 0

theorem A_eq (c : Dev nD) (w : Fin cfg2.W) : (dat V c).A w = V c (Pipeline.arrRef spec2 w) := by
  dsimp only [dat]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = iblk V c 4 t := by dsimp only [dat]
theorem after5 (c : Dev nD) (t : Fin cfg2.N) : (dat V c).after 5 t = iblk V c 5 t := by dsimp only [dat]
theorem after6 (c : Dev nD) (t : Fin cfg2.N) : (dat V c).after 6 t = iblk V c 6 t := by dsimp only [dat]
theorem after7 (c : Dev nD) (t : Fin cfg2.N) : (dat V c).after 7 t = (outsAt V c t.val t.isLt).1 := by dsimp only [dat]
theorem after8 (c : Dev nD) (t : Fin cfg2.N) : (dat V c).after 8 t = (outsAt V c t.val t.isLt).2 := by dsimp only [dat]

theorem before0 (c : Dev nD) (t : Fin cfg2.N) (d) : (dat V c).before 0 t d = iblk V c 0 t :=
  before_in0 V (dat V c) (A_eq V c 0) (after0 V c) t d
theorem before1 (c : Dev nD) (t : Fin cfg2.N) (d) : (dat V c).before 1 t d = iblk V c 1 t :=
  before_in1 V (dat V c) (A_eq V c 1) (after1 V c) t d
theorem before2 (c : Dev nD) (t : Fin cfg2.N) (d) : (dat V c).before 2 t d = iblk V c 2 t :=
  before_in2 V (dat V c) (A_eq V c 2) (after2 V c) t d
theorem before3 (c : Dev nD) (t : Fin cfg2.N) (d) : (dat V c).before 3 t d = iblk V c 3 t :=
  before_in3 V (dat V c) (A_eq V c 3) (after3 V c) t d
theorem before4 (c : Dev nD) (t : Fin cfg2.N) (d) : (dat V c).before 4 t d = iblk V c 4 t :=
  before_in4 V (dat V c) (A_eq V c 4) (after4 V c) t d
theorem before5 (c : Dev nD) (t : Fin cfg2.N) (d) : (dat V c).before 5 t d = iblk V c 5 t :=
  before_in5 V (dat V c) (A_eq V c 5) (after5 V c) t d
theorem before6 (c : Dev nD) (t : Fin cfg2.N) (d) : (dat V c).before 6 t d = iblk V c 6 t :=
  before_in6 V (dat V c) (A_eq V c 6) (after6 V c) t d
/-- After the first point the pooled accumulator's buffer holds what the point before left: it is written back only after
    the last point, and the window is live and uncut. -/
theorem before8_B (c : Dev nD) (t : Fin cfg2.N) (h0 : ¬t.val = 0) (d) :
    (dat V c).before 8 t d = (outsAt V c (t.val - 1) (Nat.lt_of_le_of_lt (Nat.sub_le _ _) t.isLt)).2 := by
  have hN : t.val < 50 := lt_of_lt_of_eq t.isLt (show cfg2.N = 50 from N_2)
  rw [Dat.before_out_kept _ 8 rfl t h0 (Bool.eq_false_iff.mpr fun h => by have := (flush2_8 _).mp h; dsimp only at this; omega)
    (fun _ => rfl) (fun _ _ => rfl)]
  dsimp only [dat]

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t))

set_option maxHeartbeats 4000000 in
/-- The body at any point: the inputs' buffers hold their blocks; at point 0 the first-point run applies, later the
    later-point run over the accumulator the point before left; the invariant and the core's dues pass through. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4, before5, before6]
  rw [show (dat V c).Φ t.succ = (dat V c).Φ t.castSucc from rfl,
    show (dat V c).owesAt () t.succ = (dat V c).owesAt () t.castSucc from rfl,
    after0, after1, after2, after3, after4, after5, after6, after7, after8]
  by_cases h0 : t.val = 0
  · rw [outsAt_A V c t h0]
    dsimp only
    unfold out_A_7 out_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun_A c (grid2.coords t) _ _ _ _ _ _ _ _ _ _ _ _ _ _ _ _ _ _ ((hcond t).mpr h0) (iblk V c 0 t) (iblk V c 1 t) (iblk V c 2 t) (iblk V c 3 t) (iblk V c 4 t) (iblk V c 5 t) (iblk V c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover_A_7 c _ _ _ _ _ _ _ _ _ _ _ _ _ _ _ _ _ _ _ _ _ _ _ _ _ _ _)
    unfold owns; iexists _; isplitr
    swap; · iexact H8
    ipureintro; exact View.read_writes_of_cover _ _ _ _ _ (cover_A_8 c _ _ _ _ _ _ _ _ _ _ _ _ _ _ _ _ _ _ _ _ _ _ _ _ _ _ _)
  · rw [outsAt_B V c t h0]
    dsimp only
    simp only [before8_B V c t h0]
    unfold out_B_7 out_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun_B c (grid2.coords t) _ _ _ _ _ _ _ _ _ _ _ _ _ _ _ _ _ _ (fun h => h0 ((hcond t).mp h)) (iblk V c 0 t) (iblk V c 1 t) (iblk V c 2 t) (iblk V c 3 t) (iblk V c 4 t) (iblk V c 5 t) (iblk V c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover_B_7 c _ _ _ _ _ _ _ _ _ _ _ _ _ _ _ _ _ _ _ _ _ _ _ _ _ _ _ _)
    unfold owns; iexists _; isplitr
    swap; · iexact H8
    ipureintro; exact View.read_writes_of_cover _ _ _ _ _ (cover_B_8 c _ _ _ _ _ _ _ _ _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.L2

end
-- ==== Proof.KB.C3.lean ====
/-
  The classifier region (the fourth call): one grid point, seven input windows (the concatenated pooled features, three
  weight matrices, three bias rows), one output window (the logits column). The body loads every input block whole,
  computes, and stores the output block whole; the pieces it stores are found by running it.
-/
import proofs.«419285_j30786325577782_1_alg».proof.Proof.Gen.Kernel.Launch
import proofs.«419285_j30786325577782_1_alg».proof.Proof.Gen.Kernel.Skeleton
import proofs.«419285_j30786325577782_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.C3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of the output window, through which its contents are stated. -/
abbrev VO7 : View sig .tc .vmem S512x1 .f32 := (Memref.whole cc3_stg7_0 : Memref sig .tc .vmem S512x1 .f32).view
/-- Each window's current staging memref at point `t`, as the pipeline passes it to the body. -/
abbrev ms0 (t : Fin cfg3.N) : Memref sig .tc .vmem S512x384 .f32 := win3_0.stage (cfg3.slots t 0)
abbrev hs0 (t : Fin cfg3.N) : (ms0 t).IsWhole := hstage3_0 ((cfg3.slots t 0).cast nbuf3_0)
abbrev ms1 (t : Fin cfg3.N) : Memref sig .tc .vmem S384x128 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S1x128 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S128x128 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S1x128 .f32 := win3_4.stage (cfg3.slots t 4)
abbrev hs4 (t : Fin cfg3.N) : (ms4 t).IsWhole := hstage3_4 ((cfg3.slots t 4).cast nbuf3_4)
abbrev ms5 (t : Fin cfg3.N) : Memref sig .tc .vmem S128x1 .f32 := win3_5.stage (cfg3.slots t 5)
abbrev hs5 (t : Fin cfg3.N) : (ms5 t).IsWhole := hstage3_5 ((cfg3.slots t 5).cast nbuf3_5)
abbrev ms6 (t : Fin cfg3.N) : Memref sig .tc .vmem S1x1 .f32 := win3_6.stage (cfg3.slots t 6)
abbrev hs6 (t : Fin cfg3.N) : (ms6 t).IsWhole := hstage3_6 ((cfg3.slots t 6).cast nbuf3_6)
abbrev ms7 (t : Fin cfg3.N) : Memref sig .tc .vmem S512x1 .f32 := win3_7.stage (cfg3.slots t 7)
abbrev hs7 (t : Fin cfg3.N) : (ms7 t).IsWhole := hstage3_7 ((cfg3.slots t 7).cast nbuf3_7)

set_option maxHeartbeats 4000000 in
/-- The body on whole staging memrefs: the seven inputs at their contents, the output at anything; it ends with the
    inputs as they were and the output holding its stored pieces. -/
noncomputable def kernelRun (c : Dev nD) (i : grid3.Coords) (arg1 : Memref sig .tc .vmem S512x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S512x1 .f32) (harg8 : arg8.IsWhole) (x0 : Vec F S512x384 .f32) (x1 : Vec F S384x128 .f32) (x2 : Vec F S1x128 .f32) (x3 : Vec F S128x128 .f32) (x4 : Vec F S1x128 .f32) (x5 : Vec F S128x1 .f32) (x6 : Vec F S1x1 .f32) :
    { L : List (View.Piece (Elt F) S512x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L)) -∗ K ⟨⟩))
          ⊢ wp frame (wpE (defs₀ (F := F)) Variants.none c none) E (cc3__classifier_kernel i arg1 harg1 arg2 harg2 arg3 harg3 arg4 harg4 arg5 harg5 arg6 harg6 arg7 harg7 arg8 harg8) K } := by
  refine ⟨?_, fun E K => ?run⟩
  case run =>
    simp only [cc3__classifier_kernel_eq_skeleton]; unfold cc3__classifier_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

/-- Its stores tile the output buffer, so they cover it. -/
theorem cover7 (c : Dev nD) (i : grid3.Coords) (arg1 : Memref sig .tc .vmem S512x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S512x1 .f32) (harg8 : arg8.IsWhole) (x0 : Vec F S512x384 .f32) (x1 : Vec F S384x128 .f32) (x2 : Vec F S1x128 .f32) (x3 : Vec F S128x128 .f32) (x4 : Vec F S1x128 .f32) (x5 : Vec F S128x1 .f32) (x6 : Vec F S1x1 .f32) (y : S512x1.Idx) :
    ∃ pc ∈ (kernelRun c i arg1 harg1 arg2 harg2 arg3 harg3 arg4 harg4 arg5 harg5 arg6 harg6 arg7 harg7 arg8 harg8 x0 x1 x2 x3 x4 x5 x6).1, y ∈ pc.1.set :=
  View.cover_of_tiledL (kernelRun c i arg1 harg1 arg2 harg2 arg3 harg3 arg4 harg4 arg5 harg5 arg6 harg6 arg7 harg7 arg8 harg8 x0 x1 x2 x3 x4 x5 x6).1 S512x1.size (by sl_kernel_rfl) y
/-- What the body leaves in the output's staging buffer: its stored pieces read back. -/
def out7 (c : Dev nD) (i : grid3.Coords) (arg1 : Memref sig .tc .vmem S512x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S512x1 .f32) (harg8 : arg8.IsWhole) (x0 : Vec F S512x384 .f32) (x1 : Vec F S384x128 .f32) (x2 : Vec F S1x128 .f32) (x3 : Vec F S128x128 .f32) (x4 : Vec F S1x128 .f32) (x5 : Vec F S128x1 .f32) (x6 : Vec F S1x1 .f32) : Vec F S512x1 .f32 :=
  VO7.read (Elt F) (VO7.writes (Elt F) VO7.junk (kernelRun c i arg1 harg1 arg2 harg2 arg3 harg3 arg4 harg4 arg5 harg5 arg6 harg6 arg7 harg7 arg8 harg8 x0 x1 x2 x3 x4 x5 x6).1)

variable (V : (c : Dev nD) → (b : Ref sig .tc) → Buf (Elt F) ((c : Thread nD τ).loc b))

/-- Window `w`'s block at point `t`: its array, as the region finds it, read through the point's rectangle. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before_in0 {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4 {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in5 {c : Dev nD} (dat : Dat τ (Elt F) Unit ℕ (UR sig nD τ) ℕ cfg3 c) (hA : dat.A 5 = V c (Pipeline.arrRef spec3 5))
    (hafter : ∀ t, dat.after 5 t = iblk V c 5 t) (t : Fin cfg3.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_in6 {c : Dev nD} (dat : Dat τ (Elt F) Unit ℕ (UR sig nD τ) ℕ cfg3 c) (hA : dat.A 6 = V c (Pipeline.arrRef spec3 6))
    (hafter : ∀ t, dat.after 6 t = iblk V c 6 t) (t : Fin cfg3.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The pipeline's proof data on core `c`: the arrays as the region finds them; after the body each input's buffer at its
    block and the output's at what the body stored; the scoped rest and the generator register untouched; nothing owed. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out7 c (grid3.coords t) (ms0 t) (hs0 t) (ms1 t) (hs1 t) (ms2 t) (hs2 t) (ms3 t) (hs3 t) (ms4 t) (hs4 t) (ms5 t) (hs5 t) (ms6 t) (hs6 t) (ms7 t) (hs7 t) (iblk V c 0 t) (iblk V c 1 t) (iblk V c 2 t) (iblk V c 3 t) (iblk V c 4 t) (iblk V c 5 t) (iblk V c 6 t)
  Φ _ := Pipeline.ΦA spec3 c
  q _ := fullShare
  owed _ := 0

theorem A_eq (c : Dev nD) (w : Fin cfg3.W) : (dat V c).A w = V c (Pipeline.arrRef spec3 w) := by
  dsimp only [dat]

theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) : (dat V c).after 3 t = iblk V c 3 t := by dsimp only [dat]
theorem after4 (c : Dev nD) (t : Fin cfg3.N) : (dat V c).after 4 t = iblk V c 4 t := by dsimp only [dat]
theorem after5 (c : Dev nD) (t : Fin cfg3.N) : (dat V c).after 5 t = iblk V c 5 t := by dsimp only [dat]
theorem after6 (c : Dev nD) (t : Fin cfg3.N) : (dat V c).after 6 t = iblk V c 6 t := by dsimp only [dat]
theorem after7 (c : Dev nD) (t : Fin cfg3.N) : (dat V c).after 7 t = out7 c (grid3.coords t) (ms0 t) (hs0 t) (ms1 t) (hs1 t) (ms2 t) (hs2 t) (ms3 t) (hs3 t) (ms4 t) (hs4 t) (ms5 t) (hs5 t) (ms6 t) (hs6 t) (ms7 t) (hs7 t) (iblk V c 0 t) (iblk V c 1 t) (iblk V c 2 t) (iblk V c 3 t) (iblk V c 4 t) (iblk V c 5 t) (iblk V c 6 t) := by dsimp only [dat]

theorem before0 (c : Dev nD) (t : Fin cfg3.N) (d) : (dat V c).before 0 t d = iblk V c 0 t :=
  before_in0 V (dat V c) (A_eq V c 0) (after0 V c) t d
theorem before1 (c : Dev nD) (t : Fin cfg3.N) (d) : (dat V c).before 1 t d = iblk V c 1 t :=
  before_in1 V (dat V c) (A_eq V c 1) (after1 V c) t d
theorem before2 (c : Dev nD) (t : Fin cfg3.N) (d) : (dat V c).before 2 t d = iblk V c 2 t :=
  before_in2 V (dat V c) (A_eq V c 2) (after2 V c) t d
theorem before3 (c : Dev nD) (t : Fin cfg3.N) (d) : (dat V c).before 3 t d = iblk V c 3 t :=
  before_in3 V (dat V c) (A_eq V c 3) (after3 V c) t d
theorem before4 (c : Dev nD) (t : Fin cfg3.N) (d) : (dat V c).before 4 t d = iblk V c 4 t :=
  before_in4 V (dat V c) (A_eq V c 4) (after4 V c) t d
theorem before5 (c : Dev nD) (t : Fin cfg3.N) (d) : (dat V c).before 5 t d = iblk V c 5 t :=
  before_in5 V (dat V c) (A_eq V c 5) (after5 V c) t d
theorem before6 (c : Dev nD) (t : Fin cfg3.N) (d) : (dat V c).before 6 t d = iblk V c 6 t :=
  before_in6 V (dat V c) (A_eq V c 6) (after6 V c) t d

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d))
    ∗ (∃ d, owns (c : Thread nD τ) (st3_7 t) fullShare ((dat V c).before 7 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t)
    ∗ owns (c : Thread nD τ) (st3_7 t) fullShare ((dat V c).after 7 t))

set_option maxHeartbeats 4000000 in
/-- The body at the point: the inputs' buffers hold their blocks, so the run applies; the invariant and the core's dues
    pass through. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2, before3, before4, before5, before6]
  rw [show (dat V c).Φ t.succ = (dat V c).Φ t.castSucc from rfl,
    show (dat V c).owesAt () t.succ = (dat V c).owesAt () t.castSucc from rfl,
    after0, after1, after2, after3, after4, after5, after6, after7]
  unfold out7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun c (grid3.coords t) _ _ _ _ _ _ _ _ _ _ _ _ _ _ _ _ (iblk V c 0 t) (iblk V c 1 t) (iblk V c 2 t) (iblk V c 3 t) (iblk V c 4 t) (iblk V c 5 t) (iblk V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover7 c _ _ _ _ _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W3, bigSep_W3]
  exact sound_body V c t

end Cert.Kernel.C3

end
-- ==== Proof.KB.Run.lean ====
/-
  The whole run of the kernel's program: four kernel regions among four stretches of host operations.
  The unscoped buffers' contents at each boundary are a fold from the launch memory: a host stretch applies its
  operations; a region leaves its input arrays as they were and its output arrays at what its write-backs leave.
  Each region is a segment entered and left at those contents; the launch theorem for a list of segments then says the
  program terminates with every unscoped buffer at the last contents, from which the result array and the thirteen
  argument arrays are read back: no host stretch writes an argument and no region has one as an output.
-/
import proofs.«419285_j30786325577782_1_alg».proof.Proof.KB.L0Dat
import proofs.«419285_j30786325577782_1_alg».proof.Proof.KB.L1Dat
import proofs.«419285_j30786325577782_1_alg».proof.Proof.KB.L2Dat
import proofs.«419285_j30786325577782_1_alg».proof.Proof.KB.C3
import proofs.«419285_j30786325577782_1_alg».proof.Proof.Gen.Kernel.Regions
import Idealize.ShloMosaic.Lib.Pipeline.RegionsLoop
import Idealize.ShloMosaic.Lib.Pipeline.FrameSuffix

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A boundary's contents read at the TensorCore's references (what a region's proof data take). -/
abbrev atTc (W : Dev nD → Valuation τ sig (Elt F)) : (c : Dev nD) → (b : Ref sig .tc) → Buf (Elt F) ((c : Thread nD τ).loc b) := fun c b => W c b

/-! ## The contents at each boundary -/

/-- At launch, and after the first host stretch (region 0's entry). -/
abbrev U0 (c : Dev nD) : Valuation τ sig (Elt F) := fun b => m (c, b)
abbrev U1 (c : Dev nD) : Valuation τ sig (Elt F) := StableHlo.after hostOps0 (U0 m c)
/-- What region 0 leaves in its two output arrays. -/
def X2a (c : Dev nD) : Buf (Elt F) ((c : Thread nD τ).loc main_v25_0) := (L0.dat (atTc (U1 m)) c).arrAt 7 cfg0.N
def X2b (c : Dev nD) : Buf (Elt F) ((c : Thread nD τ).loc main_v25_1) := (L0.dat (atTc (U1 m)) c).arrAt 8 cfg0.N
def U2 (c : Dev nD) : Valuation τ sig (Elt F) := Function.update (Function.update (U1 m c) main_v25_0 (X2a m c)) main_v25_1 (X2b m c)
abbrev U3 (c : Dev nD) : Valuation τ sig (Elt F) := StableHlo.after hostOps1 (U2 m c)
def X4a (c : Dev nD) : Buf (Elt F) ((c : Thread nD τ).loc main_v46_0) := (L1.dat (atTc (U3 m)) c).arrAt 7 cfg1.N
def X4b (c : Dev nD) : Buf (Elt F) ((c : Thread nD τ).loc main_v46_1) := (L1.dat (atTc (U3 m)) c).arrAt 8 cfg1.N
def U4 (c : Dev nD) : Valuation τ sig (Elt F) := Function.update (Function.update (U3 m c) main_v46_0 (X4a m c)) main_v46_1 (X4b m c)
abbrev U5 (c : Dev nD) : Valuation τ sig (Elt F) := StableHlo.after hostOps2 (U4 m c)
def X6a (c : Dev nD) : Buf (Elt F) ((c : Thread nD τ).loc main_v67_0) := (L2.dat (atTc (U5 m)) c).arrAt 7 cfg2.N
def X6b (c : Dev nD) : Buf (Elt F) ((c : Thread nD τ).loc main_v67_1) := (L2.dat (atTc (U5 m)) c).arrAt 8 cfg2.N
def U6 (c : Dev nD) : Valuation τ sig (Elt F) := Function.update (Function.update (U5 m c) main_v67_0 (X6a m c)) main_v67_1 (X6b m c)
abbrev U7 (c : Dev nD) : Valuation τ sig (Elt F) := StableHlo.after hostOps3 (U6 m c)
/-- What the classifier region leaves in its output array: the program's result. -/
def X8 (c : Dev nD) : Buf (Elt F) ((c : Thread nD τ).loc main_v72) := (C3.dat (atTc (U7 m)) c).arrAt 7 cfg3.N
def U8 (c : Dev nD) : Valuation τ sig (Elt F) := Function.update (U7 m c) main_v72 (X8 m c)

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => L0.dat (atTc (U1 m)) c
  | ⟨1, _⟩ => fun c => L1.dat (atTc (U3 m)) c
  | ⟨2, _⟩ => fun c => L2.dat (atTc (U5 m)) c
  | ⟨3, _⟩ => fun c => C3.dat (atTc (U7 m)) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at nothing. -/
abbrev Rr (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (U8 m c) ∗ ∃ r, prngReg c r)

/-! ## What each region changes -/

theorem U2_a (c : Dev nD) : U2 m c main_v25_0 = X2a m c := by
  unfold U2
  rw [Function.update_of_ne (StableHlo.devRef_ne_of_ne (by decide) : (Proc.devRef .tc main_v25_0 : DevRef τ sig) ≠ Proc.devRef .tc main_v25_1), Function.update_self]
theorem U2_b (c : Dev nD) : U2 m c main_v25_1 = X2b m c := by
  unfold U2; rw [Function.update_self]
theorem U2_of (c : Dev nD) (r : Ref sig .tc) (ha : r ≠ main_v25_0) (hb : r ≠ main_v25_1) : U2 m c r = U1 m c r := by
  unfold U2
  rw [Function.update_of_ne (StableHlo.devRef_ne_of_ne hb : (Proc.devRef .tc r : DevRef τ sig) ≠ Proc.devRef .tc main_v25_1),
    Function.update_of_ne (StableHlo.devRef_ne_of_ne ha : (Proc.devRef .tc r : DevRef τ sig) ≠ Proc.devRef .tc main_v25_0)]
theorem hF0_0 (c : Dev nD) : (L0.dat (atTc (U1 m)) c).arrAt 0 cfg0.N = atTc (U2 m) c main_arg0 :=
  (((L0.dat (atTc (U1 m)) c).arrAt_in 0 rfl _).trans (L0.A_eq (atTc (U1 m)) c 0)).trans (U2_of m c main_arg0 (by decide) (by decide)).symm
theorem hF0_1 (c : Dev nD) : (L0.dat (atTc (U1 m)) c).arrAt 1 cfg0.N = atTc (U2 m) c main_v14 :=
  (((L0.dat (atTc (U1 m)) c).arrAt_in 1 rfl _).trans (L0.A_eq (atTc (U1 m)) c 1)).trans (U2_of m c main_v14 (by decide) (by decide)).symm
theorem hF0_2 (c : Dev nD) : (L0.dat (atTc (U1 m)) c).arrAt 2 cfg0.N = atTc (U2 m) c main_v4 :=
  (((L0.dat (atTc (U1 m)) c).arrAt_in 2 rfl _).trans (L0.A_eq (atTc (U1 m)) c 2)).trans (U2_of m c main_v4 (by decide) (by decide)).symm
theorem hF0_3 (c : Dev nD) : (L0.dat (atTc (U1 m)) c).arrAt 3 cfg0.N = atTc (U2 m) c main_v16 :=
  (((L0.dat (atTc (U1 m)) c).arrAt_in 3 rfl _).trans (L0.A_eq (atTc (U1 m)) c 3)).trans (U2_of m c main_v16 (by decide) (by decide)).symm
theorem hF0_4 (c : Dev nD) : (L0.dat (atTc (U1 m)) c).arrAt 4 cfg0.N = atTc (U2 m) c main_v19 :=
  (((L0.dat (atTc (U1 m)) c).arrAt_in 4 rfl _).trans (L0.A_eq (atTc (U1 m)) c 4)).trans (U2_of m c main_v19 (by decide) (by decide)).symm
theorem hF0_5 (c : Dev nD) : (L0.dat (atTc (U1 m)) c).arrAt 5 cfg0.N = atTc (U2 m) c main_v21 :=
  (((L0.dat (atTc (U1 m)) c).arrAt_in 5 rfl _).trans (L0.A_eq (atTc (U1 m)) c 5)).trans (U2_of m c main_v21 (by decide) (by decide)).symm
theorem hF0_6 (c : Dev nD) : (L0.dat (atTc (U1 m)) c).arrAt 6 cfg0.N = atTc (U2 m) c main_v24 :=
  (((L0.dat (atTc (U1 m)) c).arrAt_in 6 rfl _).trans (L0.A_eq (atTc (U1 m)) c 6)).trans (U2_of m c main_v24 (by decide) (by decide)).symm
/-- At the region's exit each of its arrays holds what the pipeline leaves, -/
theorem hF0 (c : Dev nD) : ∀ w : Fin cfg0.W, (L0.dat (atTc (U1 m)) c).arrAt w cfg0.N = atTc (U2 m) c (Pipeline.arrRef spec0 w)
  | ⟨0, _⟩ => hF0_0 m c
  | ⟨1, _⟩ => hF0_1 m c
  | ⟨2, _⟩ => hF0_2 m c
  | ⟨3, _⟩ => hF0_3 m c
  | ⟨4, _⟩ => hF0_4 m c
  | ⟨5, _⟩ => hF0_5 m c
  | ⟨6, _⟩ => hF0_6 m c
  | ⟨7, _⟩ => (U2_a m c).symm
  | ⟨8, _⟩ => (U2_b m c).symm
/-- and every other buffer what it held at entry. -/
theorem hrest0 (c : Dev nD) : ∀ b, b ∉ Finset.univ.image (Pipeline.arrRef spec0) → atTc (U2 m) c b = atTc (U1 m) c b :=
  fun b hb => U2_of m c b (fun e => hb (Finset.mem_image.mpr ⟨7, Finset.mem_univ _, e.symm⟩)) (fun e => hb (Finset.mem_image.mpr ⟨8, Finset.mem_univ _, e.symm⟩))

theorem U4_a (c : Dev nD) : U4 m c main_v46_0 = X4a m c := by
  unfold U4
  rw [Function.update_of_ne (StableHlo.devRef_ne_of_ne (by decide) : (Proc.devRef .tc main_v46_0 : DevRef τ sig) ≠ Proc.devRef .tc main_v46_1), Function.update_self]
theorem U4_b (c : Dev nD) : U4 m c main_v46_1 = X4b m c := by
  unfold U4; rw [Function.update_self]
theorem U4_of (c : Dev nD) (r : Ref sig .tc) (ha : r ≠ main_v46_0) (hb : r ≠ main_v46_1) : U4 m c r = U3 m c r := by
  unfold U4
  rw [Function.update_of_ne (StableHlo.devRef_ne_of_ne hb : (Proc.devRef .tc r : DevRef τ sig) ≠ Proc.devRef .tc main_v46_1),
    Function.update_of_ne (StableHlo.devRef_ne_of_ne ha : (Proc.devRef .tc r : DevRef τ sig) ≠ Proc.devRef .tc main_v46_0)]
theorem hF1_0 (c : Dev nD) : (L1.dat (atTc (U3 m)) c).arrAt 0 cfg1.N = atTc (U4 m) c main_v25_0 :=
  (((L1.dat (atTc (U3 m)) c).arrAt_in 0 rfl _).trans (L1.A_eq (atTc (U3 m)) c 0)).trans (U4_of m c main_v25_0 (by decide) (by decide)).symm
theorem hF1_1 (c : Dev nD) : (L1.dat (atTc (U3 m)) c).arrAt 1 cfg1.N = atTc (U4 m) c main_v35 :=
  (((L1.dat (atTc (U3 m)) c).arrAt_in 1 rfl _).trans (L1.A_eq (atTc (U3 m)) c 1)).trans (U4_of m c main_v35 (by decide) (by decide)).symm
theorem hF1_2 (c : Dev nD) : (L1.dat (atTc (U3 m)) c).arrAt 2 cfg1.N = atTc (U4 m) c main_v4 :=
  (((L1.dat (atTc (U3 m)) c).arrAt_in 2 rfl _).trans (L1.A_eq (atTc (U3 m)) c 2)).trans (U4_of m c main_v4 (by decide) (by decide)).symm
theorem hF1_3 (c : Dev nD) : (L1.dat (atTc (U3 m)) c).arrAt 3 cfg1.N = atTc (U4 m) c main_v37 :=
  (((L1.dat (atTc (U3 m)) c).arrAt_in 3 rfl _).trans (L1.A_eq (atTc (U3 m)) c 3)).trans (U4_of m c main_v37 (by decide) (by decide)).symm
theorem hF1_4 (c : Dev nD) : (L1.dat (atTc (U3 m)) c).arrAt 4 cfg1.N = atTc (U4 m) c main_v40 :=
  (((L1.dat (atTc (U3 m)) c).arrAt_in 4 rfl _).trans (L1.A_eq (atTc (U3 m)) c 4)).trans (U4_of m c main_v40 (by decide) (by decide)).symm
theorem hF1_5 (c : Dev nD) : (L1.dat (atTc (U3 m)) c).arrAt 5 cfg1.N = atTc (U4 m) c main_v42 :=
  (((L1.dat (atTc (U3 m)) c).arrAt_in 5 rfl _).trans (L1.A_eq (atTc (U3 m)) c 5)).trans (U4_of m c main_v42 (by decide) (by decide)).symm
theorem hF1_6 (c : Dev nD) : (L1.dat (atTc (U3 m)) c).arrAt 6 cfg1.N = atTc (U4 m) c main_v45 :=
  (((L1.dat (atTc (U3 m)) c).arrAt_in 6 rfl _).trans (L1.A_eq (atTc (U3 m)) c 6)).trans (U4_of m c main_v45 (by decide) (by decide)).symm
/-- At the region's exit each of its arrays holds what the pipeline leaves, -/
theorem hF1 (c : Dev nD) : ∀ w : Fin cfg1.W, (L1.dat (atTc (U3 m)) c).arrAt w cfg1.N = atTc (U4 m) c (Pipeline.arrRef spec1 w)
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨6, _⟩ => hF1_6 m c
  | ⟨7, _⟩ => (U4_a m c).symm
  | ⟨8, _⟩ => (U4_b m c).symm
/-- and every other buffer what it held at entry. -/
theorem hrest1 (c : Dev nD) : ∀ b, b ∉ Finset.univ.image (Pipeline.arrRef spec1) → atTc (U4 m) c b = atTc (U3 m) c b :=
  fun b hb => U4_of m c b (fun e => hb (Finset.mem_image.mpr ⟨7, Finset.mem_univ _, e.symm⟩)) (fun e => hb (Finset.mem_image.mpr ⟨8, Finset.mem_univ _, e.symm⟩))

theorem U6_a (c : Dev nD) : U6 m c main_v67_0 = X6a m c := by
  unfold U6
  rw [Function.update_of_ne (StableHlo.devRef_ne_of_ne (by decide) : (Proc.devRef .tc main_v67_0 : DevRef τ sig) ≠ Proc.devRef .tc main_v67_1), Function.update_self]
theorem U6_b (c : Dev nD) : U6 m c main_v67_1 = X6b m c := by
  unfold U6; rw [Function.update_self]
theorem U6_of (c : Dev nD) (r : Ref sig .tc) (ha : r ≠ main_v67_0) (hb : r ≠ main_v67_1) : U6 m c r = U5 m c r := by
  unfold U6
  rw [Function.update_of_ne (StableHlo.devRef_ne_of_ne hb : (Proc.devRef .tc r : DevRef τ sig) ≠ Proc.devRef .tc main_v67_1),
    Function.update_of_ne (StableHlo.devRef_ne_of_ne ha : (Proc.devRef .tc r : DevRef τ sig) ≠ Proc.devRef .tc main_v67_0)]
theorem hF2_0 (c : Dev nD) : (L2.dat (atTc (U5 m)) c).arrAt 0 cfg2.N = atTc (U6 m) c main_v46_0 :=
  (((L2.dat (atTc (U5 m)) c).arrAt_in 0 rfl _).trans (L2.A_eq (atTc (U5 m)) c 0)).trans (U6_of m c main_v46_0 (by decide) (by decide)).symm
theorem hF2_1 (c : Dev nD) : (L2.dat (atTc (U5 m)) c).arrAt 1 cfg2.N = atTc (U6 m) c main_v56 :=
  (((L2.dat (atTc (U5 m)) c).arrAt_in 1 rfl _).trans (L2.A_eq (atTc (U5 m)) c 1)).trans (U6_of m c main_v56 (by decide) (by decide)).symm
theorem hF2_2 (c : Dev nD) : (L2.dat (atTc (U5 m)) c).arrAt 2 cfg2.N = atTc (U6 m) c main_v4 :=
  (((L2.dat (atTc (U5 m)) c).arrAt_in 2 rfl _).trans (L2.A_eq (atTc (U5 m)) c 2)).trans (U6_of m c main_v4 (by decide) (by decide)).symm
theorem hF2_3 (c : Dev nD) : (L2.dat (atTc (U5 m)) c).arrAt 3 cfg2.N = atTc (U6 m) c main_v58 :=
  (((L2.dat (atTc (U5 m)) c).arrAt_in 3 rfl _).trans (L2.A_eq (atTc (U5 m)) c 3)).trans (U6_of m c main_v58 (by decide) (by decide)).symm
theorem hF2_4 (c : Dev nD) : (L2.dat (atTc (U5 m)) c).arrAt 4 cfg2.N = atTc (U6 m) c main_v61 :=
  (((L2.dat (atTc (U5 m)) c).arrAt_in 4 rfl _).trans (L2.A_eq (atTc (U5 m)) c 4)).trans (U6_of m c main_v61 (by decide) (by decide)).symm
theorem hF2_5 (c : Dev nD) : (L2.dat (atTc (U5 m)) c).arrAt 5 cfg2.N = atTc (U6 m) c main_v63 :=
  (((L2.dat (atTc (U5 m)) c).arrAt_in 5 rfl _).trans (L2.A_eq (atTc (U5 m)) c 5)).trans (U6_of m c main_v63 (by decide) (by decide)).symm
theorem hF2_6 (c : Dev nD) : (L2.dat (atTc (U5 m)) c).arrAt 6 cfg2.N = atTc (U6 m) c main_v66 :=
  (((L2.dat (atTc (U5 m)) c).arrAt_in 6 rfl _).trans (L2.A_eq (atTc (U5 m)) c 6)).trans (U6_of m c main_v66 (by decide) (by decide)).symm
/-- At the region's exit each of its arrays holds what the pipeline leaves, -/
theorem hF2 (c : Dev nD) : ∀ w : Fin cfg2.W, (L2.dat (atTc (U5 m)) c).arrAt w cfg2.N = atTc (U6 m) c (Pipeline.arrRef spec2 w)
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
  | ⟨6, _⟩ => hF2_6 m c
  | ⟨7, _⟩ => (U6_a m c).symm
  | ⟨8, _⟩ => (U6_b m c).symm
/-- and every other buffer what it held at entry. -/
theorem hrest2 (c : Dev nD) : ∀ b, b ∉ Finset.univ.image (Pipeline.arrRef spec2) → atTc (U6 m) c b = atTc (U5 m) c b :=
  fun b hb => U6_of m c b (fun e => hb (Finset.mem_image.mpr ⟨7, Finset.mem_univ _, e.symm⟩)) (fun e => hb (Finset.mem_image.mpr ⟨8, Finset.mem_univ _, e.symm⟩))

theorem U8_a (c : Dev nD) : U8 m c main_v72 = X8 m c := by
  unfold U8; rw [Function.update_self]
theorem U8_of (c : Dev nD) (r : Ref sig .tc) (ha : r ≠ main_v72) : U8 m c r = U7 m c r := by
  unfold U8
  rw [Function.update_of_ne (StableHlo.devRef_ne_of_ne ha : (Proc.devRef .tc r : DevRef τ sig) ≠ Proc.devRef .tc main_v72)]
theorem hF3_0 (c : Dev nD) : (C3.dat (atTc (U7 m)) c).arrAt 0 cfg3.N = atTc (U8 m) c main_v68 :=
  (((C3.dat (atTc (U7 m)) c).arrAt_in 0 rfl _).trans (C3.A_eq (atTc (U7 m)) c 0)).trans (U8_of m c main_v68 (by decide)).symm
theorem hF3_1 (c : Dev nD) : (C3.dat (atTc (U7 m)) c).arrAt 1 cfg3.N = atTc (U8 m) c main_arg7 :=
  (((C3.dat (atTc (U7 m)) c).arrAt_in 1 rfl _).trans (C3.A_eq (atTc (U7 m)) c 1)).trans (U8_of m c main_arg7 (by decide)).symm
theorem hF3_2 (c : Dev nD) : (C3.dat (atTc (U7 m)) c).arrAt 2 cfg3.N = atTc (U8 m) c main_v69 :=
  (((C3.dat (atTc (U7 m)) c).arrAt_in 2 rfl _).trans (C3.A_eq (atTc (U7 m)) c 2)).trans (U8_of m c main_v69 (by decide)).symm
theorem hF3_3 (c : Dev nD) : (C3.dat (atTc (U7 m)) c).arrAt 3 cfg3.N = atTc (U8 m) c main_arg9 :=
  (((C3.dat (atTc (U7 m)) c).arrAt_in 3 rfl _).trans (C3.A_eq (atTc (U7 m)) c 3)).trans (U8_of m c main_arg9 (by decide)).symm
theorem hF3_4 (c : Dev nD) : (C3.dat (atTc (U7 m)) c).arrAt 4 cfg3.N = atTc (U8 m) c main_v70 :=
  (((C3.dat (atTc (U7 m)) c).arrAt_in 4 rfl _).trans (C3.A_eq (atTc (U7 m)) c 4)).trans (U8_of m c main_v70 (by decide)).symm
theorem hF3_5 (c : Dev nD) : (C3.dat (atTc (U7 m)) c).arrAt 5 cfg3.N = atTc (U8 m) c main_arg11 :=
  (((C3.dat (atTc (U7 m)) c).arrAt_in 5 rfl _).trans (C3.A_eq (atTc (U7 m)) c 5)).trans (U8_of m c main_arg11 (by decide)).symm
theorem hF3_6 (c : Dev nD) : (C3.dat (atTc (U7 m)) c).arrAt 6 cfg3.N = atTc (U8 m) c main_v71 :=
  (((C3.dat (atTc (U7 m)) c).arrAt_in 6 rfl _).trans (C3.A_eq (atTc (U7 m)) c 6)).trans (U8_of m c main_v71 (by decide)).symm
/-- At the region's exit each of its arrays holds what the pipeline leaves, -/
theorem hF3 (c : Dev nD) : ∀ w : Fin cfg3.W, (C3.dat (atTc (U7 m)) c).arrAt w cfg3.N = atTc (U8 m) c (Pipeline.arrRef spec3 w)
  | ⟨0, _⟩ => hF3_0 m c
  | ⟨1, _⟩ => hF3_1 m c
  | ⟨2, _⟩ => hF3_2 m c
  | ⟨3, _⟩ => hF3_3 m c
  | ⟨4, _⟩ => hF3_4 m c
  | ⟨5, _⟩ => hF3_5 m c
  | ⟨6, _⟩ => hF3_6 m c
  | ⟨7, _⟩ => (U8_a m c).symm
theorem hrest3 (c : Dev nD) : ∀ b, b ∉ Finset.univ.image (Pipeline.arrRef spec3) → atTc (U8 m) c b = atTc (U7 m) c b :=
  fun b hb => U8_of m c b (fun e => hb (Finset.mem_image.mpr ⟨7, Finset.mem_univ _, e.symm⟩))

/-! ## The arguments end as launched -/

/-- A reference that no host stretch writes and that is no region's output holds its launch contents at the end. -/
theorem U8_kept (c : Dev nD) (r : Ref sig .tc) (h0 : r ∉ hostOps0_W) (h1 : r ∉ hostOps1_W) (h2 : r ∉ hostOps2_W) (h3 : r ∉ hostOps3_W)
    (hn : r ∉ ([main_v25_0, main_v25_1, main_v46_0, main_v46_1, main_v67_0, main_v67_1, main_v72] : List (Ref sig .tc))) :
    U8 m c r = m ((c : Thread nD τ).loc r) := by
  have e := fun (x : Ref sig .tc) (hx : x ∈ ([main_v25_0, main_v25_1, main_v46_0, main_v46_1, main_v67_0, main_v67_1, main_v72] : List (Ref sig .tc))) (e : r = x) => hn (e ▸ hx)
  calc U8 m c r = U7 m c r := U8_of m c r (e _ (by decide))
    _ = U6 m c r := StableHlo.after_of_writes_sub hostOps3 _ hostOps3_writes h3
    _ = U5 m c r := U6_of m c r (e _ (by decide)) (e _ (by decide))
    _ = U4 m c r := StableHlo.after_of_writes_sub hostOps2 _ hostOps2_writes h2
    _ = U3 m c r := U4_of m c r (e _ (by decide)) (e _ (by decide))
    _ = U2 m c r := StableHlo.after_of_writes_sub hostOps1 _ hostOps1_writes h1
    _ = U1 m c r := U2_of m c r (e _ (by decide)) (e _ (by decide))
    _ = U0 m c r := StableHlo.after_of_writes_sub hostOps0 _ hostOps0_writes h0
    _ = m ((c : Thread nD τ).loc r) := rfl

/-! ## The regions as segments -/

set_option backward.isDefEq.respectTransparency.types false in
/-- Region 0: entered with every unscoped buffer at `U1`, left with them at `U2`. Its windows' arrays are split
    out of the unscoped buffers at entry and put back at what the pipeline's write-backs leave; the generator register goes
    into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (L0.body_obligation (atTc (U1 m)) c).loose
  hwaits := Pipeline.hwaits_of_owed_zero _ _ _ _ L lv 0 fun _ _ => rfl
  pre c := iprop(StableHlo.held (c : Thread nD τ) (Pipeline.ucRefs τ sig) (U1 m c) ∗ Rr c)
  post c := iprop(StableHlo.held (c : Thread nD τ) (Pipeline.ucRefs τ sig) (U2 m c) ∗ Rr c)
  X c := iprop(∃ r, prngReg c r)
  Y c := iprop(∃ r, prngReg c r)
  Z c := Pipeline.unscopedRest (Ix := Unit) (Name := ℕ) (U := UR sig nD τ) (Lvl := ℕ) spec0 c (atTc (U1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (U1 m) c) (atTc (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at `U3`, left with them at `U4`. Its windows' arrays are split
    out of the unscoped buffers at entry and put back at what the pipeline's write-backs leave; the generator register goes
    into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (L1.body_obligation (atTc (U3 m)) c).loose
  hwaits := Pipeline.hwaits_of_owed_zero _ _ _ _ L lv 1 fun _ _ => rfl
  pre c := iprop(StableHlo.held (c : Thread nD τ) (Pipeline.ucRefs τ sig) (U3 m c) ∗ Rr c)
  post c := iprop(StableHlo.held (c : Thread nD τ) (Pipeline.ucRefs τ sig) (U4 m c) ∗ Rr c)
  X c := iprop(∃ r, prngReg c r)
  Y c := iprop(∃ r, prngReg c r)
  Z c := Pipeline.unscopedRest (Ix := Unit) (Name := ℕ) (U := UR sig nD τ) (Lvl := ℕ) spec1 c (atTc (U3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (U3 m) c) (atTc (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at `U5`, left with them at `U6`. Its windows' arrays are split
    out of the unscoped buffers at entry and put back at what the pipeline's write-backs leave; the generator register goes
    into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (L2.body_obligation (atTc (U5 m)) c).loose
  hwaits := Pipeline.hwaits_of_owed_zero _ _ _ _ L lv 2 fun _ _ => rfl
  pre c := iprop(StableHlo.held (c : Thread nD τ) (Pipeline.ucRefs τ sig) (U5 m c) ∗ Rr c)
  post c := iprop(StableHlo.held (c : Thread nD τ) (Pipeline.ucRefs τ sig) (U6 m c) ∗ Rr c)
  X c := iprop(∃ r, prngReg c r)
  Y c := iprop(∃ r, prngReg c r)
  Z c := Pipeline.unscopedRest (Ix := Unit) (Name := ℕ) (U := UR sig nD τ) (Lvl := ℕ) spec2 c (atTc (U5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (U5 m) c) (atTc (U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at `U7`, left with them at `U8`. Its windows' arrays are split
    out of the unscoped buffers at entry and put back at what the pipeline's write-backs leave; the generator register goes
    into the invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (C3.body_obligation (atTc (U7 m)) c).loose
  hwaits := Pipeline.hwaits_of_owed_zero _ _ _ _ L lv 3 fun _ _ => rfl
  pre c := iprop(StableHlo.held (c : Thread nD τ) (Pipeline.ucRefs τ sig) (U7 m c) ∗ Rr c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (atTc (U7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (U7 m) c) (atTc (U8 m) c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (U0 m)),
    .region (reg0 m),
    .host (hseg hostOps1 hostOps1_sub hostOps1_fresh (U2 m)),
    .region (reg1 m),
    .host (hseg hostOps2 hostOps2_sub hostOps2_fresh (U4 m)),
    .region (reg2 m),
    .host (hseg hostOps3 hostOps3_sub hostOps3_fresh (U6 m)),
    .region (reg3 m) ]
theorem main_run (c : Dev nD) : main (F := F) c = Pipeline.Seg.run (segs m) := (main_chain c).trans (by chain_rfl)

set_option backward.isDefEq.respectTransparency.types false in
/-- From any memory with zero counters, every weakly fair execution of the program terminates, nothing faulting; at the
    end the result array holds what the classifier region left and every argument array its launch contents. -/
theorem run_main : θ_run defs (onTc (τ := τ) (main (F := F))) ⟨m, fun _ => 0, ρ⟩ (fun r => ∀ c : Dev nD,
      r.2.mem ((c.tc : Thread nD τ).loc main_v72) = X8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ Rr c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U8 m c b)
    (hfin := fun c s' => by
      iintro ⟨⟨Hh, -⟩, HSI⟩
      unfold StableHlo.held
      imodintro
      iapply (pointsTo_read_all (Pipeline.ucRefs τ sig) (fun b => (((c : Thread nD τ)).1, b)) (U8 m c) s')
      isplitl [Hh] <;> iassumption)
    (hQ := fun s h c =>
      ⟨(h c _ (mem_uc main_v72 (by decide))).trans (U8_a m c),
       (h c _ (mem_uc main_arg0 (by decide))).trans (U8_kept m c main_arg0 (by decide) (by decide) (by decide) (by decide) (by decide)),
       (h c _ (mem_uc main_arg1 (by decide))).trans (U8_kept m c main_arg1 (by decide) (by decide) (by decide) (by decide) (by decide)),
       (h c _ (mem_uc main_arg2 (by decide))).trans (U8_kept m c main_arg2 (by decide) (by decide) (by decide) (by decide) (by decide)),
       (h c _ (mem_uc main_arg3 (by decide))).trans (U8_kept m c main_arg3 (by decide) (by decide) (by decide) (by decide) (by decide)),
       (h c _ (mem_uc main_arg4 (by decide))).trans (U8_kept m c main_arg4 (by decide) (by decide) (by decide) (by decide) (by decide)),
       (h c _ (mem_uc main_arg5 (by decide))).trans (U8_kept m c main_arg5 (by decide) (by decide) (by decide) (by decide) (by decide)),
       (h c _ (mem_uc main_arg6 (by decide))).trans (U8_kept m c main_arg6 (by decide) (by decide) (by decide) (by decide) (by decide)),
       (h c _ (mem_uc main_arg7 (by decide))).trans (U8_kept m c main_arg7 (by decide) (by decide) (by decide) (by decide) (by decide)),
       (h c _ (mem_uc main_arg8 (by decide))).trans (U8_kept m c main_arg8 (by decide) (by decide) (by decide) (by decide) (by decide)),
       (h c _ (mem_uc main_arg9 (by decide))).trans (U8_kept m c main_arg9 (by decide) (by decide) (by decide) (by decide) (by decide)),
       (h c _ (mem_uc main_arg10 (by decide))).trans (U8_kept m c main_arg10 (by decide) (by decide) (by decide) (by decide) (by decide)),
       (h c _ (mem_uc main_arg11 (by decide))).trans (U8_kept m c main_arg11 (by decide) (by decide) (by decide) (by decide) (by decide)),
       (h c _ (mem_uc main_arg12 (by decide))).trans (U8_kept m c main_arg12 (by decide) (by decide) (by decide) (by decide) (by decide))⟩)

end Cert.Kernel.Whole

end
-- ==== Proof.KI.L0Runs.lean ====
/-
  Layer region 0 (a node-update call): what its two control cases share.
  A block of a window at a grid point is the window's array read through that point's rectangle; an input
  window's staging buffer holds its block at every point, whether the pipeline fetched it there or kept it
  (the four weight and bias windows are fetched once, their block index never moves).
  The body branches on "first grid point": there it zeroes the pooled accumulator before adding.
-/
import proofs.«419285_j30786325577782_1_alg».proof.Proof.Gen.KernelIdeal.Launch
import proofs.«419285_j30786325577782_1_alg».proof.Proof.Gen.KernelIdeal.Skeleton
import proofs.«419285_j30786325577782_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.L0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: its array, as the region finds it, read through the point's rectangle. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in5 {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_in6 {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The body's one branch condition, from the grid coordinate: "this is grid point 0". -/
abbrev cond (i : grid0.Coords) : Prop := (Scalar.cmpi .ne (Scalar.extui (Scalar.cmpi .eq (BitVec.ofNat 32 (i 0).val) 0#32)) 0#32) = 1#1
/-- It holds at the first of the fifty points only. -/
theorem hcond : ∀ t : Fin cfg0.N, cond (grid0.coords t) ↔ t.val = 0 :=
  (by decide +kernel : ∀ t : Fin grid0.N, cond (grid0.coords t) ↔ t.val = 0)

/-- One staging buffer of each output window, through which its contents are stated. -/
abbrev VO7 : View sig .tc .vmem S2000x128 .f32 := (Memref.whole cc0_stg7_0 : Memref sig .tc .vmem S2000x128 .f32).view
abbrev VO8 : View sig .tc .vmem S512x128 .f32 := (Memref.whole cc0_stg8_0 : Memref sig .tc .vmem S512x128 .f32).view
/-- Each window's current staging memref at point `t`, as the pipeline passes it to the body. -/
abbrev ms0 (t : Fin cfg0.N) : Memref sig .tc .vmem S2000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2000x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2000x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x128 .f32 := win0_8.stage (cfg0.slots t 8)
abbrev hs8 (t : Fin cfg0.N) : (ms8 t).IsWhole := hstage0_8 ((cfg0.slots t 8).cast nbuf0_8)

end Cert.KernelIdeal.L0

end
-- ==== Proof.KI.L0RunA.lean ====
/-
  Layer region 0, the first grid point: the body zeroes the pooled accumulator, stores the new node features,
  then adds this tile's pooled contribution to the (zeroed) accumulator. The lists of stored pieces each
  output buffer ends with are found by running the body.
-/
import proofs.«419285_j30786325577782_1_alg».proof.Proof.KI.L0Runs

set_option maxRecDepth 16384

noncomputable section

namespace Cert.KernelIdeal.L0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first grid point, on whole staging memrefs: the seven inputs at their contents, the two outputs
    at anything; it ends with the inputs as they were and each output holding its stored pieces. -/
noncomputable def kernelRun_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i)
    (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) :
    { L : List (View.Piece (Elt F) S2000x128 .f32) × List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2)) -∗ K ⟨⟩))
          ⊢ wp frame (wpE (defs₀ (F := F)) Variants.none c none) E (cc0__gin_layer_kernel i arg1 harg1 arg2 harg2 arg3 harg3 arg4 harg4 arg5 harg5 arg6 harg6 arg7 harg7 arg8 harg8 arg9 harg9) K } := by
  refine ⟨⟨?_, ?_⟩, fun E K => ?run⟩
  case run =>
    simp only [cc0__gin_layer_kernel_eq_skeleton]; unfold cc0__gin_layer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    iexists _; iexact H8

end Cert.KernelIdeal.L0

end
-- ==== Proof.KI.L0RunB.lean ====
/-
  Layer region 0, every grid point after the first: the body stores the new node features and adds this tile's
  pooled contribution to what the accumulator already holds (the sum over the earlier tiles).
-/
import proofs.«419285_j30786325577782_1_alg».proof.Proof.KI.L0RunA

set_option maxRecDepth 16384

noncomputable section

namespace Cert.KernelIdeal.L0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a later grid point, on whole staging memrefs: the seven inputs at their contents, the pooled
    accumulator at its running contents `xo8`, the node-feature output at anything. -/
noncomputable def kernelRun_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i)
    (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) :
    { L : List (View.Piece (Elt F) S2000x128 .f32) × List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2)) -∗ K ⟨⟩))
          ⊢ wp frame (wpE (defs₀ (F := F)) Variants.none c none) E (cc0__gin_layer_kernel i arg1 harg1 arg2 harg2 arg3 harg3 arg4 harg4 arg5 harg5 arg6 harg6 arg7 harg7 arg8 harg8 arg9 harg9) K } := by
  refine ⟨⟨?_, ?_⟩, fun E K => ?run⟩
  case run =>
    simp only [cc0__gin_layer_kernel_eq_skeleton]; unfold cc0__gin_layer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    iexists _; iexact H8

end Cert.KernelIdeal.L0

end
-- ==== Proof.KI.L0Dat.lean ====
/-
  Layer region 0: what its two output buffers hold after each grid point, and the pipeline's proof data.
  The node-feature output's block at a point is what that point stored. The pooled output is one resident block:
  point 0 leaves the first tile's contribution over zero, every later point leaves the previous contents plus its
  tile's contribution; it is written back once, after the last point.
-/
import proofs.«419285_j30786325577782_1_alg».proof.Proof.KI.L0RunB

set_option maxRecDepth 16384

noncomputable section

namespace Cert.KernelIdeal.L0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point's stores tile each output buffer, so they cover it. -/
theorem cover_A_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (y : S2000x128.Idx) :
    ∃ pc ∈ (kernelRun_A c i arg1 harg1 arg2 harg2 arg3 harg3 arg4 harg4 arg5 harg5 arg6 harg6 arg7 harg7 arg8 harg8 arg9 harg9 hc x0 x1 x2 x3 x4 x5 x6).1.1, y ∈ pc.1.set :=
  View.cover_of_tiledL (kernelRun_A c i arg1 harg1 arg2 harg2 arg3 harg3 arg4 harg4 arg5 harg5 arg6 harg6 arg7 harg7 arg8 harg8 arg9 harg9 hc x0 x1 x2 x3 x4 x5 x6).1.1 S2000x128.size (by sl_kernel_rfl) y
theorem cover_A_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (y : S512x128.Idx) :
    ∃ pc ∈ (kernelRun_A c i arg1 harg1 arg2 harg2 arg3 harg3 arg4 harg4 arg5 harg5 arg6 harg6 arg7 harg7 arg8 harg8 arg9 harg9 hc x0 x1 x2 x3 x4 x5 x6).1.2, y ∈ pc.1.set :=
  View.cover_of_tiledL (kernelRun_A c i arg1 harg1 arg2 harg2 arg3 harg3 arg4 harg4 arg5 harg5 arg6 harg6 arg7 harg7 arg8 harg8 arg9 harg9 hc x0 x1 x2 x3 x4 x5 x6).1.2 S512x128.size (by sl_kernel_rfl) y
/-- What the first point leaves in each output's staging buffer: its stored pieces read back. -/
def out_A_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) : Vec F S2000x128 .f32 :=
  VO7.read (Elt F) (VO7.writes (Elt F) VO7.junk (kernelRun_A c i arg1 harg1 arg2 harg2 arg3 harg3 arg4 harg4 arg5 harg5 arg6 harg6 arg7 harg7 arg8 harg8 arg9 harg9 hc x0 x1 x2 x3 x4 x5 x6).1.1)
def out_A_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) : Vec F S512x128 .f32 :=
  VO8.read (Elt F) (VO8.writes (Elt F) VO8.junk (kernelRun_A c i arg1 harg1 arg2 harg2 arg3 harg3 arg4 harg4 arg5 harg5 arg6 harg6 arg7 harg7 arg8 harg8 arg9 harg9 hc x0 x1 x2 x3 x4 x5 x6).1.2)

/-- A later point's stores tile each output buffer too. -/
theorem cover_B_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) (y : S2000x128.Idx) :
    ∃ pc ∈ (kernelRun_B c i arg1 harg1 arg2 harg2 arg3 harg3 arg4 harg4 arg5 harg5 arg6 harg6 arg7 harg7 arg8 harg8 arg9 harg9 hc x0 x1 x2 x3 x4 x5 x6 xo8).1.1, y ∈ pc.1.set :=
  View.cover_of_tiledL (kernelRun_B c i arg1 harg1 arg2 harg2 arg3 harg3 arg4 harg4 arg5 harg5 arg6 harg6 arg7 harg7 arg8 harg8 arg9 harg9 hc x0 x1 x2 x3 x4 x5 x6 xo8).1.1 S2000x128.size (by sl_kernel_rfl) y
theorem cover_B_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) (y : S512x128.Idx) :
    ∃ pc ∈ (kernelRun_B c i arg1 harg1 arg2 harg2 arg3 harg3 arg4 harg4 arg5 harg5 arg6 harg6 arg7 harg7 arg8 harg8 arg9 harg9 hc x0 x1 x2 x3 x4 x5 x6 xo8).1.2, y ∈ pc.1.set :=
  View.cover_of_tiledL (kernelRun_B c i arg1 harg1 arg2 harg2 arg3 harg3 arg4 harg4 arg5 harg5 arg6 harg6 arg7 harg7 arg8 harg8 arg9 harg9 hc x0 x1 x2 x3 x4 x5 x6 xo8).1.2 S512x128.size (by sl_kernel_rfl) y
def out_B_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) : Vec F S2000x128 .f32 :=
  VO7.read (Elt F) (VO7.writes (Elt F) VO7.junk (kernelRun_B c i arg1 harg1 arg2 harg2 arg3 harg3 arg4 harg4 arg5 harg5 arg6 harg6 arg7 harg7 arg8 harg8 arg9 harg9 hc x0 x1 x2 x3 x4 x5 x6 xo8).1.1)
def out_B_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) : Vec F S512x128 .f32 :=
  VO8.read (Elt F) (VO8.writes (Elt F) VO8.junk (kernelRun_B c i arg1 harg1 arg2 harg2 arg3 harg3 arg4 harg4 arg5 harg5 arg6 harg6 arg7 harg7 arg8 harg8 arg9 harg9 hc x0 x1 x2 x3 x4 x5 x6 xo8).1.2)

variable (V : (c : Dev nD) → (b : Ref sig .tc) → Buf (Elt F) ((c : Thread nD τ).loc b))

/-- What the two output buffers hold after the body at position `n` (node features, pooled accumulator): the first
    point's contents at 0; afterwards the later-point contents over the accumulator the point before left. -/
def outsAt (c : Dev nD) : (n : ℕ) → n < cfg0.N → Vec F S2000x128 .f32 × Vec F S512x128 .f32
  | 0, hn =>
    (out_A_7 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) ((hcond ⟨0, hn⟩).mpr rfl) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩),
     out_A_8 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) ((hcond ⟨0, hn⟩).mpr rfl) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩))
  | n + 1, hn =>
    (out_B_7 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (fun h => Nat.succ_ne_zero n ((hcond ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt c n (Nat.lt_of_succ_lt hn)).2,
     out_B_8 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (fun h => Nat.succ_ne_zero n ((hcond ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt c n (Nat.lt_of_succ_lt hn)).2)

theorem outsAt_A (c : Dev nD) (t : Fin cfg0.N) (h0 : t.val = 0) :
    outsAt V c t.val t.isLt =
      (out_A_7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hcond t).mpr h0) (iblk V c 0 t) (iblk V c 1 t) (iblk V c 2 t) (iblk V c 3 t) (iblk V c 4 t) (iblk V c 5 t) (iblk V c 6 t),
       out_A_8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hcond t).mpr h0) (iblk V c 0 t) (iblk V c 1 t) (iblk V c 2 t) (iblk V c 3 t) (iblk V c 4 t) (iblk V c 5 t) (iblk V c 6 t)) := by
  obtain ⟨n, hn⟩ := t
  cases n with
  | zero => exact rfl
  | succ n => exact absurd h0 (Nat.succ_ne_zero n)

theorem outsAt_B (c : Dev nD) (t : Fin cfg0.N) (h0 : ¬t.val = 0) :
    outsAt V c t.val t.isLt =
      (out_B_7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h => h0 ((hcond t).mp h)) (iblk V c 0 t) (iblk V c 1 t) (iblk V c 2 t) (iblk V c 3 t) (iblk V c 4 t) (iblk V c 5 t) (iblk V c 6 t) (outsAt V c (t.val - 1) (Nat.lt_of_le_of_lt (Nat.sub_le _ _) t.isLt)).2,
       out_B_8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h => h0 ((hcond t).mp h)) (iblk V c 0 t) (iblk V c 1 t) (iblk V c 2 t) (iblk V c 3 t) (iblk V c 4 t) (iblk V c 5 t) (iblk V c 6 t) (outsAt V c (t.val - 1) (Nat.lt_of_le_of_lt (Nat.sub_le _ _) t.isLt)).2) := by
  obtain ⟨n, hn⟩ := t
  cases n with
  | zero => exact absurd rfl h0
  | succ n => exact rfl

/-- The pipeline's proof data on core `c`: the arrays as the region finds them; after the body each input's buffer at its
    block and the outputs' at `outsAt`; the scoped rest and the generator register untouched; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt V c t.val t.isLt).1
    | ⟨8, _⟩ => (outsAt V c t.val t.isLt).2
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = iblk V c 6 t := by dsimp only [dat]
theorem after7 (c : Dev nD) (t : Fin cfg0.N) : (dat V c).after 7 t = (outsAt V c t.val t.isLt).1 := by dsimp only [dat]
theorem after8 (c : Dev nD) (t : Fin cfg0.N) : (dat V c).after 8 t = (outsAt V c t.val t.isLt).2 := by dsimp only [dat]

theorem before0 (c : Dev nD) (t : Fin cfg0.N) (d) : (dat V c).before 0 t d = iblk V c 0 t :=
  before_in0 V (dat V c) (A_eq V c 0) (after0 V c) t d
theorem before1 (c : Dev nD) (t : Fin cfg0.N) (d) : (dat V c).before 1 t d = iblk V c 1 t :=
  before_in1 V (dat V c) (A_eq V c 1) (after1 V c) t d
theorem before2 (c : Dev nD) (t : Fin cfg0.N) (d) : (dat V c).before 2 t d = iblk V c 2 t :=
  before_in2 V (dat V c) (A_eq V c 2) (after2 V c) t d
theorem before3 (c : Dev nD) (t : Fin cfg0.N) (d) : (dat V c).before 3 t d = iblk V c 3 t :=
  before_in3 V (dat V c) (A_eq V c 3) (after3 V c) t d
theorem before4 (c : Dev nD) (t : Fin cfg0.N) (d) : (dat V c).before 4 t d = iblk V c 4 t :=
  before_in4 V (dat V c) (A_eq V c 4) (after4 V c) t d
theorem before5 (c : Dev nD) (t : Fin cfg0.N) (d) : (dat V c).before 5 t d = iblk V c 5 t :=
  before_in5 V (dat V c) (A_eq V c 5) (after5 V c) t d
theorem before6 (c : Dev nD) (t : Fin cfg0.N) (d) : (dat V c).before 6 t d = iblk V c 6 t :=
  before_in6 V (dat V c) (A_eq V c 6) (after6 V c) t d
/-- After the first point the pooled accumulator's buffer holds what the point before left: it is written back only after
    the last point, and the window is live and uncut. -/
theorem before8_B (c : Dev nD) (t : Fin cfg0.N) (h0 : ¬t.val = 0) (d) :
    (dat V c).before 8 t d = (outsAt V c (t.val - 1) (Nat.lt_of_le_of_lt (Nat.sub_le _ _) t.isLt)).2 := by
  have hN : t.val < 50 := lt_of_lt_of_eq t.isLt (show cfg0.N = 50 from N_0)
  rw [Dat.before_out_kept _ 8 rfl t h0 (Bool.eq_false_iff.mpr fun h => by have := (flush0_8 _).mp h; dsimp only at this; omega)
    (fun _ => rfl) (fun _ _ => rfl)]
  dsimp only [dat]

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t))

set_option maxHeartbeats 4000000 in
/-- The body at any point: the inputs' buffers hold their blocks; at point 0 the first-point run applies, later the
    later-point run over the accumulator the point before left; the invariant and the core's dues pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6]
  rw [show (dat V c).Φ t.succ = (dat V c).Φ t.castSucc from rfl,
    show (dat V c).owesAt () t.succ = (dat V c).owesAt () t.castSucc from rfl,
    after0, after1, after2, after3, after4, after5, after6, after7, after8]
  by_cases h0 : t.val = 0
  · rw [outsAt_A V c t h0]
    dsimp only
    unfold out_A_7 out_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun_A c (grid0.coords t) _ _ _ _ _ _ _ _ _ _ _ _ _ _ _ _ _ _ ((hcond t).mpr h0) (iblk V c 0 t) (iblk V c 1 t) (iblk V c 2 t) (iblk V c 3 t) (iblk V c 4 t) (iblk V c 5 t) (iblk V c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover_A_7 c _ _ _ _ _ _ _ _ _ _ _ _ _ _ _ _ _ _ _ _ _ _ _ _ _ _ _)
    unfold owns; iexists _; isplitr
    swap; · iexact H8
    ipureintro; exact View.read_writes_of_cover _ _ _ _ _ (cover_A_8 c _ _ _ _ _ _ _ _ _ _ _ _ _ _ _ _ _ _ _ _ _ _ _ _ _ _ _)
  · rw [outsAt_B V c t h0]
    dsimp only
    simp only [before8_B V c t h0]
    unfold out_B_7 out_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun_B c (grid0.coords t) _ _ _ _ _ _ _ _ _ _ _ _ _ _ _ _ _ _ (fun h => h0 ((hcond t).mp h)) (iblk V c 0 t) (iblk V c 1 t) (iblk V c 2 t) (iblk V c 3 t) (iblk V c 4 t) (iblk V c 5 t) (iblk V c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover_B_7 c _ _ _ _ _ _ _ _ _ _ _ _ _ _ _ _ _ _ _ _ _ _ _ _ _ _ _ _)
    unfold owns; iexists _; isplitr
    swap; · iexact H8
    ipureintro; exact View.read_writes_of_cover _ _ _ _ _ (cover_B_8 c _ _ _ _ _ _ _ _ _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.L0

end
-- ==== Proof.KI.L1Runs.lean ====
/-
  Layer region 1 (a node-update call): what its two control cases share.
  A block of a window at a grid point is the window's array read through that point's rectangle; an input
  window's staging buffer holds its block at every point, whether the pipeline fetched it there or kept it
  (the four weight and bias windows are fetched once, their block index never moves).
  The body branches on "first grid point": there it zeroes the pooled accumulator before adding.
-/
import proofs.«419285_j30786325577782_1_alg».proof.Proof.Gen.KernelIdeal.Launch
import proofs.«419285_j30786325577782_1_alg».proof.Proof.Gen.KernelIdeal.Skeleton
import proofs.«419285_j30786325577782_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: its array, as the region finds it, read through the point's rectangle. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_in0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_in6 {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The body's one branch condition, from the grid coordinate: "this is grid point 0". -/
abbrev cond (i : grid1.Coords) : Prop := (Scalar.cmpi .ne (Scalar.extui (Scalar.cmpi .eq (BitVec.ofNat 32 (i 0).val) 0#32)) 0#32) = 1#1
/-- It holds at the first of the fifty points only. -/
theorem hcond : ∀ t : Fin cfg1.N, cond (grid1.coords t) ↔ t.val = 0 :=
  (by decide +kernel : ∀ t : Fin grid1.N, cond (grid1.coords t) ↔ t.val = 0)

/-- One staging buffer of each output window, through which its contents are stated. -/
abbrev VO7 : View sig .tc .vmem S2000x128 .f32 := (Memref.whole cc1_stg7_0 : Memref sig .tc .vmem S2000x128 .f32).view
abbrev VO8 : View sig .tc .vmem S512x128 .f32 := (Memref.whole cc1_stg8_0 : Memref sig .tc .vmem S512x128 .f32).view
/-- Each window's current staging memref at point `t`, as the pipeline passes it to the body. -/
abbrev ms0 (t : Fin cfg1.N) : Memref sig .tc .vmem S2000x128 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S2000x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S2000x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S128x128 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x128 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S128x128 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1x128 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S2000x128 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S512x128 .f32 := win1_8.stage (cfg1.slots t 8)
abbrev hs8 (t : Fin cfg1.N) : (ms8 t).IsWhole := hstage1_8 ((cfg1.slots t 8).cast nbuf1_8)

end Cert.KernelIdeal.L1

end
-- ==== Proof.KI.L1RunA.lean ====
/-
  Layer region 1, the first grid point: the body zeroes the pooled accumulator, stores the new node features,
  then adds this tile's pooled contribution to the (zeroed) accumulator. The lists of stored pieces each
  output buffer ends with are found by running the body.
-/
import proofs.«419285_j30786325577782_1_alg».proof.Proof.KI.L1Runs

set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first grid point, on whole staging memrefs: the seven inputs at their contents, the two outputs
    at anything; it ends with the inputs as they were and each output holding its stored pieces. -/
noncomputable def kernelRun_A (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i)
    (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) :
    { L : List (View.Piece (Elt F) S2000x128 .f32) × List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2)) -∗ K ⟨⟩))
          ⊢ wp frame (wpE (defs₀ (F := F)) Variants.none c none) E (cc1__gin_layer_kernel i arg1 harg1 arg2 harg2 arg3 harg3 arg4 harg4 arg5 harg5 arg6 harg6 arg7 harg7 arg8 harg8 arg9 harg9) K } := by
  refine ⟨⟨?_, ?_⟩, fun E K => ?run⟩
  case run =>
    simp only [cc1__gin_layer_kernel_eq_skeleton]; unfold cc1__gin_layer_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    iexists _; iexact H8

end Cert.KernelIdeal.L1

end
-- ==== Proof.KI.L1RunB.lean ====
/-
  Layer region 1, every grid point after the first: the body stores the new node features and adds this tile's
  pooled contribution to what the accumulator already holds (the sum over the earlier tiles).
-/
import proofs.«419285_j30786325577782_1_alg».proof.Proof.KI.L1RunA

set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a later grid point, on whole staging memrefs: the seven inputs at their contents, the pooled
    accumulator at its running contents `xo8`, the node-feature output at anything. -/
noncomputable def kernelRun_B (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i)
    (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) :
    { L : List (View.Piece (Elt F) S2000x128 .f32) × List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2)) -∗ K ⟨⟩))
          ⊢ wp frame (wpE (defs₀ (F := F)) Variants.none c none) E (cc1__gin_layer_kernel i arg1 harg1 arg2 harg2 arg3 harg3 arg4 harg4 arg5 harg5 arg6 harg6 arg7 harg7 arg8 harg8 arg9 harg9) K } := by
  refine ⟨⟨?_, ?_⟩, fun E K => ?run⟩
  case run =>
    simp only [cc1__gin_layer_kernel_eq_skeleton]; unfold cc1__gin_layer_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    iexists _; iexact H8

end Cert.KernelIdeal.L1

end
-- ==== Proof.KI.L1Dat.lean ====
/-
  Layer region 1: what its two output buffers hold after each grid point, and the pipeline's proof data.
  The node-feature output's block at a point is what that point stored. The pooled output is one resident block:
  point 0 leaves the first tile's contribution over zero, every later point leaves the previous contents plus its
  tile's contribution; it is written back once, after the last point.
-/
import proofs.«419285_j30786325577782_1_alg».proof.Proof.KI.L1RunB

set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point's stores tile each output buffer, so they cover it. -/
theorem cover_A_7 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (y : S2000x128.Idx) :
    ∃ pc ∈ (kernelRun_A c i arg1 harg1 arg2 harg2 arg3 harg3 arg4 harg4 arg5 harg5 arg6 harg6 arg7 harg7 arg8 harg8 arg9 harg9 hc x0 x1 x2 x3 x4 x5 x6).1.1, y ∈ pc.1.set :=
  View.cover_of_tiledL (kernelRun_A c i arg1 harg1 arg2 harg2 arg3 harg3 arg4 harg4 arg5 harg5 arg6 harg6 arg7 harg7 arg8 harg8 arg9 harg9 hc x0 x1 x2 x3 x4 x5 x6).1.1 S2000x128.size (by sl_kernel_rfl) y
theorem cover_A_8 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (y : S512x128.Idx) :
    ∃ pc ∈ (kernelRun_A c i arg1 harg1 arg2 harg2 arg3 harg3 arg4 harg4 arg5 harg5 arg6 harg6 arg7 harg7 arg8 harg8 arg9 harg9 hc x0 x1 x2 x3 x4 x5 x6).1.2, y ∈ pc.1.set :=
  View.cover_of_tiledL (kernelRun_A c i arg1 harg1 arg2 harg2 arg3 harg3 arg4 harg4 arg5 harg5 arg6 harg6 arg7 harg7 arg8 harg8 arg9 harg9 hc x0 x1 x2 x3 x4 x5 x6).1.2 S512x128.size (by sl_kernel_rfl) y
/-- What the first point leaves in each output's staging buffer: its stored pieces read back. -/
def out_A_7 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) : Vec F S2000x128 .f32 :=
  VO7.read (Elt F) (VO7.writes (Elt F) VO7.junk (kernelRun_A c i arg1 harg1 arg2 harg2 arg3 harg3 arg4 harg4 arg5 harg5 arg6 harg6 arg7 harg7 arg8 harg8 arg9 harg9 hc x0 x1 x2 x3 x4 x5 x6).1.1)
def out_A_8 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) : Vec F S512x128 .f32 :=
  VO8.read (Elt F) (VO8.writes (Elt F) VO8.junk (kernelRun_A c i arg1 harg1 arg2 harg2 arg3 harg3 arg4 harg4 arg5 harg5 arg6 harg6 arg7 harg7 arg8 harg8 arg9 harg9 hc x0 x1 x2 x3 x4 x5 x6).1.2)

/-- A later point's stores tile each output buffer too. -/
theorem cover_B_7 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) (y : S2000x128.Idx) :
    ∃ pc ∈ (kernelRun_B c i arg1 harg1 arg2 harg2 arg3 harg3 arg4 harg4 arg5 harg5 arg6 harg6 arg7 harg7 arg8 harg8 arg9 harg9 hc x0 x1 x2 x3 x4 x5 x6 xo8).1.1, y ∈ pc.1.set :=
  View.cover_of_tiledL (kernelRun_B c i arg1 harg1 arg2 harg2 arg3 harg3 arg4 harg4 arg5 harg5 arg6 harg6 arg7 harg7 arg8 harg8 arg9 harg9 hc x0 x1 x2 x3 x4 x5 x6 xo8).1.1 S2000x128.size (by sl_kernel_rfl) y
theorem cover_B_8 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) (y : S512x128.Idx) :
    ∃ pc ∈ (kernelRun_B c i arg1 harg1 arg2 harg2 arg3 harg3 arg4 harg4 arg5 harg5 arg6 harg6 arg7 harg7 arg8 harg8 arg9 harg9 hc x0 x1 x2 x3 x4 x5 x6 xo8).1.2, y ∈ pc.1.set :=
  View.cover_of_tiledL (kernelRun_B c i arg1 harg1 arg2 harg2 arg3 harg3 arg4 harg4 arg5 harg5 arg6 harg6 arg7 harg7 arg8 harg8 arg9 harg9 hc x0 x1 x2 x3 x4 x5 x6 xo8).1.2 S512x128.size (by sl_kernel_rfl) y
def out_B_7 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) : Vec F S2000x128 .f32 :=
  VO7.read (Elt F) (VO7.writes (Elt F) VO7.junk (kernelRun_B c i arg1 harg1 arg2 harg2 arg3 harg3 arg4 harg4 arg5 harg5 arg6 harg6 arg7 harg7 arg8 harg8 arg9 harg9 hc x0 x1 x2 x3 x4 x5 x6 xo8).1.1)
def out_B_8 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) : Vec F S512x128 .f32 :=
  VO8.read (Elt F) (VO8.writes (Elt F) VO8.junk (kernelRun_B c i arg1 harg1 arg2 harg2 arg3 harg3 arg4 harg4 arg5 harg5 arg6 harg6 arg7 harg7 arg8 harg8 arg9 harg9 hc x0 x1 x2 x3 x4 x5 x6 xo8).1.2)

variable (V : (c : Dev nD) → (b : Ref sig .tc) → Buf (Elt F) ((c : Thread nD τ).loc b))

/-- What the two output buffers hold after the body at position `n` (node features, pooled accumulator): the first
    point's contents at 0; afterwards the later-point contents over the accumulator the point before left. -/
def outsAt (c : Dev nD) : (n : ℕ) → n < cfg1.N → Vec F S2000x128 .f32 × Vec F S512x128 .f32
  | 0, hn =>
    (out_A_7 c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) ((hcond ⟨0, hn⟩).mpr rfl) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩),
     out_A_8 c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) ((hcond ⟨0, hn⟩).mpr rfl) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩))
  | n + 1, hn =>
    (out_B_7 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (fun h => Nat.succ_ne_zero n ((hcond ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt c n (Nat.lt_of_succ_lt hn)).2,
     out_B_8 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (fun h => Nat.succ_ne_zero n ((hcond ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt c n (Nat.lt_of_succ_lt hn)).2)

theorem outsAt_A (c : Dev nD) (t : Fin cfg1.N) (h0 : t.val = 0) :
    outsAt V c t.val t.isLt =
      (out_A_7 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hcond t).mpr h0) (iblk V c 0 t) (iblk V c 1 t) (iblk V c 2 t) (iblk V c 3 t) (iblk V c 4 t) (iblk V c 5 t) (iblk V c 6 t),
       out_A_8 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hcond t).mpr h0) (iblk V c 0 t) (iblk V c 1 t) (iblk V c 2 t) (iblk V c 3 t) (iblk V c 4 t) (iblk V c 5 t) (iblk V c 6 t)) := by
  obtain ⟨n, hn⟩ := t
  cases n with
  | zero => exact rfl
  | succ n => exact absurd h0 (Nat.succ_ne_zero n)

theorem outsAt_B (c : Dev nD) (t : Fin cfg1.N) (h0 : ¬t.val = 0) :
    outsAt V c t.val t.isLt =
      (out_B_7 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h => h0 ((hcond t).mp h)) (iblk V c 0 t) (iblk V c 1 t) (iblk V c 2 t) (iblk V c 3 t) (iblk V c 4 t) (iblk V c 5 t) (iblk V c 6 t) (outsAt V c (t.val - 1) (Nat.lt_of_le_of_lt (Nat.sub_le _ _) t.isLt)).2,
       out_B_8 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h => h0 ((hcond t).mp h)) (iblk V c 0 t) (iblk V c 1 t) (iblk V c 2 t) (iblk V c 3 t) (iblk V c 4 t) (iblk V c 5 t) (iblk V c 6 t) (outsAt V c (t.val - 1) (Nat.lt_of_le_of_lt (Nat.sub_le _ _) t.isLt)).2) := by
  obtain ⟨n, hn⟩ := t
  cases n with
  | zero => exact absurd rfl h0
  | succ n => exact rfl

/-- The pipeline's proof data on core `c`: the arrays as the region finds them; after the body each input's buffer at its
    block and the outputs' at `outsAt`; the scoped rest and the generator register untouched; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt V c t.val t.isLt).1
    | ⟨8, _⟩ => (outsAt V c t.val t.isLt).2
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = iblk V c 6 t := by dsimp only [dat]
theorem after7 (c : Dev nD) (t : Fin cfg1.N) : (dat V c).after 7 t = (outsAt V c t.val t.isLt).1 := by dsimp only [dat]
theorem after8 (c : Dev nD) (t : Fin cfg1.N) : (dat V c).after 8 t = (outsAt V c t.val t.isLt).2 := by dsimp only [dat]

theorem before0 (c : Dev nD) (t : Fin cfg1.N) (d) : (dat V c).before 0 t d = iblk V c 0 t :=
  before_in0 V (dat V c) (A_eq V c 0) (after0 V c) t d
theorem before1 (c : Dev nD) (t : Fin cfg1.N) (d) : (dat V c).before 1 t d = iblk V c 1 t :=
  before_in1 V (dat V c) (A_eq V c 1) (after1 V c) t d
theorem before2 (c : Dev nD) (t : Fin cfg1.N) (d) : (dat V c).before 2 t d = iblk V c 2 t :=
  before_in2 V (dat V c) (A_eq V c 2) (after2 V c) t d
theorem before3 (c : Dev nD) (t : Fin cfg1.N) (d) : (dat V c).before 3 t d = iblk V c 3 t :=
  before_in3 V (dat V c) (A_eq V c 3) (after3 V c) t d
theorem before4 (c : Dev nD) (t : Fin cfg1.N) (d) : (dat V c).before 4 t d = iblk V c 4 t :=
  before_in4 V (dat V c) (A_eq V c 4) (after4 V c) t d
theorem before5 (c : Dev nD) (t : Fin cfg1.N) (d) : (dat V c).before 5 t d = iblk V c 5 t :=
  before_in5 V (dat V c) (A_eq V c 5) (after5 V c) t d
theorem before6 (c : Dev nD) (t : Fin cfg1.N) (d) : (dat V c).before 6 t d = iblk V c 6 t :=
  before_in6 V (dat V c) (A_eq V c 6) (after6 V c) t d
/-- After the first point the pooled accumulator's buffer holds what the point before left: it is written back only after
    the last point, and the window is live and uncut. -/
theorem before8_B (c : Dev nD) (t : Fin cfg1.N) (h0 : ¬t.val = 0) (d) :
    (dat V c).before 8 t d = (outsAt V c (t.val - 1) (Nat.lt_of_le_of_lt (Nat.sub_le _ _) t.isLt)).2 := by
  have hN : t.val < 50 := lt_of_lt_of_eq t.isLt (show cfg1.N = 50 from N_1)
  rw [Dat.before_out_kept _ 8 rfl t h0 (Bool.eq_false_iff.mpr fun h => by have := (flush1_8 _).mp h; dsimp only at this; omega)
    (fun _ => rfl) (fun _ _ => rfl)]
  dsimp only [dat]

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t))

set_option maxHeartbeats 4000000 in
/-- The body at any point: the inputs' buffers hold their blocks; at point 0 the first-point run applies, later the
    later-point run over the accumulator the point before left; the invariant and the core's dues pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6]
  rw [show (dat V c).Φ t.succ = (dat V c).Φ t.castSucc from rfl,
    show (dat V c).owesAt () t.succ = (dat V c).owesAt () t.castSucc from rfl,
    after0, after1, after2, after3, after4, after5, after6, after7, after8]
  by_cases h0 : t.val = 0
  · rw [outsAt_A V c t h0]
    dsimp only
    unfold out_A_7 out_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun_A c (grid1.coords t) _ _ _ _ _ _ _ _ _ _ _ _ _ _ _ _ _ _ ((hcond t).mpr h0) (iblk V c 0 t) (iblk V c 1 t) (iblk V c 2 t) (iblk V c 3 t) (iblk V c 4 t) (iblk V c 5 t) (iblk V c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover_A_7 c _ _ _ _ _ _ _ _ _ _ _ _ _ _ _ _ _ _ _ _ _ _ _ _ _ _ _)
    unfold owns; iexists _; isplitr
    swap; · iexact H8
    ipureintro; exact View.read_writes_of_cover _ _ _ _ _ (cover_A_8 c _ _ _ _ _ _ _ _ _ _ _ _ _ _ _ _ _ _ _ _ _ _ _ _ _ _ _)
  · rw [outsAt_B V c t h0]
    dsimp only
    simp only [before8_B V c t h0]
    unfold out_B_7 out_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun_B c (grid1.coords t) _ _ _ _ _ _ _ _ _ _ _ _ _ _ _ _ _ _ (fun h => h0 ((hcond t).mp h)) (iblk V c 0 t) (iblk V c 1 t) (iblk V c 2 t) (iblk V c 3 t) (iblk V c 4 t) (iblk V c 5 t) (iblk V c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover_B_7 c _ _ _ _ _ _ _ _ _ _ _ _ _ _ _ _ _ _ _ _ _ _ _ _ _ _ _ _)
    unfold owns; iexists _; isplitr
    swap; · iexact H8
    ipureintro; exact View.read_writes_of_cover _ _ _ _ _ (cover_B_8 c _ _ _ _ _ _ _ _ _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.L1

end
-- ==== Proof.KI.L2Runs.lean ====
/-
  Layer region 2 (a node-update call): what its two control cases share.
  A block of a window at a grid point is the window's array read through that point's rectangle; an input
  window's staging buffer holds its block at every point, whether the pipeline fetched it there or kept it
  (the four weight and bias windows are fetched once, their block index never moves).
  The body branches on "first grid point": there it zeroes the pooled accumulator before adding.
-/
import proofs.«419285_j30786325577782_1_alg».proof.Proof.Gen.KernelIdeal.Launch
import proofs.«419285_j30786325577782_1_alg».proof.Proof.Gen.KernelIdeal.Skeleton
import proofs.«419285_j30786325577782_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.L2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: its array, as the region finds it, read through the point's rectangle. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_in0 {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4 {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in5 {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_in6 {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The body's one branch condition, from the grid coordinate: "this is grid point 0". -/
abbrev cond (i : grid2.Coords) : Prop := (Scalar.cmpi .ne (Scalar.extui (Scalar.cmpi .eq (BitVec.ofNat 32 (i 0).val) 0#32)) 0#32) = 1#1
/-- It holds at the first of the fifty points only. -/
theorem hcond : ∀ t : Fin cfg2.N, cond (grid2.coords t) ↔ t.val = 0 :=
  (by decide +kernel : ∀ t : Fin grid2.N, cond (grid2.coords t) ↔ t.val = 0)

/-- One staging buffer of each output window, through which its contents are stated. -/
abbrev VO7 : View sig .tc .vmem S2000x128 .f32 := (Memref.whole cc2_stg7_0 : Memref sig .tc .vmem S2000x128 .f32).view
abbrev VO8 : View sig .tc .vmem S512x128 .f32 := (Memref.whole cc2_stg8_0 : Memref sig .tc .vmem S512x128 .f32).view
/-- Each window's current staging memref at point `t`, as the pipeline passes it to the body. -/
abbrev ms0 (t : Fin cfg2.N) : Memref sig .tc .vmem S2000x128 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S2000x128 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S2000x1 .i32 := win2_2.stage (cfg2.slots t 2)
abbrev hs2 (t : Fin cfg2.N) : (ms2 t).IsWhole := hstage2_2 ((cfg2.slots t 2).cast nbuf2_2)
abbrev ms3 (t : Fin cfg2.N) : Memref sig .tc .vmem S128x128 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x128 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S128x128 .f32 := win2_5.stage (cfg2.slots t 5)
abbrev hs5 (t : Fin cfg2.N) : (ms5 t).IsWhole := hstage2_5 ((cfg2.slots t 5).cast nbuf2_5)
abbrev ms6 (t : Fin cfg2.N) : Memref sig .tc .vmem S1x128 .f32 := win2_6.stage (cfg2.slots t 6)
abbrev hs6 (t : Fin cfg2.N) : (ms6 t).IsWhole := hstage2_6 ((cfg2.slots t 6).cast nbuf2_6)
abbrev ms7 (t : Fin cfg2.N) : Memref sig .tc .vmem S2000x128 .f32 := win2_7.stage (cfg2.slots t 7)
abbrev hs7 (t : Fin cfg2.N) : (ms7 t).IsWhole := hstage2_7 ((cfg2.slots t 7).cast nbuf2_7)
abbrev ms8 (t : Fin cfg2.N) : Memref sig .tc .vmem S512x128 .f32 := win2_8.stage (cfg2.slots t 8)
abbrev hs8 (t : Fin cfg2.N) : (ms8 t).IsWhole := hstage2_8 ((cfg2.slots t 8).cast nbuf2_8)

end Cert.KernelIdeal.L2

end
-- ==== Proof.KI.L2RunA.lean ====
/-
  Layer region 2, the first grid point: the body zeroes the pooled accumulator, stores the new node features,
  then adds this tile's pooled contribution to the (zeroed) accumulator. The lists of stored pieces each
  output buffer ends with are found by running the body.
-/
import proofs.«419285_j30786325577782_1_alg».proof.Proof.KI.L2Runs

set_option maxRecDepth 16384

noncomputable section

namespace Cert.KernelIdeal.L2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first grid point, on whole staging memrefs: the seven inputs at their contents, the two outputs
    at anything; it ends with the inputs as they were and each output holding its stored pieces. -/
noncomputable def kernelRun_A (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i)
    (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) :
    { L : List (View.Piece (Elt F) S2000x128 .f32) × List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2)) -∗ K ⟨⟩))
          ⊢ wp frame (wpE (defs₀ (F := F)) Variants.none c none) E (cc2__gin_layer_kernel i arg1 harg1 arg2 harg2 arg3 harg3 arg4 harg4 arg5 harg5 arg6 harg6 arg7 harg7 arg8 harg8 arg9 harg9) K } := by
  refine ⟨⟨?_, ?_⟩, fun E K => ?run⟩
  case run =>
    simp only [cc2__gin_layer_kernel_eq_skeleton]; unfold cc2__gin_layer_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    iexists _; iexact H8

end Cert.KernelIdeal.L2

end
-- ==== Proof.KI.L2RunB.lean ====
/-
  Layer region 2, every grid point after the first: the body stores the new node features and adds this tile's
  pooled contribution to what the accumulator already holds (the sum over the earlier tiles).
-/
import proofs.«419285_j30786325577782_1_alg».proof.Proof.KI.L2RunA

set_option maxRecDepth 16384

noncomputable section

namespace Cert.KernelIdeal.L2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a later grid point, on whole staging memrefs: the seven inputs at their contents, the pooled
    accumulator at its running contents `xo8`, the node-feature output at anything. -/
noncomputable def kernelRun_B (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i)
    (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) :
    { L : List (View.Piece (Elt F) S2000x128 .f32) × List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2)) -∗ K ⟨⟩))
          ⊢ wp frame (wpE (defs₀ (F := F)) Variants.none c none) E (cc2__gin_layer_kernel i arg1 harg1 arg2 harg2 arg3 harg3 arg4 harg4 arg5 harg5 arg6 harg6 arg7 harg7 arg8 harg8 arg9 harg9) K } := by
  refine ⟨⟨?_, ?_⟩, fun E K => ?run⟩
  case run =>
    simp only [cc2__gin_layer_kernel_eq_skeleton]; unfold cc2__gin_layer_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    iexists _; iexact H8

end Cert.KernelIdeal.L2

end
-- ==== Proof.KI.L2Dat.lean ====
/-
  Layer region 2: what its two output buffers hold after each grid point, and the pipeline's proof data.
  The node-feature output's block at a point is what that point stored. The pooled output is one resident block:
  point 0 leaves the first tile's contribution over zero, every later point leaves the previous contents plus its
  tile's contribution; it is written back once, after the last point.
-/
import proofs.«419285_j30786325577782_1_alg».proof.Proof.KI.L2RunB

set_option maxRecDepth 16384

noncomputable section

namespace Cert.KernelIdeal.L2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point's stores tile each output buffer, so they cover it. -/
theorem cover_A_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (y : S2000x128.Idx) :
    ∃ pc ∈ (kernelRun_A c i arg1 harg1 arg2 harg2 arg3 harg3 arg4 harg4 arg5 harg5 arg6 harg6 arg7 harg7 arg8 harg8 arg9 harg9 hc x0 x1 x2 x3 x4 x5 x6).1.1, y ∈ pc.1.set :=
  View.cover_of_tiledL (kernelRun_A c i arg1 harg1 arg2 harg2 arg3 harg3 arg4 harg4 arg5 harg5 arg6 harg6 arg7 harg7 arg8 harg8 arg9 harg9 hc x0 x1 x2 x3 x4 x5 x6).1.1 S2000x128.size (by sl_kernel_rfl) y
theorem cover_A_8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (y : S512x128.Idx) :
    ∃ pc ∈ (kernelRun_A c i arg1 harg1 arg2 harg2 arg3 harg3 arg4 harg4 arg5 harg5 arg6 harg6 arg7 harg7 arg8 harg8 arg9 harg9 hc x0 x1 x2 x3 x4 x5 x6).1.2, y ∈ pc.1.set :=
  View.cover_of_tiledL (kernelRun_A c i arg1 harg1 arg2 harg2 arg3 harg3 arg4 harg4 arg5 harg5 arg6 harg6 arg7 harg7 arg8 harg8 arg9 harg9 hc x0 x1 x2 x3 x4 x5 x6).1.2 S512x128.size (by sl_kernel_rfl) y
/-- What the first point leaves in each output's staging buffer: its stored pieces read back. -/
def out_A_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) : Vec F S2000x128 .f32 :=
  VO7.read (Elt F) (VO7.writes (Elt F) VO7.junk (kernelRun_A c i arg1 harg1 arg2 harg2 arg3 harg3 arg4 harg4 arg5 harg5 arg6 harg6 arg7 harg7 arg8 harg8 arg9 harg9 hc x0 x1 x2 x3 x4 x5 x6).1.1)
def out_A_8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) : Vec F S512x128 .f32 :=
  VO8.read (Elt F) (VO8.writes (Elt F) VO8.junk (kernelRun_A c i arg1 harg1 arg2 harg2 arg3 harg3 arg4 harg4 arg5 harg5 arg6 harg6 arg7 harg7 arg8 harg8 arg9 harg9 hc x0 x1 x2 x3 x4 x5 x6).1.2)

/-- A later point's stores tile each output buffer too. -/
theorem cover_B_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) (y : S2000x128.Idx) :
    ∃ pc ∈ (kernelRun_B c i arg1 harg1 arg2 harg2 arg3 harg3 arg4 harg4 arg5 harg5 arg6 harg6 arg7 harg7 arg8 harg8 arg9 harg9 hc x0 x1 x2 x3 x4 x5 x6 xo8).1.1, y ∈ pc.1.set :=
  View.cover_of_tiledL (kernelRun_B c i arg1 harg1 arg2 harg2 arg3 harg3 arg4 harg4 arg5 harg5 arg6 harg6 arg7 harg7 arg8 harg8 arg9 harg9 hc x0 x1 x2 x3 x4 x5 x6 xo8).1.1 S2000x128.size (by sl_kernel_rfl) y
theorem cover_B_8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) (y : S512x128.Idx) :
    ∃ pc ∈ (kernelRun_B c i arg1 harg1 arg2 harg2 arg3 harg3 arg4 harg4 arg5 harg5 arg6 harg6 arg7 harg7 arg8 harg8 arg9 harg9 hc x0 x1 x2 x3 x4 x5 x6 xo8).1.2, y ∈ pc.1.set :=
  View.cover_of_tiledL (kernelRun_B c i arg1 harg1 arg2 harg2 arg3 harg3 arg4 harg4 arg5 harg5 arg6 harg6 arg7 harg7 arg8 harg8 arg9 harg9 hc x0 x1 x2 x3 x4 x5 x6 xo8).1.2 S512x128.size (by sl_kernel_rfl) y
def out_B_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) : Vec F S2000x128 .f32 :=
  VO7.read (Elt F) (VO7.writes (Elt F) VO7.junk (kernelRun_B c i arg1 harg1 arg2 harg2 arg3 harg3 arg4 harg4 arg5 harg5 arg6 harg6 arg7 harg7 arg8 harg8 arg9 harg9 hc x0 x1 x2 x3 x4 x5 x6 xo8).1.1)
def out_B_8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) : Vec F S512x128 .f32 :=
  VO8.read (Elt F) (VO8.writes (Elt F) VO8.junk (kernelRun_B c i arg1 harg1 arg2 harg2 arg3 harg3 arg4 harg4 arg5 harg5 arg6 harg6 arg7 harg7 arg8 harg8 arg9 harg9 hc x0 x1 x2 x3 x4 x5 x6 xo8).1.2)

variable (V : (c : Dev nD) → (b : Ref sig .tc) → Buf (Elt F) ((c : Thread nD τ).loc b))

/-- What the two output buffers hold after the body at position `n` (node features, pooled accumulator): the first
    point's contents at 0; afterwards the later-point contents over the accumulator the point before left. -/
def outsAt (c : Dev nD) : (n : ℕ) → n < cfg2.N → Vec F S2000x128 .f32 × Vec F S512x128 .f32
  | 0, hn =>
    (out_A_7 c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) ((hcond ⟨0, hn⟩).mpr rfl) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩),
     out_A_8 c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) ((hcond ⟨0, hn⟩).mpr rfl) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩))
  | n + 1, hn =>
    (out_B_7 c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (fun h => Nat.succ_ne_zero n ((hcond ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt c n (Nat.lt_of_succ_lt hn)).2,
     out_B_8 c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (fun h => Nat.succ_ne_zero n ((hcond ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt c n (Nat.lt_of_succ_lt hn)).2)

theorem outsAt_A (c : Dev nD) (t : Fin cfg2.N) (h0 : t.val = 0) :
    outsAt V c t.val t.isLt =
      (out_A_7 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hcond t).mpr h0) (iblk V c 0 t) (iblk V c 1 t) (iblk V c 2 t) (iblk V c 3 t) (iblk V c 4 t) (iblk V c 5 t) (iblk V c 6 t),
       out_A_8 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hcond t).mpr h0) (iblk V c 0 t) (iblk V c 1 t) (iblk V c 2 t) (iblk V c 3 t) (iblk V c 4 t) (iblk V c 5 t) (iblk V c 6 t)) := by
  obtain ⟨n, hn⟩ := t
  cases n with
  | zero => exact rfl
  | succ n => exact absurd h0 (Nat.succ_ne_zero n)

theorem outsAt_B (c : Dev nD) (t : Fin cfg2.N) (h0 : ¬t.val = 0) :
    outsAt V c t.val t.isLt =
      (out_B_7 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h => h0 ((hcond t).mp h)) (iblk V c 0 t) (iblk V c 1 t) (iblk V c 2 t) (iblk V c 3 t) (iblk V c 4 t) (iblk V c 5 t) (iblk V c 6 t) (outsAt V c (t.val - 1) (Nat.lt_of_le_of_lt (Nat.sub_le _ _) t.isLt)).2,
       out_B_8 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h => h0 ((hcond t).mp h)) (iblk V c 0 t) (iblk V c 1 t) (iblk V c 2 t) (iblk V c 3 t) (iblk V c 4 t) (iblk V c 5 t) (iblk V c 6 t) (outsAt V c (t.val - 1) (Nat.lt_of_le_of_lt (Nat.sub_le _ _) t.isLt)).2) := by
  obtain ⟨n, hn⟩ := t
  cases n with
  | zero => exact absurd rfl h0
  | succ n => exact rfl

/-- The pipeline's proof data on core `c`: the arrays as the region finds them; after the body each input's buffer at its
    block and the outputs' at `outsAt`; the scoped rest and the generator register untouched; nothing owed. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt V c t.val t.isLt).1
    | ⟨8, _⟩ => (outsAt V c t.val t.isLt).2
  Φ _ := Pipeline.ΦA spec2 c
  q _ := fullShare
  owed _ := 0

theorem A_eq (c : Dev nD) (w : Fin cfg2.W) : (dat V c).A w = V c (Pipeline.arrRef spec2 w) := by
  dsimp only [dat]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = iblk V c 4 t := by dsimp only [dat]
theorem after5 (c : Dev nD) (t : Fin cfg2.N) : (dat V c).after 5 t = iblk V c 5 t := by dsimp only [dat]
theorem after6 (c : Dev nD) (t : Fin cfg2.N) : (dat V c).after 6 t = iblk V c 6 t := by dsimp only [dat]
theorem after7 (c : Dev nD) (t : Fin cfg2.N) : (dat V c).after 7 t = (outsAt V c t.val t.isLt).1 := by dsimp only [dat]
theorem after8 (c : Dev nD) (t : Fin cfg2.N) : (dat V c).after 8 t = (outsAt V c t.val t.isLt).2 := by dsimp only [dat]

theorem before0 (c : Dev nD) (t : Fin cfg2.N) (d) : (dat V c).before 0 t d = iblk V c 0 t :=
  before_in0 V (dat V c) (A_eq V c 0) (after0 V c) t d
theorem before1 (c : Dev nD) (t : Fin cfg2.N) (d) : (dat V c).before 1 t d = iblk V c 1 t :=
  before_in1 V (dat V c) (A_eq V c 1) (after1 V c) t d
theorem before2 (c : Dev nD) (t : Fin cfg2.N) (d) : (dat V c).before 2 t d = iblk V c 2 t :=
  before_in2 V (dat V c) (A_eq V c 2) (after2 V c) t d
theorem before3 (c : Dev nD) (t : Fin cfg2.N) (d) : (dat V c).before 3 t d = iblk V c 3 t :=
  before_in3 V (dat V c) (A_eq V c 3) (after3 V c) t d
theorem before4 (c : Dev nD) (t : Fin cfg2.N) (d) : (dat V c).before 4 t d = iblk V c 4 t :=
  before_in4 V (dat V c) (A_eq V c 4) (after4 V c) t d
theorem before5 (c : Dev nD) (t : Fin cfg2.N) (d) : (dat V c).before 5 t d = iblk V c 5 t :=
  before_in5 V (dat V c) (A_eq V c 5) (after5 V c) t d
theorem before6 (c : Dev nD) (t : Fin cfg2.N) (d) : (dat V c).before 6 t d = iblk V c 6 t :=
  before_in6 V (dat V c) (A_eq V c 6) (after6 V c) t d
/-- After the first point the pooled accumulator's buffer holds what the point before left: it is written back only after
    the last point, and the window is live and uncut. -/
theorem before8_B (c : Dev nD) (t : Fin cfg2.N) (h0 : ¬t.val = 0) (d) :
    (dat V c).before 8 t d = (outsAt V c (t.val - 1) (Nat.lt_of_le_of_lt (Nat.sub_le _ _) t.isLt)).2 := by
  have hN : t.val < 50 := lt_of_lt_of_eq t.isLt (show cfg2.N = 50 from N_2)
  rw [Dat.before_out_kept _ 8 rfl t h0 (Bool.eq_false_iff.mpr fun h => by have := (flush2_8 _).mp h; dsimp only at this; omega)
    (fun _ => rfl) (fun _ _ => rfl)]
  dsimp only [dat]

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t))

set_option maxHeartbeats 4000000 in
/-- The body at any point: the inputs' buffers hold their blocks; at point 0 the first-point run applies, later the
    later-point run over the accumulator the point before left; the invariant and the core's dues pass through. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4, before5, before6]
  rw [show (dat V c).Φ t.succ = (dat V c).Φ t.castSucc from rfl,
    show (dat V c).owesAt () t.succ = (dat V c).owesAt () t.castSucc from rfl,
    after0, after1, after2, after3, after4, after5, after6, after7, after8]
  by_cases h0 : t.val = 0
  · rw [outsAt_A V c t h0]
    dsimp only
    unfold out_A_7 out_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun_A c (grid2.coords t) _ _ _ _ _ _ _ _ _ _ _ _ _ _ _ _ _ _ ((hcond t).mpr h0) (iblk V c 0 t) (iblk V c 1 t) (iblk V c 2 t) (iblk V c 3 t) (iblk V c 4 t) (iblk V c 5 t) (iblk V c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover_A_7 c _ _ _ _ _ _ _ _ _ _ _ _ _ _ _ _ _ _ _ _ _ _ _ _ _ _ _)
    unfold owns; iexists _; isplitr
    swap; · iexact H8
    ipureintro; exact View.read_writes_of_cover _ _ _ _ _ (cover_A_8 c _ _ _ _ _ _ _ _ _ _ _ _ _ _ _ _ _ _ _ _ _ _ _ _ _ _ _)
  · rw [outsAt_B V c t h0]
    dsimp only
    simp only [before8_B V c t h0]
    unfold out_B_7 out_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun_B c (grid2.coords t) _ _ _ _ _ _ _ _ _ _ _ _ _ _ _ _ _ _ (fun h => h0 ((hcond t).mp h)) (iblk V c 0 t) (iblk V c 1 t) (iblk V c 2 t) (iblk V c 3 t) (iblk V c 4 t) (iblk V c 5 t) (iblk V c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover_B_7 c _ _ _ _ _ _ _ _ _ _ _ _ _ _ _ _ _ _ _ _ _ _ _ _ _ _ _ _)
    unfold owns; iexists _; isplitr
    swap; · iexact H8
    ipureintro; exact View.read_writes_of_cover _ _ _ _ _ (cover_B_8 c _ _ _ _ _ _ _ _ _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.L2

end
-- ==== Proof.KI.C3.lean ====
/-
  The classifier region (the fourth call): one grid point, seven input windows (the concatenated pooled features, three
  weight matrices, three bias rows), one output window (the logits column). The body loads every input block whole,
  computes, and stores the output block whole; the pieces it stores are found by running it.
-/
import proofs.«419285_j30786325577782_1_alg».proof.Proof.Gen.KernelIdeal.Launch
import proofs.«419285_j30786325577782_1_alg».proof.Proof.Gen.KernelIdeal.Skeleton
import proofs.«419285_j30786325577782_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.C3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of the output window, through which its contents are stated. -/
abbrev VO7 : View sig .tc .vmem S512x1 .f32 := (Memref.whole cc3_stg7_0 : Memref sig .tc .vmem S512x1 .f32).view
/-- Each window's current staging memref at point `t`, as the pipeline passes it to the body. -/
abbrev ms0 (t : Fin cfg3.N) : Memref sig .tc .vmem S512x384 .f32 := win3_0.stage (cfg3.slots t 0)
abbrev hs0 (t : Fin cfg3.N) : (ms0 t).IsWhole := hstage3_0 ((cfg3.slots t 0).cast nbuf3_0)
abbrev ms1 (t : Fin cfg3.N) : Memref sig .tc .vmem S384x128 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S1x128 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S128x128 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S1x128 .f32 := win3_4.stage (cfg3.slots t 4)
abbrev hs4 (t : Fin cfg3.N) : (ms4 t).IsWhole := hstage3_4 ((cfg3.slots t 4).cast nbuf3_4)
abbrev ms5 (t : Fin cfg3.N) : Memref sig .tc .vmem S128x1 .f32 := win3_5.stage (cfg3.slots t 5)
abbrev hs5 (t : Fin cfg3.N) : (ms5 t).IsWhole := hstage3_5 ((cfg3.slots t 5).cast nbuf3_5)
abbrev ms6 (t : Fin cfg3.N) : Memref sig .tc .vmem S1x1 .f32 := win3_6.stage (cfg3.slots t 6)
abbrev hs6 (t : Fin cfg3.N) : (ms6 t).IsWhole := hstage3_6 ((cfg3.slots t 6).cast nbuf3_6)
abbrev ms7 (t : Fin cfg3.N) : Memref sig .tc .vmem S512x1 .f32 := win3_7.stage (cfg3.slots t 7)
abbrev hs7 (t : Fin cfg3.N) : (ms7 t).IsWhole := hstage3_7 ((cfg3.slots t 7).cast nbuf3_7)

set_option maxHeartbeats 4000000 in
/-- The body on whole staging memrefs: the seven inputs at their contents, the output at anything; it ends with the
    inputs as they were and the output holding its stored pieces. -/
noncomputable def kernelRun (c : Dev nD) (i : grid3.Coords) (arg1 : Memref sig .tc .vmem S512x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S512x1 .f32) (harg8 : arg8.IsWhole) (x0 : Vec F S512x384 .f32) (x1 : Vec F S384x128 .f32) (x2 : Vec F S1x128 .f32) (x3 : Vec F S128x128 .f32) (x4 : Vec F S1x128 .f32) (x5 : Vec F S128x1 .f32) (x6 : Vec F S1x1 .f32) :
    { L : List (View.Piece (Elt F) S512x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L)) -∗ K ⟨⟩))
          ⊢ wp frame (wpE (defs₀ (F := F)) Variants.none c none) E (cc3__classifier_kernel i arg1 harg1 arg2 harg2 arg3 harg3 arg4 harg4 arg5 harg5 arg6 harg6 arg7 harg7 arg8 harg8) K } := by
  refine ⟨?_, fun E K => ?run⟩
  case run =>
    simp only [cc3__classifier_kernel_eq_skeleton]; unfold cc3__classifier_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

/-- Its stores tile the output buffer, so they cover it. -/
theorem cover7 (c : Dev nD) (i : grid3.Coords) (arg1 : Memref sig .tc .vmem S512x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S512x1 .f32) (harg8 : arg8.IsWhole) (x0 : Vec F S512x384 .f32) (x1 : Vec F S384x128 .f32) (x2 : Vec F S1x128 .f32) (x3 : Vec F S128x128 .f32) (x4 : Vec F S1x128 .f32) (x5 : Vec F S128x1 .f32) (x6 : Vec F S1x1 .f32) (y : S512x1.Idx) :
    ∃ pc ∈ (kernelRun c i arg1 harg1 arg2 harg2 arg3 harg3 arg4 harg4 arg5 harg5 arg6 harg6 arg7 harg7 arg8 harg8 x0 x1 x2 x3 x4 x5 x6).1, y ∈ pc.1.set :=
  View.cover_of_tiledL (kernelRun c i arg1 harg1 arg2 harg2 arg3 harg3 arg4 harg4 arg5 harg5 arg6 harg6 arg7 harg7 arg8 harg8 x0 x1 x2 x3 x4 x5 x6).1 S512x1.size (by sl_kernel_rfl) y
/-- What the body leaves in the output's staging buffer: its stored pieces read back. -/
def out7 (c : Dev nD) (i : grid3.Coords) (arg1 : Memref sig .tc .vmem S512x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S512x1 .f32) (harg8 : arg8.IsWhole) (x0 : Vec F S512x384 .f32) (x1 : Vec F S384x128 .f32) (x2 : Vec F S1x128 .f32) (x3 : Vec F S128x128 .f32) (x4 : Vec F S1x128 .f32) (x5 : Vec F S128x1 .f32) (x6 : Vec F S1x1 .f32) : Vec F S512x1 .f32 :=
  VO7.read (Elt F) (VO7.writes (Elt F) VO7.junk (kernelRun c i arg1 harg1 arg2 harg2 arg3 harg3 arg4 harg4 arg5 harg5 arg6 harg6 arg7 harg7 arg8 harg8 x0 x1 x2 x3 x4 x5 x6).1)

variable (V : (c : Dev nD) → (b : Ref sig .tc) → Buf (Elt F) ((c : Thread nD τ).loc b))

/-- Window `w`'s block at point `t`: its array, as the region finds it, read through the point's rectangle. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before_in0 {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4 {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in5 {c : Dev nD} (dat : Dat τ (Elt F) Unit ℕ (UR sig nD τ) ℕ cfg3 c) (hA : dat.A 5 = V c (Pipeline.arrRef spec3 5))
    (hafter : ∀ t, dat.after 5 t = iblk V c 5 t) (t : Fin cfg3.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_in6 {c : Dev nD} (dat : Dat τ (Elt F) Unit ℕ (UR sig nD τ) ℕ cfg3 c) (hA : dat.A 6 = V c (Pipeline.arrRef spec3 6))
    (hafter : ∀ t, dat.after 6 t = iblk V c 6 t) (t : Fin cfg3.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The pipeline's proof data on core `c`: the arrays as the region finds them; after the body each input's buffer at its
    block and the output's at what the body stored; the scoped rest and the generator register untouched; nothing owed. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out7 c (grid3.coords t) (ms0 t) (hs0 t) (ms1 t) (hs1 t) (ms2 t) (hs2 t) (ms3 t) (hs3 t) (ms4 t) (hs4 t) (ms5 t) (hs5 t) (ms6 t) (hs6 t) (ms7 t) (hs7 t) (iblk V c 0 t) (iblk V c 1 t) (iblk V c 2 t) (iblk V c 3 t) (iblk V c 4 t) (iblk V c 5 t) (iblk V c 6 t)
  Φ _ := Pipeline.ΦA spec3 c
  q _ := fullShare
  owed _ := 0

theorem A_eq (c : Dev nD) (w : Fin cfg3.W) : (dat V c).A w = V c (Pipeline.arrRef spec3 w) := by
  dsimp only [dat]

theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) : (dat V c).after 3 t = iblk V c 3 t := by dsimp only [dat]
theorem after4 (c : Dev nD) (t : Fin cfg3.N) : (dat V c).after 4 t = iblk V c 4 t := by dsimp only [dat]
theorem after5 (c : Dev nD) (t : Fin cfg3.N) : (dat V c).after 5 t = iblk V c 5 t := by dsimp only [dat]
theorem after6 (c : Dev nD) (t : Fin cfg3.N) : (dat V c).after 6 t = iblk V c 6 t := by dsimp only [dat]
theorem after7 (c : Dev nD) (t : Fin cfg3.N) : (dat V c).after 7 t = out7 c (grid3.coords t) (ms0 t) (hs0 t) (ms1 t) (hs1 t) (ms2 t) (hs2 t) (ms3 t) (hs3 t) (ms4 t) (hs4 t) (ms5 t) (hs5 t) (ms6 t) (hs6 t) (ms7 t) (hs7 t) (iblk V c 0 t) (iblk V c 1 t) (iblk V c 2 t) (iblk V c 3 t) (iblk V c 4 t) (iblk V c 5 t) (iblk V c 6 t) := by dsimp only [dat]

theorem before0 (c : Dev nD) (t : Fin cfg3.N) (d) : (dat V c).before 0 t d = iblk V c 0 t :=
  before_in0 V (dat V c) (A_eq V c 0) (after0 V c) t d
theorem before1 (c : Dev nD) (t : Fin cfg3.N) (d) : (dat V c).before 1 t d = iblk V c 1 t :=
  before_in1 V (dat V c) (A_eq V c 1) (after1 V c) t d
theorem before2 (c : Dev nD) (t : Fin cfg3.N) (d) : (dat V c).before 2 t d = iblk V c 2 t :=
  before_in2 V (dat V c) (A_eq V c 2) (after2 V c) t d
theorem before3 (c : Dev nD) (t : Fin cfg3.N) (d) : (dat V c).before 3 t d = iblk V c 3 t :=
  before_in3 V (dat V c) (A_eq V c 3) (after3 V c) t d
theorem before4 (c : Dev nD) (t : Fin cfg3.N) (d) : (dat V c).before 4 t d = iblk V c 4 t :=
  before_in4 V (dat V c) (A_eq V c 4) (after4 V c) t d
theorem before5 (c : Dev nD) (t : Fin cfg3.N) (d) : (dat V c).before 5 t d = iblk V c 5 t :=
  before_in5 V (dat V c) (A_eq V c 5) (after5 V c) t d
theorem before6 (c : Dev nD) (t : Fin cfg3.N) (d) : (dat V c).before 6 t d = iblk V c 6 t :=
  before_in6 V (dat V c) (A_eq V c 6) (after6 V c) t d

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d))
    ∗ (∃ d, owns (c : Thread nD τ) (st3_7 t) fullShare ((dat V c).before 7 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t)
    ∗ owns (c : Thread nD τ) (st3_7 t) fullShare ((dat V c).after 7 t))

set_option maxHeartbeats 4000000 in
/-- The body at the point: the inputs' buffers hold their blocks, so the run applies; the invariant and the core's dues
    pass through. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2, before3, before4, before5, before6]
  rw [show (dat V c).Φ t.succ = (dat V c).Φ t.castSucc from rfl,
    show (dat V c).owesAt () t.succ = (dat V c).owesAt () t.castSucc from rfl,
    after0, after1, after2, after3, after4, after5, after6, after7]
  unfold out7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun c (grid3.coords t) _ _ _ _ _ _ _ _ _ _ _ _ _ _ _ _ (iblk V c 0 t) (iblk V c 1 t) (iblk V c 2 t) (iblk V c 3 t) (iblk V c 4 t) (iblk V c 5 t) (iblk V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover7 c _ _ _ _ _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W3, bigSep_W3]
  exact sound_body V c t

end Cert.KernelIdeal.C3

end
-- ==== Proof.KI.Run.lean ====
/-
  The whole run of the kernel's program: four kernel regions among four stretches of host operations.
  The unscoped buffers' contents at each boundary are a fold from the launch memory: a host stretch applies its
  operations; a region leaves its input arrays as they were and its output arrays at what its write-backs leave.
  Each region is a segment entered and left at those contents; the launch theorem for a list of segments then says the
  program terminates with every unscoped buffer at the last contents, from which the result array and the thirteen
  argument arrays are read back: no host stretch writes an argument and no region has one as an output.
-/
import proofs.«419285_j30786325577782_1_alg».proof.Proof.KI.L0Dat
import proofs.«419285_j30786325577782_1_alg».proof.Proof.KI.L1Dat
import proofs.«419285_j30786325577782_1_alg».proof.Proof.KI.L2Dat
import proofs.«419285_j30786325577782_1_alg».proof.Proof.KI.C3
import proofs.«419285_j30786325577782_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A boundary's contents read at the TensorCore's references (what a region's proof data take). -/
abbrev atTc (W : Dev nD → Valuation τ sig (Elt F)) : (c : Dev nD) → (b : Ref sig .tc) → Buf (Elt F) ((c : Thread nD τ).loc b) := fun c b => W c b

/-! ## The contents at each boundary -/

/-- At launch, and after the first host stretch (region 0's entry). -/
abbrev U0 (c : Dev nD) : Valuation τ sig (Elt F) := fun b => m (c, b)
abbrev U1 (c : Dev nD) : Valuation τ sig (Elt F) := StableHlo.after hostOps0 (U0 m c)
/-- What region 0 leaves in its two output arrays. -/
def X2a (c : Dev nD) : Buf (Elt F) ((c : Thread nD τ).loc main_v25_0) := (L0.dat (atTc (U1 m)) c).arrAt 7 cfg0.N
def X2b (c : Dev nD) : Buf (Elt F) ((c : Thread nD τ).loc main_v25_1) := (L0.dat (atTc (U1 m)) c).arrAt 8 cfg0.N
def U2 (c : Dev nD) : Valuation τ sig (Elt F) := Function.update (Function.update (U1 m c) main_v25_0 (X2a m c)) main_v25_1 (X2b m c)
abbrev U3 (c : Dev nD) : Valuation τ sig (Elt F) := StableHlo.after hostOps1 (U2 m c)
def X4a (c : Dev nD) : Buf (Elt F) ((c : Thread nD τ).loc main_v46_0) := (L1.dat (atTc (U3 m)) c).arrAt 7 cfg1.N
def X4b (c : Dev nD) : Buf (Elt F) ((c : Thread nD τ).loc main_v46_1) := (L1.dat (atTc (U3 m)) c).arrAt 8 cfg1.N
def U4 (c : Dev nD) : Valuation τ sig (Elt F) := Function.update (Function.update (U3 m c) main_v46_0 (X4a m c)) main_v46_1 (X4b m c)
abbrev U5 (c : Dev nD) : Valuation τ sig (Elt F) := StableHlo.after hostOps2 (U4 m c)
def X6a (c : Dev nD) : Buf (Elt F) ((c : Thread nD τ).loc main_v67_0) := (L2.dat (atTc (U5 m)) c).arrAt 7 cfg2.N
def X6b (c : Dev nD) : Buf (Elt F) ((c : Thread nD τ).loc main_v67_1) := (L2.dat (atTc (U5 m)) c).arrAt 8 cfg2.N
def U6 (c : Dev nD) : Valuation τ sig (Elt F) := Function.update (Function.update (U5 m c) main_v67_0 (X6a m c)) main_v67_1 (X6b m c)
abbrev U7 (c : Dev nD) : Valuation τ sig (Elt F) := StableHlo.after hostOps3 (U6 m c)
/-- What the classifier region leaves in its output array: the program's result. -/
def X8 (c : Dev nD) : Buf (Elt F) ((c : Thread nD τ).loc main_v72) := (C3.dat (atTc (U7 m)) c).arrAt 7 cfg3.N
def U8 (c : Dev nD) : Valuation τ sig (Elt F) := Function.update (U7 m c) main_v72 (X8 m c)

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => L0.dat (atTc (U1 m)) c
  | ⟨1, _⟩ => fun c => L1.dat (atTc (U3 m)) c
  | ⟨2, _⟩ => fun c => L2.dat (atTc (U5 m)) c
  | ⟨3, _⟩ => fun c => C3.dat (atTc (U7 m)) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at nothing. -/
abbrev Rr (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (U8 m c) ∗ ∃ r, prngReg c r)

/-! ## What each region changes -/

theorem U2_a (c : Dev nD) : U2 m c main_v25_0 = X2a m c := by
  unfold U2
  rw [Function.update_of_ne (StableHlo.devRef_ne_of_ne (by decide) : (Proc.devRef .tc main_v25_0 : DevRef τ sig) ≠ Proc.devRef .tc main_v25_1), Function.update_self]
theorem U2_b (c : Dev nD) : U2 m c main_v25_1 = X2b m c := by
  unfold U2; rw [Function.update_self]
theorem U2_of (c : Dev nD) (r : Ref sig .tc) (ha : r ≠ main_v25_0) (hb : r ≠ main_v25_1) : U2 m c r = U1 m c r := by
  unfold U2
  rw [Function.update_of_ne (StableHlo.devRef_ne_of_ne hb : (Proc.devRef .tc r : DevRef τ sig) ≠ Proc.devRef .tc main_v25_1),
    Function.update_of_ne (StableHlo.devRef_ne_of_ne ha : (Proc.devRef .tc r : DevRef τ sig) ≠ Proc.devRef .tc main_v25_0)]
theorem hF0_0 (c : Dev nD) : (L0.dat (atTc (U1 m)) c).arrAt 0 cfg0.N = atTc (U2 m) c main_arg0 :=
  (((L0.dat (atTc (U1 m)) c).arrAt_in 0 rfl _).trans (L0.A_eq (atTc (U1 m)) c 0)).trans (U2_of m c main_arg0 (by decide) (by decide)).symm
theorem hF0_1 (c : Dev nD) : (L0.dat (atTc (U1 m)) c).arrAt 1 cfg0.N = atTc (U2 m) c main_v14 :=
  (((L0.dat (atTc (U1 m)) c).arrAt_in 1 rfl _).trans (L0.A_eq (atTc (U1 m)) c 1)).trans (U2_of m c main_v14 (by decide) (by decide)).symm
theorem hF0_2 (c : Dev nD) : (L0.dat (atTc (U1 m)) c).arrAt 2 cfg0.N = atTc (U2 m) c main_v4 :=
  (((L0.dat (atTc (U1 m)) c).arrAt_in 2 rfl _).trans (L0.A_eq (atTc (U1 m)) c 2)).trans (U2_of m c main_v4 (by decide) (by decide)).symm
theorem hF0_3 (c : Dev nD) : (L0.dat (atTc (U1 m)) c).arrAt 3 cfg0.N = atTc (U2 m) c main_v16 :=
  (((L0.dat (atTc (U1 m)) c).arrAt_in 3 rfl _).trans (L0.A_eq (atTc (U1 m)) c 3)).trans (U2_of m c main_v16 (by decide) (by decide)).symm
theorem hF0_4 (c : Dev nD) : (L0.dat (atTc (U1 m)) c).arrAt 4 cfg0.N = atTc (U2 m) c main_v19 :=
  (((L0.dat (atTc (U1 m)) c).arrAt_in 4 rfl _).trans (L0.A_eq (atTc (U1 m)) c 4)).trans (U2_of m c main_v19 (by decide) (by decide)).symm
theorem hF0_5 (c : Dev nD) : (L0.dat (atTc (U1 m)) c).arrAt 5 cfg0.N = atTc (U2 m) c main_v21 :=
  (((L0.dat (atTc (U1 m)) c).arrAt_in 5 rfl _).trans (L0.A_eq (atTc (U1 m)) c 5)).trans (U2_of m c main_v21 (by decide) (by decide)).symm
theorem hF0_6 (c : Dev nD) : (L0.dat (atTc (U1 m)) c).arrAt 6 cfg0.N = atTc (U2 m) c main_v24 :=
  (((L0.dat (atTc (U1 m)) c).arrAt_in 6 rfl _).trans (L0.A_eq (atTc (U1 m)) c 6)).trans (U2_of m c main_v24 (by decide) (by decide)).symm
/-- At the region's exit each of its arrays holds what the pipeline leaves, -/
theorem hF0 (c : Dev nD) : ∀ w : Fin cfg0.W, (L0.dat (atTc (U1 m)) c).arrAt w cfg0.N = atTc (U2 m) c (Pipeline.arrRef spec0 w)
  | ⟨0, _⟩ => hF0_0 m c
  | ⟨1, _⟩ => hF0_1 m c
  | ⟨2, _⟩ => hF0_2 m c
  | ⟨3, _⟩ => hF0_3 m c
  | ⟨4, _⟩ => hF0_4 m c
  | ⟨5, _⟩ => hF0_5 m c
  | ⟨6, _⟩ => hF0_6 m c
  | ⟨7, _⟩ => (U2_a m c).symm
  | ⟨8, _⟩ => (U2_b m c).symm
/-- and every other buffer what it held at entry. -/
theorem hrest0 (c : Dev nD) : ∀ b, b ∉ Finset.univ.image (Pipeline.arrRef spec0) → atTc (U2 m) c b = atTc (U1 m) c b :=
  fun b hb => U2_of m c b (fun e => hb (Finset.mem_image.mpr ⟨7, Finset.mem_univ _, e.symm⟩)) (fun e => hb (Finset.mem_image.mpr ⟨8, Finset.mem_univ _, e.symm⟩))

theorem U4_a (c : Dev nD) : U4 m c main_v46_0 = X4a m c := by
  unfold U4
  rw [Function.update_of_ne (StableHlo.devRef_ne_of_ne (by decide) : (Proc.devRef .tc main_v46_0 : DevRef τ sig) ≠ Proc.devRef .tc main_v46_1), Function.update_self]
theorem U4_b (c : Dev nD) : U4 m c main_v46_1 = X4b m c := by
  unfold U4; rw [Function.update_self]
theorem U4_of (c : Dev nD) (r : Ref sig .tc) (ha : r ≠ main_v46_0) (hb : r ≠ main_v46_1) : U4 m c r = U3 m c r := by
  unfold U4
  rw [Function.update_of_ne (StableHlo.devRef_ne_of_ne hb : (Proc.devRef .tc r : DevRef τ sig) ≠ Proc.devRef .tc main_v46_1),
    Function.update_of_ne (StableHlo.devRef_ne_of_ne ha : (Proc.devRef .tc r : DevRef τ sig) ≠ Proc.devRef .tc main_v46_0)]
theorem hF1_0 (c : Dev nD) : (L1.dat (atTc (U3 m)) c).arrAt 0 cfg1.N = atTc (U4 m) c main_v25_0 :=
  (((L1.dat (atTc (U3 m)) c).arrAt_in 0 rfl _).trans (L1.A_eq (atTc (U3 m)) c 0)).trans (U4_of m c main_v25_0 (by decide) (by decide)).symm
theorem hF1_1 (c : Dev nD) : (L1.dat (atTc (U3 m)) c).arrAt 1 cfg1.N = atTc (U4 m) c main_v35 :=
  (((L1.dat (atTc (U3 m)) c).arrAt_in 1 rfl _).trans (L1.A_eq (atTc (U3 m)) c 1)).trans (U4_of m c main_v35 (by decide) (by decide)).symm
theorem hF1_2 (c : Dev nD) : (L1.dat (atTc (U3 m)) c).arrAt 2 cfg1.N = atTc (U4 m) c main_v4 :=
  (((L1.dat (atTc (U3 m)) c).arrAt_in 2 rfl _).trans (L1.A_eq (atTc (U3 m)) c 2)).trans (U4_of m c main_v4 (by decide) (by decide)).symm
theorem hF1_3 (c : Dev nD) : (L1.dat (atTc (U3 m)) c).arrAt 3 cfg1.N = atTc (U4 m) c main_v37 :=
  (((L1.dat (atTc (U3 m)) c).arrAt_in 3 rfl _).trans (L1.A_eq (atTc (U3 m)) c 3)).trans (U4_of m c main_v37 (by decide) (by decide)).symm
theorem hF1_4 (c : Dev nD) : (L1.dat (atTc (U3 m)) c).arrAt 4 cfg1.N = atTc (U4 m) c main_v40 :=
  (((L1.dat (atTc (U3 m)) c).arrAt_in 4 rfl _).trans (L1.A_eq (atTc (U3 m)) c 4)).trans (U4_of m c main_v40 (by decide) (by decide)).symm
theorem hF1_5 (c : Dev nD) : (L1.dat (atTc (U3 m)) c).arrAt 5 cfg1.N = atTc (U4 m) c main_v42 :=
  (((L1.dat (atTc (U3 m)) c).arrAt_in 5 rfl _).trans (L1.A_eq (atTc (U3 m)) c 5)).trans (U4_of m c main_v42 (by decide) (by decide)).symm
theorem hF1_6 (c : Dev nD) : (L1.dat (atTc (U3 m)) c).arrAt 6 cfg1.N = atTc (U4 m) c main_v45 :=
  (((L1.dat (atTc (U3 m)) c).arrAt_in 6 rfl _).trans (L1.A_eq (atTc (U3 m)) c 6)).trans (U4_of m c main_v45 (by decide) (by decide)).symm
/-- At the region's exit each of its arrays holds what the pipeline leaves, -/
theorem hF1 (c : Dev nD) : ∀ w : Fin cfg1.W, (L1.dat (atTc (U3 m)) c).arrAt w cfg1.N = atTc (U4 m) c (Pipeline.arrRef spec1 w)
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨6, _⟩ => hF1_6 m c
  | ⟨7, _⟩ => (U4_a m c).symm
  | ⟨8, _⟩ => (U4_b m c).symm
/-- and every other buffer what it held at entry. -/
theorem hrest1 (c : Dev nD) : ∀ b, b ∉ Finset.univ.image (Pipeline.arrRef spec1) → atTc (U4 m) c b = atTc (U3 m) c b :=
  fun b hb => U4_of m c b (fun e => hb (Finset.mem_image.mpr ⟨7, Finset.mem_univ _, e.symm⟩)) (fun e => hb (Finset.mem_image.mpr ⟨8, Finset.mem_univ _, e.symm⟩))

theorem U6_a (c : Dev nD) : U6 m c main_v67_0 = X6a m c := by
  unfold U6
  rw [Function.update_of_ne (StableHlo.devRef_ne_of_ne (by decide) : (Proc.devRef .tc main_v67_0 : DevRef τ sig) ≠ Proc.devRef .tc main_v67_1), Function.update_self]
theorem U6_b (c : Dev nD) : U6 m c main_v67_1 = X6b m c := by
  unfold U6; rw [Function.update_self]
theorem U6_of (c : Dev nD) (r : Ref sig .tc) (ha : r ≠ main_v67_0) (hb : r ≠ main_v67_1) : U6 m c r = U5 m c r := by
  unfold U6
  rw [Function.update_of_ne (StableHlo.devRef_ne_of_ne hb : (Proc.devRef .tc r : DevRef τ sig) ≠ Proc.devRef .tc main_v67_1),
    Function.update_of_ne (StableHlo.devRef_ne_of_ne ha : (Proc.devRef .tc r : DevRef τ sig) ≠ Proc.devRef .tc main_v67_0)]
theorem hF2_0 (c : Dev nD) : (L2.dat (atTc (U5 m)) c).arrAt 0 cfg2.N = atTc (U6 m) c main_v46_0 :=
  (((L2.dat (atTc (U5 m)) c).arrAt_in 0 rfl _).trans (L2.A_eq (atTc (U5 m)) c 0)).trans (U6_of m c main_v46_0 (by decide) (by decide)).symm
theorem hF2_1 (c : Dev nD) : (L2.dat (atTc (U5 m)) c).arrAt 1 cfg2.N = atTc (U6 m) c main_v56 :=
  (((L2.dat (atTc (U5 m)) c).arrAt_in 1 rfl _).trans (L2.A_eq (atTc (U5 m)) c 1)).trans (U6_of m c main_v56 (by decide) (by decide)).symm
theorem hF2_2 (c : Dev nD) : (L2.dat (atTc (U5 m)) c).arrAt 2 cfg2.N = atTc (U6 m) c main_v4 :=
  (((L2.dat (atTc (U5 m)) c).arrAt_in 2 rfl _).trans (L2.A_eq (atTc (U5 m)) c 2)).trans (U6_of m c main_v4 (by decide) (by decide)).symm
theorem hF2_3 (c : Dev nD) : (L2.dat (atTc (U5 m)) c).arrAt 3 cfg2.N = atTc (U6 m) c main_v58 :=
  (((L2.dat (atTc (U5 m)) c).arrAt_in 3 rfl _).trans (L2.A_eq (atTc (U5 m)) c 3)).trans (U6_of m c main_v58 (by decide) (by decide)).symm
theorem hF2_4 (c : Dev nD) : (L2.dat (atTc (U5 m)) c).arrAt 4 cfg2.N = atTc (U6 m) c main_v61 :=
  (((L2.dat (atTc (U5 m)) c).arrAt_in 4 rfl _).trans (L2.A_eq (atTc (U5 m)) c 4)).trans (U6_of m c main_v61 (by decide) (by decide)).symm
theorem hF2_5 (c : Dev nD) : (L2.dat (atTc (U5 m)) c).arrAt 5 cfg2.N = atTc (U6 m) c main_v63 :=
  (((L2.dat (atTc (U5 m)) c).arrAt_in 5 rfl _).trans (L2.A_eq (atTc (U5 m)) c 5)).trans (U6_of m c main_v63 (by decide) (by decide)).symm
theorem hF2_6 (c : Dev nD) : (L2.dat (atTc (U5 m)) c).arrAt 6 cfg2.N = atTc (U6 m) c main_v66 :=
  (((L2.dat (atTc (U5 m)) c).arrAt_in 6 rfl _).trans (L2.A_eq (atTc (U5 m)) c 6)).trans (U6_of m c main_v66 (by decide) (by decide)).symm
/-- At the region's exit each of its arrays holds what the pipeline leaves, -/
theorem hF2 (c : Dev nD) : ∀ w : Fin cfg2.W, (L2.dat (atTc (U5 m)) c).arrAt w cfg2.N = atTc (U6 m) c (Pipeline.arrRef spec2 w)
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
  | ⟨6, _⟩ => hF2_6 m c
  | ⟨7, _⟩ => (U6_a m c).symm
  | ⟨8, _⟩ => (U6_b m c).symm
/-- and every other buffer what it held at entry. -/
theorem hrest2 (c : Dev nD) : ∀ b, b ∉ Finset.univ.image (Pipeline.arrRef spec2) → atTc (U6 m) c b = atTc (U5 m) c b :=
  fun b hb => U6_of m c b (fun e => hb (Finset.mem_image.mpr ⟨7, Finset.mem_univ _, e.symm⟩)) (fun e => hb (Finset.mem_image.mpr ⟨8, Finset.mem_univ _, e.symm⟩))

theorem U8_a (c : Dev nD) : U8 m c main_v72 = X8 m c := by
  unfold U8; rw [Function.update_self]
theorem U8_of (c : Dev nD) (r : Ref sig .tc) (ha : r ≠ main_v72) : U8 m c r = U7 m c r := by
  unfold U8
  rw [Function.update_of_ne (StableHlo.devRef_ne_of_ne ha : (Proc.devRef .tc r : DevRef τ sig) ≠ Proc.devRef .tc main_v72)]
theorem hF3_0 (c : Dev nD) : (C3.dat (atTc (U7 m)) c).arrAt 0 cfg3.N = atTc (U8 m) c main_v68 :=
  (((C3.dat (atTc (U7 m)) c).arrAt_in 0 rfl _).trans (C3.A_eq (atTc (U7 m)) c 0)).trans (U8_of m c main_v68 (by decide)).symm
theorem hF3_1 (c : Dev nD) : (C3.dat (atTc (U7 m)) c).arrAt 1 cfg3.N = atTc (U8 m) c main_arg7 :=
  (((C3.dat (atTc (U7 m)) c).arrAt_in 1 rfl _).trans (C3.A_eq (atTc (U7 m)) c 1)).trans (U8_of m c main_arg7 (by decide)).symm
theorem hF3_2 (c : Dev nD) : (C3.dat (atTc (U7 m)) c).arrAt 2 cfg3.N = atTc (U8 m) c main_v69 :=
  (((C3.dat (atTc (U7 m)) c).arrAt_in 2 rfl _).trans (C3.A_eq (atTc (U7 m)) c 2)).trans (U8_of m c main_v69 (by decide)).symm
theorem hF3_3 (c : Dev nD) : (C3.dat (atTc (U7 m)) c).arrAt 3 cfg3.N = atTc (U8 m) c main_arg9 :=
  (((C3.dat (atTc (U7 m)) c).arrAt_in 3 rfl _).trans (C3.A_eq (atTc (U7 m)) c 3)).trans (U8_of m c main_arg9 (by decide)).symm
theorem hF3_4 (c : Dev nD) : (C3.dat (atTc (U7 m)) c).arrAt 4 cfg3.N = atTc (U8 m) c main_v70 :=
  (((C3.dat (atTc (U7 m)) c).arrAt_in 4 rfl _).trans (C3.A_eq (atTc (U7 m)) c 4)).trans (U8_of m c main_v70 (by decide)).symm
theorem hF3_5 (c : Dev nD) : (C3.dat (atTc (U7 m)) c).arrAt 5 cfg3.N = atTc (U8 m) c main_arg11 :=
  (((C3.dat (atTc (U7 m)) c).arrAt_in 5 rfl _).trans (C3.A_eq (atTc (U7 m)) c 5)).trans (U8_of m c main_arg11 (by decide)).symm
theorem hF3_6 (c : Dev nD) : (C3.dat (atTc (U7 m)) c).arrAt 6 cfg3.N = atTc (U8 m) c main_v71 :=
  (((C3.dat (atTc (U7 m)) c).arrAt_in 6 rfl _).trans (C3.A_eq (atTc (U7 m)) c 6)).trans (U8_of m c main_v71 (by decide)).symm
/-- At the region's exit each of its arrays holds what the pipeline leaves, -/
theorem hF3 (c : Dev nD) : ∀ w : Fin cfg3.W, (C3.dat (atTc (U7 m)) c).arrAt w cfg3.N = atTc (U8 m) c (Pipeline.arrRef spec3 w)
  | ⟨0, _⟩ => hF3_0 m c
  | ⟨1, _⟩ => hF3_1 m c
  | ⟨2, _⟩ => hF3_2 m c
  | ⟨3, _⟩ => hF3_3 m c
  | ⟨4, _⟩ => hF3_4 m c
  | ⟨5, _⟩ => hF3_5 m c
  | ⟨6, _⟩ => hF3_6 m c
  | ⟨7, _⟩ => (U8_a m c).symm
theorem hrest3 (c : Dev nD) : ∀ b, b ∉ Finset.univ.image (Pipeline.arrRef spec3) → atTc (U8 m) c b = atTc (U7 m) c b :=
  fun b hb => U8_of m c b (fun e => hb (Finset.mem_image.mpr ⟨7, Finset.mem_univ _, e.symm⟩))

/-! ## The arguments end as launched -/

/-- A reference that no host stretch writes and that is no region's output holds its launch contents at the end. -/
theorem U8_kept (c : Dev nD) (r : Ref sig .tc) (h0 : r ∉ hostOps0_W) (h1 : r ∉ hostOps1_W) (h2 : r ∉ hostOps2_W) (h3 : r ∉ hostOps3_W)
    (hn : r ∉ ([main_v25_0, main_v25_1, main_v46_0, main_v46_1, main_v67_0, main_v67_1, main_v72] : List (Ref sig .tc))) :
    U8 m c r = m ((c : Thread nD τ).loc r) := by
  have e := fun (x : Ref sig .tc) (hx : x ∈ ([main_v25_0, main_v25_1, main_v46_0, main_v46_1, main_v67_0, main_v67_1, main_v72] : List (Ref sig .tc))) (e : r = x) => hn (e ▸ hx)
  calc U8 m c r = U7 m c r := U8_of m c r (e _ (by decide))
    _ = U6 m c r := StableHlo.after_of_writes_sub hostOps3 _ hostOps3_writes h3
    _ = U5 m c r := U6_of m c r (e _ (by decide)) (e _ (by decide))
    _ = U4 m c r := StableHlo.after_of_writes_sub hostOps2 _ hostOps2_writes h2
    _ = U3 m c r := U4_of m c r (e _ (by decide)) (e _ (by decide))
    _ = U2 m c r := StableHlo.after_of_writes_sub hostOps1 _ hostOps1_writes h1
    _ = U1 m c r := U2_of m c r (e _ (by decide)) (e _ (by decide))
    _ = U0 m c r := StableHlo.after_of_writes_sub hostOps0 _ hostOps0_writes h0
    _ = m ((c : Thread nD τ).loc r) := rfl

/-! ## The regions as segments -/

set_option backward.isDefEq.respectTransparency.types false in
/-- Region 0: entered with every unscoped buffer at `U1`, left with them at `U2`. Its windows' arrays are split
    out of the unscoped buffers at entry and put back at what the pipeline's write-backs leave; the generator register goes
    into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (L0.body_obligation (atTc (U1 m)) c).loose
  hwaits := Pipeline.hwaits_of_owed_zero _ _ _ _ L lv 0 fun _ _ => rfl
  pre c := iprop(StableHlo.held (c : Thread nD τ) (Pipeline.ucRefs τ sig) (U1 m c) ∗ Rr c)
  post c := iprop(StableHlo.held (c : Thread nD τ) (Pipeline.ucRefs τ sig) (U2 m c) ∗ Rr c)
  X c := iprop(∃ r, prngReg c r)
  Y c := iprop(∃ r, prngReg c r)
  Z c := Pipeline.unscopedRest (Ix := Unit) (Name := ℕ) (U := UR sig nD τ) (Lvl := ℕ) spec0 c (atTc (U1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (U1 m) c) (atTc (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at `U3`, left with them at `U4`. Its windows' arrays are split
    out of the unscoped buffers at entry and put back at what the pipeline's write-backs leave; the generator register goes
    into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (L1.body_obligation (atTc (U3 m)) c).loose
  hwaits := Pipeline.hwaits_of_owed_zero _ _ _ _ L lv 1 fun _ _ => rfl
  pre c := iprop(StableHlo.held (c : Thread nD τ) (Pipeline.ucRefs τ sig) (U3 m c) ∗ Rr c)
  post c := iprop(StableHlo.held (c : Thread nD τ) (Pipeline.ucRefs τ sig) (U4 m c) ∗ Rr c)
  X c := iprop(∃ r, prngReg c r)
  Y c := iprop(∃ r, prngReg c r)
  Z c := Pipeline.unscopedRest (Ix := Unit) (Name := ℕ) (U := UR sig nD τ) (Lvl := ℕ) spec1 c (atTc (U3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (U3 m) c) (atTc (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at `U5`, left with them at `U6`. Its windows' arrays are split
    out of the unscoped buffers at entry and put back at what the pipeline's write-backs leave; the generator register goes
    into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (L2.body_obligation (atTc (U5 m)) c).loose
  hwaits := Pipeline.hwaits_of_owed_zero _ _ _ _ L lv 2 fun _ _ => rfl
  pre c := iprop(StableHlo.held (c : Thread nD τ) (Pipeline.ucRefs τ sig) (U5 m c) ∗ Rr c)
  post c := iprop(StableHlo.held (c : Thread nD τ) (Pipeline.ucRefs τ sig) (U6 m c) ∗ Rr c)
  X c := iprop(∃ r, prngReg c r)
  Y c := iprop(∃ r, prngReg c r)
  Z c := Pipeline.unscopedRest (Ix := Unit) (Name := ℕ) (U := UR sig nD τ) (Lvl := ℕ) spec2 c (atTc (U5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (U5 m) c) (atTc (U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at `U7`, left with them at `U8`. Its windows' arrays are split
    out of the unscoped buffers at entry and put back at what the pipeline's write-backs leave; the generator register goes
    into the invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (C3.body_obligation (atTc (U7 m)) c).loose
  hwaits := Pipeline.hwaits_of_owed_zero _ _ _ _ L lv 3 fun _ _ => rfl
  pre c := iprop(StableHlo.held (c : Thread nD τ) (Pipeline.ucRefs τ sig) (U7 m c) ∗ Rr c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (atTc (U7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (U7 m) c) (atTc (U8 m) c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (U0 m)),
    .region (reg0 m),
    .host (hseg hostOps1 hostOps1_sub hostOps1_fresh (U2 m)),
    .region (reg1 m),
    .host (hseg hostOps2 hostOps2_sub hostOps2_fresh (U4 m)),
    .region (reg2 m),
    .host (hseg hostOps3 hostOps3_sub hostOps3_fresh (U6 m)),
    .region (reg3 m) ]
theorem main_run (c : Dev nD) : main (F := F) c = Pipeline.Seg.run (segs m) := (main_chain c).trans (by chain_rfl)

set_option backward.isDefEq.respectTransparency.types false in
/-- From any memory with zero counters, every weakly fair execution of the program terminates, nothing faulting; at the
    end the result array holds what the classifier region left and every argument array its launch contents. -/
theorem run_main : θ_run defs (onTc (τ := τ) (main (F := F))) ⟨m, fun _ => 0, ρ⟩ (fun r => ∀ c : Dev nD,
      r.2.mem ((c.tc : Thread nD τ).loc main_v72) = X8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ Rr c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U8 m c b)
    (hfin := fun c s' => by
      iintro ⟨⟨Hh, -⟩, HSI⟩
      unfold StableHlo.held
      imodintro
      iapply (pointsTo_read_all (Pipeline.ucRefs τ sig) (fun b => (((c : Thread nD τ)).1, b)) (U8 m c) s')
      isplitl [Hh] <;> iassumption)
    (hQ := fun s h c =>
      ⟨(h c _ (mem_uc main_v72 (by decide))).trans (U8_a m c),
       (h c _ (mem_uc main_arg0 (by decide))).trans (U8_kept m c main_arg0 (by decide) (by decide) (by decide) (by decide) (by decide)),
       (h c _ (mem_uc main_arg1 (by decide))).trans (U8_kept m c main_arg1 (by decide) (by decide) (by decide) (by decide) (by decide)),
       (h c _ (mem_uc main_arg2 (by decide))).trans (U8_kept m c main_arg2 (by decide) (by decide) (by decide) (by decide) (by decide)),
       (h c _ (mem_uc main_arg3 (by decide))).trans (U8_kept m c main_arg3 (by decide) (by decide) (by decide) (by decide) (by decide)),
       (h c _ (mem_uc main_arg4 (by decide))).trans (U8_kept m c main_arg4 (by decide) (by decide) (by decide) (by decide) (by decide)),
       (h c _ (mem_uc main_arg5 (by decide))).trans (U8_kept m c main_arg5 (by decide) (by decide) (by decide) (by decide) (by decide)),
       (h c _ (mem_uc main_arg6 (by decide))).trans (U8_kept m c main_arg6 (by decide) (by decide) (by decide) (by decide) (by decide)),
       (h c _ (mem_uc main_arg7 (by decide))).trans (U8_kept m c main_arg7 (by decide) (by decide) (by decide) (by decide) (by decide)),
       (h c _ (mem_uc main_arg8 (by decide))).trans (U8_kept m c main_arg8 (by decide) (by decide) (by decide) (by decide) (by decide)),
       (h c _ (mem_uc main_arg9 (by decide))).trans (U8_kept m c main_arg9 (by decide) (by decide) (by decide) (by decide) (by decide)),
       (h c _ (mem_uc main_arg10 (by decide))).trans (U8_kept m c main_arg10 (by decide) (by decide) (by decide) (by decide) (by decide)),
       (h c _ (mem_uc main_arg11 (by decide))).trans (U8_kept m c main_arg11 (by decide) (by decide) (by decide) (by decide) (by decide)),
       (h c _ (mem_uc main_arg12 (by decide))).trans (U8_kept m c main_arg12 (by decide) (by decide) (by decide) (by decide) (by decide))⟩)

end Cert.KernelIdeal.Whole

end
-- ==== Proof.Spec.lean ====
/-
  The computation both programs perform, as a composition of named stages, written with the host operations the reference
  uses. Per layer: the neighbour sum (gather the source rows, add them into the destination rows), the node update
  relu(relu((X + agg) W1 + b1) W2 + b2), and the per-graph pooling (add each node's row into its graph's row). The three
  pooled blocks are joined side by side and pass through a three-layer classifier. The reference's result is this
  composition of its arguments, by unfolding.
-/
import proofs.«419285_j30786325577782_1_alg».proof.Proof.Gen.ReferenceIdeal.Run

noncomputable section

namespace Cert.Spec

open Cert.ReferenceIdeal Cert.ReferenceIdeal.Gen Idealize.ShloMosaic Idealize.ShloMosaic.TcCoe Idealize.SL.Sem

variable {F : FTy → Type} [FloatOps F]

/-- The edge list's source ids, negative ones wrapped once by the number of nodes, as a column; its destination ids as a column. -/
def srcIds (ei : IVec S2x1600000 32) : IVec S1600000 32 :=
  shapeCast _ (extractStridedSlice S1x1600000 ![0, 0] ei slices_S2x1600000_S1x1600000_0_0) shapeCasts_S1x1600000_S1600000
def dstIds (ei : IVec S2x1600000 32) : IVec S1600000 32 :=
  shapeCast _ (extractStridedSlice S1x1600000 ![1, 0] ei slices_S2x1600000_S1x1600000_1_0) shapeCasts_S1x1600000_S1600000
def srcCol (ei : IVec S2x1600000 32) : IVec S1600000x1 32 :=
  broadcastInDim S1600000x1 ![0] bcast_S1600000_S1600000x1_0
    (select (cmpi .slt (srcIds ei) (broadcastInDim S1600000 ![] bcast_S_S1600000 (constantI S_ 32 0#32)))
      (addi (srcIds ei) (broadcastInDim S1600000 ![] bcast_S_S1600000 (constantI S_ 32 100000#32))) (srcIds ei))
def dstCol (ei : IVec S2x1600000 32) : IVec S1600000x1 32 :=
  broadcastInDim S1600000x1 ![0] bcast_S1600000_S1600000x1_0 (dstIds ei)

/-- The neighbour sum: row `d` is the sum of the rows `X[s]` over the edges `s → d`. -/
def agg (X : FVec F S100000x128 .f32) (ei : IVec S2x1600000 32) : FVec F S100000x128 .f32 :=
  Host.scatterAdd scatter_S100000x128_S1600000x1_S1600000x128_1_0_0_1
    (broadcastInDim S100000x128 ![] bcast_S_S100000x128 (constant S_ .f32 0x00000000#32)) (dstCol ei)
    (Host.gather gather_S100000x128_S1600000x1_S1600000x128_1_0_n_n_0_1_1128 X (srcCol ei))

/-- `x W + b` over all nodes, the bias given as a one-row matrix; and with the bias given as a vector. -/
def linRow (x : FVec F S100000x128 .f32) (w : FVec F S128x128 .f32) (brow : FVec F S1x128 .f32) : FVec F S100000x128 .f32 :=
  addf (Host.dotGeneral dot_S100000x128_S128x128_S100000x128_1_0_0_1_n_n none x w)
    (broadcastInDim S100000x128 ![0, 1] bcast_S1x128_S100000x128_0_1 brow)
def relu (x : FVec F S100000x128 .f32) : FVec F S100000x128 .f32 :=
  maximumf x (broadcastInDim S100000x128 ![] bcast_S_S100000x128 (constant S_ .f32 0x00000000#32))
/-- One node update from the features and their neighbour sum, the biases as one-row matrices. -/
def layerRow (X a : FVec F S100000x128 .f32) (w1 : FVec F S128x128 .f32) (b1 : FVec F S1x128 .f32) (w2 : FVec F S128x128 .f32) (b2 : FVec F S1x128 .f32) :
    FVec F S100000x128 .f32 :=
  relu (linRow (relu (linRow (addf X a) w1 b1)) w2 b2)
def rowOf (b : FVec F S128 .f32) : FVec F S1x128 .f32 := broadcastInDim S1x128 ![1] bcast_S128_S1x128_1 b
def layer (X a : FVec F S100000x128 .f32) (w1 : FVec F S128x128 .f32) (b1 : FVec F S128 .f32) (w2 : FVec F S128x128 .f32) (b2 : FVec F S128 .f32) :
    FVec F S100000x128 .f32 :=
  layerRow X a w1 (rowOf b1) w2 (rowOf b2)

/-- Per-graph pooling: row `g` is the sum of the node rows whose graph id is `g`; the ids given as a column, and as a vector. -/
def poolCol (X : FVec F S100000x128 .f32) (col : IVec S100000x1 32) : FVec F S512x128 .f32 :=
  Host.scatterAdd scatter_S512x128_S100000x1_S100000x128_1_0_0_1
    (broadcastInDim S512x128 ![] bcast_S_S512x128 (constant S_ .f32 0x00000000#32)) col X
def colOf (batch : IVec S100000 32) : IVec S100000x1 32 := broadcastInDim S100000x1 ![0] bcast_S100000_S100000x1_0 batch
def pool (X : FVec F S100000x128 .f32) (batch : IVec S100000 32) : FVec F S512x128 .f32 := poolCol X (colOf batch)

/-- Layer `l`'s weight matrix and bias vector out of the stacked parameters. -/
def w0 (W : FVec F S3x128x128 .f32) : FVec F S128x128 .f32 := shapeCast _ (extractStridedSlice S1x128x128 ![0, 0, 0] W slices_S3x128x128_S1x128x128_0_0_0) shapeCasts_S1x128x128_S128x128
def w1 (W : FVec F S3x128x128 .f32) : FVec F S128x128 .f32 := shapeCast _ (extractStridedSlice S1x128x128 ![1, 0, 0] W slices_S3x128x128_S1x128x128_1_0_0) shapeCasts_S1x128x128_S128x128
def w2 (W : FVec F S3x128x128 .f32) : FVec F S128x128 .f32 := shapeCast _ (extractStridedSlice S1x128x128 ![2, 0, 0] W slices_S3x128x128_S1x128x128_2_0_0) shapeCasts_S1x128x128_S128x128
def b0 (B : FVec F S3x128 .f32) : FVec F S128 .f32 := shapeCast _ (extractStridedSlice S1x128 ![0, 0] B slices_S3x128_S1x128_0_0) shapeCasts_S1x128_S128
def b1 (B : FVec F S3x128 .f32) : FVec F S128 .f32 := shapeCast _ (extractStridedSlice S1x128 ![1, 0] B slices_S3x128_S1x128_1_0) shapeCasts_S1x128_S128
def b2 (B : FVec F S3x128 .f32) : FVec F S128 .f32 := shapeCast _ (extractStridedSlice S1x128 ![2, 0] B slices_S3x128_S1x128_2_0) shapeCasts_S1x128_S128

/-- The classifier on the joined pooled features, the biases as one-row matrices; and as vectors. -/
def clsRow (h : FVec F S512x384 .f32) (cw1 : FVec F S384x128 .f32) (cb1 : FVec F S1x128 .f32) (cw2 : FVec F S128x128 .f32) (cb2 : FVec F S1x128 .f32)
    (cw3 : FVec F S128x1 .f32) (cb3 : FVec F S1x1 .f32) : FVec F S512x1 .f32 :=
  addf (Host.dotGeneral dot_S512x128_S128x1_S512x1_1_0_0_1_n_n none
      (maximumf (addf (Host.dotGeneral dot_S512x128_S128x128_S512x128_1_0_0_1_n_n none
          (maximumf (addf (Host.dotGeneral dot_S512x384_S384x128_S512x128_1_0_0_1_n_n none h cw1)
              (broadcastInDim S512x128 ![0, 1] bcast_S1x128_S512x128_0_1 cb1))
            (broadcastInDim S512x128 ![] bcast_S_S512x128 (constant S_ .f32 0x00000000#32))) cw2)
          (broadcastInDim S512x128 ![0, 1] bcast_S1x128_S512x128_0_1 cb2))
        (broadcastInDim S512x128 ![] bcast_S_S512x128 (constant S_ .f32 0x00000000#32))) cw3)
    (broadcastInDim S512x1 ![0, 1] bcast_S1x1_S512x1_0_1 cb3)
def cls (h : FVec F S512x384 .f32) (cw1 : FVec F S384x128 .f32) (cb1 : FVec F S128 .f32) (cw2 : FVec F S128x128 .f32) (cb2 : FVec F S128 .f32)
    (cw3 : FVec F S128x1 .f32) (cb3 : FVec F S1 .f32) : FVec F S512x1 .f32 :=
  clsRow h cw1 (rowOf cb1) cw2 (rowOf cb2) cw3 (broadcastInDim S1x1 ![1] bcast_S1_S1x1_1 cb3)
def join (p1 p2 p3 : FVec F S512x128 .f32) : FVec F S512x384 .f32 :=
  concatenate S512x384 1 [⟨S512x128, p1⟩, ⟨S512x128, p2⟩, ⟨S512x128, p3⟩] concatenates_S512x128_S512x128_S512x128_S512x384_d1

/-- The node features after each of the three layers. -/
def X1 (X : FVec F S100000x128 .f32) (ei : IVec S2x1600000 32) (W1 : FVec F S3x128x128 .f32) (B1 : FVec F S3x128 .f32) (W2 : FVec F S3x128x128 .f32) (B2 : FVec F S3x128 .f32) :=
  layer X (agg X ei) (w0 W1) (b0 B1) (w0 W2) (b0 B2)
def X2 (X : FVec F S100000x128 .f32) (ei : IVec S2x1600000 32) (W1 : FVec F S3x128x128 .f32) (B1 : FVec F S3x128 .f32) (W2 : FVec F S3x128x128 .f32) (B2 : FVec F S3x128 .f32) :=
  layer (X1 X ei W1 B1 W2 B2) (agg (X1 X ei W1 B1 W2 B2) ei) (w1 W1) (b1 B1) (w1 W2) (b1 B2)
def X3 (X : FVec F S100000x128 .f32) (ei : IVec S2x1600000 32) (W1 : FVec F S3x128x128 .f32) (B1 : FVec F S3x128 .f32) (W2 : FVec F S3x128x128 .f32) (B2 : FVec F S3x128 .f32) :=
  layer (X2 X ei W1 B1 W2 B2) (agg (X2 X ei W1 B1 W2 B2) ei) (w2 W1) (b2 B1) (w2 W2) (b2 B2)

/-- The whole computation: the logits column. -/
def G (X : FVec F S100000x128 .f32) (ei : IVec S2x1600000 32) (batch : IVec S100000 32) (W1 : FVec F S3x128x128 .f32) (B1 : FVec F S3x128 .f32)
    (W2 : FVec F S3x128x128 .f32) (B2 : FVec F S3x128 .f32) (cw1 : FVec F S384x128 .f32) (cb1 : FVec F S128 .f32) (cw2 : FVec F S128x128 .f32) (cb2 : FVec F S128 .f32)
    (cw3 : FVec F S128x1 .f32) (cb3 : FVec F S1 .f32) : FVec F S512x1 .f32 :=
  cls (join (pool (X1 X ei W1 B1 W2 B2) batch) (pool (X2 X ei W1 B1 W2 B2) batch) (pool (X3 X ei W1 B1 W2 B2) batch)) cw1 cb1 cw2 cb2 cw3 cb3

set_option maxRecDepth 65536 in
set_option maxHeartbeats 4000000 in
/-- The reference's result is the composition above of its arguments. -/
theorem ref_eq (m : (ℓ : Loc nD τ sig) → Buf (Elt F) ℓ) (c : Dev nD) :
    Value.res_main_v114 m c = G (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) := by
  unfold Value.res_main_v114 G cls clsRow join pool poolCol colOf X3 X2 X1 layer layerRow rowOf relu linRow agg srcCol dstCol srcIds dstIds w0 w1 w2 b0 b1 b2
  rfl

end Cert.Spec

end
-- ==== Proof.KI.L0ValX.lean ====
/-
  Layer region 0, the node-feature output as one whole-array function at the extended reals: the fifty row blocks the
  grid points store are the row blocks of relu(relu((X + agg) W1 + b1) W2 + b2) taken over all nodes, because a row of a
  matrix product depends only on that row of the left factor.

  The block a point stores is, whichever the point, the body's update of the blocks it loaded. Read at an entry (p, j) over
  the extended reals, where a change of float format is the identity, that update is two "row stages" — r ↦ relu(r W + b),
  a sum of 128 products per entry — of row p of the loaded features plus neighbour sums. The reference's update of the whole
  arrays, read at entry (n, j), is the same two row stages of row n. Row p of row block t is row 2000 t + p, the parameter
  blocks are the whole parameter arrays, and the fifty row blocks cover the array; so the array ends holding the reference's
  update.
-/
import proofs.«419285_j30786325577782_1_alg».proof.Proof.KI.L0Dat
import proofs.«419285_j30786325577782_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.L0

open Cert.KernelIdeal Cert.KernelIdeal.Gen
open Idealize.ShloMosaic Idealize.ShloMosaic.TcCoe
open Idealize.SL Idealize.SL.Sem
open Idealize.ShloMosaic.Pipeline (Dat Cfg Window)

namespace NodeOut

section Pieces
variable {F : FTy → Type} [FloatOps F]

/-- Every load and store of the body starts at the origin of its buffer. -/
theorem offsets_zero : (![0, 0] : Fin 2 → Nat) = fun _ => 0 := funext fun a => by fin_cases a <;> rfl

/-- The node-feature block the first grid point stores is the update of the blocks it loaded. -/
theorem stored_first (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) :
    out_A_7 c i arg1 harg1 arg2 harg2 arg3 harg3 arg4 harg4 arg5 harg5 arg6 harg6 arg7 harg7 arg8 harg8 arg9 harg9 hc x0 x1 x2 x3 x4 x5 x6 = k0_pay3 x0 x1 x3 x4 x5 x6 := by
  unfold out_A_7
  rw [View.read_writes_eq_canon _ _ _ (cover_A_7 c i arg1 harg1 arg2 harg2 arg3 harg3 arg4 harg4 arg5 harg5 arg6 harg6 arg7 harg7 arg8 harg8 arg9 harg9 hc x0 x1 x2 x3 x4 x5 x6)]
  unfold kernelRun_A
  dsimp only
  rw [View.canon_unit_zero offsets_zero]
  simp only [View.readAt_eq_ld, harg1.read_unread, harg2.read_unread, harg4.read_unread, harg5.read_unread, harg6.read_unread,
    harg7.read_unread, View.ld_unit_zero (S := S2000x128) offsets_zero, View.ld_unit_zero (S := S128x128) offsets_zero,
    View.ld_unit_zero (S := S1x128) offsets_zero]

/-- So is the block every later grid point stores: the pooled accumulator does not enter it. -/
theorem stored_later (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) :
    out_B_7 c i arg1 harg1 arg2 harg2 arg3 harg3 arg4 harg4 arg5 harg5 arg6 harg6 arg7 harg7 arg8 harg8 arg9 harg9 hc x0 x1 x2 x3 x4 x5 x6 xo8 = k0_pay3 x0 x1 x3 x4 x5 x6 := by
  unfold out_B_7
  rw [View.read_writes_eq_canon _ _ _ (cover_B_7 c i arg1 harg1 arg2 harg2 arg3 harg3 arg4 harg4 arg5 harg5 arg6 harg6 arg7 harg7 arg8 harg8 arg9 harg9 hc x0 x1 x2 x3 x4 x5 x6 xo8)]
  unfold kernelRun_B
  dsimp only
  rw [View.canon_unit_zero offsets_zero]
  simp only [View.readAt_eq_ld, harg1.read_unread, harg2.read_unread, harg4.read_unread, harg5.read_unread, harg6.read_unread,
    harg7.read_unread, View.ld_unit_zero (S := S2000x128) offsets_zero, View.ld_unit_zero (S := S128x128) offsets_zero,
    View.ld_unit_zero (S := S1x128) offsets_zero]

end Pieces

section AtIdeal
open Idealize.ShloMosaic.ValueIdx

/-- One stage of the node update on one row, over the extended reals: from a row `r` (128 entries), the weights `w` and the
    one-row bias `b`, entry `k` of relu(r W + b). The threshold is the value of the zero word. -/
def stageRow (w : FVec Ideal S128x128 .f32) (b : FVec Ideal S1x128 .f32) (r : Fin 128 → EReal) (k : Fin 128) : EReal :=
  max ((∑ l : Fin 128, r l * w (ix2 l k)) + b (ix2 (0 : Fin 1) k)) (Ideal.ofBits .f32 0x00000000#32)

/-! ### The block's matrix product at an entry -/

theorem blockDot_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem blockDot_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem blockDot_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem blockDot_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, j) of a 2000x128 block times a 128x128 matrix, accumulated into zero: the sum over the 128 inner entries. -/
theorem blockDot_apply {φ₁ φ₂ : FTy} (a : FVec Ideal S2000x128 φ₁) (w : FVec Ideal S128x128 φ₂) (p : Fin 2000) (j : Fin 128) :
    matmul dot_S2000x128_S128x128_S2000x128_1_0_0_1_n_n none a w (constant S2000x128 .f32 0x00000000#32) (ix2 p j)
      = ∑ k : Fin 128, a (ix2 p k) * w (ix2 k j) := by
  refine (Ideal.matmul_constant_zero_apply dot_S2000x128_S128x128_S2000x128_1_0_0_1_n_n none a w (ix2 p j)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p j) ((ValueIdx.contrEquiv1 dot_S2000x128_S128x128_S2000x128_1_0_0_1_n_n 128 rfl rfl).symm k) = ix2 p k := funext fun a => Fin.ext (by
    match a with
    | ⟨0, _⟩ => exact blockDot_lhs_0 _ _
    | ⟨1, _⟩ => exact (blockDot_lhs_1 _ _).trans hk)
  have er : dot_S2000x128_S128x128_S2000x128_1_0_0_1_n_n.rhsIdx (ix2 p j) ((ValueIdx.contrEquiv1 dot_S2000x128_S128x128_S2000x128_1_0_0_1_n_n 128 rfl rfl).symm k) = ix2 k j := funext fun a => Fin.ext (by
    match a with
    | ⟨0, _⟩ => exact (blockDot_rhs_0 _ _).trans hk
    | ⟨1, _⟩ => exact blockDot_rhs_1 _ _)
  rw [el, er]

end AtIdeal

section Stages
variable {F : FTy → Type} [FloatOps F]

/-- One stage of the update on a block, as the body computes it: relu(a W + b), the product accumulated into zero, the
    one-row bias repeated down the rows. -/
def blockStage (a : FVec F S2000x128 .f32) (w : Vec F S128x128 .f32) (b : Vec F S1x128 .f32) : FVec F S2000x128 .f32 :=
  maximumf
    (addf
      (matmul dot_S2000x128_S128x128_S2000x128_1_0_0_1_n_n none (truncf .bf16 a bitsLt_bf16_f32)
        (truncf .bf16 (shapeCast S128x128 w shapeCasts_S128x128_S128x128) bitsLt_bf16_f32) (constant S2000x128 .f32 0x00000000#32))
      (broadcastTo S2000x128 (shapeCast S1x128 b shapeCasts_S1x128_S1x128) broadcasts_S1x128_S2000x128))
    (broadcast S2000x128 (Scalar.ofBits .f32 0x00000000#32))

/-- The stored block is two such stages applied to the sum of the two loaded blocks. -/
theorem pay_eq_stages (x0 x1 : Vec F S2000x128 .f32) (w1 : Vec F S128x128 .f32) (b1 : Vec F S1x128 .f32) (w2 : Vec F S128x128 .f32)
    (b2 : Vec F S1x128 .f32) :
    k0_pay3 x0 x1 w1 b1 w2 b2
      = blockStage (blockStage (addf x0 (shapeCast S2000x128 x1 shapeCasts_S2000x128_S2000x128)) w1 b1) w2 b2 := rfl

end Stages

section AtIdeal2
open Idealize.ShloMosaic.ValueIdx

/-- A block stage at entry (p, j) is the row stage of row p. -/
theorem blockStage_apply (a : FVec Ideal S2000x128 .f32) (w : Vec Ideal S128x128 .f32) (b : Vec Ideal S1x128 .f32) (p : Fin 2000) (j : Fin 128) :
    blockStage (F := Ideal) a w b (ix2 p j) = stageRow w b (fun l => a (ix2 p l)) j := by
  unfold blockStage stageRow
  show max (matmul dot_S2000x128_S128x128_S2000x128_1_0_0_1_n_n none (truncf .bf16 a bitsLt_bf16_f32)
        (truncf .bf16 (shapeCast S128x128 w shapeCasts_S128x128_S128x128) bitsLt_bf16_f32) (constant (F := Ideal) S2000x128 .f32 0x00000000#32) (ix2 p j)
      + broadcastTo S2000x128 (shapeCast S1x128 b shapeCasts_S1x128_S1x128) broadcasts_S1x128_S2000x128 (ix2 p j)) (Ideal.ofBits .f32 0x00000000#32) = _
  refine congrArg (fun z => max z (Ideal.ofBits .f32 0x00000000#32)) (congrArg₂ (· + ·) ?_ ?_)
  · refine (blockDot_apply _ _ p j).trans (Finset.sum_congr rfl fun l _ => ?_)
    show a (ix2 p l) * shapeCast S128x128 w shapeCasts_S128x128_S128x128 (ix2 l j) = a (ix2 p l) * w (ix2 l j)
    rw [shapeCast_self]
  · rw [shapeCast_self]
    exact broadcastTo_apply b broadcasts_S1x128_S2000x128 (ix2 p j) (ix2 (0 : Fin 1) j) (fun a => match a with
      | ⟨0, _⟩ => rfl
      | ⟨1, _⟩ => rfl)

/-- The stored block at entry (p, j): the two row stages of the sum of the two loaded rows p. -/
theorem pay_apply (x0 x1 : Vec Ideal S2000x128 .f32) (w1 : Vec Ideal S128x128 .f32) (b1 : Vec Ideal S1x128 .f32) (w2 : Vec Ideal S128x128 .f32)
    (b2 : Vec Ideal S1x128 .f32) (p : Fin 2000) (j : Fin 128) :
    k0_pay3 (F := Ideal) x0 x1 w1 b1 w2 b2 (ix2 p j)
      = stageRow w2 b2 (stageRow w1 b1 (fun l => x0 (ix2 p l) + x1 (ix2 p l))) j := by
  rw [pay_eq_stages]
  refine (blockStage_apply _ w2 b2 p j).trans ?_
  refine congrArg (fun r => stageRow w2 b2 r j) (funext fun k => ?_)
  refine (blockStage_apply _ w1 b1 p k).trans ?_
  refine congrArg (fun r => stageRow w1 b1 r k) (funext fun l => ?_)
  show x0 (ix2 p l) + shapeCast S2000x128 x1 shapeCasts_S2000x128_S2000x128 (ix2 p l) = _
  rw [shapeCast_self]

end AtIdeal2

section Reference
open Idealize.ShloMosaic.ValueIdx

/-! ### The whole array's matrix product at an entry -/

theorem arrayDot_lhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem arrayDot_lhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem arrayDot_rhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem arrayDot_rhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- Entry (n, j) of the 100000x128 array times a 128x128 matrix: the sum over the 128 inner entries, which reads row n only. -/
theorem arrayDot_apply (a : FVec Ideal Cert.ReferenceIdeal.S100000x128 .f32) (w : FVec Ideal Cert.ReferenceIdeal.S128x128 .f32) (n : Fin 100000) (j : Fin 128) :
    Host.dotGeneral Cert.ReferenceIdeal.dot_S100000x128_S128x128_S100000x128_1_0_0_1_n_n none a w (ix2 n j) = ∑ k : Fin 128, a (ix2 n k) * w (ix2 k j) := by
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 n j) ((ValueIdx.contrEquiv1 Cert.ReferenceIdeal.dot_S100000x128_S128x128_S100000x128_1_0_0_1_n_n 128 rfl rfl).symm k) = ix2 n k := funext fun a => Fin.ext (by
    match a with
    | ⟨0, _⟩ => exact arrayDot_lhs_0 _ _
    | ⟨1, _⟩ => exact (arrayDot_lhs_1 _ _).trans hk)
  have er : Cert.ReferenceIdeal.dot_S100000x128_S128x128_S100000x128_1_0_0_1_n_n.rhsIdx (ix2 n j) ((ValueIdx.contrEquiv1 Cert.ReferenceIdeal.dot_S100000x128_S128x128_S100000x128_1_0_0_1_n_n 128 rfl rfl).symm k) = ix2 k j := funext fun a => Fin.ext (by
    match a with
    | ⟨0, _⟩ => exact (arrayDot_rhs_0 _ _).trans hk
    | ⟨1, _⟩ => exact arrayDot_rhs_1 _ _)
  rw [el, er]

/-- One stage of the update on the whole array at entry (n, j) is the row stage of row n. -/
theorem arrayStage_apply (y : FVec Ideal Cert.ReferenceIdeal.S100000x128 .f32) (w : FVec Ideal Cert.ReferenceIdeal.S128x128 .f32)
    (b : FVec Ideal Cert.ReferenceIdeal.S1x128 .f32) (n : Fin 100000) (j : Fin 128) :
    Cert.Spec.relu (F := Ideal) (Cert.Spec.linRow (F := Ideal) y w b) (ix2 n j) = stageRow w b (fun l => y (ix2 n l)) j := by
  unfold Cert.Spec.relu Cert.Spec.linRow stageRow
  show max (Host.dotGeneral Cert.ReferenceIdeal.dot_S100000x128_S128x128_S100000x128_1_0_0_1_n_n none y w (ix2 n j)
      + broadcastInDim Cert.ReferenceIdeal.S100000x128 ![0, 1] Cert.ReferenceIdeal.Gen.bcast_S1x128_S100000x128_0_1 b (ix2 n j))
      (broadcastInDim Cert.ReferenceIdeal.S100000x128 ![] Cert.ReferenceIdeal.Gen.bcast_S_S100000x128 (constant (F := Ideal) Cert.ReferenceIdeal.S_ .f32 0x00000000#32) (ix2 n j)) = _
  refine congrArg₂ max (congrArg₂ (· + ·) (arrayDot_apply y w n j) ?_) ?_
  · exact broadcastInDim_apply ![0, 1] Cert.ReferenceIdeal.Gen.bcast_S1x128_S100000x128_0_1 b (ix2 n j) (ix2 (0 : Fin 1) j) (fun a => match a with
      | ⟨0, _⟩ => rfl
      | ⟨1, _⟩ => rfl)
  · exact broadcastInDim_apply ![] Cert.ReferenceIdeal.Gen.bcast_S_S100000x128 (constant (F := Ideal) Cert.ReferenceIdeal.S_ .f32 0x00000000#32) (ix2 n j) ix0 (fun a => a.elim0)

/-- The reference's node update at entry (n, j): the two row stages of the sum of the two rows n. -/
theorem layerRow_apply (X A : FVec Ideal Cert.ReferenceIdeal.S100000x128 .f32) (w1 : FVec Ideal Cert.ReferenceIdeal.S128x128 .f32) (b1 : FVec Ideal Cert.ReferenceIdeal.S1x128 .f32)
    (w2 : FVec Ideal Cert.ReferenceIdeal.S128x128 .f32) (b2 : FVec Ideal Cert.ReferenceIdeal.S1x128 .f32) (n : Fin 100000) (j : Fin 128) :
    Cert.Spec.layerRow (F := Ideal) X A w1 b1 w2 b2 (ix2 n j)
      = stageRow w2 b2 (stageRow w1 b1 (fun l => X (ix2 n l) + A (ix2 n l))) j := by
  unfold Cert.Spec.layerRow
  refine (arrayStage_apply _ w2 b2 n j).trans ?_
  refine congrArg (fun r => stageRow w2 b2 r j) (funext fun k => ?_)
  exact arrayStage_apply _ w1 b1 n k

end Reference

section Stored
variable {F : FTy → Type} [FloatOps F]
variable (V : (c : Dev nD) → (b : Ref sig .tc) → Buf (Elt F) ((c : Thread nD τ).loc b))

/-- At every grid point the node-feature buffer ends holding the update of that point's input blocks. -/
theorem stored_eq (c : Dev nD) (t : Fin cfg0.N) :
    (outsAt V c t.val t.isLt).1 = k0_pay3 (iblk V c 0 t) (iblk V c 1 t) (iblk V c 3 t) (iblk V c 4 t) (iblk V c 5 t) (iblk V c 6 t) := by
  by_cases h0 : t.val = 0
  · rw [outsAt_A V c t h0]
    dsimp only
    exact stored_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hcond t).mpr h0) (iblk V c 0 t) (iblk V c 1 t) (iblk V c 2 t) (iblk V c 3 t) (iblk V c 4 t) (iblk V c 5 t) (iblk V c 6 t)
  · rw [outsAt_B V c t h0]
    dsimp only
    exact stored_later c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h => h0 ((hcond t).mp h)) (iblk V c 0 t) (iblk V c 1 t) (iblk V c 2 t) (iblk V c 3 t) (iblk V c 4 t) (iblk V c 5 t) (iblk V c 6 t)
      (outsAt V c (t.val - 1) (Nat.lt_of_le_of_lt (Nat.sub_le _ _) t.isLt)).2

end Stored

section Blocks
open Idealize.ShloMosaic.ValueIdx
variable (V : (c : Dev nD) → (b : Ref sig .tc) → Buf (Elt Ideal) ((c : Thread nD τ).loc b))

/-- The six arrays the update reads, as the region finds them: features, neighbour sums, the two weight matrices, the two one-row biases. -/
abbrev featArr (c : Dev nD) : Vec Ideal S100000x128 .f32 := V c (Pipeline.arrRef spec0 0)
abbrev aggArr (c : Dev nD) : Vec Ideal S100000x128 .f32 := V c (Pipeline.arrRef spec0 1)
abbrev w1Arr (c : Dev nD) : Vec Ideal S128x128 .f32 := V c (Pipeline.arrRef spec0 3)
abbrev b1Arr (c : Dev nD) : Vec Ideal S1x128 .f32 := V c (Pipeline.arrRef spec0 4)
abbrev w2Arr (c : Dev nD) : Vec Ideal S128x128 .f32 := V c (Pipeline.arrRef spec0 5)
abbrev b2Arr (c : Dev nD) : Vec Ideal S1x128 .f32 := V c (Pipeline.arrRef spec0 6)

/-- The block index maps, decided over the fifty grid points: the three row-tiled windows sit at row block `t`, the four
    parameter windows never move. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of row block `t` is row `2000 t + p` of the array. -/
abbrev rowOfBlock (t : Fin cfg0.N) (p : Fin 2000) : Fin 100000 :=
  ⟨2000 * t.val + p.val, by have ht : t.val < 50 := lt_of_lt_of_eq t.isLt (show cfg0.N = 50 from N_0); have := p.isLt; omega⟩

theorem featBlock_apply (c : Dev nD) (t : Fin cfg0.N) (p : Fin 2000) (l : Fin 128) :
    (iblk V c 0 t : Vec Ideal S2000x128 .f32) (ix2 p l) = featArr V c (ix2 (rowOfBlock t p) l) := by
  show featArr V c (((cfg0.win 0).blk t).view.emb (ix2 p l)) = _
  refine congrArg (featArr V c) (funext fun a => Fin.ext ?_)
  obtain ⟨e00, e01, -⟩ := index_facts t
  match a with
  | ⟨0, _⟩ => show win0_0.index t (0 : Fin 2) * 2000 + 1 * p.val = 2000 * t.val + p.val; omega
  | ⟨1, _⟩ => show win0_0.index t (1 : Fin 2) * 128 + 1 * l.val = l.val; omega

theorem aggBlock_apply (c : Dev nD) (t : Fin cfg0.N) (p : Fin 2000) (l : Fin 128) :
    (iblk V c 1 t : Vec Ideal S2000x128 .f32) (ix2 p l) = aggArr V c (ix2 (rowOfBlock t p) l) := by
  show aggArr V c (((cfg0.win 1).blk t).view.emb (ix2 p l)) = _
  refine congrArg (aggArr V c) (funext fun a => Fin.ext ?_)
  obtain ⟨-, -, e10, e11, -⟩ := index_facts t
  match a with
  | ⟨0, _⟩ => show win0_1.index t (0 : Fin 2) * 2000 + 1 * p.val = 2000 * t.val + p.val; omega
  | ⟨1, _⟩ => show win0_1.index t (1 : Fin 2) * 128 + 1 * l.val = l.val; omega

/-- Each parameter window's one block is its whole array. -/
theorem w1Block_eq (c : Dev nD) (t : Fin cfg0.N) : (iblk V c 3 t : Vec Ideal S128x128 .f32) = w1Arr V c := by
  funext y
  show w1Arr V c (((cfg0.win 3).blk t).view.emb y) = w1Arr V c y
  refine congrArg (w1Arr V c) (funext fun a => Fin.ext ?_)
  obtain ⟨-, -, -, -, e30, e31, -⟩ := index_facts t
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem b1Block_eq (c : Dev nD) (t : Fin cfg0.N) : (iblk V c 4 t : Vec Ideal S1x128 .f32) = b1Arr V c := by
  funext y
  show b1Arr V c (((cfg0.win 4).blk t).view.emb y) = b1Arr V c y
  refine congrArg (b1Arr V c) (funext fun a => Fin.ext ?_)
  obtain ⟨-, -, -, -, -, -, e40, e41, -⟩ := index_facts t
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem w2Block_eq (c : Dev nD) (t : Fin cfg0.N) : (iblk V c 5 t : Vec Ideal S128x128 .f32) = w2Arr V c := by
  funext y
  show w2Arr V c (((cfg0.win 5).blk t).view.emb y) = w2Arr V c y
  refine congrArg (w2Arr V c) (funext fun a => Fin.ext ?_)
  obtain ⟨-, -, -, -, -, -, -, -, e50, e51, -⟩ := index_facts t
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem b2Block_eq (c : Dev nD) (t : Fin cfg0.N) : (iblk V c 6 t : Vec Ideal S1x128 .f32) = b2Arr V c := by
  funext y
  show b2Arr V c (((cfg0.win 6).blk t).view.emb y) = b2Arr V c y
  refine congrArg (b2Arr V c) (funext fun a => Fin.ext ?_)
  obtain ⟨-, -, -, -, -, -, -, -, -, -, e60, e61, -⟩ := index_facts t
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- The block point `t` stores, at entry (p, j), is the reference's node update at entry (2000 t + p, j): both are the two row
    stages of the same row, a row of a matrix product depending only on that row of the left factor. -/
theorem block_apply (c : Dev nD) (t : Fin cfg0.N) (p : Fin 2000) (j : Fin 128) :
    k0_pay3 (F := Ideal) (iblk V c 0 t) (iblk V c 1 t) (iblk V c 3 t) (iblk V c 4 t) (iblk V c 5 t) (iblk V c 6 t) (ix2 p j)
      = Cert.Spec.layerRow (F := Ideal) (featArr V c) (aggArr V c) (w1Arr V c) (b1Arr V c) (w2Arr V c) (b2Arr V c) (ix2 (rowOfBlock t p) j) := by
  refine (pay_apply (iblk V c 0 t) (iblk V c 1 t) (iblk V c 3 t) (iblk V c 4 t) (iblk V c 5 t) (iblk V c 6 t) p j).trans ?_
  refine Eq.trans ?_ (layerRow_apply (featArr V c) (aggArr V c) (w1Arr V c) (b1Arr V c) (w2Arr V c) (b2Arr V c) (rowOfBlock t p) j).symm
  rw [w1Block_eq, b1Block_eq, w2Block_eq, b2Block_eq]
  refine congrArg (fun r => stageRow (w2Arr V c) (b2Arr V c) (stageRow (w1Arr V c) (b1Arr V c) r) j) (funext fun l => ?_)
  exact congrArg₂ (· + ·) (featBlock_apply V c t p l) (aggBlock_apply V c t p l)

end Blocks

section Array
open Idealize.ShloMosaic.ValueIdx
variable (V : (c : Dev nD) → (b : Ref sig .tc) → Buf (Elt Ideal) ((c : Thread nD τ).loc b))

/-- What point `t` writes back is row block `t` of the reference's node update of the whole arrays. -/
theorem flushed_eq (c : Dev nD) (t : Fin cfg0.N) :
    (dat (F := Ideal) V c).flushed 7 t = ((cfg0.win 7).blk t).view.read (Elt Ideal)
      (Cert.Spec.layerRow (F := Ideal) (featArr V c) (aggArr V c) (w1Arr V c) (b1Arr V c) (w2Arr V c) (b2Arr V c)) := by
  show (cfg0.win 7).cut (grid0.coords t) ((dat V c).after 7 t) = _
  rw [after7, stored_eq]
  refine funext fun (y : S2000x128.Idx) => ?_
  obtain ⟨p, j, rfl⟩ : ∃ (p : Fin 2000) (j : Fin 128), y = ix2 p j := ⟨y 0, y 1, eq_ix2 y⟩
  show k0_pay3 (F := Ideal) (iblk V c 0 t) (iblk V c 1 t) (iblk V c 3 t) (iblk V c 4 t) (iblk V c 5 t) (iblk V c 6 t) (ix2 p j)
    = Cert.Spec.layerRow (F := Ideal) (featArr V c) (aggArr V c) (w1Arr V c) (b1Arr V c) (w2Arr V c) (b2Arr V c) (((cfg0.win 7).blk t).view.emb (ix2 p j))
  refine (block_apply V c t p j).trans ?_
  refine congrArg (Cert.Spec.layerRow (F := Ideal) (featArr V c) (aggArr V c) (w1Arr V c) (b1Arr V c) (w2Arr V c) (b2Arr V c)) (funext fun a => Fin.ext ?_)
  obtain ⟨-, -, -, -, -, -, -, -, -, -, -, -, e70, e71⟩ := index_facts t
  match a with
  | ⟨0, _⟩ => show 2000 * t.val + p.val = win0_7.index t (0 : Fin 2) * 2000 + 1 * p.val; omega
  | ⟨1, _⟩ => show j.val = win0_7.index t (1 : Fin 2) * 128 + 1 * j.val; omega

/-- An index of the array is in point `t`'s block iff each coordinate is in the block's range on its axis. -/
theorem mem_block (t : Fin cfg0.N) (i : S100000x128.Idx) :
    i ∈ ((cfg0.win 7).blk t).view.set
      ↔ ∀ a : Fin 2, win0_7.index t a * S2000x128.size a ≤ (i a).val ∧ (i a).val < win0_7.index t a * S2000x128.size a + S2000x128.size a := by
  show i ∈ ((View.whole (Pipeline.arrRef spec0 7)).slice (win0_7.rect t)).set ↔ _
  rw [View.set_slice_whole, Rect.mem_set_unit]
  exact Iff.rfl

/-- The row block that holds row `n`. -/
abbrev blockOfRow (n : Fin 100000) : Fin cfg0.N :=
  ⟨n.val / 2000, lt_of_lt_of_eq (by have := n.isLt; omega) (show cfg0.N = 50 from N_0).symm⟩

/-- Row `n` lies in row block `n / 2000`, which is written back like every block. -/
theorem covered (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  refine ⟨blockOfRow (i 0), flush0_7 _, ?_⟩
  rw [mem_block]
  obtain ⟨-, -, -, -, -, -, -, -, -, -, -, -, e70, e71⟩ := index_facts (blockOfRow (i 0))
  have e70' : win0_7.index (blockOfRow (i 0)) (0 : Fin 2) = (i 0).val / 2000 := e70
  intro a
  match a with
  | ⟨0, _⟩ =>
    show win0_7.index (blockOfRow (i 0)) (0 : Fin 2) * 2000 ≤ (i 0).val ∧ (i 0).val < win0_7.index (blockOfRow (i 0)) (0 : Fin 2) * 2000 + 2000
    omega
  | ⟨1, _⟩ =>
    show win0_7.index (blockOfRow (i 0)) (1 : Fin 2) * 128 ≤ (i 1).val ∧ (i 1).val < win0_7.index (blockOfRow (i 0)) (1 : Fin 2) * 128 + 128
    omega

end Array
end NodeOut

open NodeOut

variable (V : (c : Dev nD) → (b : Ref sig .tc) → Buf (Elt Ideal) ((c : Thread nD τ).loc b))

theorem xout_eq (c : Dev nD) :
    (dat (F := Ideal) V c).arrAt 7 cfg0.N
      = Cert.Spec.layerRow (F := Ideal) (V c (Pipeline.arrRef spec0 0)) (V c (Pipeline.arrRef spec0 1)) (V c (Pipeline.arrRef spec0 3))
          (V c (Pipeline.arrRef spec0 4)) (V c (Pipeline.arrRef spec0 5)) (V c (Pipeline.arrRef spec0 6)) :=
  (dat (F := Ideal) V c).arrAt_eq_of_cover 7 _ (fun t _ => flushed_eq V c t) covered

end Cert.KernelIdeal.L0

end
-- ==== Proof.ScatterRows.lean ====
/-
  The per-graph pooling read row by row: at the extended reals, entry (g, h) of the pooled array is the sum, over all
  nodes n whose graph id (read signed) is g, of the node row's entry h. A node whose id lies outside 0..511 lands outside
  the pooled array and contributes nothing.
-/
import proofs.«419285_j30786325577782_1_alg».proof.Proof.Spec
import Idealize.ShloMosaic.Lib.ValueIdx
import Idealize.ShloMosaic.PureOps.Ideal.Laws

set_option maxRecDepth 16384

noncomputable section

namespace Cert.Spec

open Cert.ReferenceIdeal Cert.ReferenceIdeal.Gen Idealize.ShloMosaic Idealize.ShloMosaic.TcCoe Idealize.SL.Sem

/-- An update lands at operand index `i` exactly when, on every operand axis, its window's start plus its coordinate
    inside the window is `i`'s coordinate: being inside the operand is then automatic. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro hsome a
    by_cases hc : ∀ a, 0 ≤ d.start j idx a + d.window j a ∧ d.start j idx a + d.window j a < s.size a
    · rw [dif_pos hc] at hsome
      have hv := congrArg Fin.val (congrFun (Option.some.inj hsome) a)
      have := (hc a).1
      simp only at hv
      omega
    · rw [dif_neg hc] at hsome
      exact absurd hsome (by simp)
  · intro hall
    have hc : ∀ a, 0 ≤ d.start j idx a + d.window j a ∧ d.start j idx a + d.window j a < s.size a := by
      intro a
      have := hall a
      have := (i a).isLt
      omega
    rw [dif_pos hc]
    congr 1
    funext a
    refine Fin.ext ?_
    have := hall a
    simp only
    omega

/-! The pooling's scatter: the ids column gives the start on the graphs' axis, the update's second coordinate is the
    window coordinate on the features' axis. -/

/-- The start on the graphs' axis is the node's id, read signed. -/
theorem pool_start_0 (n : Fin 100000) (h' : Fin 128) (col : IVec S100000x1 32) :
    scatter_S512x128_S100000x1_S100000x128_1_0_0_1.start (ValueIdx.ix2 n h' : S100000x128.Idx) col (0 : Fin 2)
      = (col (ValueIdx.ix2 n (0 : Fin 1))).toInt := by
  unfold ScatterDims.start
  rw [dif_pos (show (0 : Fin 2) ∈ scatter_S512x128_S100000x1_S100000x128_1_0_0_1.scatterDimsToOperandDims from
    List.mem_singleton.mpr rfl)]
  have hsi : scatter_S512x128_S100000x1_S100000x128_1_0_0_1.siIdx (ValueIdx.ix2 n h' : S100000x128.Idx)
      ⟨List.idxOf (0 : Fin 2) scatter_S512x128_S100000x1_S100000x128_1_0_0_1.scatterDimsToOperandDims,
        List.idxOf_lt_length_iff.2 (List.mem_singleton.mpr rfl)⟩ = (ValueIdx.ix2 n (0 : Fin 1) : S100000x1.Idx) := by
    funext b
    refine Fin.ext ?_
    match b with
    | ⟨0, _⟩ => rfl
    | ⟨1, _⟩ => rfl
  rw [hsi]

/-- The features' axis is not addressed by the ids: its start is zero. -/
theorem pool_start_1 (j : S100000x128.Idx) (col : IVec S100000x1 32) :
    scatter_S512x128_S100000x1_S100000x128_1_0_0_1.start j col (1 : Fin 2) = 0 := by
  unfold ScatterDims.start
  rw [dif_neg (show ¬ (1 : Fin 2) ∈ scatter_S512x128_S100000x1_S100000x128_1_0_0_1.scatterDimsToOperandDims by decide)]

/-- The graphs' axis is inserted: no window coordinate on it. -/
theorem pool_window_0 (j : S100000x128.Idx) :
    scatter_S512x128_S100000x1_S100000x128_1_0_0_1.window j (0 : Fin 2) = 0 := by
  unfold ScatterDims.window
  rw [dif_neg (show ¬ (0 : Fin 2) ∈ scatter_S512x128_S100000x1_S100000x128_1_0_0_1.sKept by decide)]

/-- On the features' axis the window coordinate is the update's second coordinate. -/
theorem pool_window_1 (n : Fin 100000) (h' : Fin 128) :
    scatter_S512x128_S100000x1_S100000x128_1_0_0_1.window (ValueIdx.ix2 n h' : S100000x128.Idx) (1 : Fin 2) = h'.val := by
  unfold ScatterDims.window
  rw [dif_pos (show (1 : Fin 2) ∈ scatter_S512x128_S100000x1_S100000x128_1_0_0_1.sKept by decide)]
  rfl

/-- Node `n`'s entry `h'` lands at `(g, h)` exactly when `n`'s id is `g` and `h' = h`. -/
theorem pool_lands_iff (n : Fin 100000) (h' : Fin 128) (col : IVec S100000x1 32) (g : Fin 512) (h : Fin 128) :
    scatter_S512x128_S100000x1_S100000x128_1_0_0_1.resultIdx? (ValueIdx.ix2 n h' : S100000x128.Idx) col
        = some (ValueIdx.ix2 g h : S512x128.Idx)
      ↔ (col (ValueIdx.ix2 n (0 : Fin 1))).toInt = (g.val : ℤ) ∧ h' = h := by
  rw [resultIdx?_eq_some_iff]
  constructor
  · intro hall
    have e0 := hall (0 : Fin 2)
    have e1 := hall (1 : Fin 2)
    rw [pool_start_0, pool_window_0] at e0
    rw [pool_start_1, pool_window_1] at e1
    refine ⟨?_, Fin.ext ?_⟩
    · have : ((ValueIdx.ix2 g h : S512x128.Idx) (0 : Fin 2)).val = g.val := rfl
      omega
    · have : ((ValueIdx.ix2 g h : S512x128.Idx) (1 : Fin 2)).val = h.val := rfl
      omega
  · rintro ⟨hz, rfl⟩ a
    match a with
    | ⟨0, _⟩ =>
      show scatter_S512x128_S100000x1_S100000x128_1_0_0_1.start _ col (0 : Fin 2)
        + (scatter_S512x128_S100000x1_S100000x128_1_0_0_1.window _ (0 : Fin 2) : ℤ) = (g.val : ℤ)
      rw [pool_start_0, pool_window_0, hz]
      simp
    | ⟨1, _⟩ =>
      show scatter_S512x128_S100000x1_S100000x128_1_0_0_1.start _ col (1 : Fin 2)
        + (scatter_S512x128_S100000x1_S100000x128_1_0_0_1.window _ (1 : Fin 2) : ℤ) = (h'.val : ℤ)
      rw [pool_start_1, pool_window_1]
      simp

theorem poolCol_apply (X : FVec Ideal S100000x128 .f32) (col : IVec S100000x1 32) (g : Fin 512) (h : Fin 128) :
    poolCol (F := Ideal) X col (ValueIdx.ix2 g h)
      = ∑ n : Fin 100000, if (col (ValueIdx.ix2 n (0 : Fin 1))).toInt = (g.val : ℤ) then X (ValueIdx.ix2 n h) else 0 := by
  unfold poolCol Host.scatterAdd
  rw [Ideal.hostScatterAdd_def]
  unfold Ideal.hostScatterAdd
  have hzero : broadcastInDim S512x128 ![] bcast_S_S512x128 (constant (F := Ideal) S_ .f32 0x00000000#32)
      (ValueIdx.ix2 g h : S512x128.Idx) = 0 := by
    show Ideal.ofBits .f32 0x00000000#32 = 0
    exact Ideal.ofBits_zero_f32
  rw [hzero, zero_add, Finset.sum_filter, ValueIdx.sum_idx2]
  refine Finset.sum_congr rfl fun n _ => ?_
  simp only [pool_lands_iff]
  by_cases hz : (col (ValueIdx.ix2 n (0 : Fin 1))).toInt = (g.val : ℤ)
  · simp only [hz, true_and, if_true]
    rw [Finset.sum_ite_eq' Finset.univ h fun h' => X (ValueIdx.ix2 n h')]
    simp
  · simp only [hz, false_and, if_false]
    exact Finset.sum_const_zero

end Cert.Spec

end
-- ==== Proof.PoolMath.lean ====
/-
  Two facts the pooled accumulator's fold needs. A sum over the hundred thousand nodes is the sum over the fifty tiles of
  the sums over each tile's two thousand rows (node 2000 s + p is row p of tile s). A 32-bit graph-id word equals the
  word of a graph number g below 512 exactly when its signed value is g.
-/
import Idealize.ShloMosaic.PureOps.Ideal.Laws
import Mathlib.Logic.Equiv.Fin.Basic
import Mathlib.Algebra.BigOperators.Group.Finset.Defs
import Mathlib.Data.Fintype.BigOperators

noncomputable section

namespace Cert.Spec

/-- The nodes are the pairs (tile, row in the tile), node `2000 s + p` being row `p` of tile `s`: a sum over the nodes
    regroups as the sum over the tiles of the sums over their rows. -/
theorem sum_tiles (f : Fin 100000 → EReal) :
    ∑ n : Fin 100000, f n = ∑ s : Fin 50, ∑ p : Fin 2000, f ⟨2000 * s.val + p.val, by have := s.isLt; have := p.isLt; omega⟩ := by
  rw [← Equiv.sum_comp (finProdFinEquiv : Fin 50 × Fin 2000 ≃ Fin 100000) f, Fintype.sum_prod_type]
  refine Finset.sum_congr rfl fun s _ => Finset.sum_congr rfl fun p _ => ?_
  refine congrArg f (Fin.ext ?_)
  show p.val + 2000 * s.val = 2000 * s.val + p.val
  exact Nat.add_comm _ _

/-- A graph number below 512 is far below 2^31, so its 32-bit word reads back, signed, as the number itself; and a
    word is determined by its signed value. -/
theorem word_eq_iff (b : BitVec 32) (g : Fin 512) : b = BitVec.ofNat 32 g.val ↔ b.toInt = (g.val : ℤ) := by
  have hg : (BitVec.ofNat 32 g.val).toInt = (g.val : ℤ) := by
    have hlt := g.isLt
    rw [BitVec.toInt_eq_toNat_cond, BitVec.toNat_ofNat, Nat.mod_eq_of_lt (by omega : g.val < 2 ^ 32)]
    rw [if_pos (by omega : 2 * g.val < 2 ^ 32)]
  constructor
  · rintro rfl
    exact hg
  · intro hb
    exact BitVec.eq_of_toInt_eq (hb.trans hg.symm)

end Cert.Spec

end
-- ==== Proof.KI.L0ValP.lean ====
/-
  Layer region 0, the pooled output at the extended reals: after the last grid point the resident accumulator holds, at
  (g, h), the sum over the fifty tiles of the sums over each tile's rows whose graph id is g of the new node features'
  entry h, which is the per-graph pooling of the whole node-feature output.

  The steps. What each of the two control cases leaves in the two output buffers, read off the stored pieces: the
  node-feature block is the node update of the input blocks; the accumulator is its previous contents (zero at the first
  point) plus the product of the one-hot matrix of the tile's graph ids, transposed, with the new node features. At the
  extended reals that product at (g, h) is the sum over the tile's rows whose id is g of the row's entry h: the one-hot
  factor is 0 or 1, and 0 * x = 0, 1 * x = x for every extended real x. By induction on the grid point the accumulator
  after point n holds the contributions of tiles 0 to n. The node-feature array ends holding, in rows 2000 s to
  2000 s + 1999, what point s stored (the fifty blocks tile it); the pooled array is written back once, after the last
  point. Splitting the sum over the hundred thousand nodes into tiles and rows gives the pooling of the whole array.
-/
import proofs.«419285_j30786325577782_1_alg».proof.Proof.KI.L0Dat
import proofs.«419285_j30786325577782_1_alg».proof.Proof.ScatterRows
import proofs.«419285_j30786325577782_1_alg».proof.Proof.PoolMath
import Idealize.ShloMosaic.Lib.Pipeline.Value
import Idealize.ShloMosaic.Lib.ValueIdx
import Idealize.ShloMosaic.PureOps.Ideal.Laws

set_option maxRecDepth 16384

noncomputable section

namespace Cert.KernelIdeal.L0

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

section Pieces
variable {F : FTy → Type} [FloatOps F]

/-- The offsets of every load and store of the body are zero on both axes. -/
theorem zeroOffsets : (![0, 0] : Fin 2 → Nat) = fun _ => 0 := funext fun a => by fin_cases a <;> rfl

/-- First point: the accumulator is zeroed, read back, and overwritten by zero plus this tile's contribution. -/
theorem pooledFirst (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) :
    out_A_8 c i arg1 harg1 arg2 harg2 arg3 harg3 arg4 harg4 arg5 harg5 arg6 harg6 arg7 harg7 arg8 harg8 arg9 harg9 hc x0 x1 x2 x3 x4 x5 x6 = k0_pay1 (k0_pay3 x0 x1 x3 x4 x5 x6) (k0_pay4 x2) (k0_pay2 (F := F)) := by
  unfold out_A_8
  rw [View.read_writes_eq_canon _ _ _ (cover_A_8 c i arg1 harg1 arg2 harg2 arg3 harg3 arg4 harg4 arg5 harg5 arg6 harg6 arg7 harg7 arg8 harg8 arg9 harg9 hc x0 x1 x2 x3 x4 x5 x6)]
  unfold kernelRun_A
  dsimp only
  sl_unfold_words
  rw [View.canon_cons_unit_zero (S := S512x128) zeroOffsets]
  simp only [View.readAt_eq_ld, harg1.read_unread, harg2.read_unread, harg3.read_unread, harg4.read_unread, harg5.read_unread,
    harg6.read_unread, harg7.read_unread, View.ld_unit_zero (S := S2000x128) zeroOffsets, View.ld_unit_zero (S := S128x128) zeroOffsets,
    View.ld_unit_zero (S := S1x128) zeroOffsets, View.ld_unit_zero (S := S2000x1) zeroOffsets, View.ld_unit_zero (S := S512x128) zeroOffsets,
    View.readCov_unit_zero (S := S512x128) _ zeroOffsets]

/-- Later points: the accumulator's contents plus this tile's contribution. -/
theorem pooledLater (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) :
    out_B_8 c i arg1 harg1 arg2 harg2 arg3 harg3 arg4 harg4 arg5 harg5 arg6 harg6 arg7 harg7 arg8 harg8 arg9 harg9 hc x0 x1 x2 x3 x4 x5 x6 xo8 = k0_pay1 (k0_pay3 x0 x1 x3 x4 x5 x6) (k0_pay4 x2) xo8 := by
  unfold out_B_8
  rw [View.read_writes_eq_canon _ _ _ (cover_B_8 c i arg1 harg1 arg2 harg2 arg3 harg3 arg4 harg4 arg5 harg5 arg6 harg6 arg7 harg7 arg8 harg8 arg9 harg9 hc x0 x1 x2 x3 x4 x5 x6 xo8)]
  unfold kernelRun_B
  dsimp only
  sl_unfold_words
  rw [View.canon_unit_zero zeroOffsets]
  simp only [View.readAt_eq_ld, harg1.read_unread, harg2.read_unread, harg3.read_unread, harg4.read_unread, harg5.read_unread,
    harg6.read_unread, harg7.read_unread, harg9.read_unread, View.ld_unit_zero (S := S2000x128) zeroOffsets, View.ld_unit_zero (S := S128x128) zeroOffsets,
    View.ld_unit_zero (S := S1x128) zeroOffsets, View.ld_unit_zero (S := S2000x1) zeroOffsets, View.ld_unit_zero (S := S512x128) zeroOffsets]

/-- The node-feature block a point stores is the update of its input blocks, at the first point and at later ones. -/
theorem featFirst (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) :
    out_A_7 c i arg1 harg1 arg2 harg2 arg3 harg3 arg4 harg4 arg5 harg5 arg6 harg6 arg7 harg7 arg8 harg8 arg9 harg9 hc x0 x1 x2 x3 x4 x5 x6 = k0_pay3 x0 x1 x3 x4 x5 x6 := by
  unfold out_A_7
  rw [View.read_writes_eq_canon _ _ _ (cover_A_7 c i arg1 harg1 arg2 harg2 arg3 harg3 arg4 harg4 arg5 harg5 arg6 harg6 arg7 harg7 arg8 harg8 arg9 harg9 hc x0 x1 x2 x3 x4 x5 x6)]
  unfold kernelRun_A
  dsimp only
  rw [View.canon_unit_zero zeroOffsets]
  simp only [View.readAt_eq_ld, harg1.read_unread, harg2.read_unread, harg4.read_unread, harg5.read_unread,
    harg6.read_unread, harg7.read_unread, View.ld_unit_zero (S := S2000x128) zeroOffsets, View.ld_unit_zero (S := S128x128) zeroOffsets,
    View.ld_unit_zero (S := S1x128) zeroOffsets]

theorem featLater (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) :
    out_B_7 c i arg1 harg1 arg2 harg2 arg3 harg3 arg4 harg4 arg5 harg5 arg6 harg6 arg7 harg7 arg8 harg8 arg9 harg9 hc x0 x1 x2 x3 x4 x5 x6 xo8 = k0_pay3 x0 x1 x3 x4 x5 x6 := by
  unfold out_B_7
  rw [View.read_writes_eq_canon _ _ _ (cover_B_7 c i arg1 harg1 arg2 harg2 arg3 harg3 arg4 harg4 arg5 harg5 arg6 harg6 arg7 harg7 arg8 harg8 arg9 harg9 hc x0 x1 x2 x3 x4 x5 x6 xo8)]
  unfold kernelRun_B
  dsimp only
  rw [View.canon_unit_zero zeroOffsets]
  simp only [View.readAt_eq_ld, harg1.read_unread, harg2.read_unread, harg4.read_unread, harg5.read_unread,
    harg6.read_unread, harg7.read_unread, View.ld_unit_zero (S := S2000x128) zeroOffsets, View.ld_unit_zero (S := S128x128) zeroOffsets,
    View.ld_unit_zero (S := S1x128) zeroOffsets]

end Pieces

section AtIdeal
open Idealize.ShloMosaic.ValueIdx

/-- The pooling product contracts the row axis of both operands: the left operand is read at (row, graph), -/
theorem poolDot_lhs_0 (i : S512x128.Idx) (q : dot_S2000x512_S2000x128_S512x128_0_0_1_1_n_n.contr.Idx) :
    (dot_S2000x512_S2000x128_S512x128_0_0_1_1_n_n.lhsIdx i q 0).val = (q ⟨0, by decide⟩).val :=
  dot_S2000x512_S2000x128_S512x128_0_0_1_1_n_n.lhsIdx_val_of_single rfl i q
theorem poolDot_lhs_1 (i : S512x128.Idx) (q : dot_S2000x512_S2000x128_S512x128_0_0_1_1_n_n.contr.Idx) :
    (dot_S2000x512_S2000x128_S512x128_0_0_1_1_n_n.lhsIdx i q 1).val = (i 0).val := by
  unfold DotDims.lhsIdx
  rw [dif_neg (show ¬(1 : Fin S2000x512.rank) ∈ dot_S2000x512_S2000x128_S512x128_0_0_1_1_n_n.lhsBatch by decide), dif_pos (show (1 : Fin S2000x512.rank) ∈ dot_S2000x512_S2000x128_S512x128_0_0_1_1_n_n.lhsNonContracting by decide)]
  rfl
/-- the right operand at (row, feature). -/
theorem poolDot_rhs_0 (i : S512x128.Idx) (q : dot_S2000x512_S2000x128_S512x128_0_0_1_1_n_n.contr.Idx) :
    (dot_S2000x512_S2000x128_S512x128_0_0_1_1_n_n.rhsIdx i q 0).val = (q ⟨0, by decide⟩).val :=
  dot_S2000x512_S2000x128_S512x128_0_0_1_1_n_n.rhsIdx_val_of_single rfl i q
theorem poolDot_rhs_1 (i : S512x128.Idx) (q : dot_S2000x512_S2000x128_S512x128_0_0_1_1_n_n.contr.Idx) :
    (dot_S2000x512_S2000x128_S512x128_0_0_1_1_n_n.rhsIdx i q 1).val = (i 1).val := by
  unfold DotDims.rhsIdx
  rw [dif_neg (show ¬(1 : Fin S2000x128.rank) ∈ dot_S2000x512_S2000x128_S512x128_0_0_1_1_n_n.rhsBatch by decide), dif_pos (show (1 : Fin S2000x128.rank) ∈ dot_S2000x512_S2000x128_S512x128_0_0_1_1_n_n.rhsNonContracting by decide)]
  rfl

/-- Into a zero accumulator the pooling product at (g, h) is the sum over the tile's rows of left (p, g) times right (p, h). -/
theorem poolDot_apply (L : FVec Ideal S2000x512 .bf16) (R : FVec Ideal S2000x128 .bf16) (g : Fin 512) (h : Fin 128) :
    matmul dot_S2000x512_S2000x128_S512x128_0_0_1_1_n_n none L R (constant S512x128 .f32 0x00000000#32) (ix2 g h) = ∑ p : Fin 2000, L (ix2 p g) * R (ix2 p h) := by
  simp only [matmul]
  rw [Ideal.matmul_constant_zero_apply, ← Equiv.sum_comp (contrEquiv1 dot_S2000x512_S2000x128_S512x128_0_0_1_1_n_n 2000 rfl rfl).symm]
  refine Finset.sum_congr rfl fun k _ => ?_
  have hk := contrEquiv1_symm_val dot_S2000x512_S2000x128_S512x128_0_0_1_1_n_n 2000 rfl rfl k
  have el : dot_S2000x512_S2000x128_S512x128_0_0_1_1_n_n.lhsIdx (ix2 g h) ((contrEquiv1 dot_S2000x512_S2000x128_S512x128_0_0_1_1_n_n 2000 rfl rfl).symm k) = ix2 k g := funext fun a => Fin.ext (by
    match a with
    | ⟨0, _⟩ => exact (poolDot_lhs_0 _ _).trans hk
    | ⟨1, _⟩ => exact poolDot_lhs_1 _ _)
  have er : dot_S2000x512_S2000x128_S512x128_0_0_1_1_n_n.rhsIdx (ix2 g h) ((contrEquiv1 dot_S2000x512_S2000x128_S512x128_0_0_1_1_n_n 2000 rfl rfl).symm k) = ix2 k h := funext fun a => Fin.ext (by
    match a with
    | ⟨0, _⟩ => exact (poolDot_rhs_0 _ _).trans hk
    | ⟨1, _⟩ => exact poolDot_rhs_1 _ _)
  rw [el, er]

/-- A one-bit word widened and read as a signed integer is 1 when the bit is set and 0 otherwise. -/
theorem bitValue (b : BitVec 1) : (((b.setWidth 32).toInt : ℝ) : EReal) = if b = 1#1 then 1 else 0 := by
  rcases BitVec.eq_zero_or_eq_one b with rfl | rfl
  · simp
  · simp

/-- The one-hot bit at (row p, graph g): the row's graph id is the word of g. -/
theorem idBit_apply (x2 : Vec Ideal S2000x1 .i32) (p : Fin 2000) (g : Fin 512) :
    k0_pay4 (F := Ideal) x2 (ix2 p g) = IntOp.cmpi .eq (x2 (ix2 p (0 : Fin 1))) (BitVec.ofNat 32 g.val) := by
  unfold k0_pay4
  dsimp only
  refine congrArg₂ (IntOp.cmpi .eq) ?_ ?_
  · rw [shapeCast_self]
    exact broadcastTo_apply x2 _ (ix2 p g) (ix2 p (0 : Fin 1)) (fun a => match a with | ⟨0, _⟩ => rfl | ⟨1, _⟩ => rfl)
  · exact iota_single_apply .tc S2000x512 32 1 _ (ix2 p g)

/-- This tile's contribution added to the accumulator, at (g, h). -/
theorem tileSum_apply (v28 : FVec Ideal S2000x128 .f32) (v34 : IVec S2000x512 1) (v40 : Vec Ideal S512x128 .f32) (g : Fin 512) (h : Fin 128) :
    k0_pay1 v28 v34 v40 (ix2 g h) = v40 (ix2 g h) + ∑ p : Fin 2000, (if v34 (ix2 p g) = 1#1 then (1 : EReal) else 0) * v28 (ix2 p h) := by
  unfold k0_pay1
  refine (addf_apply _ _ _).trans ?_
  rw [shapeCast_self, poolDot_apply]
  refine congrArg (v40 (ix2 g h) + ·) (Finset.sum_congr rfl fun p _ => ?_)
  show ((((v34 (ix2 p g)).setWidth 32).toInt : ℝ) : EReal) * v28 (ix2 p h) = _
  rw [bitValue]

/-- Two 32-bit words are equal exactly when the comparison bit is set. -/
theorem cmpiEq_iff (x y : BitVec 32) : IntOp.cmpi .eq x y = 1#1 ↔ x = y := by
  unfold IntOp.cmpi
  by_cases h : x = y
  · subst h; simp
  · have hb : (x == y) = false := by simpa using h
    simp only [hb]
    exact ⟨fun e => absurd e (by decide), fun e => absurd e h⟩

/-- The accumulator after a tile, at (g, h): what it held plus the sum of the tile's rows whose graph id is g. -/
theorem tileSum_ids (v28 : FVec Ideal S2000x128 .f32) (x2 : Vec Ideal S2000x1 .i32) (v40 : Vec Ideal S512x128 .f32) (g : Fin 512) (h : Fin 128) :
    k0_pay1 v28 (k0_pay4 (F := Ideal) x2) v40 (ix2 g h)
      = v40 (ix2 g h) + ∑ p : Fin 2000, if (x2 (ix2 p (0 : Fin 1))).toInt = (g.val : ℤ) then v28 (ix2 p h) else 0 := by
  rw [tileSum_apply]
  refine congrArg (v40 (ix2 g h) + ·) (Finset.sum_congr rfl fun p _ => ?_)
  rw [idBit_apply]
  by_cases hb : (x2 (ix2 p (0 : Fin 1))).toInt = (g.val : ℤ)
  · rw [if_pos hb, if_pos ((cmpiEq_iff _ _).mpr ((Cert.Spec.word_eq_iff _ g).mpr hb)), one_mul]
  · rw [if_neg hb, if_neg (fun e => hb ((Cert.Spec.word_eq_iff _ g).mp ((cmpiEq_iff _ _).mp e))), zero_mul]

end AtIdeal

section Arrays
open Idealize.ShloMosaic.ValueIdx

variable (V : (c : Dev nD) → (b : Ref sig .tc) → Buf (Elt Ideal) ((c : Thread nD τ).loc b))

/-- The grid has fifty points. -/
theorem pointsN : cfg0.N = 50 := N_0

/-- Block indices over the grid: the graph-id window and the node-feature output move one block of rows per point; the
    pooled output's block never moves. -/
theorem blockIndex : ∀ t : Fin cfg0.N, win0_2.index t (0 : Fin 2) = t.val ∧ win0_2.index t (1 : Fin 2) = 0
    ∧ win0_7.index t (0 : Fin 2) = t.val ∧ win0_7.index t (1 : Fin 2) = 0
    ∧ win0_8.index t (0 : Fin 2) = 0 ∧ win0_8.index t (1 : Fin 2) = 0 :=
  (by decide +kernel : ∀ t : Fin grid0.N, _)

/-- The graph-id column as the region finds it, and its block at a point, at their literal types. -/
abbrev idCol (c : Dev nD) : IVec S100000x1 32 := V c (Pipeline.arrRef spec0 2)
abbrev idBlk (c : Dev nD) (t : Fin cfg0.N) : Vec Ideal S2000x1 .i32 := iblk V c 2 t

/-- Row p of the block at point t is row 2000 t + p of the column. -/
theorem idBlk_apply (c : Dev nD) (t : Fin cfg0.N) (p : Fin 2000) (n : Fin 100000) (hn : n.val = 2000 * t.val + p.val) :
    idBlk V c t (ix2 p (0 : Fin 1)) = idCol V c (ix2 n (0 : Fin 1)) := by
  obtain ⟨e0, e1, -, -, -, -⟩ := blockIndex t
  unfold idBlk idCol iblk
  rw [View.read_apply]
  show V c (Pipeline.arrRef spec0 2) _ = V c (Pipeline.arrRef spec0 2) _
  congr 1
  funext a
  apply Fin.ext
  match a with
  | ⟨0, _⟩ => show win0_2.index t 0 * 2000 + 1 * p.val = n.val; rw [e0]; omega
  | ⟨1, _⟩ => show win0_2.index t 1 * 1 + 1 * 0 = 0; rw [e1]

/-- The node-feature array assembled from what each point stored: row 2000 s + p is row p of point s's block. -/
def featAll (c : Dev nD) : Vec Ideal S100000x128 .f32 := fun i =>
  (outsAt V c ((i 0).val / 2000) (by have := idx2_lt0 i; rw [pointsN]; omega)).1
    (ix2 (⟨(i 0).val % 2000, Nat.mod_lt _ (by norm_num)⟩ : Fin 2000) (⟨(i 1).val, idx2_lt1 i⟩ : Fin 128))

theorem featAll_at (c : Dev nD) (t : Fin cfg0.N) (p : Fin 2000) (h : Fin 128) (i : S100000x128.Idx)
    (h0 : (i 0).val = 2000 * t.val + p.val) (h1 : (i 1).val = h.val) :
    featAll V c i = (outsAt V c t.val t.isLt).1 (ix2 p h) := by
  have key : ∀ (n : ℕ) (hn : n < cfg0.N) (q : Fin 2000) (r : Fin 128), n = t.val → q = p → r = h →
      (outsAt V c n hn).1 (ix2 q r) = (outsAt V c t.val t.isLt).1 (ix2 p h) := by
    intro n hn q r e1 e2 e3; subst e1 e2 e3; rfl
  have hp := p.isLt
  exact key _ _ _ _ (by omega) (Fin.ext (by show (i 0).val % 2000 = p.val; omega)) (Fin.ext h1)

theorem feat_flushed (c : Dev nD) (t : Fin cfg0.N) :
    (dat (F := Ideal) V c).flushed 7 t = ((cfg0.win 7).blk t).view.read (Elt Ideal) (featAll V c) := by
  show (cfg0.win 7).cut (grid0.coords t) ((dat (F := Ideal) V c).after 7 t) = _
  rw [after7]
  obtain ⟨-, -, e0, e1, -, -⟩ := blockIndex t
  funext j
  rw [View.read_apply]
  have hj0 : (j 0).val < 2000 := (j 0).isLt
  have hj1 : (j 1).val < 128 := (j 1).isLt
  have hx : (cfg0.win 7).xinj (grid0.coords t) j = ix2 (⟨(j 0).val, hj0⟩ : Fin 2000) (⟨(j 1).val, hj1⟩ : Fin 128) :=
    funext fun a => match a with | ⟨0, _⟩ => rfl | ⟨1, _⟩ => rfl
  show (outsAt V c t.val t.isLt).1 ((cfg0.win 7).xinj (grid0.coords t) j) = featAll V c (((cfg0.win 7).blk t).view.emb j)
  rw [hx]
  refine (featAll_at V c t ⟨(j 0).val, hj0⟩ ⟨(j 1).val, hj1⟩ _ ?_ ?_).symm
  · show win0_7.index t 0 * 2000 + 1 * (j 0).val = 2000 * t.val + (j 0).val; rw [e0]; omega
  · show win0_7.index t 1 * 128 + 1 * (j 1).val = (j 1).val; rw [e1]; omega

/-- An index of the node-feature array is in point t's block iff each coordinate is in the block's range. -/
theorem mem_featBlk (t : Fin cfg0.N) (i : S100000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole (Pipeline.arrRef spec0 7)).slice (win0_7.rect t)).set ↔ _
  rw [View.set_slice_whole, Rect.mem_set_unit]
  exact Iff.rfl

/-- The blocks of the fifty points tile the node-feature array, so it ends holding what the points stored. -/
theorem feat_final (c : Dev nD) : (dat (F := Ideal) V c).arrAt 7 cfg0.N = featAll V c :=
  (dat (F := Ideal) V c).arrAt_eq_of_cover 7 (featAll V c) (fun t _ => feat_flushed V c t) fun i => by
    have hi0 : (i 0).val < 100000 := idx2_lt0 i
    have hi1 : (i 1).val < 128 := idx2_lt1 i
    refine ⟨⟨(i 0).val / 2000, by rw [pointsN]; omega⟩, flush0_7 _, ?_⟩
    obtain ⟨-, -, e0, e1, -, -⟩ := blockIndex ⟨(i 0).val / 2000, by rw [pointsN]; omega⟩
    rw [mem_featBlk]
    intro a
    match a with
    | ⟨0, _⟩ => show win0_7.index _ 0 * 2000 ≤ (i 0).val ∧ (i 0).val < win0_7.index _ 0 * 2000 + 2000; rw [e0]; dsimp only; omega
    | ⟨1, _⟩ => show win0_7.index _ 1 * 128 ≤ (i 1).val ∧ (i 1).val < win0_7.index _ 1 * 128 + 128; rw [e1]; omega

/-- The last grid point. -/
abbrev lastPt : Fin cfg0.N := ⟨49, by rw [pointsN]; norm_num⟩

/-- An index of the pooled array is in a point's block iff each coordinate is in the block's range. -/
theorem mem_poolBlk (t : Fin cfg0.N) (i : S512x128.Idx) :
    i ∈ ((cfg0.win 8).blk t).view.set ↔ ∀ a : Fin 2, win0_8.index t a * S512x128.size a ≤ (i a).val ∧ (i a).val < win0_8.index t a * S512x128.size a + S512x128.size a := by
  show i ∈ ((View.whole (Pipeline.arrRef spec0 8)).slice (win0_8.rect t)).set ↔ _
  rw [View.set_slice_whole, Rect.mem_set_unit]
  exact Iff.rfl

/-- The pooled output's block at any point is the whole array: what is written back from the buffer is the buffer's contents. -/
theorem poolBlk_read (t : Fin cfg0.N) (X : Vec Ideal S512x128 .f32) :
    (cfg0.win 8).cut (grid0.coords t) X = ((cfg0.win 8).blk t).view.read (Elt Ideal) X := by
  obtain ⟨-, -, -, -, e0, e1⟩ := blockIndex t
  funext j
  rw [View.read_apply]
  show X ((cfg0.win 8).xinj (grid0.coords t) j) = X (((cfg0.win 8).blk t).view.emb j)
  refine congrArg X (funext fun a => Fin.ext ?_)
  match a with
  | ⟨0, _⟩ => show (j 0).val = win0_8.index t 0 * 512 + 1 * (j 0).val; rw [e0]; omega
  | ⟨1, _⟩ => show (j 1).val = win0_8.index t 1 * 128 + 1 * (j 1).val; rw [e1]; omega

/-- The pooled array is written back once, after the last point, through its one whole block. -/
theorem pooled_final (c : Dev nD) : (dat (F := Ideal) V c).arrAt 8 cfg0.N = (outsAt V c lastPt.val lastPt.isLt).2 := by
  refine (dat (F := Ideal) V c).arrAt_eq_of_cover 8 _ (fun t hf => ?_) fun i => ?_
  · have h50 : t.val < 50 := lt_of_lt_of_eq t.isLt pointsN
    have h49 : t.val = 49 := by have := (flush0_8 t).mp hf; omega
    obtain rfl : t = lastPt := Fin.ext h49
    show (cfg0.win 8).cut (grid0.coords lastPt) ((dat (F := Ideal) V c).after 8 lastPt) = _
    rw [after8]
    exact poolBlk_read lastPt _
  · have hi0 : (i 0).val < 512 := idx2_lt0 i
    have hi1 : (i 1).val < 128 := idx2_lt1 i
    obtain ⟨-, -, -, -, e0, e1⟩ := blockIndex lastPt
    refine ⟨lastPt, (flush0_8 lastPt).mpr rfl, ?_⟩
    rw [mem_poolBlk]
    intro a
    match a with
    | ⟨0, _⟩ => show win0_8.index lastPt 0 * 512 ≤ (i 0).val ∧ (i 0).val < win0_8.index lastPt 0 * 512 + 512; rw [e0]; omega
    | ⟨1, _⟩ => show win0_8.index lastPt 1 * 128 ≤ (i 1).val ∧ (i 1).val < win0_8.index lastPt 1 * 128 + 128; rw [e1]; omega

end Arrays

section Fold
open Idealize.ShloMosaic.ValueIdx

variable (V : (c : Dev nD) → (b : Ref sig .tc) → Buf (Elt Ideal) ((c : Thread nD τ).loc b))

/-- At the first point the accumulator ends at zero plus the tile's contribution, the tile being what this point stored. -/
theorem pooledAt_first (c : Dev nD) (t : Fin cfg0.N) (h0 : t.val = 0) :
    (outsAt V c t.val t.isLt).2
      = k0_pay1 (F := Ideal) (outsAt V c t.val t.isLt).1 (k0_pay4 (F := Ideal) (idBlk V c t)) (k0_pay2 (F := Ideal)) := by
  rw [outsAt_A V c t h0]
  dsimp only
  rw [featFirst (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hcond t).mpr h0) (iblk V c 0 t) (iblk V c 1 t) (iblk V c 2 t) (iblk V c 3 t) (iblk V c 4 t) (iblk V c 5 t) (iblk V c 6 t)]
  exact pooledFirst (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hcond t).mpr h0) (iblk V c 0 t) (iblk V c 1 t) (iblk V c 2 t) (iblk V c 3 t) (iblk V c 4 t) (iblk V c 5 t) (iblk V c 6 t)

/-- At a later point it ends at what the point before left plus the tile's contribution. -/
theorem pooledAt_later (c : Dev nD) (t : Fin cfg0.N) (h0 : ¬t.val = 0) :
    (outsAt V c t.val t.isLt).2
      = k0_pay1 (F := Ideal) (outsAt V c t.val t.isLt).1 (k0_pay4 (F := Ideal) (idBlk V c t))
          (outsAt V c (t.val - 1) (Nat.lt_of_le_of_lt (Nat.sub_le _ _) t.isLt)).2 := by
  rw [outsAt_B V c t h0]
  dsimp only
  rw [featLater (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h => h0 ((hcond t).mp h)) (iblk V c 0 t) (iblk V c 1 t) (iblk V c 2 t) (iblk V c 3 t) (iblk V c 4 t) (iblk V c 5 t) (iblk V c 6 t) (outsAt V c (t.val - 1) (Nat.lt_of_le_of_lt (Nat.sub_le _ _) t.isLt)).2]
  exact pooledLater (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h => h0 ((hcond t).mp h)) (iblk V c 0 t) (iblk V c 1 t) (iblk V c 2 t) (iblk V c 3 t) (iblk V c 4 t) (iblk V c 5 t) (iblk V c 6 t) (outsAt V c (t.val - 1) (Nat.lt_of_le_of_lt (Nat.sub_le _ _) t.isLt)).2

/-- Tile s's contribution to entry (g, h) of the pooled array: the sum, over its rows whose graph id is g, of entry h of
    the row point s stored (zero past the grid). -/
def tileTerm (c : Dev nD) (g : Fin 512) (h : Fin 128) (s : ℕ) : EReal :=
  if hs : s < cfg0.N then
    ∑ p : Fin 2000, if (idBlk V c ⟨s, hs⟩ (ix2 p (0 : Fin 1))).toInt = (g.val : ℤ) then (outsAt V c s hs).1 (ix2 p h) else 0
  else 0

/-- The zero block the first point stores is zero at the extended reals. -/
theorem zeroBlock_apply (i : S512x128.Idx) : k0_pay2 (F := Ideal) i = 0 := by
  unfold k0_pay2
  exact Ideal.ofBits_zero_f32

/-- After point n the accumulator holds, at (g, h), the contributions of tiles 0 to n. -/
theorem pooledAt_eq (c : Dev nD) (g : Fin 512) (h : Fin 128) :
    ∀ (n : ℕ) (hn : n < cfg0.N), (outsAt V c n hn).2 (ix2 g h) = ∑ s ∈ Finset.range (n + 1), tileTerm V c g h s
  | 0, hn => by
    refine (congrFun (pooledAt_first V c ⟨0, hn⟩ rfl) (ix2 g h)).trans ?_
    rw [tileSum_ids, zeroBlock_apply, zero_add, Finset.sum_range_one]
    unfold tileTerm
    rw [dif_pos hn]
  | n + 1, hn => by
    refine (congrFun (pooledAt_later V c ⟨n + 1, hn⟩ (Nat.succ_ne_zero n)) (ix2 g h)).trans ?_
    rw [tileSum_ids, Finset.sum_range_succ]
    refine congrArg₂ (· + ·) (pooledAt_eq c g h n (Nat.lt_of_succ_lt hn)) ?_
    unfold tileTerm
    rw [dif_pos hn]

end Fold

section Pooled
open Idealize.ShloMosaic.ValueIdx

variable (V : (c : Dev nD) → (b : Ref sig .tc) → Buf (Elt Ideal) ((c : Thread nD τ).loc b))

theorem pooled_eq (c : Dev nD) :
    (dat (F := Ideal) V c).arrAt 8 cfg0.N
      = Cert.Spec.poolCol (F := Ideal) ((dat (F := Ideal) V c).arrAt 7 cfg0.N) (V c (Pipeline.arrRef spec0 2)) := by
  rw [pooled_final V c, feat_final V c]
  refine funext fun (i : S512x128.Idx) => ?_
  obtain ⟨g, h, rfl⟩ : ∃ (g : Fin 512) (h : Fin 128), i = ix2 g h := ⟨i 0, i 1, eq_ix2 i⟩
  rw [Cert.Spec.poolCol_apply, pooledAt_eq V c g h lastPt.val lastPt.isLt, Cert.Spec.sum_tiles]
  show ∑ s ∈ Finset.range 50, tileTerm V c g h s = _
  rw [Finset.sum_range]
  refine Finset.sum_congr rfl fun s _ => ?_
  have hs : s.val < cfg0.N := by rw [pointsN]; exact s.isLt
  unfold tileTerm
  rw [dif_pos hs]
  refine Finset.sum_congr rfl fun p _ => ?_
  have hb : 2000 * s.val + p.val < 100000 := by have := s.isLt; have := p.isLt; omega
  have e1 := idBlk_apply V c ⟨s.val, hs⟩ p ⟨2000 * s.val + p.val, hb⟩ rfl
  have e2 := featAll_at V c ⟨s.val, hs⟩ p h (ix2 (⟨2000 * s.val + p.val, hb⟩ : Fin 100000) h) rfl rfl
  rw [e1, e2] <;> rfl

end Pooled

end Cert.KernelIdeal.L0

end
-- ==== Proof.KI.L1ValX.lean ====
/-
  Layer region 1, the node-feature output as one whole-array function at the extended reals: the fifty row blocks the
  grid points store are the row blocks of relu(relu((X + agg) W1 + b1) W2 + b2) taken over all nodes, because a row of a
  matrix product depends only on that row of the left factor.

  The block a point stores is, whichever the point, the body's update of the blocks it loaded. Read at an entry (p, j) over
  the extended reals, where a change of float format is the identity, that update is two "row stages" — r ↦ relu(r W + b),
  a sum of 128 products per entry — of row p of the loaded features plus neighbour sums. The reference's update of the whole
  arrays, read at entry (n, j), is the same two row stages of row n. Row p of row block t is row 2000 t + p, the parameter
  blocks are the whole parameter arrays, and the fifty row blocks cover the array; so the array ends holding the reference's
  update.
-/
import proofs.«419285_j30786325577782_1_alg».proof.Proof.KI.L1Dat
import proofs.«419285_j30786325577782_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.L1

open Cert.KernelIdeal Cert.KernelIdeal.Gen
open Idealize.ShloMosaic Idealize.ShloMosaic.TcCoe
open Idealize.SL Idealize.SL.Sem
open Idealize.ShloMosaic.Pipeline (Dat Cfg Window)

namespace NodeOut

section Pieces
variable {F : FTy → Type} [FloatOps F]

/-- Every load and store of the body starts at the origin of its buffer. -/
theorem offsets_zero : (![0, 0] : Fin 2 → Nat) = fun _ => 0 := funext fun a => by fin_cases a <;> rfl

/-- The node-feature block the first grid point stores is the update of the blocks it loaded. -/
theorem stored_first (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) :
    out_A_7 c i arg1 harg1 arg2 harg2 arg3 harg3 arg4 harg4 arg5 harg5 arg6 harg6 arg7 harg7 arg8 harg8 arg9 harg9 hc x0 x1 x2 x3 x4 x5 x6 = k1_pay3 x0 x1 x3 x4 x5 x6 := by
  unfold out_A_7
  rw [View.read_writes_eq_canon _ _ _ (cover_A_7 c i arg1 harg1 arg2 harg2 arg3 harg3 arg4 harg4 arg5 harg5 arg6 harg6 arg7 harg7 arg8 harg8 arg9 harg9 hc x0 x1 x2 x3 x4 x5 x6)]
  unfold kernelRun_A
  dsimp only
  rw [View.canon_unit_zero offsets_zero]
  simp only [View.readAt_eq_ld, harg1.read_unread, harg2.read_unread, harg4.read_unread, harg5.read_unread, harg6.read_unread,
    harg7.read_unread, View.ld_unit_zero (S := S2000x128) offsets_zero, View.ld_unit_zero (S := S128x128) offsets_zero,
    View.ld_unit_zero (S := S1x128) offsets_zero]

/-- So is the block every later grid point stores: the pooled accumulator does not enter it. -/
theorem stored_later (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) :
    out_B_7 c i arg1 harg1 arg2 harg2 arg3 harg3 arg4 harg4 arg5 harg5 arg6 harg6 arg7 harg7 arg8 harg8 arg9 harg9 hc x0 x1 x2 x3 x4 x5 x6 xo8 = k1_pay3 x0 x1 x3 x4 x5 x6 := by
  unfold out_B_7
  rw [View.read_writes_eq_canon _ _ _ (cover_B_7 c i arg1 harg1 arg2 harg2 arg3 harg3 arg4 harg4 arg5 harg5 arg6 harg6 arg7 harg7 arg8 harg8 arg9 harg9 hc x0 x1 x2 x3 x4 x5 x6 xo8)]
  unfold kernelRun_B
  dsimp only
  rw [View.canon_unit_zero offsets_zero]
  simp only [View.readAt_eq_ld, harg1.read_unread, harg2.read_unread, harg4.read_unread, harg5.read_unread, harg6.read_unread,
    harg7.read_unread, View.ld_unit_zero (S := S2000x128) offsets_zero, View.ld_unit_zero (S := S128x128) offsets_zero,
    View.ld_unit_zero (S := S1x128) offsets_zero]

end Pieces

section AtIdeal
open Idealize.ShloMosaic.ValueIdx

/-- One stage of the node update on one row, over the extended reals: from a row `r` (128 entries), the weights `w` and the
    one-row bias `b`, entry `k` of relu(r W + b). The threshold is the value of the zero word. -/
def stageRow (w : FVec Ideal S128x128 .f32) (b : FVec Ideal S1x128 .f32) (r : Fin 128 → EReal) (k : Fin 128) : EReal :=
  max ((∑ l : Fin 128, r l * w (ix2 l k)) + b (ix2 (0 : Fin 1) k)) (Ideal.ofBits .f32 0x00000000#32)

/-! ### The block's matrix product at an entry -/

theorem blockDot_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem blockDot_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem blockDot_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem blockDot_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, j) of a 2000x128 block times a 128x128 matrix, accumulated into zero: the sum over the 128 inner entries. -/
theorem blockDot_apply {φ₁ φ₂ : FTy} (a : FVec Ideal S2000x128 φ₁) (w : FVec Ideal S128x128 φ₂) (p : Fin 2000) (j : Fin 128) :
    matmul dot_S2000x128_S128x128_S2000x128_1_0_0_1_n_n none a w (constant S2000x128 .f32 0x00000000#32) (ix2 p j)
      = ∑ k : Fin 128, a (ix2 p k) * w (ix2 k j) := by
  refine (Ideal.matmul_constant_zero_apply dot_S2000x128_S128x128_S2000x128_1_0_0_1_n_n none a w (ix2 p j)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p j) ((ValueIdx.contrEquiv1 dot_S2000x128_S128x128_S2000x128_1_0_0_1_n_n 128 rfl rfl).symm k) = ix2 p k := funext fun a => Fin.ext (by
    match a with
    | ⟨0, _⟩ => exact blockDot_lhs_0 _ _
    | ⟨1, _⟩ => exact (blockDot_lhs_1 _ _).trans hk)
  have er : dot_S2000x128_S128x128_S2000x128_1_0_0_1_n_n.rhsIdx (ix2 p j) ((ValueIdx.contrEquiv1 dot_S2000x128_S128x128_S2000x128_1_0_0_1_n_n 128 rfl rfl).symm k) = ix2 k j := funext fun a => Fin.ext (by
    match a with
    | ⟨0, _⟩ => exact (blockDot_rhs_0 _ _).trans hk
    | ⟨1, _⟩ => exact blockDot_rhs_1 _ _)
  rw [el, er]

end AtIdeal

section Stages
variable {F : FTy → Type} [FloatOps F]

/-- One stage of the update on a block, as the body computes it: relu(a W + b), the product accumulated into zero, the
    one-row bias repeated down the rows. -/
def blockStage (a : FVec F S2000x128 .f32) (w : Vec F S128x128 .f32) (b : Vec F S1x128 .f32) : FVec F S2000x128 .f32 :=
  maximumf
    (addf
      (matmul dot_S2000x128_S128x128_S2000x128_1_0_0_1_n_n none (truncf .bf16 a bitsLt_bf16_f32)
        (truncf .bf16 (shapeCast S128x128 w shapeCasts_S128x128_S128x128) bitsLt_bf16_f32) (constant S2000x128 .f32 0x00000000#32))
      (broadcastTo S2000x128 (shapeCast S1x128 b shapeCasts_S1x128_S1x128) broadcasts_S1x128_S2000x128))
    (broadcast S2000x128 (Scalar.ofBits .f32 0x00000000#32))

/-- The stored block is two such stages applied to the sum of the two loaded blocks (each passed through a cast to its own shape). -/
theorem pay_eq_stages (x0 x1 : Vec F S2000x128 .f32) (w1 : Vec F S128x128 .f32) (b1 : Vec F S1x128 .f32) (w2 : Vec F S128x128 .f32)
    (b2 : Vec F S1x128 .f32) :
    k1_pay3 x0 x1 w1 b1 w2 b2
      = blockStage (blockStage (addf (shapeCast S2000x128 x0 shapeCasts_S2000x128_S2000x128)
          (shapeCast S2000x128 x1 shapeCasts_S2000x128_S2000x128)) w1 b1) w2 b2 := rfl

end Stages

section AtIdeal2
open Idealize.ShloMosaic.ValueIdx

/-- A block stage at entry (p, j) is the row stage of row p. -/
theorem blockStage_apply (a : FVec Ideal S2000x128 .f32) (w : Vec Ideal S128x128 .f32) (b : Vec Ideal S1x128 .f32) (p : Fin 2000) (j : Fin 128) :
    blockStage (F := Ideal) a w b (ix2 p j) = stageRow w b (fun l => a (ix2 p l)) j := by
  unfold blockStage stageRow
  show max (matmul dot_S2000x128_S128x128_S2000x128_1_0_0_1_n_n none (truncf .bf16 a bitsLt_bf16_f32)
        (truncf .bf16 (shapeCast S128x128 w shapeCasts_S128x128_S128x128) bitsLt_bf16_f32) (constant (F := Ideal) S2000x128 .f32 0x00000000#32) (ix2 p j)
      + broadcastTo S2000x128 (shapeCast S1x128 b shapeCasts_S1x128_S1x128) broadcasts_S1x128_S2000x128 (ix2 p j)) (Ideal.ofBits .f32 0x00000000#32) = _
  refine congrArg (fun z => max z (Ideal.ofBits .f32 0x00000000#32)) (congrArg₂ (· + ·) ?_ ?_)
  · refine (blockDot_apply _ _ p j).trans (Finset.sum_congr rfl fun l _ => ?_)
    show a (ix2 p l) * shapeCast S128x128 w shapeCasts_S128x128_S128x128 (ix2 l j) = a (ix2 p l) * w (ix2 l j)
    rw [shapeCast_self]
  · rw [shapeCast_self]
    exact broadcastTo_apply b broadcasts_S1x128_S2000x128 (ix2 p j) (ix2 (0 : Fin 1) j) (fun a => match a with
      | ⟨0, _⟩ => rfl
      | ⟨1, _⟩ => rfl)

/-- The stored block at entry (p, j): the two row stages of the sum of the two loaded rows p. -/
theorem pay_apply (x0 x1 : Vec Ideal S2000x128 .f32) (w1 : Vec Ideal S128x128 .f32) (b1 : Vec Ideal S1x128 .f32) (w2 : Vec Ideal S128x128 .f32)
    (b2 : Vec Ideal S1x128 .f32) (p : Fin 2000) (j : Fin 128) :
    k1_pay3 (F := Ideal) x0 x1 w1 b1 w2 b2 (ix2 p j)
      = stageRow w2 b2 (stageRow w1 b1 (fun l => x0 (ix2 p l) + x1 (ix2 p l))) j := by
  rw [pay_eq_stages]
  refine (blockStage_apply _ w2 b2 p j).trans ?_
  refine congrArg (fun r => stageRow w2 b2 r j) (funext fun k => ?_)
  refine (blockStage_apply _ w1 b1 p k).trans ?_
  refine congrArg (fun r => stageRow w1 b1 r k) (funext fun l => ?_)
  show shapeCast S2000x128 x0 shapeCasts_S2000x128_S2000x128 (ix2 p l) + shapeCast S2000x128 x1 shapeCasts_S2000x128_S2000x128 (ix2 p l) = _
  rw [shapeCast_self, shapeCast_self]

end AtIdeal2

section Reference
open Idealize.ShloMosaic.ValueIdx

/-! ### The whole array's matrix product at an entry -/

theorem arrayDot_lhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem arrayDot_lhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem arrayDot_rhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem arrayDot_rhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- Entry (n, j) of the 100000x128 array times a 128x128 matrix: the sum over the 128 inner entries, which reads row n only. -/
theorem arrayDot_apply (a : FVec Ideal Cert.ReferenceIdeal.S100000x128 .f32) (w : FVec Ideal Cert.ReferenceIdeal.S128x128 .f32) (n : Fin 100000) (j : Fin 128) :
    Host.dotGeneral Cert.ReferenceIdeal.dot_S100000x128_S128x128_S100000x128_1_0_0_1_n_n none a w (ix2 n j) = ∑ k : Fin 128, a (ix2 n k) * w (ix2 k j) := by
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 n j) ((ValueIdx.contrEquiv1 Cert.ReferenceIdeal.dot_S100000x128_S128x128_S100000x128_1_0_0_1_n_n 128 rfl rfl).symm k) = ix2 n k := funext fun a => Fin.ext (by
    match a with
    | ⟨0, _⟩ => exact arrayDot_lhs_0 _ _
    | ⟨1, _⟩ => exact (arrayDot_lhs_1 _ _).trans hk)
  have er : Cert.ReferenceIdeal.dot_S100000x128_S128x128_S100000x128_1_0_0_1_n_n.rhsIdx (ix2 n j) ((ValueIdx.contrEquiv1 Cert.ReferenceIdeal.dot_S100000x128_S128x128_S100000x128_1_0_0_1_n_n 128 rfl rfl).symm k) = ix2 k j := funext fun a => Fin.ext (by
    match a with
    | ⟨0, _⟩ => exact (arrayDot_rhs_0 _ _).trans hk
    | ⟨1, _⟩ => exact arrayDot_rhs_1 _ _)
  rw [el, er]

/-- One stage of the update on the whole array at entry (n, j) is the row stage of row n. -/
theorem arrayStage_apply (y : FVec Ideal Cert.ReferenceIdeal.S100000x128 .f32) (w : FVec Ideal Cert.ReferenceIdeal.S128x128 .f32)
    (b : FVec Ideal Cert.ReferenceIdeal.S1x128 .f32) (n : Fin 100000) (j : Fin 128) :
    Cert.Spec.relu (F := Ideal) (Cert.Spec.linRow (F := Ideal) y w b) (ix2 n j) = stageRow w b (fun l => y (ix2 n l)) j := by
  unfold Cert.Spec.relu Cert.Spec.linRow stageRow
  show max (Host.dotGeneral Cert.ReferenceIdeal.dot_S100000x128_S128x128_S100000x128_1_0_0_1_n_n none y w (ix2 n j)
      + broadcastInDim Cert.ReferenceIdeal.S100000x128 ![0, 1] Cert.ReferenceIdeal.Gen.bcast_S1x128_S100000x128_0_1 b (ix2 n j))
      (broadcastInDim Cert.ReferenceIdeal.S100000x128 ![] Cert.ReferenceIdeal.Gen.bcast_S_S100000x128 (constant (F := Ideal) Cert.ReferenceIdeal.S_ .f32 0x00000000#32) (ix2 n j)) = _
  refine congrArg₂ max (congrArg₂ (· + ·) (arrayDot_apply y w n j) ?_) ?_
  · exact broadcastInDim_apply ![0, 1] Cert.ReferenceIdeal.Gen.bcast_S1x128_S100000x128_0_1 b (ix2 n j) (ix2 (0 : Fin 1) j) (fun a => match a with
      | ⟨0, _⟩ => rfl
      | ⟨1, _⟩ => rfl)
  · exact broadcastInDim_apply ![] Cert.ReferenceIdeal.Gen.bcast_S_S100000x128 (constant (F := Ideal) Cert.ReferenceIdeal.S_ .f32 0x00000000#32) (ix2 n j) ix0 (fun a => a.elim0)

/-- The reference's node update at entry (n, j): the two row stages of the sum of the two rows n. -/
theorem layerRow_apply (X A : FVec Ideal Cert.ReferenceIdeal.S100000x128 .f32) (w1 : FVec Ideal Cert.ReferenceIdeal.S128x128 .f32) (b1 : FVec Ideal Cert.ReferenceIdeal.S1x128 .f32)
    (w2 : FVec Ideal Cert.ReferenceIdeal.S128x128 .f32) (b2 : FVec Ideal Cert.ReferenceIdeal.S1x128 .f32) (n : Fin 100000) (j : Fin 128) :
    Cert.Spec.layerRow (F := Ideal) X A w1 b1 w2 b2 (ix2 n j)
      = stageRow w2 b2 (stageRow w1 b1 (fun l => X (ix2 n l) + A (ix2 n l))) j := by
  unfold Cert.Spec.layerRow
  refine (arrayStage_apply _ w2 b2 n j).trans ?_
  refine congrArg (fun r => stageRow w2 b2 r j) (funext fun k => ?_)
  exact arrayStage_apply _ w1 b1 n k

end Reference

section Stored
variable {F : FTy → Type} [FloatOps F]
variable (V : (c : Dev nD) → (b : Ref sig .tc) → Buf (Elt F) ((c : Thread nD τ).loc b))

/-- At every grid point the node-feature buffer ends holding the update of that point's input blocks. -/
theorem stored_eq (c : Dev nD) (t : Fin cfg1.N) :
    (outsAt V c t.val t.isLt).1 = k1_pay3 (iblk V c 0 t) (iblk V c 1 t) (iblk V c 3 t) (iblk V c 4 t) (iblk V c 5 t) (iblk V c 6 t) := by
  by_cases h0 : t.val = 0
  · rw [outsAt_A V c t h0]
    dsimp only
    exact stored_first c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hcond t).mpr h0) (iblk V c 0 t) (iblk V c 1 t) (iblk V c 2 t) (iblk V c 3 t) (iblk V c 4 t) (iblk V c 5 t) (iblk V c 6 t)
  · rw [outsAt_B V c t h0]
    dsimp only
    exact stored_later c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h => h0 ((hcond t).mp h)) (iblk V c 0 t) (iblk V c 1 t) (iblk V c 2 t) (iblk V c 3 t) (iblk V c 4 t) (iblk V c 5 t) (iblk V c 6 t)
      (outsAt V c (t.val - 1) (Nat.lt_of_le_of_lt (Nat.sub_le _ _) t.isLt)).2

end Stored

section Blocks
open Idealize.ShloMosaic.ValueIdx
variable (V : (c : Dev nD) → (b : Ref sig .tc) → Buf (Elt Ideal) ((c : Thread nD τ).loc b))

/-- The six arrays the update reads, as the region finds them: features, neighbour sums, the two weight matrices, the two one-row biases. -/
abbrev featArr (c : Dev nD) : Vec Ideal S100000x128 .f32 := V c (Pipeline.arrRef spec1 0)
abbrev aggArr (c : Dev nD) : Vec Ideal S100000x128 .f32 := V c (Pipeline.arrRef spec1 1)
abbrev w1Arr (c : Dev nD) : Vec Ideal S128x128 .f32 := V c (Pipeline.arrRef spec1 3)
abbrev b1Arr (c : Dev nD) : Vec Ideal S1x128 .f32 := V c (Pipeline.arrRef spec1 4)
abbrev w2Arr (c : Dev nD) : Vec Ideal S128x128 .f32 := V c (Pipeline.arrRef spec1 5)
abbrev b2Arr (c : Dev nD) : Vec Ideal S1x128 .f32 := V c (Pipeline.arrRef spec1 6)

/-- The block index maps, decided over the fifty grid points: the three row-tiled windows sit at row block `t`, the four
    parameter windows never move. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of row block `t` is row `2000 t + p` of the array. -/
abbrev rowOfBlock (t : Fin cfg1.N) (p : Fin 2000) : Fin 100000 :=
  ⟨2000 * t.val + p.val, by have ht : t.val < 50 := lt_of_lt_of_eq t.isLt (show cfg1.N = 50 from N_1); have := p.isLt; omega⟩

theorem featBlock_apply (c : Dev nD) (t : Fin cfg1.N) (p : Fin 2000) (l : Fin 128) :
    (iblk V c 0 t : Vec Ideal S2000x128 .f32) (ix2 p l) = featArr V c (ix2 (rowOfBlock t p) l) := by
  show featArr V c (((cfg1.win 0).blk t).view.emb (ix2 p l)) = _
  refine congrArg (featArr V c) (funext fun a => Fin.ext ?_)
  obtain ⟨e00, e01, -⟩ := index_facts t
  match a with
  | ⟨0, _⟩ => show win1_0.index t (0 : Fin 2) * 2000 + 1 * p.val = 2000 * t.val + p.val; omega
  | ⟨1, _⟩ => show win1_0.index t (1 : Fin 2) * 128 + 1 * l.val = l.val; omega

theorem aggBlock_apply (c : Dev nD) (t : Fin cfg1.N) (p : Fin 2000) (l : Fin 128) :
    (iblk V c 1 t : Vec Ideal S2000x128 .f32) (ix2 p l) = aggArr V c (ix2 (rowOfBlock t p) l) := by
  show aggArr V c (((cfg1.win 1).blk t).view.emb (ix2 p l)) = _
  refine congrArg (aggArr V c) (funext fun a => Fin.ext ?_)
  obtain ⟨-, -, e10, e11, -⟩ := index_facts t
  match a with
  | ⟨0, _⟩ => show win1_1.index t (0 : Fin 2) * 2000 + 1 * p.val = 2000 * t.val + p.val; omega
  | ⟨1, _⟩ => show win1_1.index t (1 : Fin 2) * 128 + 1 * l.val = l.val; omega

/-- Each parameter window's one block is its whole array. -/
theorem w1Block_eq (c : Dev nD) (t : Fin cfg1.N) : (iblk V c 3 t : Vec Ideal S128x128 .f32) = w1Arr V c := by
  funext y
  show w1Arr V c (((cfg1.win 3).blk t).view.emb y) = w1Arr V c y
  refine congrArg (w1Arr V c) (funext fun a => Fin.ext ?_)
  obtain ⟨-, -, -, -, e30, e31, -⟩ := index_facts t
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem b1Block_eq (c : Dev nD) (t : Fin cfg1.N) : (iblk V c 4 t : Vec Ideal S1x128 .f32) = b1Arr V c := by
  funext y
  show b1Arr V c (((cfg1.win 4).blk t).view.emb y) = b1Arr V c y
  refine congrArg (b1Arr V c) (funext fun a => Fin.ext ?_)
  obtain ⟨-, -, -, -, -, -, e40, e41, -⟩ := index_facts t
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem w2Block_eq (c : Dev nD) (t : Fin cfg1.N) : (iblk V c 5 t : Vec Ideal S128x128 .f32) = w2Arr V c := by
  funext y
  show w2Arr V c (((cfg1.win 5).blk t).view.emb y) = w2Arr V c y
  refine congrArg (w2Arr V c) (funext fun a => Fin.ext ?_)
  obtain ⟨-, -, -, -, -, -, -, -, e50, e51, -⟩ := index_facts t
  match a with
  | ⟨0, _⟩ => show win1_5.index t (0 : Fin 2) * 128 + 1 * (y 0).val = (y 0).val; omega
  | ⟨1, _⟩ => show win1_5.index t (1 : Fin 2) * 128 + 1 * (y 1).val = (y 1).val; omega

theorem b2Block_eq (c : Dev nD) (t : Fin cfg1.N) : (iblk V c 6 t : Vec Ideal S1x128 .f32) = b2Arr V c := by
  funext y
  show b2Arr V c (((cfg1.win 6).blk t).view.emb y) = b2Arr V c y
  refine congrArg (b2Arr V c) (funext fun a => Fin.ext ?_)
  obtain ⟨-, -, -, -, -, -, -, -, -, -, e60, e61, -⟩ := index_facts t
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- The block point `t` stores, at entry (p, j), is the reference's node update at entry (2000 t + p, j): both are the two row
    stages of the same row, a row of a matrix product depending only on that row of the left factor. -/
theorem block_apply (c : Dev nD) (t : Fin cfg1.N) (p : Fin 2000) (j : Fin 128) :
    k1_pay3 (F := Ideal) (iblk V c 0 t) (iblk V c 1 t) (iblk V c 3 t) (iblk V c 4 t) (iblk V c 5 t) (iblk V c 6 t) (ix2 p j)
      = Cert.Spec.layerRow (F := Ideal) (featArr V c) (aggArr V c) (w1Arr V c) (b1Arr V c) (w2Arr V c) (b2Arr V c) (ix2 (rowOfBlock t p) j) := by
  refine (pay_apply (iblk V c 0 t) (iblk V c 1 t) (iblk V c 3 t) (iblk V c 4 t) (iblk V c 5 t) (iblk V c 6 t) p j).trans ?_
  refine Eq.trans ?_ (layerRow_apply (featArr V c) (aggArr V c) (w1Arr V c) (b1Arr V c) (w2Arr V c) (b2Arr V c) (rowOfBlock t p) j).symm
  rw [w1Block_eq, b1Block_eq, w2Block_eq, b2Block_eq]
  refine congrArg (fun r => stageRow (w2Arr V c) (b2Arr V c) (stageRow (w1Arr V c) (b1Arr V c) r) j) (funext fun l => ?_)
  exact congrArg₂ (· + ·) (featBlock_apply V c t p l) (aggBlock_apply V c t p l)

end Blocks

section Array
open Idealize.ShloMosaic.ValueIdx
variable (V : (c : Dev nD) → (b : Ref sig .tc) → Buf (Elt Ideal) ((c : Thread nD τ).loc b))

/-- What point `t` writes back is row block `t` of the reference's node update of the whole arrays. -/
theorem flushed_eq (c : Dev nD) (t : Fin cfg1.N) :
    (dat (F := Ideal) V c).flushed 7 t = ((cfg1.win 7).blk t).view.read (Elt Ideal)
      (Cert.Spec.layerRow (F := Ideal) (featArr V c) (aggArr V c) (w1Arr V c) (b1Arr V c) (w2Arr V c) (b2Arr V c)) := by
  show (cfg1.win 7).cut (grid1.coords t) ((dat V c).after 7 t) = _
  rw [after7, stored_eq]
  refine funext fun (y : S2000x128.Idx) => ?_
  obtain ⟨p, j, rfl⟩ : ∃ (p : Fin 2000) (j : Fin 128), y = ix2 p j := ⟨y 0, y 1, eq_ix2 y⟩
  show k1_pay3 (F := Ideal) (iblk V c 0 t) (iblk V c 1 t) (iblk V c 3 t) (iblk V c 4 t) (iblk V c 5 t) (iblk V c 6 t) (ix2 p j)
    = Cert.Spec.layerRow (F := Ideal) (featArr V c) (aggArr V c) (w1Arr V c) (b1Arr V c) (w2Arr V c) (b2Arr V c) (((cfg1.win 7).blk t).view.emb (ix2 p j))
  refine (block_apply V c t p j).trans ?_
  refine congrArg (Cert.Spec.layerRow (F := Ideal) (featArr V c) (aggArr V c) (w1Arr V c) (b1Arr V c) (w2Arr V c) (b2Arr V c)) (funext fun a => Fin.ext ?_)
  obtain ⟨-, -, -, -, -, -, -, -, -, -, -, -, e70, e71⟩ := index_facts t
  match a with
  | ⟨0, _⟩ => show 2000 * t.val + p.val = win1_7.index t (0 : Fin 2) * 2000 + 1 * p.val; omega
  | ⟨1, _⟩ => show j.val = win1_7.index t (1 : Fin 2) * 128 + 1 * j.val; omega

/-- An index of the array is in point `t`'s block iff each coordinate is in the block's range on its axis. -/
theorem mem_block (t : Fin cfg1.N) (i : S100000x128.Idx) :
    i ∈ ((cfg1.win 7).blk t).view.set
      ↔ ∀ a : Fin 2, win1_7.index t a * S2000x128.size a ≤ (i a).val ∧ (i a).val < win1_7.index t a * S2000x128.size a + S2000x128.size a := by
  show i ∈ ((View.whole (Pipeline.arrRef spec1 7)).slice (win1_7.rect t)).set ↔ _
  rw [View.set_slice_whole, Rect.mem_set_unit]
  exact Iff.rfl

/-- The row block that holds row `n`. -/
abbrev blockOfRow (n : Fin 100000) : Fin cfg1.N :=
  ⟨n.val / 2000, lt_of_lt_of_eq (by have := n.isLt; omega) (show cfg1.N = 50 from N_1).symm⟩

/-- Row `n` lies in row block `n / 2000`, which is written back like every block. -/
theorem covered (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  refine ⟨blockOfRow (i 0), flush1_7 _, ?_⟩
  rw [mem_block]
  obtain ⟨-, -, -, -, -, -, -, -, -, -, -, -, e70, e71⟩ := index_facts (blockOfRow (i 0))
  have e70' : win1_7.index (blockOfRow (i 0)) (0 : Fin 2) = (i 0).val / 2000 := e70
  intro a
  match a with
  | ⟨0, _⟩ =>
    show win1_7.index (blockOfRow (i 0)) (0 : Fin 2) * 2000 ≤ (i 0).val ∧ (i 0).val < win1_7.index (blockOfRow (i 0)) (0 : Fin 2) * 2000 + 2000
    omega
  | ⟨1, _⟩ =>
    show win1_7.index (blockOfRow (i 0)) (1 : Fin 2) * 128 ≤ (i 1).val ∧ (i 1).val < win1_7.index (blockOfRow (i 0)) (1 : Fin 2) * 128 + 128
    omega

end Array
end NodeOut

open NodeOut

variable (V : (c : Dev nD) → (b : Ref sig .tc) → Buf (Elt Ideal) ((c : Thread nD τ).loc b))

theorem xout_eq (c : Dev nD) :
    (dat (F := Ideal) V c).arrAt 7 cfg1.N
      = Cert.Spec.layerRow (F := Ideal) (V c (Pipeline.arrRef spec1 0)) (V c (Pipeline.arrRef spec1 1)) (V c (Pipeline.arrRef spec1 3))
          (V c (Pipeline.arrRef spec1 4)) (V c (Pipeline.arrRef spec1 5)) (V c (Pipeline.arrRef spec1 6)) :=
  (dat (F := Ideal) V c).arrAt_eq_of_cover 7 _ (fun t _ => flushed_eq V c t) covered

end Cert.KernelIdeal.L1

end
-- ==== Proof.KI.L1ValP.lean ====
/-
  Layer region 1, the pooled output at the extended reals. The accumulator is one resident block: the first grid point
  zeroes it, every point adds its tile's contribution — for each graph g, the sum of the new feature rows of the tile's
  nodes whose graph id is g, computed as a matrix product with the 0/1 matrix "row p's id is g" —, and it is written back
  once, after the last point. Summed over the fifty tiles this is the reference's per-graph pooling of the node-feature
  output, whose rows 2000 t … 2000 t + 1999 are what point t stored.
-/
import proofs.«419285_j30786325577782_1_alg».proof.Proof.KI.L1Dat
import proofs.«419285_j30786325577782_1_alg».proof.Proof.ScatterRows
import proofs.«419285_j30786325577782_1_alg».proof.Proof.PoolMath
import Idealize.ShloMosaic.Lib.Pipeline.Value
import Idealize.ShloMosaic.Lib.ValueIdx
import Idealize.ShloMosaic.Lib.Tactic
import Mathlib.Data.Fintype.BigOperators
import Idealize.ShloMosaic.PureOps.Ideal.Laws

set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-- The zero offsets of a rank-two block, however they are spelt. -/
theorem hz : (![0, 0] : Fin 2 → Nat) = fun _ => 0 := funext fun a => by fin_cases a <;> rfl

/-- A later point stores the new node features: the node update of its input blocks. -/
theorem out_B_7_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) :
    out_B_7 c i arg1 harg1 arg2 harg2 arg3 harg3 arg4 harg4 arg5 harg5 arg6 harg6 arg7 harg7 arg8 harg8 arg9 harg9 hc x0 x1 x2 x3 x4 x5 x6 xo8 = k1_pay3 x0 x1 x3 x4 x5 x6 := by
  unfold out_B_7
  rw [View.read_writes_eq_canon _ _ _ (cover_B_7 c i arg1 harg1 arg2 harg2 arg3 harg3 arg4 harg4 arg5 harg5 arg6 harg6 arg7 harg7 arg8 harg8 arg9 harg9 hc x0 x1 x2 x3 x4 x5 x6 xo8)]
  unfold kernelRun_B
  dsimp only
  rw [View.canon_unit_zero (S := S2000x128) hz]
  simp only [View.readAt_eq_ld, harg1.read_unread, harg2.read_unread, harg3.read_unread, harg4.read_unread, harg5.read_unread, harg6.read_unread, harg7.read_unread,
    View.ld_unit_zero (S := S2000x128) hz, View.ld_unit_zero (S := S2000x1) hz, View.ld_unit_zero (S := S128x128) hz, View.ld_unit_zero (S := S1x128) hz]

/-- So does the first point. -/
theorem out_A_7_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) :
    out_A_7 c i arg1 harg1 arg2 harg2 arg3 harg3 arg4 harg4 arg5 harg5 arg6 harg6 arg7 harg7 arg8 harg8 arg9 harg9 hc x0 x1 x2 x3 x4 x5 x6 = k1_pay3 x0 x1 x3 x4 x5 x6 := by
  unfold out_A_7
  rw [View.read_writes_eq_canon _ _ _ (cover_A_7 c i arg1 harg1 arg2 harg2 arg3 harg3 arg4 harg4 arg5 harg5 arg6 harg6 arg7 harg7 arg8 harg8 arg9 harg9 hc x0 x1 x2 x3 x4 x5 x6)]
  unfold kernelRun_A
  dsimp only
  rw [View.canon_unit_zero (S := S2000x128) hz]
  simp only [View.readAt_eq_ld, harg1.read_unread, harg2.read_unread, harg3.read_unread, harg4.read_unread, harg5.read_unread, harg6.read_unread, harg7.read_unread,
    View.ld_unit_zero (S := S2000x128) hz, View.ld_unit_zero (S := S2000x1) hz, View.ld_unit_zero (S := S128x128) hz, View.ld_unit_zero (S := S1x128) hz]

/-- A later point leaves in the pooled accumulator what it held plus this tile's contribution. -/
theorem out_B_8_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) :
    out_B_8 c i arg1 harg1 arg2 harg2 arg3 harg3 arg4 harg4 arg5 harg5 arg6 harg6 arg7 harg7 arg8 harg8 arg9 harg9 hc x0 x1 x2 x3 x4 x5 x6 xo8
      = k1_pay1 (k1_pay3 x0 x1 x3 x4 x5 x6) (iota .tc S2000x512 32 [1] iota_S2000x512_d1_w32) (k1_pay4 (F := F) x2) xo8 := by
  unfold out_B_8
  rw [View.read_writes_eq_canon _ _ _ (cover_B_8 c i arg1 harg1 arg2 harg2 arg3 harg3 arg4 harg4 arg5 harg5 arg6 harg6 arg7 harg7 arg8 harg8 arg9 harg9 hc x0 x1 x2 x3 x4 x5 x6 xo8)]
  unfold kernelRun_B
  dsimp only
  sl_unfold_words
  rw [View.canon_unit_zero (S := S512x128) hz]
  simp only [View.readAt_eq_ld, harg1.read_unread, harg2.read_unread, harg3.read_unread, harg4.read_unread, harg5.read_unread, harg6.read_unread, harg7.read_unread, harg9.read_unread,
    View.ld_unit_zero (S := S2000x128) hz, View.ld_unit_zero (S := S2000x1) hz, View.ld_unit_zero (S := S128x128) hz, View.ld_unit_zero (S := S1x128) hz, View.ld_unit_zero (S := S512x128) hz]

/-- The first point zeroes the accumulator, reads the zero block back and leaves it plus this tile's contribution. -/
theorem out_A_8_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) :
    out_A_8 c i arg1 harg1 arg2 harg2 arg3 harg3 arg4 harg4 arg5 harg5 arg6 harg6 arg7 harg7 arg8 harg8 arg9 harg9 hc x0 x1 x2 x3 x4 x5 x6
      = k1_pay1 (k1_pay3 x0 x1 x3 x4 x5 x6) (iota .tc S2000x512 32 [1] iota_S2000x512_d1_w32) (k1_pay4 (F := F) x2) (k1_pay2 (F := F)) := by
  unfold out_A_8
  rw [View.read_writes_eq_canon _ _ _ (cover_A_8 c i arg1 harg1 arg2 harg2 arg3 harg3 arg4 harg4 arg5 harg5 arg6 harg6 arg7 harg7 arg8 harg8 arg9 harg9 hc x0 x1 x2 x3 x4 x5 x6)]
  unfold kernelRun_A
  dsimp only
  sl_unfold_words
  rw [View.canon_cons_unit_zero (S := S512x128) hz, View.readCov_unit_zero (S := S512x128) _ hz]
  simp only [View.readAt_eq_ld, harg1.read_unread, harg2.read_unread, harg3.read_unread, harg4.read_unread, harg5.read_unread, harg6.read_unread, harg7.read_unread,
    View.ld_unit_zero (S := S2000x128) hz, View.ld_unit_zero (S := S2000x1) hz, View.ld_unit_zero (S := S128x128) hz, View.ld_unit_zero (S := S1x128) hz]

/-! ## The pooled contribution of one tile, at the extended reals

The accumulator's update is a matrix product contracting the two thousand rows of the tile: its left factor is the
0/1 matrix "row p's graph id is g", made by comparing the broadcast id column with the column counter and converting
the comparison bit to a number; its right factor the tile's new node features. -/

open Idealize.ShloMosaic.ValueIdx in
/-- The left factor's index on the contracted axis is the contraction position, -/
theorem lhs_contr (j : S512x128.Idx) (q : dot_S2000x512_S2000x128_S512x128_0_0_1_1_n_n.contr.Idx) :
    (dot_S2000x512_S2000x128_S512x128_0_0_1_1_n_n.lhsIdx j q 0).val = (q ⟨0, by decide⟩).val :=
  dot_S2000x512_S2000x128_S512x128_0_0_1_1_n_n.lhsIdx_val_of_single rfl j q
/-- on its free axis the output's graph coordinate. -/
theorem lhs_free (j : S512x128.Idx) (q : dot_S2000x512_S2000x128_S512x128_0_0_1_1_n_n.contr.Idx) :
    (dot_S2000x512_S2000x128_S512x128_0_0_1_1_n_n.lhsIdx j q 1).val = (j 0).val := by
  unfold DotDims.lhsIdx
  rw [dif_neg (show ¬(1 : Fin S2000x512.rank) ∈ dot_S2000x512_S2000x128_S512x128_0_0_1_1_n_n.lhsBatch by decide), dif_pos (show (1 : Fin S2000x512.rank) ∈ dot_S2000x512_S2000x128_S512x128_0_0_1_1_n_n.lhsNonContracting by decide)]
  rfl
/-- The right factor's index on the contracted axis is the contraction position, -/
theorem rhs_contr (j : S512x128.Idx) (q : dot_S2000x512_S2000x128_S512x128_0_0_1_1_n_n.contr.Idx) :
    (dot_S2000x512_S2000x128_S512x128_0_0_1_1_n_n.rhsIdx j q 0).val = (q ⟨0, by decide⟩).val :=
  dot_S2000x512_S2000x128_S512x128_0_0_1_1_n_n.rhsIdx_val_of_single rfl j q
/-- on its free axis the output's feature coordinate. -/
theorem rhs_free (j : S512x128.Idx) (q : dot_S2000x512_S2000x128_S512x128_0_0_1_1_n_n.contr.Idx) :
    (dot_S2000x512_S2000x128_S512x128_0_0_1_1_n_n.rhsIdx j q 1).val = (j 1).val := by
  unfold DotDims.rhsIdx
  rw [dif_neg (show ¬(1 : Fin S2000x128.rank) ∈ dot_S2000x512_S2000x128_S512x128_0_0_1_1_n_n.rhsBatch by decide), dif_pos (show (1 : Fin S2000x128.rank) ∈ dot_S2000x512_S2000x128_S512x128_0_0_1_1_n_n.rhsNonContracting by decide)]
  rfl

/-- The number a comparison bit becomes: widened to a word and read signed, it is 1 when the words are equal and 0
    when they are not. -/
theorem eqBit_toReal (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases hab : a = b
  · have hw : (IntOp.cmpi .eq a b).setWidth 32 = 1#32 := by subst hab; simp [IntOp.cmpi]
    rw [if_pos hab, hw, show (1#32 : BitVec 32).toInt = 1 by decide]
    simp
  · have hb : (a == b) = false := beq_eq_false_iff_ne.mpr hab
    have hw : (IntOp.cmpi .eq a b).setWidth 32 = 0#32 := by simp [IntOp.cmpi, hb]
    rw [if_neg hab, hw, show (0#32 : BitVec 32).toInt = 0 by decide]
    simp

/-- The accumulator's update at entry (g, h): what it held, plus the sum over the tile's rows p of the 0/1 factor
    "the id word at (p, g) equals the counter word at (p, g)" times the new features' entry (p, h). -/
theorem pay1_apply (v29 : FVec Ideal S2000x128 .f32) (v33 v34 : IVec S2000x512 32) (v41 : Vec Ideal S512x128 .f32)
    (g : Fin 512) (h : Fin 128) :
    k1_pay1 (F := Ideal) v29 v33 v34 v41 (ValueIdx.ix2 g h)
      = v41 (ValueIdx.ix2 g h)
        + ∑ p : Fin 2000, (if v34 (ValueIdx.ix2 p g) = v33 (ValueIdx.ix2 p g) then (1 : EReal) else 0) * v29 (ValueIdx.ix2 p h) := by
  unfold k1_pay1
  rw [ValueIdx.addf_apply, shapeCast_self]
  refine congrArg (v41 (ValueIdx.ix2 g h) + ·) ?_
  show FloatOps.matmul dot_S2000x512_S2000x128_S512x128_0_0_1_1_n_n none _ _ (constant S512x128 .f32 0x00000000#32) (ValueIdx.ix2 g h : S512x128.Idx) = _
  rw [Ideal.matmul_constant_zero_apply, ← Equiv.sum_comp (ValueIdx.contrEquiv1 dot_S2000x512_S2000x128_S512x128_0_0_1_1_n_n 2000 rfl rfl).symm]
  refine Finset.sum_congr rfl fun k _ => ?_
  have hk := ValueIdx.contrEquiv1_symm_val dot_S2000x512_S2000x128_S512x128_0_0_1_1_n_n 2000 rfl rfl k
  have el : dot_S2000x512_S2000x128_S512x128_0_0_1_1_n_n.lhsIdx (ValueIdx.ix2 g h : S512x128.Idx) ((ValueIdx.contrEquiv1 dot_S2000x512_S2000x128_S512x128_0_0_1_1_n_n 2000 rfl rfl).symm k)
      = (ValueIdx.ix2 k g : S2000x512.Idx) := funext fun a => Fin.ext (by
    match a with
    | ⟨0, _⟩ => exact (lhs_contr _ _).trans hk
    | ⟨1, _⟩ => exact lhs_free _ _)
  have er : dot_S2000x512_S2000x128_S512x128_0_0_1_1_n_n.rhsIdx (ValueIdx.ix2 g h : S512x128.Idx) ((ValueIdx.contrEquiv1 dot_S2000x512_S2000x128_S512x128_0_0_1_1_n_n 2000 rfl rfl).symm k)
      = (ValueIdx.ix2 k h : S2000x128.Idx) := funext fun a => Fin.ext (by
    match a with
    | ⟨0, _⟩ => exact (rhs_contr _ _).trans hk
    | ⟨1, _⟩ => exact rhs_free _ _)
  rw [el, er]
  show (FloatOps.sitofp (F := Ideal) .f32 ((IntOp.cmpi .eq (v34 (ValueIdx.ix2 k g)) (v33 (ValueIdx.ix2 k g))).setWidth 32) : EReal) * v29 (ValueIdx.ix2 k h) = _
  rw [eqBit_toReal]

/-! ## One tile's pooled contribution -/

/-- Entry (g, h) of a tile's pooled contribution: the sum of the entries h of those of the tile's rows whose graph id,
    read signed, is g. -/
def tileSum (ids : Vec Ideal S2000x1 .i32) (rows : FVec Ideal S2000x128 .f32) (g : Fin 512) (h : Fin 128) : EReal :=
  ∑ p : Fin 2000, if (ids (ValueIdx.ix2 p (0 : Fin 1))).toInt = (g.val : ℤ) then rows (ValueIdx.ix2 p h) else 0

/-- The id column broadcast along the graphs' axis reads, at (p, g), row p's id. -/
theorem idsWide_apply (ids : Vec Ideal S2000x1 .i32) (p : Fin 2000) (g : Fin 512) :
    k1_pay4 (F := Ideal) ids (ValueIdx.ix2 p g) = ids (ValueIdx.ix2 p (0 : Fin 1)) := by
  unfold k1_pay4
  rw [broadcastTo_apply _ broadcasts_S2000x1_S2000x512 (ValueIdx.ix2 p g : S2000x512.Idx) (ValueIdx.ix2 p (0 : Fin 1) : S2000x1.Idx)
    (fun a => by match a with | ⟨0, _⟩ => rfl | ⟨1, _⟩ => rfl), shapeCast_self]

/-- The column counter reads, at (p, g), the word of g. -/
theorem counter_apply (p : Fin 2000) (g : Fin 512) :
    iota .tc S2000x512 32 [1] iota_S2000x512_d1_w32 (ValueIdx.ix2 p g) = BitVec.ofNat 32 g.val := by
  rw [iota_single_apply]

/-- The accumulator's update with the id column and the counter in place: what it held plus the tile's contribution. -/
theorem update_apply (ids : Vec Ideal S2000x1 .i32) (rows : FVec Ideal S2000x128 .f32) (acc : Vec Ideal S512x128 .f32)
    (g : Fin 512) (h : Fin 128) :
    k1_pay1 (F := Ideal) rows (iota .tc S2000x512 32 [1] iota_S2000x512_d1_w32) (k1_pay4 (F := Ideal) ids) acc (ValueIdx.ix2 g h)
      = acc (ValueIdx.ix2 g h) + tileSum ids rows g h := by
  rw [pay1_apply]
  unfold tileSum
  refine congrArg (acc (ValueIdx.ix2 g h) + ·) (Finset.sum_congr rfl fun p _ => ?_)
  rw [idsWide_apply, counter_apply]
  by_cases hp : ids (ValueIdx.ix2 p (0 : Fin 1)) = BitVec.ofNat 32 g.val
  · rw [if_pos hp, if_pos ((Cert.Spec.word_eq_iff _ g).mp hp), one_mul]
  · rw [if_neg hp, if_neg (fun hq => hp ((Cert.Spec.word_eq_iff _ g).mpr hq)), zero_mul]

/-- The zero block the first point stores is zero at every entry. -/
theorem zeroBlock_apply (j : S512x128.Idx) : k1_pay2 (F := Ideal) j = 0 := by
  unfold k1_pay2
  show Ideal.ofBits .f32 0x00000000#32 = 0
  exact Ideal.ofBits_zero_f32

variable (V : (c : Dev nD) → (b : Ref sig .tc) → Buf (Elt Ideal) ((c : Thread nD τ).loc b))

/-! ## The three windows the pooling reads or writes, as arrays

The graph-id column's block at point `t` is rows `2000 t … 2000 t + 1999` of the column; the node-feature output's
block at point `t` is the same rows of that output, each point writing its own; the pooled output is one block, the whole
array, at every point. -/

/-- The three windows' block indices, decided over the fifty points. -/
theorem idx_facts : ∀ t : Fin cfg1.N,
    win1_2.index t (0 : Fin 2) = t.val ∧ win1_2.index t (1 : Fin 2) = 0
    ∧ win1_7.index t (0 : Fin 2) = t.val ∧ win1_7.index t (1 : Fin 2) = 0
    ∧ win1_8.index t (0 : Fin 2) = 0 ∧ win1_8.index t (1 : Fin 2) = 0 :=
  (by decide +kernel : ∀ t : Fin grid1.N, _)

/-- Row `p` of the id column's block at point `t` is row `2000 t + p` of the column. -/
theorem ids_block (c : Dev nD) (t : Fin cfg1.N) (p : Fin 2000) :
    (iblk V c 2 t : Vec Ideal S2000x1 .i32) (ValueIdx.ix2 p (0 : Fin 1))
      = (V c (Pipeline.arrRef spec1 2) : IVec S100000x1 32)
          (ValueIdx.ix2 (⟨2000 * t.val + p.val, by have := lt_of_lt_of_eq t.isLt (show cfg1.N = 50 from N_1); have := p.isLt; omega⟩ : Fin 100000) (0 : Fin 1)) := by
  obtain ⟨e0, e1, -, -, -, -⟩ := idx_facts t
  unfold iblk
  rw [View.read_apply]
  show (V c (Pipeline.arrRef spec1 2) : IVec S100000x1 32) (((cfg1.win 2).blk t).view.emb (ValueIdx.ix2 p (0 : Fin 1))) = _
  refine congrArg (V c (Pipeline.arrRef spec1 2) : IVec S100000x1 32) ?_
  funext a
  apply Fin.ext
  match a with
  | ⟨0, _⟩ => show win1_2.index t (0 : Fin 2) * 2000 + 1 * p.val = 2000 * t.val + p.val; rw [e0]; omega
  | ⟨1, _⟩ => show win1_2.index t (1 : Fin 2) * 1 + 1 * 0 = 0; rw [e1]

/-- An index of the node-feature output lies in point `t`'s block exactly when each coordinate is in the block's range. -/
theorem mem_rows (t : Fin cfg1.N) (i : S100000x128.Idx) :
    i ∈ ((cfg1.win 7).blk t).view.set
      ↔ ∀ a : Fin 2, win1_7.index t a * S2000x128.size a ≤ (i a).val ∧ (i a).val < win1_7.index t a * S2000x128.size a + S2000x128.size a := by
  show i ∈ ((View.whole (Pipeline.arrRef spec1 7)).slice (win1_7.rect t)).set ↔ _
  rw [View.set_slice_whole, Rect.mem_set_unit]
  exact Iff.rfl

/-- Two different points write different rows. -/
theorem rows_disjoint (t t' : Fin cfg1.N) (hne : t ≠ t') :
    Disjoint ((cfg1.win 7).blk t).view.set ((cfg1.win 7).blk t').view.set := by
  rw [Finset.disjoint_left]
  intro i hi hi'
  rw [mem_rows] at hi hi'
  obtain ⟨-, -, e, -, -, -⟩ := idx_facts t
  obtain ⟨-, -, e', -, -, -⟩ := idx_facts t'
  have a : win1_7.index t (0 : Fin 2) * 2000 ≤ (i 0).val ∧ (i 0).val < win1_7.index t (0 : Fin 2) * 2000 + 2000 := hi 0
  have b : win1_7.index t' (0 : Fin 2) * 2000 ≤ (i 0).val ∧ (i 0).val < win1_7.index t' (0 : Fin 2) * 2000 + 2000 := hi' 0
  exact hne (Fin.ext (by omega))

/-- Row `2000 t + p` of the node-feature output, after the run, is row `p` of what point `t` stored. -/
theorem rows_read (c : Dev nD) (t : Fin cfg1.N) (p : Fin 2000) (h : Fin 128) :
    ((dat (F := Ideal) V c).arrAt 7 cfg1.N : FVec Ideal S100000x128 .f32)
        (ValueIdx.ix2 (⟨2000 * t.val + p.val, by have := lt_of_lt_of_eq t.isLt (show cfg1.N = 50 from N_1); have := p.isLt; omega⟩ : Fin 100000) h)
      = (outsAt V c t.val t.isLt).1 (ValueIdx.ix2 p h) := by
  obtain ⟨-, -, e0, e1, -, -⟩ := idx_facts t
  have hb := congrFun ((dat (F := Ideal) V c).read_blk_arrAt_eq_flushed 7 (fun t t' _ _ hne => rows_disjoint t t' hne) cfg1.N t t.isLt (flush1_7 t))
    (ValueIdx.ix2 p h)
  rw [View.read_apply] at hb
  have hemb : ((cfg1.win 7).blk t).view.emb (ValueIdx.ix2 p h)
      = (ValueIdx.ix2 (⟨2000 * t.val + p.val, by have := lt_of_lt_of_eq t.isLt (show cfg1.N = 50 from N_1); have := p.isLt; omega⟩ : Fin 100000) h : S100000x128.Idx) := by
    funext a
    apply Fin.ext
    match a with
    | ⟨0, _⟩ => show win1_7.index t (0 : Fin 2) * 2000 + 1 * p.val = 2000 * t.val + p.val; rw [e0]; omega
    | ⟨1, _⟩ => show win1_7.index t (1 : Fin 2) * 128 + 1 * h.val = h.val; rw [e1]; omega
  rw [hemb] at hb
  have hf : (dat (F := Ideal) V c).flushed 7 t (ValueIdx.ix2 p h) = (outsAt V c t.val t.isLt).1 (ValueIdx.ix2 p h) := by
    show (cfg1.win 7).cut (grid1.coords t) ((dat (F := Ideal) V c).after 7 t) (ValueIdx.ix2 p h) = _
    rw [after7]
    exact congrArg (outsAt V c t.val t.isLt).1 (funext fun a => Fin.ext rfl)
  exact (show _ = (dat (F := Ideal) V c).flushed 7 t (ValueIdx.ix2 p h) from hb).trans hf

/-- The last of the fifty points. -/
abbrev lastPt : Fin cfg1.N := ⟨49, lt_of_lt_of_eq (by decide : 49 < 50) (show 50 = cfg1.N from N_1.symm)⟩

/-- The pooled output is written back once, after the last point, and its one block is the whole array: the array ends
    holding what the last point left in the accumulator. -/
theorem pooled_last (c : Dev nD) :
    (dat (F := Ideal) V c).arrAt 8 cfg1.N = (outsAt V c lastPt.val lastPt.isLt).2 := by
  obtain ⟨-, -, -, -, e0, e1⟩ := idx_facts lastPt
  refine (dat (F := Ideal) V c).arrAt_eq_of_cover 8 _ (fun t hf => ?_) (fun i => ?_)
  · have h49 : t.val = 49 := by
      have := (flush1_8 t).mp hf
      have := lt_of_lt_of_eq t.isLt (show cfg1.N = 50 from N_1)
      omega
    obtain rfl : t = lastPt := Fin.ext h49
    show (cfg1.win 8).cut (grid1.coords lastPt) ((dat (F := Ideal) V c).after 8 lastPt) = _
    rw [after8]
    funext y
    rw [View.read_apply]
    show (outsAt V c lastPt.val lastPt.isLt).2 ((cfg1.win 8).xinj (grid1.coords lastPt) y)
      = (outsAt V c lastPt.val lastPt.isLt).2 (((cfg1.win 8).blk lastPt).view.emb y)
    refine congrArg (outsAt V c lastPt.val lastPt.isLt).2 (funext fun a => Fin.ext ?_)
    match a with
    | ⟨0, _⟩ => show (y 0).val = win1_8.index lastPt (0 : Fin 2) * 512 + 1 * (y 0).val; rw [e0]; omega
    | ⟨1, _⟩ => show (y 1).val = win1_8.index lastPt (1 : Fin 2) * 128 + 1 * (y 1).val; rw [e1]; omega
  · refine ⟨lastPt, (flush1_8 lastPt).mpr rfl, ?_⟩
    show i ∈ ((View.whole (Pipeline.arrRef spec1 8)).slice (win1_8.rect lastPt)).set
    rw [View.set_slice_whole, Rect.mem_set_unit]
    intro a
    have h0 : (i 0 : Nat) < 512 := (i 0).isLt
    have h1 : (i 1 : Nat) < 128 := (i 1).isLt
    match a with
    | ⟨0, _⟩ =>
      show win1_8.index lastPt (0 : Fin 2) * win1_8.size (0 : Fin 2) ≤ (i 0 : Nat)
        ∧ (i 0 : Nat) < win1_8.index lastPt (0 : Fin 2) * win1_8.size (0 : Fin 2) + win1_8.xsize (grid1.coords lastPt) (0 : Fin 2)
      rw [e0, show win1_8.xsize (grid1.coords lastPt) (0 : Fin 2) = 512 from by decide +kernel]
      omega
    | ⟨1, _⟩ =>
      show win1_8.index lastPt (1 : Fin 2) * win1_8.size (1 : Fin 2) ≤ (i 1 : Nat)
        ∧ (i 1 : Nat) < win1_8.index lastPt (1 : Fin 2) * win1_8.size (1 : Fin 2) + win1_8.xsize (grid1.coords lastPt) (1 : Fin 2)
      rw [e1, show win1_8.xsize (grid1.coords lastPt) (1 : Fin 2) = 128 from by decide +kernel]
      omega

/-! ## The accumulator over the grid, and the whole sum -/

/-- What a point leaves in the accumulator: what the point before left (nothing, at the first point) plus its own tile's
    contribution. -/
theorem acc_step (c : Dev nD) (t : Fin cfg1.N) (g : Fin 512) (h : Fin 128) :
    (outsAt V c t.val t.isLt).2 (ValueIdx.ix2 g h)
      = (if h0 : t.val = 0 then 0 else (outsAt V c (t.val - 1) (Nat.lt_of_le_of_lt (Nat.sub_le _ _) t.isLt)).2 (ValueIdx.ix2 g h))
        + tileSum (iblk V c 2 t) (outsAt V c t.val t.isLt).1 g h := by
  by_cases h0 : t.val = 0
  · rw [dif_pos h0, outsAt_A V c t h0]
    dsimp only
    rw [out_A_8_eq, out_A_7_eq, update_apply, zeroBlock_apply]
  · rw [dif_neg h0, outsAt_B V c t h0]
    dsimp only
    rw [out_B_8_eq, out_B_7_eq, update_apply]

/-- Point `s`'s contribution as a function of every natural number: zero past the grid. -/
def tileAt (c : Dev nD) (s : ℕ) (g : Fin 512) (h : Fin 128) : EReal :=
  if hs : s < cfg1.N then tileSum (iblk V c 2 ⟨s, hs⟩) (outsAt V c s hs).1 g h else 0

/-- After point `n` the accumulator holds the sum of the contributions of the points up to `n`. -/
theorem acc_eq (c : Dev nD) (g : Fin 512) (h : Fin 128) :
    ∀ (n : ℕ) (hn : n < cfg1.N), (outsAt V c n hn).2 (ValueIdx.ix2 g h) = ∑ s ∈ Finset.range (n + 1), tileAt V c s g h
  | 0, hn => by
    have hstep := acc_step V c ⟨0, hn⟩ g h
    rw [dif_pos rfl, zero_add] at hstep
    rw [Finset.sum_range_one]
    unfold tileAt
    rw [dif_pos hn]
    exact hstep
  | n + 1, hn => by
    have hstep := acc_step V c ⟨n + 1, hn⟩ g h
    rw [dif_neg (Nat.succ_ne_zero n)] at hstep
    rw [Finset.sum_range_succ, ← acc_eq c g h n (Nat.lt_of_succ_lt hn)]
    unfold tileAt
    rw [dif_pos hn]
    exact hstep

theorem pooled_eq (c : Dev nD) :
    (dat (F := Ideal) V c).arrAt 8 cfg1.N
      = Cert.Spec.poolCol (F := Ideal) ((dat (F := Ideal) V c).arrAt 7 cfg1.N) (V c (Pipeline.arrRef spec1 2)) := by
  rw [pooled_last]
  funext j
  obtain ⟨g, h, rfl⟩ : ∃ (g : Fin 512) (h : Fin 128), j = ValueIdx.ix2 g h := ⟨j 0, j 1, ValueIdx.eq_ix2 j⟩
  rw [Cert.Spec.poolCol_apply, Cert.Spec.sum_tiles, acc_eq]
  show ∑ s ∈ Finset.range 50, tileAt V c s g h = _
  rw [← Fin.sum_univ_eq_sum_range (fun s => tileAt V c s g h) 50]
  refine Finset.sum_congr rfl fun s _ => ?_
  have hs : s.val < cfg1.N := lt_of_lt_of_eq s.isLt (show 50 = cfg1.N from N_1.symm)
  unfold tileAt
  rw [dif_pos hs]
  unfold tileSum
  refine Finset.sum_congr rfl fun p _ => ?_
  rw [ids_block V c ⟨s.val, hs⟩ p, rows_read V c ⟨s.val, hs⟩ p h]

end Cert.KernelIdeal.L1

end
-- ==== Proof.KI.L2ValX.lean ====
/-
  Layer region 2, the node-feature output as one whole-array function at the extended reals: the fifty row blocks the
  grid points store are the row blocks of relu(relu((X + agg) W1 + b1) W2 + b2) taken over all nodes, because a row of a
  matrix product depends only on that row of the left factor.

  The block a point stores is, whichever the point, the body's update of the blocks it loaded. Read at an entry (p, j) over
  the extended reals, where a change of float format is the identity, that update is two "row stages" — r ↦ relu(r W + b),
  a sum of 128 products per entry — of row p of the loaded features plus neighbour sums. The reference's update of the whole
  arrays, read at entry (n, j), is the same two row stages of row n. Row p of row block t is row 2000 t + p, the parameter
  blocks are the whole parameter arrays, and the fifty row blocks cover the array; so the array ends holding the reference's
  update.
-/
import proofs.«419285_j30786325577782_1_alg».proof.Proof.KI.L2Dat
import proofs.«419285_j30786325577782_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.L2

open Cert.KernelIdeal Cert.KernelIdeal.Gen
open Idealize.ShloMosaic Idealize.ShloMosaic.TcCoe
open Idealize.SL Idealize.SL.Sem
open Idealize.ShloMosaic.Pipeline (Dat Cfg Window)

namespace NodeOut

section Pieces
variable {F : FTy → Type} [FloatOps F]

/-- Every load and store of the body starts at the origin of its buffer. -/
theorem offsets_zero : (![0, 0] : Fin 2 → Nat) = fun _ => 0 := funext fun a => by fin_cases a <;> rfl

/-- The node-feature block the first grid point stores is the update of the blocks it loaded. -/
theorem stored_first (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) :
    out_A_7 c i arg1 harg1 arg2 harg2 arg3 harg3 arg4 harg4 arg5 harg5 arg6 harg6 arg7 harg7 arg8 harg8 arg9 harg9 hc x0 x1 x2 x3 x4 x5 x6 = k2_pay3 x0 x1 x3 x4 x5 x6 := by
  unfold out_A_7
  rw [View.read_writes_eq_canon _ _ _ (cover_A_7 c i arg1 harg1 arg2 harg2 arg3 harg3 arg4 harg4 arg5 harg5 arg6 harg6 arg7 harg7 arg8 harg8 arg9 harg9 hc x0 x1 x2 x3 x4 x5 x6)]
  unfold kernelRun_A
  dsimp only
  rw [View.canon_unit_zero offsets_zero]
  simp only [View.readAt_eq_ld, harg1.read_unread, harg2.read_unread, harg4.read_unread, harg5.read_unread, harg6.read_unread,
    harg7.read_unread, View.ld_unit_zero (S := S2000x128) offsets_zero, View.ld_unit_zero (S := S128x128) offsets_zero,
    View.ld_unit_zero (S := S1x128) offsets_zero]

/-- So is the block every later grid point stores: the pooled accumulator does not enter it. -/
theorem stored_later (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) :
    out_B_7 c i arg1 harg1 arg2 harg2 arg3 harg3 arg4 harg4 arg5 harg5 arg6 harg6 arg7 harg7 arg8 harg8 arg9 harg9 hc x0 x1 x2 x3 x4 x5 x6 xo8 = k2_pay3 x0 x1 x3 x4 x5 x6 := by
  unfold out_B_7
  rw [View.read_writes_eq_canon _ _ _ (cover_B_7 c i arg1 harg1 arg2 harg2 arg3 harg3 arg4 harg4 arg5 harg5 arg6 harg6 arg7 harg7 arg8 harg8 arg9 harg9 hc x0 x1 x2 x3 x4 x5 x6 xo8)]
  unfold kernelRun_B
  dsimp only
  rw [View.canon_unit_zero offsets_zero]
  simp only [View.readAt_eq_ld, harg1.read_unread, harg2.read_unread, harg4.read_unread, harg5.read_unread, harg6.read_unread,
    harg7.read_unread, View.ld_unit_zero (S := S2000x128) offsets_zero, View.ld_unit_zero (S := S128x128) offsets_zero,
    View.ld_unit_zero (S := S1x128) offsets_zero]

end Pieces

section AtIdeal
open Idealize.ShloMosaic.ValueIdx

/-- One stage of the node update on one row, over the extended reals: from a row `r` (128 entries), the weights `w` and the
    one-row bias `b`, entry `k` of relu(r W + b). The threshold is the value of the zero word. -/
def stageRow (w : FVec Ideal S128x128 .f32) (b : FVec Ideal S1x128 .f32) (r : Fin 128 → EReal) (k : Fin 128) : EReal :=
  max ((∑ l : Fin 128, r l * w (ix2 l k)) + b (ix2 (0 : Fin 1) k)) (Ideal.ofBits .f32 0x00000000#32)

/-! ### The block's matrix product at an entry -/

theorem blockDot_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem blockDot_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem blockDot_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem blockDot_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, j) of a 2000x128 block times a 128x128 matrix, accumulated into zero: the sum over the 128 inner entries. -/
theorem blockDot_apply {φ₁ φ₂ : FTy} (a : FVec Ideal S2000x128 φ₁) (w : FVec Ideal S128x128 φ₂) (p : Fin 2000) (j : Fin 128) :
    matmul dot_S2000x128_S128x128_S2000x128_1_0_0_1_n_n none a w (constant S2000x128 .f32 0x00000000#32) (ix2 p j)
      = ∑ k : Fin 128, a (ix2 p k) * w (ix2 k j) := by
  refine (Ideal.matmul_constant_zero_apply dot_S2000x128_S128x128_S2000x128_1_0_0_1_n_n none a w (ix2 p j)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p j) ((ValueIdx.contrEquiv1 dot_S2000x128_S128x128_S2000x128_1_0_0_1_n_n 128 rfl rfl).symm k) = ix2 p k := funext fun a => Fin.ext (by
    match a with
    | ⟨0, _⟩ => exact blockDot_lhs_0 _ _
    | ⟨1, _⟩ => exact (blockDot_lhs_1 _ _).trans hk)
  have er : dot_S2000x128_S128x128_S2000x128_1_0_0_1_n_n.rhsIdx (ix2 p j) ((ValueIdx.contrEquiv1 dot_S2000x128_S128x128_S2000x128_1_0_0_1_n_n 128 rfl rfl).symm k) = ix2 k j := funext fun a => Fin.ext (by
    match a with
    | ⟨0, _⟩ => exact (blockDot_rhs_0 _ _).trans hk
    | ⟨1, _⟩ => exact blockDot_rhs_1 _ _)
  rw [el, er]

end AtIdeal

section Stages
variable {F : FTy → Type} [FloatOps F]

/-- One stage of the update on a block, as the body computes it: relu(a W + b), the product accumulated into zero, the
    one-row bias repeated down the rows. -/
def blockStage (a : FVec F S2000x128 .f32) (w : Vec F S128x128 .f32) (b : Vec F S1x128 .f32) : FVec F S2000x128 .f32 :=
  maximumf
    (addf
      (matmul dot_S2000x128_S128x128_S2000x128_1_0_0_1_n_n none (truncf .bf16 a bitsLt_bf16_f32)
        (truncf .bf16 (shapeCast S128x128 w shapeCasts_S128x128_S128x128) bitsLt_bf16_f32) (constant S2000x128 .f32 0x00000000#32))
      (broadcastTo S2000x128 (shapeCast S1x128 b shapeCasts_S1x128_S1x128) broadcasts_S1x128_S2000x128))
    (broadcast S2000x128 (Scalar.ofBits .f32 0x00000000#32))

/-- The stored block is two such stages applied to the sum of the two loaded blocks (each passed through a cast to its own shape). -/
theorem pay_eq_stages (x0 x1 : Vec F S2000x128 .f32) (w1 : Vec F S128x128 .f32) (b1 : Vec F S1x128 .f32) (w2 : Vec F S128x128 .f32)
    (b2 : Vec F S1x128 .f32) :
    k2_pay3 x0 x1 w1 b1 w2 b2
      = blockStage (blockStage (addf (shapeCast S2000x128 x0 shapeCasts_S2000x128_S2000x128)
          (shapeCast S2000x128 x1 shapeCasts_S2000x128_S2000x128)) w1 b1) w2 b2 := rfl

end Stages

section AtIdeal2
open Idealize.ShloMosaic.ValueIdx

/-- A block stage at entry (p, j) is the row stage of row p. -/
theorem blockStage_apply (a : FVec Ideal S2000x128 .f32) (w : Vec Ideal S128x128 .f32) (b : Vec Ideal S1x128 .f32) (p : Fin 2000) (j : Fin 128) :
    blockStage (F := Ideal) a w b (ix2 p j) = stageRow w b (fun l => a (ix2 p l)) j := by
  unfold blockStage stageRow
  show max (matmul dot_S2000x128_S128x128_S2000x128_1_0_0_1_n_n none (truncf .bf16 a bitsLt_bf16_f32)
        (truncf .bf16 (shapeCast S128x128 w shapeCasts_S128x128_S128x128) bitsLt_bf16_f32) (constant (F := Ideal) S2000x128 .f32 0x00000000#32) (ix2 p j)
      + broadcastTo S2000x128 (shapeCast S1x128 b shapeCasts_S1x128_S1x128) broadcasts_S1x128_S2000x128 (ix2 p j)) (Ideal.ofBits .f32 0x00000000#32) = _
  refine congrArg (fun z => max z (Ideal.ofBits .f32 0x00000000#32)) (congrArg₂ (· + ·) ?_ ?_)
  · refine (blockDot_apply _ _ p j).trans (Finset.sum_congr rfl fun l _ => ?_)
    show a (ix2 p l) * shapeCast S128x128 w shapeCasts_S128x128_S128x128 (ix2 l j) = a (ix2 p l) * w (ix2 l j)
    rw [shapeCast_self]
  · rw [shapeCast_self]
    exact broadcastTo_apply b broadcasts_S1x128_S2000x128 (ix2 p j) (ix2 (0 : Fin 1) j) (fun a => match a with
      | ⟨0, _⟩ => rfl
      | ⟨1, _⟩ => rfl)

/-- The stored block at entry (p, j): the two row stages of the sum of the two loaded rows p. -/
theorem pay_apply (x0 x1 : Vec Ideal S2000x128 .f32) (w1 : Vec Ideal S128x128 .f32) (b1 : Vec Ideal S1x128 .f32) (w2 : Vec Ideal S128x128 .f32)
    (b2 : Vec Ideal S1x128 .f32) (p : Fin 2000) (j : Fin 128) :
    k2_pay3 (F := Ideal) x0 x1 w1 b1 w2 b2 (ix2 p j)
      = stageRow w2 b2 (stageRow w1 b1 (fun l => x0 (ix2 p l) + x1 (ix2 p l))) j := by
  rw [pay_eq_stages]
  refine (blockStage_apply _ w2 b2 p j).trans ?_
  refine congrArg (fun r => stageRow w2 b2 r j) (funext fun k => ?_)
  refine (blockStage_apply _ w1 b1 p k).trans ?_
  refine congrArg (fun r => stageRow w1 b1 r k) (funext fun l => ?_)
  show shapeCast S2000x128 x0 shapeCasts_S2000x128_S2000x128 (ix2 p l) + shapeCast S2000x128 x1 shapeCasts_S2000x128_S2000x128 (ix2 p l) = _
  rw [shapeCast_self, shapeCast_self]

end AtIdeal2

section Reference
open Idealize.ShloMosaic.ValueIdx

/-! ### The whole array's matrix product at an entry -/

theorem arrayDot_lhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem arrayDot_lhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem arrayDot_rhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem arrayDot_rhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- Entry (n, j) of the 100000x128 array times a 128x128 matrix: the sum over the 128 inner entries, which reads row n only. -/
theorem arrayDot_apply (a : FVec Ideal Cert.ReferenceIdeal.S100000x128 .f32) (w : FVec Ideal Cert.ReferenceIdeal.S128x128 .f32) (n : Fin 100000) (j : Fin 128) :
    Host.dotGeneral Cert.ReferenceIdeal.dot_S100000x128_S128x128_S100000x128_1_0_0_1_n_n none a w (ix2 n j) = ∑ k : Fin 128, a (ix2 n k) * w (ix2 k j) := by
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 n j) ((ValueIdx.contrEquiv1 Cert.ReferenceIdeal.dot_S100000x128_S128x128_S100000x128_1_0_0_1_n_n 128 rfl rfl).symm k) = ix2 n k := funext fun a => Fin.ext (by
    match a with
    | ⟨0, _⟩ => exact arrayDot_lhs_0 _ _
    | ⟨1, _⟩ => exact (arrayDot_lhs_1 _ _).trans hk)
  have er : Cert.ReferenceIdeal.dot_S100000x128_S128x128_S100000x128_1_0_0_1_n_n.rhsIdx (ix2 n j) ((ValueIdx.contrEquiv1 Cert.ReferenceIdeal.dot_S100000x128_S128x128_S100000x128_1_0_0_1_n_n 128 rfl rfl).symm k) = ix2 k j := funext fun a => Fin.ext (by
    match a with
    | ⟨0, _⟩ => exact (arrayDot_rhs_0 _ _).trans hk
    | ⟨1, _⟩ => exact arrayDot_rhs_1 _ _)
  rw [el, er]

/-- One stage of the update on the whole array at entry (n, j) is the row stage of row n. -/
theorem arrayStage_apply (y : FVec Ideal Cert.ReferenceIdeal.S100000x128 .f32) (w : FVec Ideal Cert.ReferenceIdeal.S128x128 .f32)
    (b : FVec Ideal Cert.ReferenceIdeal.S1x128 .f32) (n : Fin 100000) (j : Fin 128) :
    Cert.Spec.relu (F := Ideal) (Cert.Spec.linRow (F := Ideal) y w b) (ix2 n j) = stageRow w b (fun l => y (ix2 n l)) j := by
  unfold Cert.Spec.relu Cert.Spec.linRow stageRow
  show max (Host.dotGeneral Cert.ReferenceIdeal.dot_S100000x128_S128x128_S100000x128_1_0_0_1_n_n none y w (ix2 n j)
      + broadcastInDim Cert.ReferenceIdeal.S100000x128 ![0, 1] Cert.ReferenceIdeal.Gen.bcast_S1x128_S100000x128_0_1 b (ix2 n j))
      (broadcastInDim Cert.ReferenceIdeal.S100000x128 ![] Cert.ReferenceIdeal.Gen.bcast_S_S100000x128 (constant (F := Ideal) Cert.ReferenceIdeal.S_ .f32 0x00000000#32) (ix2 n j)) = _
  refine congrArg₂ max (congrArg₂ (· + ·) (arrayDot_apply y w n j) ?_) ?_
  · exact broadcastInDim_apply ![0, 1] Cert.ReferenceIdeal.Gen.bcast_S1x128_S100000x128_0_1 b (ix2 n j) (ix2 (0 : Fin 1) j) (fun a => match a with
      | ⟨0, _⟩ => rfl
      | ⟨1, _⟩ => rfl)
  · exact broadcastInDim_apply ![] Cert.ReferenceIdeal.Gen.bcast_S_S100000x128 (constant (F := Ideal) Cert.ReferenceIdeal.S_ .f32 0x00000000#32) (ix2 n j) ix0 (fun a => a.elim0)

/-- The reference's node update at entry (n, j): the two row stages of the sum of the two rows n. -/
theorem layerRow_apply (X A : FVec Ideal Cert.ReferenceIdeal.S100000x128 .f32) (w1 : FVec Ideal Cert.ReferenceIdeal.S128x128 .f32) (b1 : FVec Ideal Cert.ReferenceIdeal.S1x128 .f32)
    (w2 : FVec Ideal Cert.ReferenceIdeal.S128x128 .f32) (b2 : FVec Ideal Cert.ReferenceIdeal.S1x128 .f32) (n : Fin 100000) (j : Fin 128) :
    Cert.Spec.layerRow (F := Ideal) X A w1 b1 w2 b2 (ix2 n j)
      = stageRow w2 b2 (stageRow w1 b1 (fun l => X (ix2 n l) + A (ix2 n l))) j := by
  unfold Cert.Spec.layerRow
  refine (arrayStage_apply _ w2 b2 n j).trans ?_
  refine congrArg (fun r => stageRow w2 b2 r j) (funext fun k => ?_)
  exact arrayStage_apply _ w1 b1 n k

end Reference

section Stored
variable {F : FTy → Type} [FloatOps F]
variable (V : (c : Dev nD) → (b : Ref sig .tc) → Buf (Elt F) ((c : Thread nD τ).loc b))

/-- At every grid point the node-feature buffer ends holding the update of that point's input blocks. -/
theorem stored_eq (c : Dev nD) (t : Fin cfg2.N) :
    (outsAt V c t.val t.isLt).1 = k2_pay3 (iblk V c 0 t) (iblk V c 1 t) (iblk V c 3 t) (iblk V c 4 t) (iblk V c 5 t) (iblk V c 6 t) := by
  by_cases h0 : t.val = 0
  · rw [outsAt_A V c t h0]
    dsimp only
    exact stored_first c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hcond t).mpr h0) (iblk V c 0 t) (iblk V c 1 t) (iblk V c 2 t) (iblk V c 3 t) (iblk V c 4 t) (iblk V c 5 t) (iblk V c 6 t)
  · rw [outsAt_B V c t h0]
    dsimp only
    exact stored_later c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h => h0 ((hcond t).mp h)) (iblk V c 0 t) (iblk V c 1 t) (iblk V c 2 t) (iblk V c 3 t) (iblk V c 4 t) (iblk V c 5 t) (iblk V c 6 t)
      (outsAt V c (t.val - 1) (Nat.lt_of_le_of_lt (Nat.sub_le _ _) t.isLt)).2

end Stored

section Blocks
open Idealize.ShloMosaic.ValueIdx
variable (V : (c : Dev nD) → (b : Ref sig .tc) → Buf (Elt Ideal) ((c : Thread nD τ).loc b))

/-- The six arrays the update reads, as the region finds them: features, neighbour sums, the two weight matrices, the two one-row biases. -/
abbrev featArr (c : Dev nD) : Vec Ideal S100000x128 .f32 := V c (Pipeline.arrRef spec2 0)
abbrev aggArr (c : Dev nD) : Vec Ideal S100000x128 .f32 := V c (Pipeline.arrRef spec2 1)
abbrev w1Arr (c : Dev nD) : Vec Ideal S128x128 .f32 := V c (Pipeline.arrRef spec2 3)
abbrev b1Arr (c : Dev nD) : Vec Ideal S1x128 .f32 := V c (Pipeline.arrRef spec2 4)
abbrev w2Arr (c : Dev nD) : Vec Ideal S128x128 .f32 := V c (Pipeline.arrRef spec2 5)
abbrev b2Arr (c : Dev nD) : Vec Ideal S1x128 .f32 := V c (Pipeline.arrRef spec2 6)

/-- The block index maps, decided over the fifty grid points: the three row-tiled windows sit at row block `t`, the four
    parameter windows never move. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row `p` of row block `t` is row `2000 t + p` of the array. -/
abbrev rowOfBlock (t : Fin cfg2.N) (p : Fin 2000) : Fin 100000 :=
  ⟨2000 * t.val + p.val, by have ht : t.val < 50 := lt_of_lt_of_eq t.isLt (show cfg2.N = 50 from N_2); have := p.isLt; omega⟩

theorem featBlock_apply (c : Dev nD) (t : Fin cfg2.N) (p : Fin 2000) (l : Fin 128) :
    (iblk V c 0 t : Vec Ideal S2000x128 .f32) (ix2 p l) = featArr V c (ix2 (rowOfBlock t p) l) := by
  show featArr V c (((cfg2.win 0).blk t).view.emb (ix2 p l)) = _
  refine congrArg (featArr V c) (funext fun a => Fin.ext ?_)
  obtain ⟨e00, e01, -⟩ := index_facts t
  match a with
  | ⟨0, _⟩ => show win2_0.index t (0 : Fin 2) * 2000 + 1 * p.val = 2000 * t.val + p.val; omega
  | ⟨1, _⟩ => show win2_0.index t (1 : Fin 2) * 128 + 1 * l.val = l.val; omega

theorem aggBlock_apply (c : Dev nD) (t : Fin cfg2.N) (p : Fin 2000) (l : Fin 128) :
    (iblk V c 1 t : Vec Ideal S2000x128 .f32) (ix2 p l) = aggArr V c (ix2 (rowOfBlock t p) l) := by
  show aggArr V c (((cfg2.win 1).blk t).view.emb (ix2 p l)) = _
  refine congrArg (aggArr V c) (funext fun a => Fin.ext ?_)
  obtain ⟨-, -, e10, e11, -⟩ := index_facts t
  match a with
  | ⟨0, _⟩ => show win2_1.index t (0 : Fin 2) * 2000 + 1 * p.val = 2000 * t.val + p.val; omega
  | ⟨1, _⟩ => show win2_1.index t (1 : Fin 2) * 128 + 1 * l.val = l.val; omega

/-- Each parameter window's one block is its whole array. -/
theorem w1Block_eq (c : Dev nD) (t : Fin cfg2.N) : (iblk V c 3 t : Vec Ideal S128x128 .f32) = w1Arr V c := by
  funext y
  show w1Arr V c (((cfg2.win 3).blk t).view.emb y) = w1Arr V c y
  refine congrArg (w1Arr V c) (funext fun a => Fin.ext ?_)
  obtain ⟨-, -, -, -, e30, e31, -⟩ := index_facts t
  match a with
  | ⟨0, _⟩ => show win2_3.index t (0 : Fin 2) * 128 + 1 * (y 0).val = (y 0).val; omega
  | ⟨1, _⟩ => show win2_3.index t (1 : Fin 2) * 128 + 1 * (y 1).val = (y 1).val; omega

theorem b1Block_eq (c : Dev nD) (t : Fin cfg2.N) : (iblk V c 4 t : Vec Ideal S1x128 .f32) = b1Arr V c := by
  funext y
  show b1Arr V c (((cfg2.win 4).blk t).view.emb y) = b1Arr V c y
  refine congrArg (b1Arr V c) (funext fun a => Fin.ext ?_)
  obtain ⟨-, -, -, -, -, -, e40, e41, -⟩ := index_facts t
  match a with
  | ⟨0, _⟩ => show win2_4.index t (0 : Fin 2) * 1 + 1 * (y 0).val = (y 0).val; omega
  | ⟨1, _⟩ => show win2_4.index t (1 : Fin 2) * 128 + 1 * (y 1).val = (y 1).val; omega

theorem w2Block_eq (c : Dev nD) (t : Fin cfg2.N) : (iblk V c 5 t : Vec Ideal S128x128 .f32) = w2Arr V c := by
  funext y
  show w2Arr V c (((cfg2.win 5).blk t).view.emb y) = w2Arr V c y
  refine congrArg (w2Arr V c) (funext fun a => Fin.ext ?_)
  obtain ⟨-, -, -, -, -, -, -, -, e50, e51, -⟩ := index_facts t
  match a with
  | ⟨0, _⟩ => show win2_5.index t (0 : Fin 2) * 128 + 1 * (y 0).val = (y 0).val; omega
  | ⟨1, _⟩ => show win2_5.index t (1 : Fin 2) * 128 + 1 * (y 1).val = (y 1).val; omega

theorem b2Block_eq (c : Dev nD) (t : Fin cfg2.N) : (iblk V c 6 t : Vec Ideal S1x128 .f32) = b2Arr V c := by
  funext y
  show b2Arr V c (((cfg2.win 6).blk t).view.emb y) = b2Arr V c y
  refine congrArg (b2Arr V c) (funext fun a => Fin.ext ?_)
  obtain ⟨-, -, -, -, -, -, -, -, -, -, e60, e61, -⟩ := index_facts t
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- The block point `t` stores, at entry (p, j), is the reference's node update at entry (2000 t + p, j): both are the two row
    stages of the same row, a row of a matrix product depending only on that row of the left factor. -/
theorem block_apply (c : Dev nD) (t : Fin cfg2.N) (p : Fin 2000) (j : Fin 128) :
    k2_pay3 (F := Ideal) (iblk V c 0 t) (iblk V c 1 t) (iblk V c 3 t) (iblk V c 4 t) (iblk V c 5 t) (iblk V c 6 t) (ix2 p j)
      = Cert.Spec.layerRow (F := Ideal) (featArr V c) (aggArr V c) (w1Arr V c) (b1Arr V c) (w2Arr V c) (b2Arr V c) (ix2 (rowOfBlock t p) j) := by
  refine (pay_apply (iblk V c 0 t) (iblk V c 1 t) (iblk V c 3 t) (iblk V c 4 t) (iblk V c 5 t) (iblk V c 6 t) p j).trans ?_
  refine Eq.trans ?_ (layerRow_apply (featArr V c) (aggArr V c) (w1Arr V c) (b1Arr V c) (w2Arr V c) (b2Arr V c) (rowOfBlock t p) j).symm
  rw [w1Block_eq, b1Block_eq, w2Block_eq, b2Block_eq]
  refine congrArg (fun r => stageRow (w2Arr V c) (b2Arr V c) (stageRow (w1Arr V c) (b1Arr V c) r) j) (funext fun l => ?_)
  exact congrArg₂ (· + ·) (featBlock_apply V c t p l) (aggBlock_apply V c t p l)

end Blocks

section Array
open Idealize.ShloMosaic.ValueIdx
variable (V : (c : Dev nD) → (b : Ref sig .tc) → Buf (Elt Ideal) ((c : Thread nD τ).loc b))

/-- What point `t` writes back is row block `t` of the reference's node update of the whole arrays. -/
theorem flushed_eq (c : Dev nD) (t : Fin cfg2.N) :
    (dat (F := Ideal) V c).flushed 7 t = ((cfg2.win 7).blk t).view.read (Elt Ideal)
      (Cert.Spec.layerRow (F := Ideal) (featArr V c) (aggArr V c) (w1Arr V c) (b1Arr V c) (w2Arr V c) (b2Arr V c)) := by
  show (cfg2.win 7).cut (grid2.coords t) ((dat V c).after 7 t) = _
  rw [after7, stored_eq]
  refine funext fun (y : S2000x128.Idx) => ?_
  obtain ⟨p, j, rfl⟩ : ∃ (p : Fin 2000) (j : Fin 128), y = ix2 p j := ⟨y 0, y 1, eq_ix2 y⟩
  show k2_pay3 (F := Ideal) (iblk V c 0 t) (iblk V c 1 t) (iblk V c 3 t) (iblk V c 4 t) (iblk V c 5 t) (iblk V c 6 t) (ix2 p j)
    = Cert.Spec.layerRow (F := Ideal) (featArr V c) (aggArr V c) (w1Arr V c) (b1Arr V c) (w2Arr V c) (b2Arr V c) (((cfg2.win 7).blk t).view.emb (ix2 p j))
  refine (block_apply V c t p j).trans ?_
  refine congrArg (Cert.Spec.layerRow (F := Ideal) (featArr V c) (aggArr V c) (w1Arr V c) (b1Arr V c) (w2Arr V c) (b2Arr V c)) (funext fun a => Fin.ext ?_)
  obtain ⟨-, -, -, -, -, -, -, -, -, -, -, -, e70, e71⟩ := index_facts t
  match a with
  | ⟨0, _⟩ => show 2000 * t.val + p.val = win2_7.index t (0 : Fin 2) * 2000 + 1 * p.val; omega
  | ⟨1, _⟩ => show j.val = win2_7.index t (1 : Fin 2) * 128 + 1 * j.val; omega

/-- An index of the array is in point `t`'s block iff each coordinate is in the block's range on its axis. -/
theorem mem_block (t : Fin cfg2.N) (i : S100000x128.Idx) :
    i ∈ ((cfg2.win 7).blk t).view.set
      ↔ ∀ a : Fin 2, win2_7.index t a * S2000x128.size a ≤ (i a).val ∧ (i a).val < win2_7.index t a * S2000x128.size a + S2000x128.size a := by
  show i ∈ ((View.whole (Pipeline.arrRef spec2 7)).slice (win2_7.rect t)).set ↔ _
  rw [View.set_slice_whole, Rect.mem_set_unit]
  exact Iff.rfl

/-- The row block that holds row `n`. -/
abbrev blockOfRow (n : Fin 100000) : Fin cfg2.N :=
  ⟨n.val / 2000, lt_of_lt_of_eq (by have := n.isLt; omega) (show cfg2.N = 50 from N_2).symm⟩

/-- Row `n` lies in row block `n / 2000`, which is written back like every block. -/
theorem covered (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  refine ⟨blockOfRow (i 0), flush2_7 _, ?_⟩
  rw [mem_block]
  obtain ⟨-, -, -, -, -, -, -, -, -, -, -, -, e70, e71⟩ := index_facts (blockOfRow (i 0))
  have e70' : win2_7.index (blockOfRow (i 0)) (0 : Fin 2) = (i 0).val / 2000 := e70
  intro a
  match a with
  | ⟨0, _⟩ =>
    show win2_7.index (blockOfRow (i 0)) (0 : Fin 2) * 2000 ≤ (i 0).val ∧ (i 0).val < win2_7.index (blockOfRow (i 0)) (0 : Fin 2) * 2000 + 2000
    omega
  | ⟨1, _⟩ =>
    show win2_7.index (blockOfRow (i 0)) (1 : Fin 2) * 128 ≤ (i 1).val ∧ (i 1).val < win2_7.index (blockOfRow (i 0)) (1 : Fin 2) * 128 + 128
    omega

end Array
end NodeOut

open NodeOut

variable (V : (c : Dev nD) → (b : Ref sig .tc) → Buf (Elt Ideal) ((c : Thread nD τ).loc b))

theorem xout_eq (c : Dev nD) :
    (dat (F := Ideal) V c).arrAt 7 cfg2.N
      = Cert.Spec.layerRow (F := Ideal) (V c (Pipeline.arrRef spec2 0)) (V c (Pipeline.arrRef spec2 1)) (V c (Pipeline.arrRef spec2 3))
          (V c (Pipeline.arrRef spec2 4)) (V c (Pipeline.arrRef spec2 5)) (V c (Pipeline.arrRef spec2 6)) :=
  (dat (F := Ideal) V c).arrAt_eq_of_cover 7 _ (fun t _ => flushed_eq V c t) covered

end Cert.KernelIdeal.L2

end
-- ==== Proof.KI.L2ValP.lean ====
/-
  Layer region 2, the pooled output at the extended reals. The accumulator is one resident block: the first grid point
  zeroes it, every point adds its tile's contribution — for each graph g, the sum of the new feature rows of the tile's
  nodes whose graph id is g, computed as a matrix product with the 0/1 matrix "row p's id is g" —, and it is written back
  once, after the last point. Summed over the fifty tiles this is the reference's per-graph pooling of the node-feature
  output, whose rows 2000 t … 2000 t + 1999 are what point t stored.
-/
import proofs.«419285_j30786325577782_1_alg».proof.Proof.KI.L2Dat
import proofs.«419285_j30786325577782_1_alg».proof.Proof.ScatterRows
import proofs.«419285_j30786325577782_1_alg».proof.Proof.PoolMath
import Idealize.ShloMosaic.Lib.Pipeline.Value
import Idealize.ShloMosaic.Lib.ValueIdx
import Idealize.ShloMosaic.Lib.Tactic
import Mathlib.Data.Fintype.BigOperators
import Idealize.ShloMosaic.PureOps.Ideal.Laws

set_option maxRecDepth 16384

noncomputable section

namespace Cert.KernelIdeal.L2

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-- The zero offsets of a rank-two block, however they are spelt. -/
theorem hz : (![0, 0] : Fin 2 → Nat) = fun _ => 0 := funext fun a => by fin_cases a <;> rfl

/-- A later point stores the new node features: the node update of its input blocks. -/
theorem out_B_7_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) :
    out_B_7 c i arg1 harg1 arg2 harg2 arg3 harg3 arg4 harg4 arg5 harg5 arg6 harg6 arg7 harg7 arg8 harg8 arg9 harg9 hc x0 x1 x2 x3 x4 x5 x6 xo8 = k2_pay3 x0 x1 x3 x4 x5 x6 := by
  unfold out_B_7
  rw [View.read_writes_eq_canon _ _ _ (cover_B_7 c i arg1 harg1 arg2 harg2 arg3 harg3 arg4 harg4 arg5 harg5 arg6 harg6 arg7 harg7 arg8 harg8 arg9 harg9 hc x0 x1 x2 x3 x4 x5 x6 xo8)]
  unfold kernelRun_B
  dsimp only
  rw [View.canon_unit_zero (S := S2000x128) hz]
  simp only [View.readAt_eq_ld, harg1.read_unread, harg2.read_unread, harg3.read_unread, harg4.read_unread, harg5.read_unread, harg6.read_unread, harg7.read_unread,
    View.ld_unit_zero (S := S2000x128) hz, View.ld_unit_zero (S := S2000x1) hz, View.ld_unit_zero (S := S128x128) hz, View.ld_unit_zero (S := S1x128) hz]

/-- So does the first point. -/
theorem out_A_7_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) :
    out_A_7 c i arg1 harg1 arg2 harg2 arg3 harg3 arg4 harg4 arg5 harg5 arg6 harg6 arg7 harg7 arg8 harg8 arg9 harg9 hc x0 x1 x2 x3 x4 x5 x6 = k2_pay3 x0 x1 x3 x4 x5 x6 := by
  unfold out_A_7
  rw [View.read_writes_eq_canon _ _ _ (cover_A_7 c i arg1 harg1 arg2 harg2 arg3 harg3 arg4 harg4 arg5 harg5 arg6 harg6 arg7 harg7 arg8 harg8 arg9 harg9 hc x0 x1 x2 x3 x4 x5 x6)]
  unfold kernelRun_A
  dsimp only
  rw [View.canon_unit_zero (S := S2000x128) hz]
  simp only [View.readAt_eq_ld, harg1.read_unread, harg2.read_unread, harg3.read_unread, harg4.read_unread, harg5.read_unread, harg6.read_unread, harg7.read_unread,
    View.ld_unit_zero (S := S2000x128) hz, View.ld_unit_zero (S := S2000x1) hz, View.ld_unit_zero (S := S128x128) hz, View.ld_unit_zero (S := S1x128) hz]

/-- A later point leaves in the pooled accumulator what it held plus this tile's contribution. -/
theorem out_B_8_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : ¬cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) (xo8 : Vec F S512x128 .f32) :
    out_B_8 c i arg1 harg1 arg2 harg2 arg3 harg3 arg4 harg4 arg5 harg5 arg6 harg6 arg7 harg7 arg8 harg8 arg9 harg9 hc x0 x1 x2 x3 x4 x5 x6 xo8
      = k2_pay1 (k2_pay3 x0 x1 x3 x4 x5 x6) (iota .tc S2000x512 32 [1] iota_S2000x512_d1_w32) (k2_pay4 (F := F) x2) xo8 := by
  unfold out_B_8
  rw [View.read_writes_eq_canon _ _ _ (cover_B_8 c i arg1 harg1 arg2 harg2 arg3 harg3 arg4 harg4 arg5 harg5 arg6 harg6 arg7 harg7 arg8 harg8 arg9 harg9 hc x0 x1 x2 x3 x4 x5 x6 xo8)]
  unfold kernelRun_B
  dsimp only
  sl_unfold_words
  rw [View.canon_unit_zero (S := S512x128) hz]
  simp only [View.readAt_eq_ld, harg1.read_unread, harg2.read_unread, harg3.read_unread, harg4.read_unread, harg5.read_unread, harg6.read_unread, harg7.read_unread, harg9.read_unread,
    View.ld_unit_zero (S := S2000x128) hz, View.ld_unit_zero (S := S2000x1) hz, View.ld_unit_zero (S := S128x128) hz, View.ld_unit_zero (S := S1x128) hz, View.ld_unit_zero (S := S512x128) hz]

/-- The first point zeroes the accumulator, reads the zero block back and leaves it plus this tile's contribution. -/
theorem out_A_8_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S512x128 .f32) (harg9 : arg9.IsWhole) (hc : cond i) (x0 : Vec F S2000x128 .f32) (x1 : Vec F S2000x128 .f32) (x2 : Vec F S2000x1 .i32) (x3 : Vec F S128x128 .f32) (x4 : Vec F S1x128 .f32) (x5 : Vec F S128x128 .f32) (x6 : Vec F S1x128 .f32) :
    out_A_8 c i arg1 harg1 arg2 harg2 arg3 harg3 arg4 harg4 arg5 harg5 arg6 harg6 arg7 harg7 arg8 harg8 arg9 harg9 hc x0 x1 x2 x3 x4 x5 x6
      = k2_pay1 (k2_pay3 x0 x1 x3 x4 x5 x6) (iota .tc S2000x512 32 [1] iota_S2000x512_d1_w32) (k2_pay4 (F := F) x2) (k2_pay2 (F := F)) := by
  unfold out_A_8
  rw [View.read_writes_eq_canon _ _ _ (cover_A_8 c i arg1 harg1 arg2 harg2 arg3 harg3 arg4 harg4 arg5 harg5 arg6 harg6 arg7 harg7 arg8 harg8 arg9 harg9 hc x0 x1 x2 x3 x4 x5 x6)]
  unfold kernelRun_A
  dsimp only
  sl_unfold_words
  rw [View.canon_cons_unit_zero (S := S512x128) hz, View.readCov_unit_zero (S := S512x128) _ hz]
  simp only [View.readAt_eq_ld, harg1.read_unread, harg2.read_unread, harg3.read_unread, harg4.read_unread, harg5.read_unread, harg6.read_unread, harg7.read_unread,
    View.ld_unit_zero (S := S2000x128) hz, View.ld_unit_zero (S := S2000x1) hz, View.ld_unit_zero (S := S128x128) hz, View.ld_unit_zero (S := S1x128) hz]

/-! ## The pooled contribution of one tile, at the extended reals

The accumulator's update is a matrix product contracting the two thousand rows of the tile: its left factor is the
0/1 matrix "row p's graph id is g", made by comparing the broadcast id column with the column counter and converting
the comparison bit to a number; its right factor the tile's new node features. -/

open Idealize.ShloMosaic.ValueIdx in
/-- The left factor's index on the contracted axis is the contraction position, -/
theorem lhs_contr (j : S512x128.Idx) (q : dot_S2000x512_S2000x128_S512x128_0_0_1_1_n_n.contr.Idx) :
    (dot_S2000x512_S2000x128_S512x128_0_0_1_1_n_n.lhsIdx j q 0).val = (q ⟨0, by decide⟩).val :=
  dot_S2000x512_S2000x128_S512x128_0_0_1_1_n_n.lhsIdx_val_of_single rfl j q
/-- on its free axis the output's graph coordinate. -/
theorem lhs_free (j : S512x128.Idx) (q : dot_S2000x512_S2000x128_S512x128_0_0_1_1_n_n.contr.Idx) :
    (dot_S2000x512_S2000x128_S512x128_0_0_1_1_n_n.lhsIdx j q 1).val = (j 0).val := by
  unfold DotDims.lhsIdx
  rw [dif_neg (show ¬(1 : Fin S2000x512.rank) ∈ dot_S2000x512_S2000x128_S512x128_0_0_1_1_n_n.lhsBatch by decide), dif_pos (show (1 : Fin S2000x512.rank) ∈ dot_S2000x512_S2000x128_S512x128_0_0_1_1_n_n.lhsNonContracting by decide)]
  rfl
/-- The right factor's index on the contracted axis is the contraction position, -/
theorem rhs_contr (j : S512x128.Idx) (q : dot_S2000x512_S2000x128_S512x128_0_0_1_1_n_n.contr.Idx) :
    (dot_S2000x512_S2000x128_S512x128_0_0_1_1_n_n.rhsIdx j q 0).val = (q ⟨0, by decide⟩).val :=
  dot_S2000x512_S2000x128_S512x128_0_0_1_1_n_n.rhsIdx_val_of_single rfl j q
/-- on its free axis the output's feature coordinate. -/
theorem rhs_free (j : S512x128.Idx) (q : dot_S2000x512_S2000x128_S512x128_0_0_1_1_n_n.contr.Idx) :
    (dot_S2000x512_S2000x128_S512x128_0_0_1_1_n_n.rhsIdx j q 1).val = (j 1).val := by
  unfold DotDims.rhsIdx
  rw [dif_neg (show ¬(1 : Fin S2000x128.rank) ∈ dot_S2000x512_S2000x128_S512x128_0_0_1_1_n_n.rhsBatch by decide), dif_pos (show (1 : Fin S2000x128.rank) ∈ dot_S2000x512_S2000x128_S512x128_0_0_1_1_n_n.rhsNonContracting by decide)]
  rfl

/-- The number a comparison bit becomes: widened to a word and read signed, it is 1 when the words are equal and 0
    when they are not. -/
theorem eqBit_toReal (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases hab : a = b
  · have hw : (IntOp.cmpi .eq a b).setWidth 32 = 1#32 := by subst hab; simp [IntOp.cmpi]
    rw [if_pos hab, hw, show (1#32 : BitVec 32).toInt = 1 by decide]
    simp
  · have hb : (a == b) = false := beq_eq_false_iff_ne.mpr hab
    have hw : (IntOp.cmpi .eq a b).setWidth 32 = 0#32 := by simp [IntOp.cmpi, hb]
    rw [if_neg hab, hw, show (0#32 : BitVec 32).toInt = 0 by decide]
    simp

/-- The accumulator's update at entry (g, h): what it held, plus the sum over the tile's rows p of the 0/1 factor
    "the id word at (p, g) equals the counter word at (p, g)" times the new features' entry (p, h). -/
theorem pay1_apply (v29 : FVec Ideal S2000x128 .f32) (v33 v34 : IVec S2000x512 32) (v41 : Vec Ideal S512x128 .f32)
    (g : Fin 512) (h : Fin 128) :
    k2_pay1 (F := Ideal) v29 v33 v34 v41 (ValueIdx.ix2 g h)
      = v41 (ValueIdx.ix2 g h)
        + ∑ p : Fin 2000, (if v34 (ValueIdx.ix2 p g) = v33 (ValueIdx.ix2 p g) then (1 : EReal) else 0) * v29 (ValueIdx.ix2 p h) := by
  unfold k2_pay1
  rw [ValueIdx.addf_apply, shapeCast_self]
  refine congrArg (v41 (ValueIdx.ix2 g h) + ·) ?_
  show FloatOps.matmul dot_S2000x512_S2000x128_S512x128_0_0_1_1_n_n none _ _ (constant S512x128 .f32 0x00000000#32) (ValueIdx.ix2 g h : S512x128.Idx) = _
  rw [Ideal.matmul_constant_zero_apply, ← Equiv.sum_comp (ValueIdx.contrEquiv1 dot_S2000x512_S2000x128_S512x128_0_0_1_1_n_n 2000 rfl rfl).symm]
  refine Finset.sum_congr rfl fun k _ => ?_
  have hk := ValueIdx.contrEquiv1_symm_val dot_S2000x512_S2000x128_S512x128_0_0_1_1_n_n 2000 rfl rfl k
  have el : dot_S2000x512_S2000x128_S512x128_0_0_1_1_n_n.lhsIdx (ValueIdx.ix2 g h : S512x128.Idx) ((ValueIdx.contrEquiv1 dot_S2000x512_S2000x128_S512x128_0_0_1_1_n_n 2000 rfl rfl).symm k)
      = (ValueIdx.ix2 k g : S2000x512.Idx) := funext fun a => Fin.ext (by
    match a with
    | ⟨0, _⟩ => exact (lhs_contr _ _).trans hk
    | ⟨1, _⟩ => exact lhs_free _ _)
  have er : dot_S2000x512_S2000x128_S512x128_0_0_1_1_n_n.rhsIdx (ValueIdx.ix2 g h : S512x128.Idx) ((ValueIdx.contrEquiv1 dot_S2000x512_S2000x128_S512x128_0_0_1_1_n_n 2000 rfl rfl).symm k)
      = (ValueIdx.ix2 k h : S2000x128.Idx) := funext fun a => Fin.ext (by
    match a with
    | ⟨0, _⟩ => exact (rhs_contr _ _).trans hk
    | ⟨1, _⟩ => exact rhs_free _ _)
  rw [el, er]
  show (FloatOps.sitofp (F := Ideal) .f32 ((IntOp.cmpi .eq (v34 (ValueIdx.ix2 k g)) (v33 (ValueIdx.ix2 k g))).setWidth 32) : EReal) * v29 (ValueIdx.ix2 k h) = _
  rw [eqBit_toReal]

/-! ## One tile's pooled contribution -/

/-- Entry (g, h) of a tile's pooled contribution: the sum of the entries h of those of the tile's rows whose graph id,
    read signed, is g. -/
def tileSum (ids : Vec Ideal S2000x1 .i32) (rows : FVec Ideal S2000x128 .f32) (g : Fin 512) (h : Fin 128) : EReal :=
  ∑ p : Fin 2000, if (ids (ValueIdx.ix2 p (0 : Fin 1))).toInt = (g.val : ℤ) then rows (ValueIdx.ix2 p h) else 0

/-- The id column broadcast along the graphs' axis reads, at (p, g), row p's id. -/
theorem idsWide_apply (ids : Vec Ideal S2000x1 .i32) (p : Fin 2000) (g : Fin 512) :
    k2_pay4 (F := Ideal) ids (ValueIdx.ix2 p g) = ids (ValueIdx.ix2 p (0 : Fin 1)) := by
  unfold k2_pay4
  rw [broadcastTo_apply _ broadcasts_S2000x1_S2000x512 (ValueIdx.ix2 p g : S2000x512.Idx) (ValueIdx.ix2 p (0 : Fin 1) : S2000x1.Idx)
    (fun a => by match a with | ⟨0, _⟩ => rfl | ⟨1, _⟩ => rfl), shapeCast_self]

/-- The column counter reads, at (p, g), the word of g. -/
theorem counter_apply (p : Fin 2000) (g : Fin 512) :
    iota .tc S2000x512 32 [1] iota_S2000x512_d1_w32 (ValueIdx.ix2 p g) = BitVec.ofNat 32 g.val := by
  rw [iota_single_apply]

/-- The accumulator's update with the id column and the counter in place: what it held plus the tile's contribution. -/
theorem update_apply (ids : Vec Ideal S2000x1 .i32) (rows : FVec Ideal S2000x128 .f32) (acc : Vec Ideal S512x128 .f32)
    (g : Fin 512) (h : Fin 128) :
    k2_pay1 (F := Ideal) rows (iota .tc S2000x512 32 [1] iota_S2000x512_d1_w32) (k2_pay4 (F := Ideal) ids) acc (ValueIdx.ix2 g h)
      = acc (ValueIdx.ix2 g h) + tileSum ids rows g h := by
  rw [pay1_apply]
  unfold tileSum
  refine congrArg (acc (ValueIdx.ix2 g h) + ·) (Finset.sum_congr rfl fun p _ => ?_)
  rw [idsWide_apply, counter_apply]
  by_cases hp : ids (ValueIdx.ix2 p (0 : Fin 1)) = BitVec.ofNat 32 g.val
  · rw [if_pos hp, if_pos ((Cert.Spec.word_eq_iff _ g).mp hp), one_mul]
  · rw [if_neg hp, if_neg (fun hq => hp ((Cert.Spec.word_eq_iff _ g).mpr hq)), zero_mul]

/-- The zero block the first point stores is zero at every entry. -/
theorem zeroBlock_apply (j : S512x128.Idx) : k2_pay2 (F := Ideal) j = 0 := by
  unfold k2_pay2
  show Ideal.ofBits .f32 0x00000000#32 = 0
  exact Ideal.ofBits_zero_f32

variable (V : (c : Dev nD) → (b : Ref sig .tc) → Buf (Elt Ideal) ((c : Thread nD τ).loc b))

/-! ## The three windows the pooling reads or writes, as arrays

The graph-id column's block at point `t` is rows `2000 t … 2000 t + 1999` of the column; the node-feature output's
block at point `t` is the same rows of that output, each point writing its own; the pooled output is one block, the whole
array, at every point. -/

/-- The three windows' block indices, decided over the fifty points. -/
theorem idx_facts : ∀ t : Fin cfg2.N,
    win2_2.index t (0 : Fin 2) = t.val ∧ win2_2.index t (1 : Fin 2) = 0
    ∧ win2_7.index t (0 : Fin 2) = t.val ∧ win2_7.index t (1 : Fin 2) = 0
    ∧ win2_8.index t (0 : Fin 2) = 0 ∧ win2_8.index t (1 : Fin 2) = 0 :=
  (by decide +kernel : ∀ t : Fin grid2.N, _)

/-- Row `p` of the id column's block at point `t` is row `2000 t + p` of the column. -/
theorem ids_block (c : Dev nD) (t : Fin cfg2.N) (p : Fin 2000) :
    (iblk V c 2 t : Vec Ideal S2000x1 .i32) (ValueIdx.ix2 p (0 : Fin 1))
      = (V c (Pipeline.arrRef spec2 2) : IVec S100000x1 32)
          (ValueIdx.ix2 (⟨2000 * t.val + p.val, by have := lt_of_lt_of_eq t.isLt (show cfg2.N = 50 from N_2); have := p.isLt; omega⟩ : Fin 100000) (0 : Fin 1)) := by
  obtain ⟨e0, e1, -, -, -, -⟩ := idx_facts t
  unfold iblk
  rw [View.read_apply]
  show (V c (Pipeline.arrRef spec2 2) : IVec S100000x1 32) (((cfg2.win 2).blk t).view.emb (ValueIdx.ix2 p (0 : Fin 1))) = _
  refine congrArg (V c (Pipeline.arrRef spec2 2) : IVec S100000x1 32) ?_
  funext a
  apply Fin.ext
  match a with
  | ⟨0, _⟩ => show win2_2.index t (0 : Fin 2) * 2000 + 1 * p.val = 2000 * t.val + p.val; rw [e0]; omega
  | ⟨1, _⟩ => show win2_2.index t (1 : Fin 2) * 1 + 1 * 0 = 0; rw [e1]

/-- An index of the node-feature output lies in point `t`'s block exactly when each coordinate is in the block's range. -/
theorem mem_rows (t : Fin cfg2.N) (i : S100000x128.Idx) :
    i ∈ ((cfg2.win 7).blk t).view.set
      ↔ ∀ a : Fin 2, win2_7.index t a * S2000x128.size a ≤ (i a).val ∧ (i a).val < win2_7.index t a * S2000x128.size a + S2000x128.size a := by
  show i ∈ ((View.whole (Pipeline.arrRef spec2 7)).slice (win2_7.rect t)).set ↔ _
  rw [View.set_slice_whole, Rect.mem_set_unit]
  exact Iff.rfl

/-- Two different points write different rows. -/
theorem rows_disjoint (t t' : Fin cfg2.N) (hne : t ≠ t') :
    Disjoint ((cfg2.win 7).blk t).view.set ((cfg2.win 7).blk t').view.set := by
  rw [Finset.disjoint_left]
  intro i hi hi'
  rw [mem_rows] at hi hi'
  obtain ⟨-, -, e, -, -, -⟩ := idx_facts t
  obtain ⟨-, -, e', -, -, -⟩ := idx_facts t'
  have a : win2_7.index t (0 : Fin 2) * 2000 ≤ (i 0).val ∧ (i 0).val < win2_7.index t (0 : Fin 2) * 2000 + 2000 := hi 0
  have b : win2_7.index t' (0 : Fin 2) * 2000 ≤ (i 0).val ∧ (i 0).val < win2_7.index t' (0 : Fin 2) * 2000 + 2000 := hi' 0
  exact hne (Fin.ext (by omega))

/-- Row `2000 t + p` of the node-feature output, after the run, is row `p` of what point `t` stored. -/
theorem rows_read (c : Dev nD) (t : Fin cfg2.N) (p : Fin 2000) (h : Fin 128) :
    ((dat (F := Ideal) V c).arrAt 7 cfg2.N : FVec Ideal S100000x128 .f32)
        (ValueIdx.ix2 (⟨2000 * t.val + p.val, by have := lt_of_lt_of_eq t.isLt (show cfg2.N = 50 from N_2); have := p.isLt; omega⟩ : Fin 100000) h)
      = (outsAt V c t.val t.isLt).1 (ValueIdx.ix2 p h) := by
  obtain ⟨-, -, e0, e1, -, -⟩ := idx_facts t
  have hb := congrFun ((dat (F := Ideal) V c).read_blk_arrAt_eq_flushed 7 (fun t t' _ _ hne => rows_disjoint t t' hne) cfg2.N t t.isLt (flush2_7 t))
    (ValueIdx.ix2 p h)
  rw [View.read_apply] at hb
  have hemb : ((cfg2.win 7).blk t).view.emb (ValueIdx.ix2 p h)
      = (ValueIdx.ix2 (⟨2000 * t.val + p.val, by have := lt_of_lt_of_eq t.isLt (show cfg2.N = 50 from N_2); have := p.isLt; omega⟩ : Fin 100000) h : S100000x128.Idx) := by
    funext a
    apply Fin.ext
    match a with
    | ⟨0, _⟩ => show win2_7.index t (0 : Fin 2) * 2000 + 1 * p.val = 2000 * t.val + p.val; rw [e0]; omega
    | ⟨1, _⟩ => show win2_7.index t (1 : Fin 2) * 128 + 1 * h.val = h.val; rw [e1]; omega
  rw [hemb] at hb
  have hf : (dat (F := Ideal) V c).flushed 7 t (ValueIdx.ix2 p h) = (outsAt V c t.val t.isLt).1 (ValueIdx.ix2 p h) := by
    show (cfg2.win 7).cut (grid2.coords t) ((dat (F := Ideal) V c).after 7 t) (ValueIdx.ix2 p h) = _
    rw [after7]
    exact congrArg (outsAt V c t.val t.isLt).1 (funext fun a => Fin.ext rfl)
  exact (show _ = (dat (F := Ideal) V c).flushed 7 t (ValueIdx.ix2 p h) from hb).trans hf

/-- The last of the fifty points. -/
abbrev lastPt : Fin cfg2.N := ⟨49, lt_of_lt_of_eq (by decide : 49 < 50) (show 50 = cfg2.N from N_2.symm)⟩

/-- The pooled output is written back once, after the last point, and its one block is the whole array: the array ends
    holding what the last point left in the accumulator. -/
theorem pooled_last (c : Dev nD) :
    (dat (F := Ideal) V c).arrAt 8 cfg2.N = (outsAt V c lastPt.val lastPt.isLt).2 := by
  obtain ⟨-, -, -, -, e0, e1⟩ := idx_facts lastPt
  refine (dat (F := Ideal) V c).arrAt_eq_of_cover 8 _ (fun t hf => ?_) (fun i => ?_)
  · have h49 : t.val = 49 := by
      have := (flush2_8 t).mp hf
      have := lt_of_lt_of_eq t.isLt (show cfg2.N = 50 from N_2)
      omega
    obtain rfl : t = lastPt := Fin.ext h49
    show (cfg2.win 8).cut (grid2.coords lastPt) ((dat (F := Ideal) V c).after 8 lastPt) = _
    rw [after8]
    funext y
    rw [View.read_apply]
    show (outsAt V c lastPt.val lastPt.isLt).2 ((cfg2.win 8).xinj (grid2.coords lastPt) y)
      = (outsAt V c lastPt.val lastPt.isLt).2 (((cfg2.win 8).blk lastPt).view.emb y)
    refine congrArg (outsAt V c lastPt.val lastPt.isLt).2 (funext fun a => Fin.ext ?_)
    match a with
    | ⟨0, _⟩ => show (y 0).val = win2_8.index lastPt (0 : Fin 2) * 512 + 1 * (y 0).val; rw [e0]; omega
    | ⟨1, _⟩ => show (y 1).val = win2_8.index lastPt (1 : Fin 2) * 128 + 1 * (y 1).val; rw [e1]; omega
  · refine ⟨lastPt, (flush2_8 lastPt).mpr rfl, ?_⟩
    show i ∈ ((View.whole (Pipeline.arrRef spec2 8)).slice (win2_8.rect lastPt)).set
    rw [View.set_slice_whole, Rect.mem_set_unit]
    intro a
    have h0 : (i 0 : Nat) < 512 := (i 0).isLt
    have h1 : (i 1 : Nat) < 128 := (i 1).isLt
    match a with
    | ⟨0, _⟩ =>
      show win2_8.index lastPt (0 : Fin 2) * win2_8.size (0 : Fin 2) ≤ (i 0 : Nat)
        ∧ (i 0 : Nat) < win2_8.index lastPt (0 : Fin 2) * win2_8.size (0 : Fin 2) + win2_8.xsize (grid2.coords lastPt) (0 : Fin 2)
      rw [e0, show win2_8.xsize (grid2.coords lastPt) (0 : Fin 2) = 512 from by decide +kernel]
      omega
    | ⟨1, _⟩ =>
      show win2_8.index lastPt (1 : Fin 2) * win2_8.size (1 : Fin 2) ≤ (i 1 : Nat)
        ∧ (i 1 : Nat) < win2_8.index lastPt (1 : Fin 2) * win2_8.size (1 : Fin 2) + win2_8.xsize (grid2.coords lastPt) (1 : Fin 2)
      rw [e1, show win2_8.xsize (grid2.coords lastPt) (1 : Fin 2) = 128 from by decide +kernel]
      omega

/-! ## The accumulator over the grid, and the whole sum -/

/-- What a point leaves in the accumulator: what the point before left (nothing, at the first point) plus its own tile's
    contribution. -/
theorem acc_step (c : Dev nD) (t : Fin cfg2.N) (g : Fin 512) (h : Fin 128) :
    (outsAt V c t.val t.isLt).2 (ValueIdx.ix2 g h)
      = (if h0 : t.val = 0 then 0 else (outsAt V c (t.val - 1) (Nat.lt_of_le_of_lt (Nat.sub_le _ _) t.isLt)).2 (ValueIdx.ix2 g h))
        + tileSum (iblk V c 2 t) (outsAt V c t.val t.isLt).1 g h := by
  by_cases h0 : t.val = 0
  · rw [dif_pos h0, outsAt_A V c t h0]
    dsimp only
    rw [out_A_8_eq, out_A_7_eq, update_apply, zeroBlock_apply]
  · rw [dif_neg h0, outsAt_B V c t h0]
    dsimp only
    rw [out_B_8_eq, out_B_7_eq, update_apply]

/-- Point `s`'s contribution as a function of every natural number: zero past the grid. -/
def tileAt (c : Dev nD) (s : ℕ) (g : Fin 512) (h : Fin 128) : EReal :=
  if hs : s < cfg2.N then tileSum (iblk V c 2 ⟨s, hs⟩) (outsAt V c s hs).1 g h else 0

/-- After point `n` the accumulator holds the sum of the contributions of the points up to `n`. -/
theorem acc_eq (c : Dev nD) (g : Fin 512) (h : Fin 128) :
    ∀ (n : ℕ) (hn : n < cfg2.N), (outsAt V c n hn).2 (ValueIdx.ix2 g h) = ∑ s ∈ Finset.range (n + 1), tileAt V c s g h
  | 0, hn => by
    have hstep := acc_step V c ⟨0, hn⟩ g h
    rw [dif_pos rfl, zero_add] at hstep
    rw [Finset.sum_range_one]
    unfold tileAt
    rw [dif_pos hn]
    exact hstep
  | n + 1, hn => by
    have hstep := acc_step V c ⟨n + 1, hn⟩ g h
    rw [dif_neg (Nat.succ_ne_zero n)] at hstep
    rw [Finset.sum_range_succ, ← acc_eq c g h n (Nat.lt_of_succ_lt hn)]
    unfold tileAt
    rw [dif_pos hn]
    exact hstep

theorem pooled_eq (c : Dev nD) :
    (dat (F := Ideal) V c).arrAt 8 cfg2.N
      = Cert.Spec.poolCol (F := Ideal) ((dat (F := Ideal) V c).arrAt 7 cfg2.N) (V c (Pipeline.arrRef spec2 2)) := by
  rw [pooled_last]
  funext j
  obtain ⟨g, h, rfl⟩ : ∃ (g : Fin 512) (h : Fin 128), j = ValueIdx.ix2 g h := ⟨j 0, j 1, ValueIdx.eq_ix2 j⟩
  rw [Cert.Spec.poolCol_apply, Cert.Spec.sum_tiles, acc_eq]
  show ∑ s ∈ Finset.range 50, tileAt V c s g h = _
  rw [← Fin.sum_univ_eq_sum_range (fun s => tileAt V c s g h) 50]
  refine Finset.sum_congr rfl fun s _ => ?_
  have hs : s.val < cfg2.N := lt_of_lt_of_eq s.isLt (show 50 = cfg2.N from N_2.symm)
  unfold tileAt
  rw [dif_pos hs]
  unfold tileSum
  refine Finset.sum_congr rfl fun p _ => ?_
  rw [ids_block V c ⟨s.val, hs⟩ p, rows_read V c ⟨s.val, hs⟩ p h]

end Cert.KernelIdeal.L2

end
-- ==== Proof.KI.C3Val.lean ====
/-
  The classifier region's output as one whole-array function at the extended reals: its single grid point loads every
  operand whole, so the stored logits column is the three-layer classifier of the joined pooled features.
-/
import proofs.«419285_j30786325577782_1_alg».proof.Proof.KI.C3
import proofs.«419285_j30786325577782_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.C3

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (V : (c : Dev nD) → (b : Ref sig .tc) → Buf (Elt Ideal) ((c : Thread nD τ).loc b))

/-! ## What the body stores, at every float instance -/

section piece
variable {F : FTy → Type} [FloatOps F]

/-- The zero offsets every access of this body goes through, as the constant function. -/
theorem zero_offsets : (![0, 0] : Fin 2 → Nat) = fun _ => 0 := funext fun a => by fin_cases a <;> rfl

/-- The body's one store covers the output block and writes the classifier payload of the seven loaded blocks, each load
    reading its whole buffer. -/
theorem out7_eq (c : Dev nD) (i : grid3.Coords) (arg1 : Memref sig .tc .vmem S512x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S512x1 .f32) (harg8 : arg8.IsWhole) (x0 : Vec F S512x384 .f32) (x1 : Vec F S384x128 .f32) (x2 : Vec F S1x128 .f32) (x3 : Vec F S128x128 .f32) (x4 : Vec F S1x128 .f32) (x5 : Vec F S128x1 .f32) (x6 : Vec F S1x1 .f32) :
    out7 c i arg1 harg1 arg2 harg2 arg3 harg3 arg4 harg4 arg5 harg5 arg6 harg6 arg7 harg7 arg8 harg8 x0 x1 x2 x3 x4 x5 x6 = k3_pay1 x0 x1 x2 x3 x4 x5 x6 := by
  unfold out7
  rw [View.read_writes_eq_canon _ _ _ (cover7 c i arg1 harg1 arg2 harg2 arg3 harg3 arg4 harg4 arg5 harg5 arg6 harg6 arg7 harg7 arg8 harg8 x0 x1 x2 x3 x4 x5 x6)]
  unfold kernelRun
  dsimp only
  try sl_unfold_words
  rw [View.canon_unit_zero zero_offsets]
  simp only [View.readAt_eq_ld, harg1.read_unread, harg2.read_unread, harg3.read_unread, harg4.read_unread, harg5.read_unread,
    harg6.read_unread, harg7.read_unread, View.ld_unit_zero (S := S512x384) zero_offsets, View.ld_unit_zero (S := S384x128) zero_offsets,
    View.ld_unit_zero (S := S1x128) zero_offsets, View.ld_unit_zero (S := S128x128) zero_offsets, View.ld_unit_zero (S := S128x1) zero_offsets,
    View.ld_unit_zero (S := S1x1) zero_offsets]
end piece

/-! ## The payload at the extended reals is the reference's classifier -/

section ideal

/-- A matrix product accumulated onto zero is the host's product of the same operands, whatever float formats the operands
    are typed at: both are the sum, over the contraction index, of the operands' products. -/
theorem matmul_zero_eq_dotGeneral {sl sr so : Shape} {φ₁ φ₂ φ₁' φ₂' : FTy} (d : DotDims sl sr so) (p p' : Option ContractPrecision)
    (l : FVec Ideal sl φ₁) (r : FVec Ideal sr φ₂) (l' : FVec Ideal sl φ₁') (r' : FVec Ideal sr φ₂') (hl : (l : sl.Idx → EReal) = l') (hr : (r : sr.Idx → EReal) = r') :
    matmul d p l r (constant so .f32 0x00000000#32) = Host.dotGeneral d p' l' r' := by
  funext j
  show FloatOps.matmul d p l r (constant so .f32 0x00000000#32) j = FloatOps.dotGeneral d p' .single l' r' j
  rw [Ideal.matmul_constant_zero_apply, Ideal.dotGeneral_apply, hl, hr]

/-- A vector broadcast along its trailing axes is the broadcast in the dimensions that place operand axis `a` at the
    result's axis `a` + (the ranks' difference): both read the operand at the same index, `0` on its unit axes. -/
theorem broadcastTo_eq_broadcastInDim {α : Type} {s t : Shape} (x : s.Idx → α) (h : s.Broadcasts t) (dims : Fin s.rank → Fin t.rank)
    (h' : s.BroadcastsInDim t dims) (hd : ∀ a : Fin s.rank, (dims a).val = a.val + (t.rank - s.rank)) :
    broadcastTo t x h = broadcastInDim t dims h' x := by
  funext j
  unfold broadcastTo broadcastInDim
  refine congrArg x (funext fun a => Fin.ext ?_)
  by_cases h1 : s.size a = 1
  · rw [dif_pos h1, dif_pos h1]
  · rw [dif_neg h1, dif_neg h1]
    have hlt : a.val + (t.rank - s.rank) < t.rank := by have := h.1; have := a.isLt; omega
    have e : (⟨a.val + (t.rank - s.rank), hlt⟩ : Fin t.rank) = dims a := Fin.ext (hd a).symm
    exact congrArg (fun q => (j q).val) e

/-- The rectifier: the maximum with the zero splat, whether the splat is of a scalar or of a rank-0 constant. -/
theorem relu_eq {s s0 : Shape} (x x' : FVec Ideal s .f32) (dims : Fin s0.rank → Fin s.rank) (h : s0.BroadcastsInDim s dims) (hx : x = x') :
    maximumf x (broadcast s (Scalar.ofBits (F := Ideal) .f32 0x00000000#32))
      = maximumf x' (broadcastInDim s dims h (constant (F := Ideal) s0 .f32 0x00000000#32)) := by
  subst hx; rfl

/-- One dense layer: the product (its operands' change of format is the identity here) onto a zero accumulator plus the
    broadcast bias row is the host's product plus the bias broadcast in dimensions. -/
theorem dense_eq {sl sr so sb : Shape} (d : DotDims sl sr so) (p p' : Option ContractPrecision)
    (l l' : FVec Ideal sl .f32) (w : FVec Ideal sr .f32) (b : FVec Ideal sb .f32)
    (h1 : FTy.bf16.bits < FTy.f32.bits) (h2 : FTy.bf16.bits < FTy.f32.bits) (hsc : sb.ShapeCasts sb)
    (hb : sb.Broadcasts so) (dims : Fin sb.rank → Fin so.rank) (hb' : sb.BroadcastsInDim so dims)
    (hd : ∀ a : Fin sb.rank, (dims a).val = a.val + (so.rank - sb.rank)) (hl : l = l') :
    addf (matmul d p (truncf .bf16 l h1) (truncf .bf16 w h2) (constant so .f32 0x00000000#32)) (broadcastTo so (shapeCast sb b hsc) hb)
      = addf (Host.dotGeneral d p' l' w) (broadcastInDim so dims hb' b) := by
  rw [matmul_zero_eq_dotGeneral d p p' (truncf .bf16 l h1) (truncf .bf16 w h2) l' w hl rfl, shapeCast_self,
    broadcastTo_eq_broadcastInDim b hb dims hb' hd]

/-- The classifier payload is the reference's classifier of the same seven operands: three dense layers, a rectifier
    after the first two. -/
theorem pay_eq_clsRow (x0 : FVec Ideal S512x384 .f32) (x1 : FVec Ideal S384x128 .f32) (x2 : FVec Ideal S1x128 .f32) (x3 : FVec Ideal S128x128 .f32)
    (x4 : FVec Ideal S1x128 .f32) (x5 : FVec Ideal S128x1 .f32) (x6 : FVec Ideal S1x1 .f32) :
    k3_pay1 (F := Ideal) x0 x1 x2 x3 x4 x5 x6 = Cert.Spec.clsRow (F := Ideal) x0 x1 x2 x3 x4 x5 x6 := by
  unfold k3_pay1 Cert.Spec.clsRow
  dsimp only
  exact dense_eq _ none none _ _ x5 x6 _ _ _ _ _ _ (by decide)
    (relu_eq _ _ _ _ (dense_eq _ none none _ _ x3 x4 _ _ _ _ _ _ (by decide)
      (relu_eq _ _ _ _ (dense_eq _ none none _ _ x1 x2 _ _ _ _ _ _ (by decide) (shapeCast_self x0 _)))))

end ideal

/-! ## From the one block to the array

Each window's block at the one grid point is its whole array: block index (0, 0), block shape the array's. -/

theorem block_offsets0 : (fun a => win3_0.index t3_0 a * (Pipeline.arrRef spec3 0).ty.shape.size a) = fun _ => 0 :=
  funext fun a => by fin_cases a <;> decide
theorem iblk_whole0 (c : Dev nD) (t : Fin cfg3.N) : iblk V c 0 t = V c (Pipeline.arrRef spec3 0) := by
  obtain rfl := fin_N3 t
  unfold iblk
  exact Memref.read_access_unit_zero (Elt Ideal) (Pipeline.arrRef spec3 0) block_offsets0
    (fun a => by rw [congrFun block_offsets0 a]; simp) (V c (Pipeline.arrRef spec3 0))

theorem block_offsets1 : (fun a => win3_1.index t3_0 a * (Pipeline.arrRef spec3 1).ty.shape.size a) = fun _ => 0 :=
  funext fun a => by fin_cases a <;> decide
theorem iblk_whole1 (c : Dev nD) (t : Fin cfg3.N) : iblk V c 1 t = V c (Pipeline.arrRef spec3 1) := by
  obtain rfl := fin_N3 t
  unfold iblk
  exact Memref.read_access_unit_zero (Elt Ideal) (Pipeline.arrRef spec3 1) block_offsets1
    (fun a => by rw [congrFun block_offsets1 a]; simp) (V c (Pipeline.arrRef spec3 1))

theorem block_offsets2 : (fun a => win3_2.index t3_0 a * (Pipeline.arrRef spec3 2).ty.shape.size a) = fun _ => 0 :=
  funext fun a => by fin_cases a <;> decide
theorem iblk_whole2 (c : Dev nD) (t : Fin cfg3.N) : iblk V c 2 t = V c (Pipeline.arrRef spec3 2) := by
  obtain rfl := fin_N3 t
  unfold iblk
  exact Memref.read_access_unit_zero (Elt Ideal) (Pipeline.arrRef spec3 2) block_offsets2
    (fun a => by rw [congrFun block_offsets2 a]; simp) (V c (Pipeline.arrRef spec3 2))

theorem block_offsets3 : (fun a => win3_3.index t3_0 a * (Pipeline.arrRef spec3 3).ty.shape.size a) = fun _ => 0 :=
  funext fun a => by fin_cases a <;> decide
theorem iblk_whole3 (c : Dev nD) (t : Fin cfg3.N) : iblk V c 3 t = V c (Pipeline.arrRef spec3 3) := by
  obtain rfl := fin_N3 t
  unfold iblk
  exact Memref.read_access_unit_zero (Elt Ideal) (Pipeline.arrRef spec3 3) block_offsets3
    (fun a => by rw [congrFun block_offsets3 a]; simp) (V c (Pipeline.arrRef spec3 3))

theorem block_offsets4 : (fun a => win3_4.index t3_0 a * (Pipeline.arrRef spec3 4).ty.shape.size a) = fun _ => 0 :=
  funext fun a => by fin_cases a <;> decide
theorem iblk_whole4 (c : Dev nD) (t : Fin cfg3.N) : iblk V c 4 t = V c (Pipeline.arrRef spec3 4) := by
  obtain rfl := fin_N3 t
  unfold iblk
  exact Memref.read_access_unit_zero (Elt Ideal) (Pipeline.arrRef spec3 4) block_offsets4
    (fun a => by rw [congrFun block_offsets4 a]; simp) (V c (Pipeline.arrRef spec3 4))

theorem block_offsets5 : (fun a => win3_5.index t3_0 a * (Pipeline.arrRef spec3 5).ty.shape.size a) = fun _ => 0 :=
  funext fun a => by fin_cases a <;> decide
theorem iblk_whole5 (c : Dev nD) (t : Fin cfg3.N) : iblk V c 5 t = V c (Pipeline.arrRef spec3 5) := by
  obtain rfl := fin_N3 t
  unfold iblk
  exact Memref.read_access_unit_zero (Elt Ideal) (Pipeline.arrRef spec3 5) block_offsets5
    (fun a => by rw [congrFun block_offsets5 a]; simp) (V c (Pipeline.arrRef spec3 5))

theorem block_offsets6 : (fun a => win3_6.index t3_0 a * (Pipeline.arrRef spec3 6).ty.shape.size a) = fun _ => 0 :=
  funext fun a => by fin_cases a <;> decide
theorem iblk_whole6 (c : Dev nD) (t : Fin cfg3.N) : iblk V c 6 t = V c (Pipeline.arrRef spec3 6) := by
  obtain rfl := fin_N3 t
  unfold iblk
  exact Memref.read_access_unit_zero (Elt Ideal) (Pipeline.arrRef spec3 6) block_offsets6
    (fun a => by rw [congrFun block_offsets6 a]; simp) (V c (Pipeline.arrRef spec3 6))

theorem block_offsets7 : (fun a => win3_7.index t3_0 a * (Pipeline.arrRef spec3 7).ty.shape.size a) = fun _ => 0 :=
  funext fun a => by fin_cases a <;> decide

/-- The classifier of the seven arrays as the region finds them. -/
abbrev clsV (c : Dev nD) : FVec Ideal S512x1 .f32 :=
  Cert.Spec.clsRow (F := Ideal) (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5)) (V c (Pipeline.arrRef spec3 6))

/-- What the one point writes back is the classifier of the whole arrays, read through the output's whole-array block. -/
theorem flushed_eq (c : Dev nD) (t : Fin cfg3.N) :
    (dat (F := Ideal) V c).flushed 7 t = ((cfg3.win 7).blk t).view.read (Elt Ideal) (clsV V c) := by
  show (cfg3.win 7).cut (grid3.coords t) ((dat (F := Ideal) V c).after 7 t) = _
  rw [after7, out7_eq (F := Ideal) c (grid3.coords t) (ms0 t) (hs0 t) (ms1 t) (hs1 t) (ms2 t) (hs2 t) (ms3 t) (hs3 t) (ms4 t) (hs4 t) (ms5 t) (hs5 t) (ms6 t) (hs6 t) (ms7 t) (hs7 t) (iblk V c 0 t) (iblk V c 1 t) (iblk V c 2 t) (iblk V c 3 t) (iblk V c 4 t) (iblk V c 5 t) (iblk V c 6 t),
    iblk_whole0, iblk_whole1, iblk_whole2, iblk_whole3, iblk_whole4, iblk_whole5, iblk_whole6, pay_eq_clsRow]
  obtain rfl := fin_N3 t
  exact (Memref.read_access_unit_zero (Elt Ideal) (Pipeline.arrRef spec3 7) block_offsets7
    (fun a => by rw [congrFun block_offsets7 a]; simp) (clsV V c)).symm

/-- The one point's block covers the output array, so the array ends holding the classifier of the input arrays. -/
theorem out_eq (c : Dev nD) :
    (dat (F := Ideal) V c).arrAt 7 cfg3.N
      = Cert.Spec.clsRow (F := Ideal) (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) (V c (Pipeline.arrRef spec3 6)) :=
  (dat (F := Ideal) V c).arrAt_eq_of_cover 7 (clsV V c) (fun t _ => flushed_eq V c t) fun i =>
    ⟨t3_0, flush3_7 t3_0, by
      show i ∈ ((View.whole (Pipeline.arrRef spec3 7)).slice (win3_7.rect t3_0)).set
      rw [View.set_slice_whole]
      exact View.mem_set_unit_zero block_offsets7 _ i⟩

end Cert.KernelIdeal.C3

end
-- ==== Proof.KI.HostVal.lean ====
/-
  The kernel program's result as the composition of stages of its arguments. At each region's entry the host stretch
  before it has written the region's operands: the neighbour sum of the current node features (the same gather and
  scatter-add the reference uses), the layer's weight matrices and bias rows cut out of the stacked parameters, and the
  graph-id column. A reshape that only adds a unit axis is the broadcast the reference writes in its place. With the
  regions' outputs read as whole-array functions, the node features after layer k and the pooled blocks are the
  reference's stages, and the classifier's output is the whole composition.
-/
import proofs.«419285_j30786325577782_1_alg».proof.Proof.KI.Run
import proofs.«419285_j30786325577782_1_alg».proof.Proof.KI.L0ValX
import proofs.«419285_j30786325577782_1_alg».proof.Proof.KI.L0ValP
import proofs.«419285_j30786325577782_1_alg».proof.Proof.KI.L1ValX
import proofs.«419285_j30786325577782_1_alg».proof.Proof.KI.L1ValP
import proofs.«419285_j30786325577782_1_alg».proof.Proof.KI.L2ValX
import proofs.«419285_j30786325577782_1_alg».proof.Proof.KI.L2ValP
import proofs.«419285_j30786325577782_1_alg».proof.Proof.KI.C3Val
import proofs.«419285_j30786325577782_1_alg».proof.Proof.Spec
import Idealize.ShloMosaic.PureOps.Ideal
import Idealize.ShloMosaic.Lib.Pipeline.Value
import Idealize.ShloMosaic.Lib.ValueIdx
import Idealize.ShloMosaic.Lib.StableHlo.Run

set_option maxRecDepth 16384

noncomputable section

namespace Cert.Spec

open Cert.ReferenceIdeal Cert.ReferenceIdeal.Gen Idealize.ShloMosaic Idealize.ShloMosaic.TcCoe Idealize.SL.Sem

variable {F : FTy → Type} [FloatOps F]

/-- A vector reshaped to a one-row matrix is the vector broadcast along a new leading unit axis. -/
theorem rowOf_eq (b : FVec F S128 .f32) (h : S128.ShapeCasts S1x128) : shapeCast S1x128 b h = rowOf b := by
  funext j
  obtain ⟨p, q, rfl⟩ : ∃ (p : Fin 1) (q : Fin 128), j = ValueIdx.ix2 p q := ⟨j 0, j 1, ValueIdx.eq_ix2 j⟩
  unfold rowOf
  rw [shapeCast_apply b h _ (ValueIdx.ix1 q) (by
      rw [Shape.rowMajor_val_one, Shape.rowMajor_val_two]
      show q.val = p.val * 128 + q.val
      have := p.isLt; omega),
    broadcastInDim_apply _ _ b _ (ValueIdx.ix1 q) (by
      intro a
      match a with
      | ⟨0, _⟩ => show q.val = if (128 : ℕ) = 1 then 0 else q.val; rw [if_neg (by decide)])]

/-- A vector of ids reshaped to a one-column matrix is the vector broadcast along a new trailing unit axis. -/
theorem colOf_eq (b : IVec S100000 32) (h : S100000.ShapeCasts S100000x1) : shapeCast S100000x1 b h = colOf b := by
  funext j
  obtain ⟨p, q, rfl⟩ : ∃ (p : Fin 100000) (q : Fin 1), j = ValueIdx.ix2 p q := ⟨j 0, j 1, ValueIdx.eq_ix2 j⟩
  unfold colOf
  rw [shapeCast_apply b h _ (ValueIdx.ix1 p) (by
      rw [Shape.rowMajor_val_one, Shape.rowMajor_val_two]
      show p.val = p.val * 1 + q.val
      have := q.isLt; omega),
    broadcastInDim_apply _ _ b _ (ValueIdx.ix1 p) (by
      intro a
      match a with
      | ⟨0, _⟩ => show p.val = if (100000 : ℕ) = 1 then 0 else p.val; rw [if_neg (by decide)])]

/-- A one-entry vector reshaped to a one-by-one matrix is its broadcast along a new leading unit axis. -/
theorem oneOf_eq (b : FVec F S1 .f32) (h : S1.ShapeCasts S1x1) : shapeCast S1x1 b h = broadcastInDim S1x1 ![1] bcast_S1_S1x1_1 b := by
  funext j
  obtain ⟨p, q, rfl⟩ : ∃ (p : Fin 1) (q : Fin 1), j = ValueIdx.ix2 p q := ⟨j 0, j 1, ValueIdx.eq_ix2 j⟩
  rw [shapeCast_apply b h _ (ValueIdx.ix1 (0 : Fin 1)) (by
      rw [Shape.rowMajor_val_one, Shape.rowMajor_val_two]
      show (0 : ℕ) = p.val * 1 + q.val
      have := p.isLt; have := q.isLt; omega),
    broadcastInDim_apply _ _ b _ (ValueIdx.ix1 (0 : Fin 1)) (by
      intro a
      match a with
      | ⟨0, _⟩ => show (0 : ℕ) = if (1 : ℕ) = 1 then 0 else q.val; rw [if_pos rfl])]

/-- The neighbour sum from the two id vectors. -/
def aggIds (X : FVec F S100000x128 .f32) (s d : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 X
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))
theorem agg_eq (X : FVec F S100000x128 .f32) (ei : IVec S2x1600000 32) : agg X ei = aggIds X (srcIds ei) (dstIds ei) := rfl

end Cert.Spec

namespace Cert.KernelIdeal.Whole

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ)

/-! ## What no stretch and no region touches -/

theorem U1_kept (c : Dev nD) (r : Ref sig .tc) (h0 : r ∉ hostOps0_W) : U1 m c r = m ((c : Thread nD τ).loc r) :=
  StableHlo.after_of_writes_sub hostOps0 _ hostOps0_writes h0
theorem U2_kept (c : Dev nD) (r : Ref sig .tc) (h0 : r ∉ hostOps0_W) (ha : r ≠ main_v25_0) (hb : r ≠ main_v25_1) :
    U2 m c r = m ((c : Thread nD τ).loc r) := (U2_of m c r ha hb).trans (U1_kept m c r h0)
theorem U3_kept (c : Dev nD) (r : Ref sig .tc) (h0 : r ∉ hostOps0_W) (h1 : r ∉ hostOps1_W) (ha : r ≠ main_v25_0) (hb : r ≠ main_v25_1) :
    U3 m c r = m ((c : Thread nD τ).loc r) :=
  (StableHlo.after_of_writes_sub hostOps1 _ hostOps1_writes h1).trans (U2_kept m c r h0 ha hb)
theorem U4_kept (c : Dev nD) (r : Ref sig .tc) (h0 : r ∉ hostOps0_W) (h1 : r ∉ hostOps1_W) (ha : r ≠ main_v25_0) (hb : r ≠ main_v25_1)
    (ha' : r ≠ main_v46_0) (hb' : r ≠ main_v46_1) : U4 m c r = m ((c : Thread nD τ).loc r) :=
  (U4_of m c r ha' hb').trans (U3_kept m c r h0 h1 ha hb)
theorem U5_kept (c : Dev nD) (r : Ref sig .tc) (h0 : r ∉ hostOps0_W) (h1 : r ∉ hostOps1_W) (h2 : r ∉ hostOps2_W) (ha : r ≠ main_v25_0) (hb : r ≠ main_v25_1)
    (ha' : r ≠ main_v46_0) (hb' : r ≠ main_v46_1) : U5 m c r = m ((c : Thread nD τ).loc r) :=
  (StableHlo.after_of_writes_sub hostOps2 _ hostOps2_writes h2).trans (U4_kept m c r h0 h1 ha hb ha' hb')
theorem U6_kept (c : Dev nD) (r : Ref sig .tc) (h0 : r ∉ hostOps0_W) (h1 : r ∉ hostOps1_W) (h2 : r ∉ hostOps2_W) (ha : r ≠ main_v25_0) (hb : r ≠ main_v25_1)
    (ha' : r ≠ main_v46_0) (hb' : r ≠ main_v46_1) (ha'' : r ≠ main_v67_0) (hb'' : r ≠ main_v67_1) : U6 m c r = m ((c : Thread nD τ).loc r) :=
  (U6_of m c r ha'' hb'').trans (U5_kept m c r h0 h1 h2 ha hb ha' hb')

/-! ## The edge ids and the graph-id column, written once by the first stretch -/

set_option maxHeartbeats 8000000 in
theorem U1_v1 (c : Dev nD) : (U1 m c main_v1 : S1600000.Idx → BitVec 32) = Cert.Spec.srcIds (m ((c : Thread nD τ).loc main_arg1)) := by
  show StableHlo.after hostOps0 (U0 m c) (Proc.devRef .tc main_v1) = _
  unfold hostOps0
  after_results
  rfl

set_option maxHeartbeats 8000000 in
theorem U1_v3 (c : Dev nD) : (U1 m c main_v3 : S1600000.Idx → BitVec 32) = Cert.Spec.dstIds (m ((c : Thread nD τ).loc main_arg1)) := by
  show StableHlo.after hostOps0 (U0 m c) (Proc.devRef .tc main_v3) = _
  unfold hostOps0
  after_results
  rfl

set_option maxHeartbeats 8000000 in
theorem U1_v4 (c : Dev nD) : (U1 m c main_v4 : S100000x1.Idx → BitVec 32) = Cert.Spec.colOf (m ((c : Thread nD τ).loc main_arg2)) := by
  refine Eq.trans ?_ (Cert.Spec.colOf_eq _ shapeCasts_S100000_S100000x1)
  show StableHlo.after hostOps0 (U0 m c) (Proc.devRef .tc main_v4) = _
  unfold hostOps0
  after_results
  rfl

/-! ## Region 0's operands, and what it leaves -/

set_option maxHeartbeats 8000000 in
theorem U1_v14 (c : Dev nD) : (U1 m c main_v14 : S100000x128.Idx → EReal) = Cert.Spec.agg (F := Ideal) (m ((c : Thread nD τ).loc main_arg0)) (m ((c : Thread nD τ).loc main_arg1)) := by
  show StableHlo.after hostOps0 (U0 m c) (Proc.devRef .tc main_v14) = _
  unfold hostOps0
  after_results_simp
  rfl

set_option maxHeartbeats 8000000 in
theorem U1_v16 (c : Dev nD) : (U1 m c main_v16 : S128x128.Idx → EReal) = Cert.Spec.w0 (F := Ideal) (m ((c : Thread nD τ).loc main_arg3)) := by
  show StableHlo.after hostOps0 (U0 m c) (Proc.devRef .tc main_v16) = _
  unfold hostOps0
  after_results
  rfl

set_option maxHeartbeats 8000000 in
theorem U1_v21 (c : Dev nD) : (U1 m c main_v21 : S128x128.Idx → EReal) = Cert.Spec.w0 (F := Ideal) (m ((c : Thread nD τ).loc main_arg5)) := by
  show StableHlo.after hostOps0 (U0 m c) (Proc.devRef .tc main_v21) = _
  unfold hostOps0
  after_results
  rfl

set_option maxHeartbeats 8000000 in
theorem U1_v19 (c : Dev nD) : (U1 m c main_v19 : S1x128.Idx → EReal) = Cert.Spec.rowOf (Cert.Spec.b0 (F := Ideal) (m ((c : Thread nD τ).loc main_arg4))) := by
  refine Eq.trans ?_ (Cert.Spec.rowOf_eq (F := Ideal) _ shapeCasts_S128_S1x128)
  show StableHlo.after hostOps0 (U0 m c) (Proc.devRef .tc main_v19) = _
  unfold hostOps0
  after_results
  rfl
set_option maxHeartbeats 8000000 in
theorem U1_v24 (c : Dev nD) : (U1 m c main_v24 : S1x128.Idx → EReal) = Cert.Spec.rowOf (Cert.Spec.b0 (F := Ideal) (m ((c : Thread nD τ).loc main_arg6))) := by
  refine Eq.trans ?_ (Cert.Spec.rowOf_eq (F := Ideal) _ shapeCasts_S128_S1x128)
  show StableHlo.after hostOps0 (U0 m c) (Proc.devRef .tc main_v24) = _
  unfold hostOps0
  after_results
  rfl

/-- After the first layer the node features are the reference's first stage, -/
theorem X2a_eq (c : Dev nD) : (X2a m c : S100000x128.Idx → EReal) = Cert.Spec.X1 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  unfold X2a
  rw [L0.xout_eq]
  show Cert.Spec.layerRow (F := Ideal) (U1 m c main_arg0) (U1 m c main_v14) (U1 m c main_v16) (U1 m c main_v19) (U1 m c main_v21) (U1 m c main_v24) = _
  rw [U1_kept m c main_arg0 (by decide), U1_v14, U1_v16, U1_v19, U1_v21, U1_v24]
  rfl
/-- and the first pooled block is their per-graph pooling. -/
theorem X2b_eq (c : Dev nD) : (X2b m c : S512x128.Idx → EReal)
    = Cert.Spec.pool (F := Ideal) (Cert.Spec.X1 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg2)) := by
  unfold X2b
  rw [L0.pooled_eq]
  show Cert.Spec.poolCol (F := Ideal) (X2a m c) (U1 m c main_v4) = _
  rw [X2a_eq, U1_v4]
  rfl

/-! ## Region 1's operands, and what it leaves -/

theorem U2_v1 (c : Dev nD) : (U2 m c main_v1 : S1600000.Idx → BitVec 32) = Cert.Spec.srcIds (m ((c : Thread nD τ).loc main_arg1)) :=
  (U2_of m c main_v1 (by decide) (by decide)).trans (U1_v1 m c)
theorem U2_v3 (c : Dev nD) : (U2 m c main_v3 : S1600000.Idx → BitVec 32) = Cert.Spec.dstIds (m ((c : Thread nD τ).loc main_arg1)) :=
  (U2_of m c main_v3 (by decide) (by decide)).trans (U1_v3 m c)
theorem U3_v25_0 (c : Dev nD) : U3 m c main_v25_0 = X2a m c :=
  (StableHlo.after_of_writes_sub hostOps1 _ hostOps1_writes (by decide)).trans (U2_a m c)
theorem U3_v4 (c : Dev nD) : (U3 m c main_v4 : S100000x1.Idx → BitVec 32) = Cert.Spec.colOf (m ((c : Thread nD τ).loc main_arg2)) :=
  (StableHlo.after_of_writes_sub hostOps1 _ hostOps1_writes (by decide)).trans ((U2_of m c main_v4 (by decide) (by decide)).trans (U1_v4 m c))
set_option maxHeartbeats 8000000 in
theorem U3_v35 (c : Dev nD) : (U3 m c main_v35 : S100000x128.Idx → EReal) = Cert.Spec.aggIds (F := Ideal) (U2 m c main_v25_0) (U2 m c main_v1) (U2 m c main_v3) := by
  show StableHlo.after hostOps1 (U2 m c) (Proc.devRef .tc main_v35) = _
  unfold hostOps1
  after_results_simp
  rfl

set_option maxHeartbeats 8000000 in
theorem U3_v37 (c : Dev nD) : (U3 m c main_v37 : S128x128.Idx → EReal) = Cert.Spec.w1 (F := Ideal) (U2 m c main_arg3) := by
  show StableHlo.after hostOps1 (U2 m c) (Proc.devRef .tc main_v37) = _
  unfold hostOps1
  after_results
  rfl

set_option maxHeartbeats 8000000 in
theorem U3_v42 (c : Dev nD) : (U3 m c main_v42 : S128x128.Idx → EReal) = Cert.Spec.w1 (F := Ideal) (U2 m c main_arg5) := by
  show StableHlo.after hostOps1 (U2 m c) (Proc.devRef .tc main_v42) = _
  unfold hostOps1
  after_results
  rfl

set_option maxHeartbeats 8000000 in
theorem U3_v40 (c : Dev nD) : (U3 m c main_v40 : S1x128.Idx → EReal) = Cert.Spec.rowOf (Cert.Spec.b1 (F := Ideal) (U2 m c main_arg4)) := by
  refine Eq.trans ?_ (Cert.Spec.rowOf_eq (F := Ideal) _ shapeCasts_S128_S1x128)
  show StableHlo.after hostOps1 (U2 m c) (Proc.devRef .tc main_v40) = _
  unfold hostOps1
  after_results
  rfl
set_option maxHeartbeats 8000000 in
theorem U3_v45 (c : Dev nD) : (U3 m c main_v45 : S1x128.Idx → EReal) = Cert.Spec.rowOf (Cert.Spec.b1 (F := Ideal) (U2 m c main_arg6)) := by
  refine Eq.trans ?_ (Cert.Spec.rowOf_eq (F := Ideal) _ shapeCasts_S128_S1x128)
  show StableHlo.after hostOps1 (U2 m c) (Proc.devRef .tc main_v45) = _
  unfold hostOps1
  after_results
  rfl

theorem X4a_eq (c : Dev nD) : (X4a m c : S100000x128.Idx → EReal) = Cert.Spec.X2 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  unfold X4a
  rw [L1.xout_eq]
  show Cert.Spec.layerRow (F := Ideal) (U3 m c main_v25_0) (U3 m c main_v35) (U3 m c main_v37) (U3 m c main_v40) (U3 m c main_v42) (U3 m c main_v45) = _
  rw [U3_v35, U3_v37, U3_v40, U3_v42, U3_v45, U3_v25_0, U2_a, U2_v1, U2_v3,
    U2_kept m c main_arg3 (by decide) (by decide) (by decide), U2_kept m c main_arg4 (by decide) (by decide) (by decide),
    U2_kept m c main_arg5 (by decide) (by decide) (by decide), U2_kept m c main_arg6 (by decide) (by decide) (by decide), X2a_eq, ← Cert.Spec.agg_eq]
  rfl
theorem X4b_eq (c : Dev nD) : (X4b m c : S512x128.Idx → EReal)
    = Cert.Spec.pool (F := Ideal) (Cert.Spec.X2 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg2)) := by
  unfold X4b
  rw [L1.pooled_eq]
  show Cert.Spec.poolCol (F := Ideal) (X4a m c) (U3 m c main_v4) = _
  rw [X4a_eq, U3_v4]
  rfl

/-! ## Region 2's operands, and what it leaves -/

theorem U4_v1 (c : Dev nD) : (U4 m c main_v1 : S1600000.Idx → BitVec 32) = Cert.Spec.srcIds (m ((c : Thread nD τ).loc main_arg1)) :=
  (U4_of m c main_v1 (by decide) (by decide)).trans ((StableHlo.after_of_writes_sub hostOps1 _ hostOps1_writes (by decide)).trans (U2_v1 m c))
theorem U4_v3 (c : Dev nD) : (U4 m c main_v3 : S1600000.Idx → BitVec 32) = Cert.Spec.dstIds (m ((c : Thread nD τ).loc main_arg1)) :=
  (U4_of m c main_v3 (by decide) (by decide)).trans ((StableHlo.after_of_writes_sub hostOps1 _ hostOps1_writes (by decide)).trans (U2_v3 m c))
theorem U5_v46_0 (c : Dev nD) : U5 m c main_v46_0 = X4a m c :=
  (StableHlo.after_of_writes_sub hostOps2 _ hostOps2_writes (by decide)).trans (U4_a m c)
theorem U5_v4 (c : Dev nD) : (U5 m c main_v4 : S100000x1.Idx → BitVec 32) = Cert.Spec.colOf (m ((c : Thread nD τ).loc main_arg2)) :=
  (StableHlo.after_of_writes_sub hostOps2 _ hostOps2_writes (by decide)).trans ((U4_of m c main_v4 (by decide) (by decide)).trans (U3_v4 m c))
set_option maxHeartbeats 8000000 in
theorem U5_v56 (c : Dev nD) : (U5 m c main_v56 : S100000x128.Idx → EReal) = Cert.Spec.aggIds (F := Ideal) (U4 m c main_v46_0) (U4 m c main_v1) (U4 m c main_v3) := by
  show StableHlo.after hostOps2 (U4 m c) (Proc.devRef .tc main_v56) = _
  unfold hostOps2
  after_results_simp
  rfl

set_option maxHeartbeats 8000000 in
theorem U5_v58 (c : Dev nD) : (U5 m c main_v58 : S128x128.Idx → EReal) = Cert.Spec.w2 (F := Ideal) (U4 m c main_arg3) := by
  show StableHlo.after hostOps2 (U4 m c) (Proc.devRef .tc main_v58) = _
  unfold hostOps2
  after_results
  rfl

set_option maxHeartbeats 8000000 in
theorem U5_v63 (c : Dev nD) : (U5 m c main_v63 : S128x128.Idx → EReal) = Cert.Spec.w2 (F := Ideal) (U4 m c main_arg5) := by
  show StableHlo.after hostOps2 (U4 m c) (Proc.devRef .tc main_v63) = _
  unfold hostOps2
  after_results
  rfl

set_option maxHeartbeats 8000000 in
theorem U5_v61 (c : Dev nD) : (U5 m c main_v61 : S1x128.Idx → EReal) = Cert.Spec.rowOf (Cert.Spec.b2 (F := Ideal) (U4 m c main_arg4)) := by
  refine Eq.trans ?_ (Cert.Spec.rowOf_eq (F := Ideal) _ shapeCasts_S128_S1x128)
  show StableHlo.after hostOps2 (U4 m c) (Proc.devRef .tc main_v61) = _
  unfold hostOps2
  after_results
  rfl
set_option maxHeartbeats 8000000 in
theorem U5_v66 (c : Dev nD) : (U5 m c main_v66 : S1x128.Idx → EReal) = Cert.Spec.rowOf (Cert.Spec.b2 (F := Ideal) (U4 m c main_arg6)) := by
  refine Eq.trans ?_ (Cert.Spec.rowOf_eq (F := Ideal) _ shapeCasts_S128_S1x128)
  show StableHlo.after hostOps2 (U4 m c) (Proc.devRef .tc main_v66) = _
  unfold hostOps2
  after_results
  rfl

theorem X6a_eq (c : Dev nD) : (X6a m c : S100000x128.Idx → EReal) = Cert.Spec.X3 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  unfold X6a
  rw [L2.xout_eq]
  show Cert.Spec.layerRow (F := Ideal) (U5 m c main_v46_0) (U5 m c main_v56) (U5 m c main_v58) (U5 m c main_v61) (U5 m c main_v63) (U5 m c main_v66) = _
  rw [U5_v56, U5_v58, U5_v61, U5_v63, U5_v66, U5_v46_0, U4_a, U4_v1, U4_v3,
    U4_kept m c main_arg3 (by decide) (by decide) (by decide) (by decide) (by decide) (by decide),
    U4_kept m c main_arg4 (by decide) (by decide) (by decide) (by decide) (by decide) (by decide),
    U4_kept m c main_arg5 (by decide) (by decide) (by decide) (by decide) (by decide) (by decide),
    U4_kept m c main_arg6 (by decide) (by decide) (by decide) (by decide) (by decide) (by decide), X4a_eq, ← Cert.Spec.agg_eq]
  rfl
theorem X6b_eq (c : Dev nD) : (X6b m c : S512x128.Idx → EReal)
    = Cert.Spec.pool (F := Ideal) (Cert.Spec.X3 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg2)) := by
  unfold X6b
  rw [L2.pooled_eq]
  show Cert.Spec.poolCol (F := Ideal) (X6a m c) (U5 m c main_v4) = _
  rw [X6a_eq, U5_v4]
  rfl

/-! ## The classifier region's operands, and the result -/

theorem U6_v25_1 (c : Dev nD) : U6 m c main_v25_1 = X2b m c :=
  (U6_of m c main_v25_1 (by decide) (by decide)).trans ((StableHlo.after_of_writes_sub hostOps2 _ hostOps2_writes (by decide)).trans
    ((U4_of m c main_v25_1 (by decide) (by decide)).trans ((StableHlo.after_of_writes_sub hostOps1 _ hostOps1_writes (by decide)).trans (U2_b m c))))
theorem U6_v46_1 (c : Dev nD) : U6 m c main_v46_1 = X4b m c :=
  (U6_of m c main_v46_1 (by decide) (by decide)).trans ((StableHlo.after_of_writes_sub hostOps2 _ hostOps2_writes (by decide)).trans (U4_b m c))
set_option maxHeartbeats 8000000 in
theorem U7_v68 (c : Dev nD) : (U7 m c main_v68 : S512x384.Idx → EReal) = Cert.Spec.join (F := Ideal) (U6 m c main_v25_1) (U6 m c main_v46_1) (U6 m c main_v67_1) := by
  show StableHlo.after hostOps3 (U6 m c) (Proc.devRef .tc main_v68) = _
  unfold hostOps3
  after_results
  rfl

set_option maxHeartbeats 8000000 in
theorem U7_v69 (c : Dev nD) : (U7 m c main_v69 : S1x128.Idx → EReal) = Cert.Spec.rowOf (F := Ideal) (U6 m c main_arg8) := by
  refine Eq.trans ?_ (Cert.Spec.rowOf_eq (F := Ideal) _ shapeCasts_S128_S1x128)
  show StableHlo.after hostOps3 (U6 m c) (Proc.devRef .tc main_v69) = _
  unfold hostOps3
  after_results
  rfl
set_option maxHeartbeats 8000000 in
theorem U7_v70 (c : Dev nD) : (U7 m c main_v70 : S1x128.Idx → EReal) = Cert.Spec.rowOf (F := Ideal) (U6 m c main_arg10) := by
  refine Eq.trans ?_ (Cert.Spec.rowOf_eq (F := Ideal) _ shapeCasts_S128_S1x128)
  show StableHlo.after hostOps3 (U6 m c) (Proc.devRef .tc main_v70) = _
  unfold hostOps3
  after_results
  rfl
set_option maxHeartbeats 8000000 in
theorem U7_v71 (c : Dev nD) : (U7 m c main_v71 : S1x1.Idx → EReal)
    = broadcastInDim Cert.ReferenceIdeal.S1x1 ![1] Cert.ReferenceIdeal.Facts₀.bcast_S1_S1x1_1 (U6 m c main_arg12 : S1.Idx → EReal) := by
  refine Eq.trans ?_ (Cert.Spec.oneOf_eq (F := Ideal) _ shapeCasts_S1_S1x1)
  show StableHlo.after hostOps3 (U6 m c) (Proc.devRef .tc main_v71) = _
  unfold hostOps3
  after_results
  rfl
theorem U7_kept (c : Dev nD) (r : Ref sig .tc) (h0 : r ∉ hostOps0_W) (h1 : r ∉ hostOps1_W) (h2 : r ∉ hostOps2_W) (h3 : r ∉ hostOps3_W) (ha : r ≠ main_v25_0) (hb : r ≠ main_v25_1)
    (ha' : r ≠ main_v46_0) (hb' : r ≠ main_v46_1) (ha'' : r ≠ main_v67_0) (hb'' : r ≠ main_v67_1) : U7 m c r = m ((c : Thread nD τ).loc r) :=
  (StableHlo.after_of_writes_sub hostOps3 _ hostOps3_writes h3).trans (U6_kept m c r h0 h1 h2 ha hb ha' hb' ha'' hb'')

/-- The kernel program's result is the whole composition of its arguments. -/
theorem kernel_result (c : Dev nD) :
    X8 (F := Ideal) m c = Cert.Spec.G (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  unfold X8
  rw [C3.out_eq]
  show Cert.Spec.clsRow (F := Ideal) (U7 m c main_v68) (U7 m c main_arg7) (U7 m c main_v69) (U7 m c main_arg9) (U7 m c main_v70) (U7 m c main_arg11) (U7 m c main_v71) = _
  rw [U7_v68, U7_v69, U7_v70, U7_v71, U6_v25_1, U6_v46_1, U6_b, X2b_eq, X4b_eq, X6b_eq,
    U7_kept m c main_arg7 (by decide) (by decide) (by decide) (by decide) (by decide) (by decide) (by decide) (by decide) (by decide) (by decide),
    U7_kept m c main_arg9 (by decide) (by decide) (by decide) (by decide) (by decide) (by decide) (by decide) (by decide) (by decide) (by decide),
    U7_kept m c main_arg11 (by decide) (by decide) (by decide) (by decide) (by decide) (by decide) (by decide) (by decide) (by decide) (by decide),
    U6_kept m c main_arg8 (by decide) (by decide) (by decide) (by decide) (by decide) (by decide) (by decide) (by decide) (by decide),
    U6_kept m c main_arg10 (by decide) (by decide) (by decide) (by decide) (by decide) (by decide) (by decide) (by decide) (by decide),
    U6_kept m c main_arg12 (by decide) (by decide) (by decide) (by decide) (by decide) (by decide) (by decide) (by decide) (by decide)]
  rfl

end Cert.KernelIdeal.Whole

end
-- ==== Proof.lean ====
/-
  Equivalence over the extended reals of a three-layer graph network's kernel program and its plain reference.
  Per layer both programs form the neighbour sum by the same host gather and scatter-add; the kernel then updates the
  nodes tile by tile (fifty tiles of two thousand rows): relu(relu((x + agg) W1 + b1) W2 + b2) on each tile — a row of a
  matrix product depends only on that row of the left factor, so the tiles are the row blocks of the reference's
  whole-array update — and pools the new rows per graph by multiplying with the tile's zero/one membership matrix,
  accumulating over the tiles into one resident block zeroed at the first tile. At the extended reals zero times anything is
  zero and one times x is x, so that accumulated product is the sum, over the nodes whose graph id (read signed) lies in
  0..511, of their rows: what the reference's scatter-add computes, which drops an id outside the pooled array. The
  three pooled blocks are joined and pass through the same three-layer classifier in both programs. No law used needs
  finiteness: sums are only regrouped and reordered.
  Each program's frame — it terminates, faults nowhere, leaves its arguments as launched — comes with its run: the
  kernel programs' from the launch of their four regions among the host stretches, the reference's from its host run.
-/
import proofs.«419285_j30786325577782_1_alg».proof.Defs
import proofs.«419285_j30786325577782_1_alg».proof.Proof.Gen.Kernel
import proofs.«419285_j30786325577782_1_alg».proof.Proof.Gen.KernelIdeal
import proofs.«419285_j30786325577782_1_alg».proof.Proof.Gen.ReferenceIdeal
import proofs.«419285_j30786325577782_1_alg».proof.Proof.Gen.Pre_finite_inputs
import proofs.«419285_j30786325577782_1_alg».proof.Proof.Gen.ReferenceIdeal.Run
import proofs.«419285_j30786325577782_1_alg».proof.Proof.KB.Run
import proofs.«419285_j30786325577782_1_alg».proof.Proof.KI.Run
import proofs.«419285_j30786325577782_1_alg».proof.Proof.KI.HostVal
import proofs.«419285_j30786325577782_1_alg».proof.Proof.Spec
import Idealize.ShloMosaic.Adequacy
import Idealize.ShloMosaic.Init

set_option maxRecDepth 16384

noncomputable section

namespace Cert.Proof

open Idealize.ShloMosaic Idealize.SL.Sem

/-- The word-level kernel program runs to the end, faults nowhere and leaves its arguments as launched. -/
theorem frame_k : Cert.frame_Kernel := fun m ρ _ =>
  (θ_run Cert.Kernel.defs _ _).mono (fun _ h c => (h c).2) (Cert.Kernel.Whole.run_main (F := Bits) m ρ)

/-- So does the idealized kernel program, -/
theorem frame_ki : Cert.frame_KernelIdeal := fun m ρ _ =>
  (θ_run Cert.KernelIdeal.defs _ _).mono (fun _ h c => (h c).2) (Cert.KernelIdeal.Whole.run_main (F := Ideal) m ρ)

/-- and the idealized reference. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the same logits column: each is the same
    composition of stages of the arguments. -/
theorem algebraic : Cert.algebraic_KernelIdeal_ReferenceIdeal := by
  intro m ρ m' ρ' _ hagree
  refine ⟨fun c => Cert.KernelIdeal.Whole.X8 (F := Ideal) m c, Cert.KernelIdeal.Whole.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  show Cert.ReferenceIdeal.Value.res_main_v114 m' c = Cert.KernelIdeal.Whole.X8 (F := Ideal) m c
  rw [Cert.Spec.ref_eq, Cert.KernelIdeal.Whole.kernel_result, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
